-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Pre_finite_inputs_ReferenceIdeal.lean ====
abbrev S1024x4096 : Shape := ⟨2, ![1024, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1024x4096 .f32) (main_arg1 : FVec F S4096 .f32) (main_arg2 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S1024x512 : Shape := ⟨2, ![1024, 512]⟩
abbrev S512 : Shape := ⟨1, ![512]⟩
abbrev S16x128 : Shape := ⟨2, ![16, 128]⟩
abbrev S7x16x128 : Shape := ⟨3, ![7, 16, 128]⟩
abbrev S7 : Shape := ⟨1, ![7]⟩
abbrev S_ : Shape := ⟨0, ![]⟩
abbrev S1024 : Shape := ⟨1, ![1024]⟩
abbrev S1024x1 : Shape := ⟨2, ![1024, 1]⟩
abbrev S1024x2 : Shape := ⟨2, ![1024, 2]⟩
abbrev S2x1024 : Shape := ⟨2, ![2, 1024]⟩
abbrev S1 : Shape := ⟨1, ![1]⟩
abbrev S1x16x128 : Shape := ⟨3, ![1, 16, 128]⟩
abbrev S1x1024 : Shape := ⟨2, ![1, 1024]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S512, .f32⟩
  | .hbm, ⟨2, _⟩ => ⟨S512, .f32⟩
  | .hbm, ⟨3, _⟩ => ⟨S1024x512, .bf16⟩
  | .local _ .vmem, ⟨0, _⟩ => ⟨S1024x512, .f32⟩
  | .local _ .vmem, ⟨1, _⟩ => ⟨S512, .f32⟩
  | .local _ .vmem, ⟨2, _⟩ => ⟨S512, .f32⟩
  | .local _ .vmem, ⟨3, _⟩ => ⟨S1024x512, .bf16⟩
  | .local _ .vmem, ⟨4, _⟩ => ⟨S16x128, .f32⟩
  | .local _ .vmem, ⟨5, _⟩ => ⟨S7x16x128, .f32⟩
  | .local _ .vmem, ⟨6, _⟩ => ⟨S1024x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_68 : BitVec 32 := 1#32
  let v108 : BitVec 32 := Scalar.addi v2 c1_i32_68
  let c8_i32_69 : BitVec 32 := 8#32
  let c0_i32_70 : BitVec 32 := 0#32
  let v109 : BitVec 1 := Scalar.cmpi .eq c8_i32_69 c0_i32_70
  let c1_i32_71 : BitVec 32 := 1#32
  let v110 : BitVec 32 := Scalar.select v109 c1_i32_71 c8_i32_69
  let v111 : BitVec 32 := Scalar.remsi v108 v110
  let c0_i32_73 : BitVec 32 := 0#32
  let v113 : BitVec 1 := Scalar.cmpi .slt v111 c0_i32_73
  let c0_i32_74 : BitVec 32 := 0#32
  let v114 : BitVec 1 := Scalar.cmpi .slt v110 c0_i32_74
  let v115 : BitVec 1 := Scalar.xori v113 v114
  let c0_i32_72 : BitVec 32 := 0#32
  let v112 : BitVec 1 := Scalar.cmpi .ne v111 c0_i32_72
  let v116 : BitVec 1 := Scalar.andi v115 v112
  let v117 : BitVec 32 := Scalar.addi v111 v110
  let v118 : BitVec 32 := Scalar.select v116 v117 v111
  let c1_i32_78 : BitVec 32 := 1#32
  let v119 : BitVec 32 := Scalar.muli v118 c1_i32_78
  let v120 : BitVec 32 := Scalar.addi c0_i32_79 v119
  v120.toNat
def k0_dev9 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_82 : BitVec 32 := 2#32
  let v127 : BitVec 32 := Scalar.addi v2 c2_i32_82
  let c8_i32_83 : BitVec 32 := 8#32
  let c0_i32_84 : BitVec 32 := 0#32
  let v128 : BitVec 1 := Scalar.cmpi .eq c8_i32_83 c0_i32_84
  let c1_i32_85 : BitVec 32 := 1#32
  let v129 : BitVec 32 := Scalar.select v128 c1_i32_85 c8_i32_83
  let v130 : BitVec 32 := Scalar.remsi v127 v129
  let c0_i32_87 : BitVec 32 := 0#32
  let v132 : BitVec 1 := Scalar.cmpi .slt v130 c0_i32_87
  let c0_i32_88 : BitVec 32 := 0#32
  let v133 : BitVec 1 := Scalar.cmpi .slt v129 c0_i32_88
  let v134 : BitVec 1 := Scalar.xori v132 v133
  let c0_i32_86 : BitVec 32 := 0#32
  let v131 : BitVec 1 := Scalar.cmpi .ne v130 c0_i32_86
  let v135 : BitVec 1 := Scalar.andi v134 v131
  let v136 : BitVec 32 := Scalar.addi v130 v129
  let v137 : BitVec 32 := Scalar.select v135 v136 v130
  let c1_i32_92 : BitVec 32 := 1#32
  let v138 : BitVec 32 := Scalar.muli v137 c1_i32_92
  let v139 : BitVec 32 := Scalar.addi c0_i32_93 v138
  v139.toNat
def k0_dev10 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_96 : BitVec 32 := 3#32
  let v146 : BitVec 32 := Scalar.addi v2 c3_i32_96
  let c8_i32_97 : BitVec 32 := 8#32
  let c0_i32_98 : BitVec 32 := 0#32
  let v147 : BitVec 1 := Scalar.cmpi .eq c8_i32_97 c0_i32_98
  let c1_i32_99 : BitVec 32 := 1#32
  let v148 : BitVec 32 := Scalar.select v147 c1_i32_99 c8_i32_97
  let v149 : BitVec 32 := Scalar.remsi v146 v148
  let c0_i32_101 : BitVec 32 := 0#32
  let v151 : BitVec 1 := Scalar.cmpi .slt v149 c0_i32_101
  let c0_i32_102 : BitVec 32 := 0#32
  let v152 : BitVec 1 := Scalar.cmpi .slt v148 c0_i32_102
  let v153 : BitVec 1 := Scalar.xori v151 v152
  let c0_i32_100 : BitVec 32 := 0#32
  let v150 : BitVec 1 := Scalar.cmpi .ne v149 c0_i32_100
  let v154 : BitVec 1 := Scalar.andi v153 v150
  let v155 : BitVec 32 := Scalar.addi v149 v148
  let v156 : BitVec 32 := Scalar.select v154 v155 v149
  let c1_i32_106 : BitVec 32 := 1#32
  let v157 : BitVec 32 := Scalar.muli v156 c1_i32_106
  let v158 : BitVec 32 := Scalar.addi c0_i32_107 v157
  v158.toNat
def k0_dev11 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v165 : BitVec 32 := Scalar.addi v2 c4_i32_110
  let c8_i32_111 : BitVec 32 := 8#32
  let c0_i32_112 : BitVec 32 := 0#32
  let v166 : BitVec 1 := Scalar.cmpi .eq c8_i32_111 c0_i32_112
  let c1_i32_113 : BitVec 32 := 1#32
  let v167 : BitVec 32 := Scalar.select v166 c1_i32_113 c8_i32_111
  let v168 : BitVec 32 := Scalar.remsi v165 v167
  let c0_i32_115 : BitVec 32 := 0#32
  let v170 : BitVec 1 := Scalar.cmpi .slt v168 c0_i32_115
  let c0_i32_116 : BitVec 32 := 0#32
  let v171 : BitVec 1 := Scalar.cmpi .slt v167 c0_i32_116
  let v172 : BitVec 1 := Scalar.xori v170 v171
  let c0_i32_114 : BitVec 32 := 0#32
  let v169 : BitVec 1 := Scalar.cmpi .ne v168 c0_i32_114
  let v173 : BitVec 1 := Scalar.andi v172 v169
  let v174 : BitVec 32 := Scalar.addi v168 v167
  let v175 : BitVec 32 := Scalar.select v173 v174 v168
  let c1_i32_120 : BitVec 32 := 1#32
  let v176 : BitVec 32 := Scalar.muli v175 c1_i32_120
  let v177 : BitVec 32 := Scalar.addi c0_i32_121 v176
  v177.toNat
def k0_dev12 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_124 : BitVec 32 := 5#32
  let v184 : BitVec 32 := Scalar.addi v2 c5_i32_124
  let c8_i32_125 : BitVec 32 := 8#32
  let c0_i32_126 : BitVec 32 := 0#32
  let v185 : BitVec 1 := Scalar.cmpi .eq c8_i32_125 c0_i32_126
  let c1_i32_127 : BitVec 32 := 1#32
  let v186 : BitVec 32 := Scalar.select v185 c1_i32_127 c8_i32_125
  let v187 : BitVec 32 := Scalar.remsi v184 v186
  let c0_i32_129 : BitVec 32 := 0#32
  let v189 : BitVec 1 := Scalar.cmpi .slt v187 c0_i32_129
  let c0_i32_130 : BitVec 32 := 0#32
  let v190 : BitVec 1 := Scalar.cmpi .slt v186 c0_i32_130
  let v191 : BitVec 1 := Scalar.xori v189 v190
  let c0_i32_128 : BitVec 32 := 0#32
  let v188 : BitVec 1 := Scalar.cmpi .ne v187 c0_i32_128
  let v192 : BitVec 1 := Scalar.andi v191 v188
  let v193 : BitVec 32 := Scalar.addi v187 v186
  let v194 : BitVec 32 := Scalar.select v192 v193 v187
  let c1_i32_134 : BitVec 32 := 1#32
  let v195 : BitVec 32 := Scalar.muli v194 c1_i32_134
  let v196 : BitVec 32 := Scalar.addi c0_i32_135 v195
  v196.toNat
def k0_dev13 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_138 : BitVec 32 := 6#32
  let v203 : BitVec 32 := Scalar.addi v2 c6_i32_138
  let c8_i32_139 : BitVec 32 := 8#32
  let c0_i32_140 : BitVec 32 := 0#32
  let v204 : BitVec 1 := Scalar.cmpi .eq c8_i32_139 c0_i32_140
  let c1_i32_141 : BitVec 32 := 1#32
  let v205 : BitVec 32 := Scalar.select v204 c1_i32_141 c8_i32_139
  let v206 : BitVec 32 := Scalar.remsi v203 v205
  let c0_i32_143 : BitVec 32 := 0#32
  let v208 : BitVec 1 := Scalar.cmpi .slt v206 c0_i32_143
  let c0_i32_144 : BitVec 32 := 0#32
  let v209 : BitVec 1 := Scalar.cmpi .slt v205 c0_i32_144
  let v210 : BitVec 1 := Scalar.xori v208 v209
  let c0_i32_142 : BitVec 32 := 0#32
  let v207 : BitVec 1 := Scalar.cmpi .ne v206 c0_i32_142
  let v211 : BitVec 1 := Scalar.andi v210 v207
  let v212 : BitVec 32 := Scalar.addi v206 v205
  let v213 : BitVec 32 := Scalar.select v211 v212 v206
  let c1_i32_148 : BitVec 32 := 1#32
  let v214 : BitVec 32 := Scalar.muli v213 c1_i32_148
  let v215 : BitVec 32 := Scalar.addi c0_i32_149 v214
  v215.toNat
def k0_dev14 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_152 : BitVec 32 := 7#32
  let v222 : BitVec 32 := Scalar.addi v2 c7_i32_152
  let c8_i32_153 : BitVec 32 := 8#32
  let c0_i32_154 : BitVec 32 := 0#32
  let v223 : BitVec 1 := Scalar.cmpi .eq c8_i32_153 c0_i32_154
  let c1_i32_155 : BitVec 32 := 1#32
  let v224 : BitVec 32 := Scalar.select v223 c1_i32_155 c8_i32_153
  let v225 : BitVec 32 := Scalar.remsi v222 v224
  let c0_i32_157 : BitVec 32 := 0#32
  let v227 : BitVec 1 := Scalar.cmpi .slt v225 c0_i32_157
  let c0_i32_158 : BitVec 32 := 0#32
  let v228 : BitVec 1 := Scalar.cmpi .slt v224 c0_i32_158
  let v229 : BitVec 1 := Scalar.xori v227 v228
  let c0_i32_156 : BitVec 32 := 0#32
  let v226 : BitVec 1 := Scalar.cmpi .ne v225 c0_i32_156
  let v230 : BitVec 1 := Scalar.andi v229 v226
  let v231 : BitVec 32 := Scalar.addi v225 v224
  let v232 : BitVec 32 := Scalar.select v230 v231 v225
  let c1_i32_162 : BitVec 32 := 1#32
  let v233 : BitVec 32 := Scalar.muli v232 c1_i32_162
  let v234 : BitVec 32 := Scalar.addi c0_i32_163 v233
  v234.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  concatenates_S1024x1_S1024x1_S1024x2_d1 : Shape.Concatenates [S1024x1, S1024x1] S1024x2 1
  transposes_S1024x2_p1_0_S2x1024 : S1024x2.Transposes [1, 0] S2x1024
  shapeCasts_S2x1024_S16x128 : S2x1024.ShapeCasts S16x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  hamt_7 : (7#32 : BitVec 32).msb = false
  inb_S7_S1_0 : ∀ a, (![0] : Fin 1 → Nat) a + S1.size a ≤ S7.size a
  squeezes_S1_S_ : S1.Squeezes S_
  inb_S7_S1_6 : ∀ a, (![6] : Fin 1 → Nat) a + S1.size a ≤ S7.size a
  inb_S7x16x128_S1x16x128_6_0_0 : ∀ a, (![6, 0, 0] : Fin 3 → Nat) a + S1x16x128.size a ≤ S7x16x128.size a
  squeezes_S1x16x128_S16x128 : S1x16x128.Squeezes S16x128
  inb_S7_S1_1 : ∀ a, (![1] : Fin 1 → Nat) a + S1.size a ≤ S7.size a
  inb_S7_S1_5 : ∀ a, (![5] : Fin 1 → Nat) a + S1.size a ≤ S7.size a
  inb_S7x16x128_S1x16x128_5_0_0 : ∀ a, (![5, 0, 0] : Fin 3 → Nat) a + S1x16x128.size a ≤ S7x16x128.size a
  inb_S7_S1_2 : ∀ a, (![2] : Fin 1 → Nat) a + S1.size a ≤ S7.size a
  inb_S7_S1_4 : ∀ a, (![4] : Fin 1 → Nat) a + S1.size a ≤ S7.size a
  inb_S7x16x128_S1x16x128_4_0_0 : ∀ a, (![4, 0, 0] : Fin 3 → Nat) a + S1x16x128.size a ≤ S7x16x128.size a
  inb_S7_S1_3 : ∀ a, (![3] : Fin 1 → Nat) a + S1.size a ≤ S7.size a
  inb_S7x16x128_S1x16x128_3_0_0 : ∀ a, (![3, 0, 0] : Fin 3 → Nat) a + S1x16x128.size a ≤ S7x16x128.size a
  inb_S7x16x128_S1x16x128_2_0_0 : ∀ a, (![2, 0, 0] : Fin 3 → Nat) a + S1x16x128.size a ≤ S7x16x128.size a
  inb_S7x16x128_S1x16x128_1_0_0 : ∀ a, (![1, 0, 0] : Fin 3 → Nat) a + S1x16x128.size a ≤ S7x16x128.size a
  inb_S7x16x128_S1x16x128_0_0_0 : ∀ a, (![0, 0, 0] : Fin 3 → Nat) a + S1x16x128.size a ≤ S7x16x128.size a
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  inb_S7x16x128_S7x16x128_0_0_0 : ∀ a, (![0, 0, 0] : Fin 3 → Nat) a + S7x16x128.size a ≤ S7x16x128.size a
  h_S7x16x128 : 0 < S7x16x128.numel
  reduces_S7x16x128_S16x128 : S7x16x128.Reduces [0] S16x128
  shapeCasts_S16x128_S2x1024 : S16x128.ShapeCasts S2x1024
  slices_S2x1024_o0_0_S1x1024 : S2x1024.Slices ![0, 0] S1x1024
  slices_S2x1024_o1_0_S1x1024 : S2x1024.Slices ![1, 0] S1x1024
  concatenates_S1x1024_S1x1024_S2x1024_d0 : Shape.Concatenates [S1x1024, S1x1024] S2x1024 0
  transposes_S2x1024_p1_0_S1024x2 : S2x1024.Transposes [1, 0] S1024x2
  slices_S1024x2_o0_0_S1024x1 : S1024x2.Slices ![0, 0] S1024x1
  slices_S1024x2_o0_1_S1024x1 : S1024x2.Slices ![0, 1] S1024x1
  inb_S512_S512_0 : ∀ a, (![0] : Fin 1 → Nat) a + S512.size a ≤ S512.size a
  h_S512 : 0 < S512.numel
  shapeCasts_S512_S512 : S512.ShapeCasts S512
  broadcasts_S1024x1_S1024x512 : S1024x1.Broadcasts S1024x512
  shapeCasts_S512_S1x512 : S512.ShapeCasts S1x512
  broadcasts_S1x512_S1024x512 : S1x512.Broadcasts S1024x512
  hcc0_scratch3 : 4 + S7.numel ≤ 18
  hcc0_scratch4 : 11 + S7.numel ≤ 18
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch3 : DmaSems sig S7 := SemArray.consecutive 4 S7 hcc0_scratch3
abbrev cc0_scratch4 : DmaSems sig S7 := SemArray.consecutive 11 S7 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S4096 : Shape := ⟨1, ![4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩

abbrev nBuf : Space → Nat
  | .hbm => 48
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .i32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S1024x4096, .f32⟩
  | .hbm, ⟨34, _⟩ => ⟨S1024x4096, .f32⟩
  | .hbm, ⟨35, _⟩ => ⟨S1x4096, .f32⟩
  | .hbm, ⟨36, _⟩ => ⟨S1024x4096, .f32⟩
  | .hbm, ⟨37, _⟩ => ⟨S1024x4096, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S1024x1, .f32⟩
  | .hbm, ⟨42, _⟩ => ⟨S1024x4096, .f32⟩
  | .hbm, ⟨43, _⟩ => ⟨S1024x4096, .f32⟩
  | .hbm, ⟨44, _⟩ => ⟨S1x4096, .f32⟩
  | .hbm, ⟨45, _⟩ => ⟨S1024x4096, .f32⟩
  | .hbm, ⟨46, _⟩ => ⟨S1024x4096, .f32⟩
  | .hbm, ⟨47, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩

abbrev nD : Nat := 1
abbrev τ : Topo := Topo.v7x

variable {F : FTy → Type} [FloatOps F]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x4096_0_1 : S1024x1.BroadcastsInDim S1024x4096 (![0, 1] : Fin 2 → Fin S1024x4096.rank)
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bitsLt_bf16_f32 : FTy.bits .bf16 < FTy.bits .f32

variable [Facts₀]

class Facts : Prop extends Facts₀ where

variable [Facts]
-- ==== Proof.KVal.lean ====
/-
  What one device's result block holds, as a pure term of the blocks of `x` on all eight devices and of its own
  blocks of the gain and the offset: the device's table of row sums and row sums of squares, the seven tables it
  receives (slot `s` from the device `s + 1` places after it on the ring), and the normalisation computed from their total.
-/
import proofs.«900825_g7700000000000826_dist_layernorm_colshard_i_m1024_n512_v7x_i8_bf16_1_alg».proof.Proof.Gen.KernelIdeal.Skeleton
import Idealize.ShloMosaic.Lib.ValueIdx

noncomputable section

namespace Cert.KernelIdeal.KVal

open Cert.KernelIdeal Cert.KernelIdeal.Gen
open Idealize.ShloMosaic Idealize.ShloMosaic.ValueIdx

variable {F : FTy → Type} [FloatOps F]

/-- A device's table of row statistics of its block `x`: rows 0–7 hold the 1024 row sums, rows 8–15 the 1024 row
    sums of squares, 128 to a row. -/
def stats (x : Vec F S1024x512 .f32) : Vec F S16x128 .f32 := k0_pay2 (k0_pay1 x)

/-- The seven received tables stacked: slot `s` is the table of the block `xs s`. -/
def gathered (xs : Fin 7 → Vec F S1024x512 .f32) : Vec F S7x16x128 .f32 :=
  fun i => stats (xs (i 0)) (ix2 (i 1) (i 2))

/-- The device's result block: from its own table, the gathered ones, its gain and offset blocks and its block of `x`. -/
def result (x : Vec F S1024x512 .f32) (xs : Fin 7 → Vec F S1024x512 .f32) (g b : Vec F S512 .f32) : Vec F S1024x512 .bf16 :=
  k0_pay4 (stats x) (gathered xs) g b (k0_pay3 x)

/-- The eight tables added entry by entry — the device's own and the seven received — and read as two rows of 1024:
    row 0 holds each row's sum over all 4096 columns, row 1 each row's sum of squares. -/
def totals (t : Vec F S16x128 .f32) (ts : Vec F S7x16x128 .f32) : Vec F S2x1024 .f32 :=
  shapeCast S2x1024 (addf t (multiReduction .add [0] S16x128 ts 0x00000000#32 reduces_S7x16x128_S16x128 (.inl rfl) rfl)) shapeCasts_S16x128_S2x1024

/-- From the two rows of totals `T`: the mean is the first divided by 4096, the variance the second divided by 4096 less the
    squared mean, and each entry of the block `v317` is centred, scaled by the inverse root of the variance plus the
    regulariser, multiplied by the gain `v311` of its column and shifted by the offset `v314`. -/
def normalise (T : Vec F S2x1024 .f32) (v311 v314 : Vec F S512 .f32) (v317 : Vec F S1024x512 .bf16) : Vec F S1024x512 .bf16 :=
  have v294 : FVec F S1x1024 .f32 := extractStridedSlice S1x1024 ![0, 0] T slices_S2x1024_o0_0_S1x1024
  have cst_225 : F .f32 := Scalar.ofBits .f32 0x45800000#32
  have v295 : FVec F S1x1024 .f32 := broadcast S1x1024 cst_225
  have v296 : FVec F S1x1024 .f32 := divf v294 v295
  have v297 : FVec F S1x1024 .f32 := extractStridedSlice S1x1024 ![1, 0] T slices_S2x1024_o1_0_S1x1024
  have cst_226 : F .f32 := Scalar.ofBits .f32 0x45800000#32
  have v298 : FVec F S1x1024 .f32 := broadcast S1x1024 cst_226
  have v299 : FVec F S1x1024 .f32 := divf v297 v298
  have v300 : FVec F S1x1024 .f32 := mulf v296 v296
  have v301 : FVec F S1x1024 .f32 := subf v299 v300
  have cst_227 : F .f32 := Scalar.ofBits .f32 0x3727C5AC#32
  have v302 : FVec F S1x1024 .f32 := broadcast S1x1024 cst_227
  have v303 : FVec F S1x1024 .f32 := addf v301 v302
  have v304 : FVec F S1x1024 .f32 := rsqrt v303
  have v305 : FVec F S2x1024 .f32 := concatenate S2x1024 0 [⟨S1x1024, v296⟩, ⟨S1x1024, v304⟩] concatenates_S1x1024_S1x1024_S2x1024_d0
  have v306 : FVec F S1024x2 .f32 := transpose S1024x2 [1, 0] v305 transposes_S2x1024_p1_0_S1024x2
  have v307 : FVec F S1024x1 .f32 := extractStridedSlice S1024x1 ![0, 0] v306 slices_S1024x2_o0_0_S1024x1
  have v308 : FVec F S1024x1 .bf16 := truncf .bf16 v307 bitsLt_bf16_f32
  have v309 : FVec F S1024x1 .f32 := extractStridedSlice S1024x1 ![0, 1] v306 slices_S1024x2_o0_1_S1024x1
  have v310 : FVec F S1024x1 .bf16 := truncf .bf16 v309 bitsLt_bf16_f32
  have v312 : FVec F S512 .f32 := shapeCast S512 v311 shapeCasts_S512_S512
  have v313 : FVec F S512 .bf16 := truncf .bf16 v312 bitsLt_bf16_f32
  have v315 : FVec F S512 .f32 := shapeCast S512 v314 shapeCasts_S512_S512
  have v316 : FVec F S512 .bf16 := truncf .bf16 v315 bitsLt_bf16_f32
  have v318 : FVec F S1024x512 .bf16 := broadcastTo S1024x512 v308 broadcasts_S1024x1_S1024x512
  have v319 : FVec F S1024x512 .bf16 := subf v317 v318
  have v320 : FVec F S1024x512 .bf16 := broadcastTo S1024x512 v310 broadcasts_S1024x1_S1024x512
  have v321 : FVec F S1024x512 .bf16 := mulf v319 v320
  have v322 : FVec F S1x512 .bf16 := shapeCast S1x512 v313 shapeCasts_S512_S1x512
  have v323 : FVec F S1024x512 .bf16 := broadcastTo S1024x512 v322 broadcasts_S1x512_S1024x512
  have v324 : FVec F S1024x512 .bf16 := mulf v323 v321
  have v325 : FVec F S1x512 .bf16 := shapeCast S1x512 v316 shapeCasts_S512_S1x512
  have v326 : FVec F S1024x512 .bf16 := broadcastTo S1024x512 v325 broadcasts_S1x512_S1024x512
  have v327 : FVec F S1024x512 .bf16 := addf v324 v326
  v327

/-- The result block is the normalisation computed from the totals of the eight tables. -/
theorem result_eq (x : Vec F S1024x512 .f32) (xs : Fin 7 → Vec F S1024x512 .f32) (g b : Vec F S512 .f32) :
    result x xs g b = normalise (totals (stats x) (gathered xs)) g b (k0_pay3 x) := rfl

end Cert.KernelIdeal.KVal

end
-- ==== Proof.Proto.lean ====
/-
  The exchange of row statistics among the eight devices, as a discipline of rounds on the semaphores.

  Device `c` and the device `e + 1` places after it on the ring, `peer c e` (`e = 0 … 6`), meet three times. First `c`
  signals that device's barrier semaphore one unit, and with it hands over the receive slot `e` of its own buffer of seven
  tables: so after a device has waited for its seven units it owns, on each of the seven others, the slot it is about to
  fill. Then `c` copies its table into slot `6 - e` of `peer c e`, reading the table through one of seven read shares; the
  copy's arrival pays that device's receive semaphore `6 - e` and hands it the slot holding `c`'s table, its departure pays
  `c`'s send semaphore `e` and hands the read share back. Every semaphore has one round.
-/
import proofs.«900825_g7700000000000826_dist_layernorm_colshard_i_m1024_n512_v7x_i8_bf16_1_alg».proof.Proof.KVal
import proofs.«900825_g7700000000000826_dist_layernorm_colshard_i_m1024_n512_v7x_i8_bf16_1_alg».proof.Proof.Gen.KernelIdeal.Frame
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, duties named by `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring -/

/-- The device `e + 1` places after `c`. -/
def peer (c : Dev nD) (e : Fin 7) : Dev nD := ⟨(c.val + e.val + 1) % 8, Nat.mod_lt _ (by decide)⟩
/-- The offset seen from the other side: `peer (peer c e) (rev e) = c`. -/
def rev (e : Fin 7) : Fin 7 := ⟨6 - e.val, by omega⟩

/-! ## The memrefs and cells -/

abbrev xM : Memref sig .tc .vmem S1024x512 .f32 := Memref.whole cc0_stg0_0
abbrev gM : Memref sig .tc .vmem S512 .f32 := Memref.whole cc0_stg1_0
abbrev bM : Memref sig .tc .vmem S512 .f32 := Memref.whole cc0_stg2_0
abbrev oM : Memref sig .tc .vmem S1024x512 .bf16 := Memref.whole cc0_stg3_0
abbrev mineM : Memref sig .tc .vmem S16x128 .f32 := Memref.whole cc0_scratch0
abbrev commM : Memref sig .tc .vmem S7x16x128 .f32 := Memref.whole cc0_scratch1
abbrev xbM : Memref sig .tc .vmem S1024x512 .bf16 := Memref.whole cc0_scratch2

theorem inb_slot (s : Fin 7) : ∀ a, (![s.val, 0, 0] : Fin 3 → Nat) a + S1x16x128.size a ≤ S7x16x128.size a := by
  intro a; have := s.isLt; fin_cases a <;> (simp [Shape.size]; try omega)
theorem inb_sem (e : Fin 7) : ∀ a, (![e.val] : Fin 1 → Nat) a + S1.size a ≤ S7.size a := by
  intro a; have := e.isLt; fin_cases a <;> (simp [Shape.size]; try omega)

/-- Receive slot `s` of the buffer of seven tables, as a table. -/
abbrev slotM (s : Fin 7) : Memref sig .tc .vmem S16x128 .f32 :=
  (commM.slice (Rect.unit (s := S7x16x128) ![s.val, 0, 0] S1x16x128.size (inb_slot s)) (fun _ => rfl)).squeeze S16x128 squeezes_S1x16x128_S16x128

/-- The runtime's barrier semaphore (not scoped); the seven send and the seven receive DMA semaphores (scoped scratch). -/
abbrev barS : Sem sig := (SemArray.scalar (sig.barrier 0 rfl) : Sems sig S_).sem
abbrev sendSem (e : Fin 7) : DmaSem sig := ((cc0_scratch3.slice (Rect.unit (s := S7) ![e.val] S1.size (inb_sem e))).squeeze S_ squeezes_S1_S_).sem
abbrev recvSem (s : Fin 7) : DmaSem sig := ((cc0_scratch4.slice (Rect.unit (s := S7) ![s.val] S1.size (inb_sem s))).squeeze S_ squeezes_S1_S_).sem

abbrev barCell (c : Dev nD) : GSem nD τ sig := ((c : Thread nD τ), .reg barS)
abbrev sendCell (c : Dev nD) (e : Fin 7) : GSem nD τ sig := ((c : Thread nD τ), .dma (sendSem e))
abbrev recvCell (c : Dev nD) (s : Fin 7) : GSem nD τ sig := ((c : Thread nD τ), .dma (recvSem s))

/-- A device's fifteen cells: the barrier, send `e` at `e + 1`, receive `s` at `s + 8`. -/
def csem (k : Fin 15) : SemLoc sig :=
  if k.val = 0 then .reg barS
  else if h : k.val < 8 then .dma (sendSem ⟨k.val - 1, by omega⟩) else .dma (recvSem ⟨k.val - 8, by omega⟩)
def kS (e : Fin 7) : Fin 15 := ⟨e.val + 1, by omega⟩
def kR (s : Fin 7) : Fin 15 := ⟨s.val + 8, by omega⟩
abbrev kcell (ck : Dev nD × Fin 15) : GSem nD τ sig := ((ck.1 : Thread nD τ), csem ck.2)

/-- The kernel's own (scoped) semaphores: the seven send, then the seven receive. -/
def osem (k : Fin 14) : SemLoc sig :=
  if h : k.val < 7 then .dma (sendSem ⟨k.val, h⟩) else .dma (recvSem ⟨k.val - 7, by omega⟩)

/-- The units one copy of a table pays. -/
abbrev N : ℕ := (mineM : Memref sig .tc .vmem S16x128 .f32).view.dmaCredit
theorem N_pos : 0 < N := View.dmaCredit_pos _ (by decide)

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def gstg (c : Dev nD) : (cc0_stg1_0 : Ref sig .tc).ty.Contents (Elt F) :=
  (win0_1.blk (0 : Fin 1)).view.read (Elt F) ((s₀ m ρ).mem ((c : Thread nD τ).loc main_arg1))
def bstg (c : Dev nD) : (cc0_stg2_0 : Ref sig .tc).ty.Contents (Elt F) :=
  (win0_2.blk (0 : Fin 1)).view.read (Elt F) ((s₀ m ρ).mem ((c : Thread nD τ).loc main_arg2))

/-- Device `c`'s table of row statistics. -/
def statsVal (c : Dev nD) : (cc0_scratch0 : Ref sig .tc).ty.Contents (Elt F) := KVal.stats (xstg m ρ c)
/-- What device `c`'s seven receive slots end holding: slot `s` the table of `peer c s`. -/
def commVal (c : Dev nD) : (cc0_scratch1 : Ref sig .tc).ty.Contents (Elt F) := KVal.gathered (fun s => xstg m ρ (peer c s))
/-- Device `c`'s block kept in the narrower format. -/
def xbVal (c : Dev nD) : (cc0_scratch2 : Ref sig .tc).ty.Contents (Elt F) := k0_pay3 (xstg m ρ c)
/-- Device `c`'s result block. -/
def outVal (c : Dev nD) : (cc0_stg3_0 : Ref sig .tc).ty.Contents (Elt F) :=
  KVal.result (xstg m ρ c) (fun s => xstg m ρ (peer c s)) (gstg m ρ c) (bstg m ρ c)

/-- Slot `s` of device `c`'s receive buffer, owned outright at contents `f`. -/
def slotPts (c : Dev nD) (s : Fin 7) (f : Buf (Elt F) ((c : Thread nD τ).loc cc0_scratch1)) : sProp 𝕄 :=
  (slotM s).view.loc (c : Thread nD τ) ↦[(slotM s).view.set]{fullShare} f
/-- Read share `e` of device `c`'s table, at the table's contents. -/
def mineTok (c : Dev nD) (e : Fin 7) : sProp 𝕄 :=
  (mineM : Memref sig .tc .vmem S16x128 .f32).view.loc (c : Thread nD τ) ↦[(mineM : Memref sig .tc .vmem S16x128 .f32).view.set]{Transfers.shareTok fullShare 7 e} statsVal m ρ c

/-! ## The schedule -/

/-- What the signal of duty `d` hands device `c`: slot `d` of the device that pays it, `peer c (rev d)`, at any contents. -/
def barPay (c : Dev nD) (d : Fin 7) : sProp 𝕄 := iprop(∃ f, slotPts (F := F) (peer c (rev d)) d f)
/-- What the copy into slot `s` hands device `c`: the slot holding what all seven end holding there. -/
def recvPay (c : Dev nD) (s : Fin 7) : sProp 𝕄 := slotPts c s (commVal m ρ c)
/-- What the departure of copy `e` hands back: the read share of the table. -/
def sendPay (c : Dev nD) (e : Fin 7) : sProp 𝕄 := mineTok m ρ c e

/-- One round, round 0. A barrier cell has seven duties of one unit, duty `d` paid by `peer c (rev d)`; a send or receive
    cell one duty, `0`, of one copy's units. -/
def Rd : Rounds.Schedule (GSem nD τ sig) (Fin 7) 𝕄 where
  duties g r :=
    if r = 0 ∧ g.1.2 = .tc then
      (match g.2 with
        | .reg _ => Finset.univ
        | .dma q => if 4 ≤ q.val then {0} else ∅)
    else ∅
  unitless _ := False
  amount g _ _ := match g.2 with | .reg _ => 1 | .dma _ => N
  payload g _ d :=
    match g.2 with
    | .reg _ => barPay g.1.1 d
    | .dma q =>
      if 11 ≤ q.val then recvPay m ρ g.1.1 ⟨(q.val - 11) % 7, Nat.mod_lt _ (by decide)⟩
      else if 4 ≤ q.val then sendPay m ρ g.1.1 ⟨(q.val - 4) % 7, Nat.mod_lt _ (by decide)⟩
      else iprop(emp)
  amount_pos g _ _ _ := by
    cases g.2 with
    | reg _ => exact Nat.one_pos
    | dma _ => exact N_pos

/-! ## What each device owes at launch; the levels -/

/-- The unit device `c` owes the barrier of `peer c e`; the copy's units it owes that device's receive cell `rev e`. -/
def owedBar (c : Dev nD) (e : Fin 7) : CellTallies nD τ sig Unit := tallyAt (barCell (peer c e)) () 1
def owedRecv (c : Dev nD) (e : Fin 7) : CellTallies nD τ sig Unit := tallyAt (recvCell (peer c e) (rev e)) () N

/-- What is still owed before copy `k` (copies `k … 6` outstanding), summed so that each copy peels the last summand. -/
def OS7 (c : Dev nD) : CellTallies nD τ sig Unit := 0
def OS6 (c : Dev nD) : CellTallies nD τ sig Unit := OS7 c + owedRecv c 6
def OS5 (c : Dev nD) : CellTallies nD τ sig Unit := OS6 c + owedRecv c 5
def OS4 (c : Dev nD) : CellTallies nD τ sig Unit := OS5 c + owedRecv c 4
def OS3 (c : Dev nD) : CellTallies nD τ sig Unit := OS4 c + owedRecv c 3
def OS2 (c : Dev nD) : CellTallies nD τ sig Unit := OS3 c + owedRecv c 2
def OS1 (c : Dev nD) : CellTallies nD τ sig Unit := OS2 c + owedRecv c 1
def OS0 (c : Dev nD) : CellTallies nD τ sig Unit := OS1 c + owedRecv c 0
/-- What is still owed before signal `k`: signals `k … 6` and all seven copies. -/
def OB7 (c : Dev nD) : CellTallies nD τ sig Unit := OS0 c
def OB6 (c : Dev nD) : CellTallies nD τ sig Unit := OB7 c + owedBar c 6
def OB5 (c : Dev nD) : CellTallies nD τ sig Unit := OB6 c + owedBar c 5
def OB4 (c : Dev nD) : CellTallies nD τ sig Unit := OB5 c + owedBar c 4
def OB3 (c : Dev nD) : CellTallies nD τ sig Unit := OB4 c + owedBar c 3
def OB2 (c : Dev nD) : CellTallies nD τ sig Unit := OB3 c + owedBar c 2
def OB1 (c : Dev nD) : CellTallies nD τ sig Unit := OB2 c + owedBar c 1
def OB0 (c : Dev nD) : CellTallies nD τ sig Unit := OB1 c + owedBar c 0
/-- The same two chains by number. -/
def OS (c : Dev nD) : ℕ → CellTallies nD τ sig Unit
  | 0 => OS0 c | 1 => OS1 c | 2 => OS2 c | 3 => OS3 c | 4 => OS4 c | 5 => OS5 c | 6 => OS6 c | _ => 0
def OB (c : Dev nD) : ℕ → CellTallies nD τ sig Unit
  | 0 => OB0 c | 1 => OB1 c | 2 => OB2 c | 3 => OB3 c | 4 => OB4 c | 5 => OB5 c | 6 => OB6 c | _ => OS0 c
def O₀ (c : Dev nD) : CellTallies nD τ sig Unit := OB0 c

def L (g : GSem nD τ sig) : Finset Unit := if g.1.2 = .tc then {()} else ∅
/-- Barrier cells at level 1, receive cells at 2, everything else (staging, send) at 0. -/
def lv (g : GSem nD τ sig) (_ : Unit) : ℕ :=
  match g.2 with
  | .reg _ => 1
  | .dma q => if 11 ≤ q.val then 2 else 0

/-! ## Ghost state -/

/-- The persistent part: every cell's invariant under the names `K`, and that every cell is at round 0. -/
def records (K : Dev nD × Fin 15 → ℕ) : sProp 𝕄 :=
  iprop((bigSep Finset.univ fun ck : Dev nD × Fin 15 => cellInv ER (Rd m ρ) (K ck) (kcell ck))
    ∗ bigSep Finset.univ fun ck : Dev nD × Fin 15 => reached ER (kcell ck) 0)

/-- Device `c`'s positions on its own fifteen cells. -/
def positions (c : Dev nD) : sProp 𝕄 := bigSep Finset.univ fun k : Fin 15 => atPos ER (kcell (c, k)) 0 ∅ 0
/-- The tokens of the duties device `c` pays: per `e`, the unit on the barrier of `peer c e`, the copy's arrival there, its departure here. -/
def payToks (c : Dev nD) : sProp 𝕄 :=
  bigSep Finset.univ fun e : Fin 7 =>
    iprop(dutyTok ER (barCell (peer c e)) 0 e ∗ dutyTok ER (recvCell (peer c e) (rev e)) 0 (0 : Fin 7) ∗ dutyTok ER (sendCell c e) 0 (0 : Fin 7))

def ghost (K : Dev nD × Fin 15 → ℕ) (c : Dev nD) : sProp 𝕄 := iprop(records m ρ K ∗ positions (F := F) c ∗ payToks (F := F) c)

/-- What a device's body starts from besides its buffers: the ghost state at some names, the credit of its barrier's seven
    units and of each receive cell's copy, and the levels. -/
def start (c : Dev nD) : sProp 𝕄 :=
  iprop((∃ K, ghost m ρ K c) ∗ cred (tallyAt (barCell c) () 7)
    ∗ (bigSep Finset.univ fun s : Fin 7 => cred (tallyAt (recvCell c s) () N)) ∗ levAts L lv)

/-- The three scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratch (F := F) c)
/-- After the body: the scratch buffers back whole, the fourteen own semaphores at zero. -/
def Φ₁ (c : Dev nD) : sProp 𝕄 :=
  iprop(scratch (F := F) c ∗ (bigSep Finset.univ fun e : Fin 7 => semVal (sendCell c e) 0) ∗ bigSep Finset.univ fun s : Fin 7 => semVal (recvCell c s) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => bstg m ρ c
    | ⟨3, _⟩ => outVal m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Run

end
-- ==== Proof.Flat.lean ====
/-
  The state one device's body starts from and ends in, and the same starting state laid out cell by cell: for each of
  the seven offsets the invariants, round marks, positions, tokens and credits of the cells the device meets there.
-/
import proofs.«900825_g7700000000000826_dist_layernorm_colshard_i_m1024_n512_v7x_i8_bf16_1_alg».proof.Proof.Proto

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The one grid point. -/
abbrev t₀ : Fin cfg0.N := t0_0

/-- A staging buffer held whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from: the ghost state at the names `K`, the credits, the levels, the three scratch buffers, what
    the device owes, and the four staging buffers as the pipeline hands them over. -/
def bodyPre (K : Dev nD × Fin 15 → ℕ) (c : Dev nD) : sProp 𝕄 :=
  iprop((ghost m ρ K c ∗ cred (tallyAt (barCell c) () 7) ∗ (bigSep Finset.univ fun s : Fin 7 => cred (tallyAt (recvCell c s) () N))
      ∗ levAts L lv ∗ scratch (F := F) c)
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- What it ends in: the scratch buffers back and the own semaphores at zero, nothing owed, the inputs' staging buffers as
    they were and the result's holding the result block. -/
def bodyPost (c : Dev nD) : sProp 𝕄 :=
  iprop(Φ₁ (F := F) c ∗ (dats m ρ 0 c).owesAt () t₀.succ
    ∗ stg c cc0_stg0_0 (xstg m ρ c) ∗ stg c cc0_stg1_0 (gstg m ρ c) ∗ stg c cc0_stg2_0 (bstg m ρ c) ∗ stg c cc0_stg3_0 (outVal m ρ c))

/-- The persistent part of the starting state, cell by cell: the invariants of the device's own fifteen cells and of the
    fourteen cells it pays (offset `e` pairs with slot `6 - e` on the other side), that each is at round 0, the levels. -/
def flatInv (K : Dev nD × Fin 15 → ℕ) (c : Dev nD) : sProp 𝕄 :=
  iprop(cellInv ER (Rd m ρ) (K (c, 0)) (barCell c)
      ∗ cellInv ER (Rd m ρ) (K (c, kS 0)) (sendCell c 0)
      ∗ cellInv ER (Rd m ρ) (K (c, kS 1)) (sendCell c 1)
      ∗ cellInv ER (Rd m ρ) (K (c, kS 2)) (sendCell c 2)
      ∗ cellInv ER (Rd m ρ) (K (c, kS 3)) (sendCell c 3)
      ∗ cellInv ER (Rd m ρ) (K (c, kS 4)) (sendCell c 4)
      ∗ cellInv ER (Rd m ρ) (K (c, kS 5)) (sendCell c 5)
      ∗ cellInv ER (Rd m ρ) (K (c, kS 6)) (sendCell c 6)
      ∗ cellInv ER (Rd m ρ) (K (c, kR 0)) (recvCell c 0)
      ∗ cellInv ER (Rd m ρ) (K (c, kR 1)) (recvCell c 1)
      ∗ cellInv ER (Rd m ρ) (K (c, kR 2)) (recvCell c 2)
      ∗ cellInv ER (Rd m ρ) (K (c, kR 3)) (recvCell c 3)
      ∗ cellInv ER (Rd m ρ) (K (c, kR 4)) (recvCell c 4)
      ∗ cellInv ER (Rd m ρ) (K (c, kR 5)) (recvCell c 5)
      ∗ cellInv ER (Rd m ρ) (K (c, kR 6)) (recvCell c 6)
      ∗ cellInv ER (Rd m ρ) (K (peer c 0, 0)) (barCell (peer c 0))
      ∗ cellInv ER (Rd m ρ) (K (peer c 1, 0)) (barCell (peer c 1))
      ∗ cellInv ER (Rd m ρ) (K (peer c 2, 0)) (barCell (peer c 2))
      ∗ cellInv ER (Rd m ρ) (K (peer c 3, 0)) (barCell (peer c 3))
      ∗ cellInv ER (Rd m ρ) (K (peer c 4, 0)) (barCell (peer c 4))
      ∗ cellInv ER (Rd m ρ) (K (peer c 5, 0)) (barCell (peer c 5))
      ∗ cellInv ER (Rd m ρ) (K (peer c 6, 0)) (barCell (peer c 6))
      ∗ cellInv ER (Rd m ρ) (K (peer c 0, kR 6)) (recvCell (peer c 0) 6)
      ∗ cellInv ER (Rd m ρ) (K (peer c 1, kR 5)) (recvCell (peer c 1) 5)
      ∗ cellInv ER (Rd m ρ) (K (peer c 2, kR 4)) (recvCell (peer c 2) 4)
      ∗ cellInv ER (Rd m ρ) (K (peer c 3, kR 3)) (recvCell (peer c 3) 3)
      ∗ cellInv ER (Rd m ρ) (K (peer c 4, kR 2)) (recvCell (peer c 4) 2)
      ∗ cellInv ER (Rd m ρ) (K (peer c 5, kR 1)) (recvCell (peer c 5) 1)
      ∗ cellInv ER (Rd m ρ) (K (peer c 6, kR 0)) (recvCell (peer c 6) 0)
      ∗ reached ER (barCell c) 0
      ∗ reached ER (sendCell c 0) 0
      ∗ reached ER (sendCell c 1) 0
      ∗ reached ER (sendCell c 2) 0
      ∗ reached ER (sendCell c 3) 0
      ∗ reached ER (sendCell c 4) 0
      ∗ reached ER (sendCell c 5) 0
      ∗ reached ER (sendCell c 6) 0
      ∗ reached ER (recvCell c 0) 0
      ∗ reached ER (recvCell c 1) 0
      ∗ reached ER (recvCell c 2) 0
      ∗ reached ER (recvCell c 3) 0
      ∗ reached ER (recvCell c 4) 0
      ∗ reached ER (recvCell c 5) 0
      ∗ reached ER (recvCell c 6) 0
      ∗ reached ER (barCell (peer c 0)) 0
      ∗ reached ER (barCell (peer c 1)) 0
      ∗ reached ER (barCell (peer c 2)) 0
      ∗ reached ER (barCell (peer c 3)) 0
      ∗ reached ER (barCell (peer c 4)) 0
      ∗ reached ER (barCell (peer c 5)) 0
      ∗ reached ER (barCell (peer c 6)) 0
      ∗ reached ER (recvCell (peer c 0) 6) 0
      ∗ reached ER (recvCell (peer c 1) 5) 0
      ∗ reached ER (recvCell (peer c 2) 4) 0
      ∗ reached ER (recvCell (peer c 3) 3) 0
      ∗ reached ER (recvCell (peer c 4) 2) 0
      ∗ reached ER (recvCell (peer c 5) 1) 0
      ∗ reached ER (recvCell (peer c 6) 0) 0
      ∗ levAts L lv)

/-- The linear part: the positions on the own cells, the tokens of the duties paid, the credits. -/
def flatLin (c : Dev nD) : sProp 𝕄 :=
  iprop(atPos ER (barCell c) 0 ∅ 0
      ∗ atPos ER (sendCell c 0) 0 ∅ 0
      ∗ atPos ER (sendCell c 1) 0 ∅ 0
      ∗ atPos ER (sendCell c 2) 0 ∅ 0
      ∗ atPos ER (sendCell c 3) 0 ∅ 0
      ∗ atPos ER (sendCell c 4) 0 ∅ 0
      ∗ atPos ER (sendCell c 5) 0 ∅ 0
      ∗ atPos ER (sendCell c 6) 0 ∅ 0
      ∗ atPos ER (recvCell c 0) 0 ∅ 0
      ∗ atPos ER (recvCell c 1) 0 ∅ 0
      ∗ atPos ER (recvCell c 2) 0 ∅ 0
      ∗ atPos ER (recvCell c 3) 0 ∅ 0
      ∗ atPos ER (recvCell c 4) 0 ∅ 0
      ∗ atPos ER (recvCell c 5) 0 ∅ 0
      ∗ atPos ER (recvCell c 6) 0 ∅ 0
      ∗ dutyTok ER (barCell (peer c 0)) 0 (0 : Fin 7)
      ∗ dutyTok ER (barCell (peer c 1)) 0 (1 : Fin 7)
      ∗ dutyTok ER (barCell (peer c 2)) 0 (2 : Fin 7)
      ∗ dutyTok ER (barCell (peer c 3)) 0 (3 : Fin 7)
      ∗ dutyTok ER (barCell (peer c 4)) 0 (4 : Fin 7)
      ∗ dutyTok ER (barCell (peer c 5)) 0 (5 : Fin 7)
      ∗ dutyTok ER (barCell (peer c 6)) 0 (6 : Fin 7)
      ∗ dutyTok ER (recvCell (peer c 0) 6) 0 (0 : Fin 7)
      ∗ dutyTok ER (recvCell (peer c 1) 5) 0 (0 : Fin 7)
      ∗ dutyTok ER (recvCell (peer c 2) 4) 0 (0 : Fin 7)
      ∗ dutyTok ER (recvCell (peer c 3) 3) 0 (0 : Fin 7)
      ∗ dutyTok ER (recvCell (peer c 4) 2) 0 (0 : Fin 7)
      ∗ dutyTok ER (recvCell (peer c 5) 1) 0 (0 : Fin 7)
      ∗ dutyTok ER (recvCell (peer c 6) 0) 0 (0 : Fin 7)
      ∗ dutyTok ER (sendCell c 0) 0 (0 : Fin 7)
      ∗ dutyTok ER (sendCell c 1) 0 (0 : Fin 7)
      ∗ dutyTok ER (sendCell c 2) 0 (0 : Fin 7)
      ∗ dutyTok ER (sendCell c 3) 0 (0 : Fin 7)
      ∗ dutyTok ER (sendCell c 4) 0 (0 : Fin 7)
      ∗ dutyTok ER (sendCell c 5) 0 (0 : Fin 7)
      ∗ dutyTok ER (sendCell c 6) 0 (0 : Fin 7)
      ∗ cred (tallyAt (barCell c) () 7)
      ∗ cred (tallyAt (recvCell c 0) () N)
      ∗ cred (tallyAt (recvCell c 1) () N)
      ∗ cred (tallyAt (recvCell c 2) () N)
      ∗ cred (tallyAt (recvCell c 3) () N)
      ∗ cred (tallyAt (recvCell c 4) () N)
      ∗ cred (tallyAt (recvCell c 5) () N)
      ∗ cred (tallyAt (recvCell c 6) () N))

/-- The buffers, each named through its memref: the three scratch buffers at some contents, the inputs' staging buffers at
    their blocks, the result's at some contents; and what the device owes, every summand written out. -/
def flatBuf (c : Dev nD) (W : Waits sig Unit) : sProp 𝕄 :=
  iprop((∃ f : Buf (Elt F) ((c : Thread nD τ).loc cc0_scratch0), ((Memref.whole cc0_scratch0 : Memref sig .tc .vmem S16x128 .f32).view.loc (c : Thread nD τ)) ↦{fullShare} f)
      ∗ (∃ f : Buf (Elt F) ((c : Thread nD τ).loc cc0_scratch1), ((Memref.whole cc0_scratch1 : Memref sig .tc .vmem S7x16x128 .f32).view.loc (c : Thread nD τ)) ↦{fullShare} f)
      ∗ (∃ f : Buf (Elt F) ((c : Thread nD τ).loc cc0_scratch2), ((Memref.whole cc0_scratch2 : Memref sig .tc .vmem S1024x512 .bf16).view.loc (c : Thread nD τ)) ↦{fullShare} f)
      ∗ (((Memref.whole cc0_stg0_0 : Memref sig .tc .vmem S1024x512 .f32).view.loc (c : Thread nD τ)) ↦{fullShare} xstg m ρ c)
      ∗ (((Memref.whole cc0_stg1_0 : Memref sig .tc .vmem S512 .f32).view.loc (c : Thread nD τ)) ↦{fullShare} gstg m ρ c)
      ∗ (((Memref.whole cc0_stg2_0 : Memref sig .tc .vmem S512 .f32).view.loc (c : Thread nD τ)) ↦{fullShare} bstg m ρ c)
      ∗ (∃ f : Buf (Elt F) ((c : Thread nD τ).loc cc0_stg3_0), ((Memref.whole cc0_stg3_0 : Memref sig .tc .vmem S1024x512 .bf16).view.loc (c : Thread nD τ)) ↦{fullShare} f)
      ∗ owes (c : Thread nD τ) (O₀ c) W)

end Cert.KernelIdeal.Run

end
-- ==== Proof.Tables.lean ====
/-
  What the other parts read off the exchange's definitions: the ring of eight devices, the fifteen cells of a device, the
  one-round schedule read cell by cell, and the order of levels that lets every wait proceed.
-/
import proofs.«900825_g7700000000000826_dist_layernorm_colshard_i_m1024_n512_v7x_i8_bf16_1_alg».proof.Proof.Proto

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ring -/

theorem peer_rev (c : Dev nD) (e : Fin 7) : peer (peer c e) (rev e) = c := by revert c e; decide
theorem rev_peer (c : Dev nD) (e : Fin 7) : peer (peer c (rev e)) e = c := by revert c e; decide
theorem rev_rev (e : Fin 7) : rev (rev e) = e := by revert e; decide
theorem peer_ne (c : Dev nD) (e : Fin 7) : peer c e ≠ c := by revert c e; decide
theorem peer_injective (c : Dev nD) : Function.Injective (peer c) := by revert c; decide
theorem eq_peer_of_ne {c d : Dev nD} (h : d ≠ c) : ∃ e : Fin 7, d = peer c e := by revert c d; decide

/-- Stepping e + 1 places along the ring, undone by stepping 7 - e places. -/
def peerEquiv (e : Fin 7) : Dev nD ≃ Dev nD := ⟨fun c => peer c e, fun c => peer c (rev e), fun c => peer_rev c e, fun c => rev_peer c e⟩

/-- The devices the kernel's seven signals address: the seven others, in ring order. -/
theorem dev1_eq (c : Dev nD) : (⟨k0_dev1 c, k0_dev1_lt c⟩ : Dev nD) = peer c 0 := Fin.ext (by revert c; decide +kernel)
theorem dev2_eq (c : Dev nD) : (⟨k0_dev2 c, k0_dev2_lt c⟩ : Dev nD) = peer c 1 := Fin.ext (by revert c; decide +kernel)
theorem dev3_eq (c : Dev nD) : (⟨k0_dev3 c, k0_dev3_lt c⟩ : Dev nD) = peer c 2 := Fin.ext (by revert c; decide +kernel)
theorem dev4_eq (c : Dev nD) : (⟨k0_dev4 c, k0_dev4_lt c⟩ : Dev nD) = peer c 3 := Fin.ext (by revert c; decide +kernel)
theorem dev5_eq (c : Dev nD) : (⟨k0_dev5 c, k0_dev5_lt c⟩ : Dev nD) = peer c 4 := Fin.ext (by revert c; decide +kernel)
theorem dev6_eq (c : Dev nD) : (⟨k0_dev6 c, k0_dev6_lt c⟩ : Dev nD) = peer c 5 := Fin.ext (by revert c; decide +kernel)
theorem dev7_eq (c : Dev nD) : (⟨k0_dev7 c, k0_dev7_lt c⟩ : Dev nD) = peer c 6 := Fin.ext (by revert c; decide +kernel)
/-- The devices the seven copies address: the same seven, in the same order. -/
theorem dev8_eq (c : Dev nD) : (⟨k0_dev8 c, k0_dev8_lt c⟩ : Dev nD) = peer c 0 := Fin.ext (by revert c; decide +kernel)
theorem dev9_eq (c : Dev nD) : (⟨k0_dev9 c, k0_dev9_lt c⟩ : Dev nD) = peer c 1 := Fin.ext (by revert c; decide +kernel)
theorem dev10_eq (c : Dev nD) : (⟨k0_dev10 c, k0_dev10_lt c⟩ : Dev nD) = peer c 2 := Fin.ext (by revert c; decide +kernel)
theorem dev11_eq (c : Dev nD) : (⟨k0_dev11 c, k0_dev11_lt c⟩ : Dev nD) = peer c 3 := Fin.ext (by revert c; decide +kernel)
theorem dev12_eq (c : Dev nD) : (⟨k0_dev12 c, k0_dev12_lt c⟩ : Dev nD) = peer c 4 := Fin.ext (by revert c; decide +kernel)
theorem dev13_eq (c : Dev nD) : (⟨k0_dev13 c, k0_dev13_lt c⟩ : Dev nD) = peer c 5 := Fin.ext (by revert c; decide +kernel)
theorem dev14_eq (c : Dev nD) : (⟨k0_dev14 c, k0_dev14_lt c⟩ : Dev nD) = peer c 6 := Fin.ext (by revert c; decide +kernel)

/-! ## Semaphores and cells -/

omit [FloatOps F] in
/-- The send semaphores are the DMA semaphores 4 … 10, the receive semaphores 11 … 17. -/
theorem sendSem_val (e : Fin 7) : (sendSem e).val = 4 + e.val := by fin_cases e <;> rfl
theorem recvSem_val (s : Fin 7) : (recvSem s).val = 11 + s.val := by fin_cases s <;> rfl

theorem csem_zero : csem 0 = .reg barS := rfl
theorem csem_kS (e : Fin 7) : csem (kS e) = .dma (sendSem e) := by fin_cases e <;> rfl
theorem csem_kR (s : Fin 7) : csem (kR s) = .dma (recvSem s) := by fin_cases s <;> rfl

theorem kcell_bar (c : Dev nD) : kcell (c, 0) = barCell c := rfl
theorem kcell_kS (c : Dev nD) (e : Fin 7) : kcell (c, kS e) = sendCell c e := congrArg (Prod.mk (c : Thread nD τ)) (csem_kS e)
theorem kcell_kR (c : Dev nD) (s : Fin 7) : kcell (c, kR s) = recvCell c s := congrArg (Prod.mk (c : Thread nD τ)) (csem_kR s)

theorem kS_injective : Function.Injective kS := by decide
theorem kR_injective : Function.Injective kR := by decide
theorem kS_ne_zero (e : Fin 7) : kS e ≠ 0 := by revert e; decide
theorem kR_ne_zero (s : Fin 7) : kR s ≠ 0 := by revert s; decide
theorem kS_ne_kR (e s : Fin 7) : kS e ≠ kR s := by revert e s; decide

/-- A device's fifteen cells are pairwise distinct. -/
theorem csem_injective : Function.Injective csem := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The fourteen own semaphores are scoped, pairwise distinct, and none is a staging semaphore. -/
theorem ownSemFacts : Pipeline.OwnSemFacts cfg0.spec osem := by decide

/-- A product over a device's fifteen cells: the barrier's factor, the seven send cells', the seven receive cells'. -/
theorem bigSep_fin15 (Φ : Fin 15 → sProp 𝕄) :
    bigSep Finset.univ Φ = iprop(Φ 0 ∗ (bigSep Finset.univ fun e : Fin 7 => Φ (kS e)) ∗ bigSep Finset.univ fun s : Fin 7 => Φ (kR s)) := by
  have h : (Finset.univ : Finset (Fin 15))
      = insert 0 ((Finset.univ.map ⟨kS, kS_injective⟩) ∪ (Finset.univ.map ⟨kR, kR_injective⟩)) := by decide
  rw [h, bigSep_insert (by decide), bigSep_union (by decide), bigSep_map, bigSep_map]
  rfl

/-! ## The schedule at round 0, cell by cell -/

section Sched
variable (c : Dev nD)

theorem recv_not_lt (s : Fin 7) : 11 ≤ (recvSem s).val := by rw [recvSem_val]; omega
theorem send_lt (e : Fin 7) : ¬ 11 ≤ (sendSem e).val := by rw [sendSem_val]; omega
theorem send_ge (e : Fin 7) : 4 ≤ (sendSem e).val := by rw [sendSem_val]; omega
theorem recv_ge (s : Fin 7) : 4 ≤ (recvSem s).val := by rw [recvSem_val]; omega
theorem send_idx (e : Fin 7) : (⟨((sendSem e).val - 4) % 7, Nat.mod_lt _ (by decide)⟩ : Fin 7) = e :=
  Fin.ext (by rw [sendSem_val]; show (4 + e.val - 4) % 7 = e.val; have := e.isLt; omega)
theorem recv_idx (s : Fin 7) : (⟨((recvSem s).val - 11) % 7, Nat.mod_lt _ (by decide)⟩ : Fin 7) = s :=
  Fin.ext (by rw [recvSem_val]; show (11 + s.val - 11) % 7 = s.val; have := s.isLt; omega)

theorem duties_bar : (Rd (F := F) m ρ).duties (barCell c) 0 = Finset.univ := by
  dsimp only [Rd]; rw [if_pos ⟨rfl, rfl⟩]
theorem duties_send (e : Fin 7) : (Rd (F := F) m ρ).duties (sendCell c e) 0 = {0} := by
  dsimp only [Rd]; rw [if_pos ⟨rfl, rfl⟩, if_pos (send_ge e)]
theorem duties_recv (s : Fin 7) : (Rd (F := F) m ρ).duties (recvCell c s) 0 = {0} := by
  dsimp only [Rd]; rw [if_pos ⟨rfl, rfl⟩, if_pos (recv_ge s)]
theorem duties_later (g : GSem nD τ sig) : ∀ r, 1 ≤ r → (Rd (F := F) m ρ).duties g r = ∅ :=
  fun r hr => by dsimp only [Rd]; rw [if_neg fun h => absurd h.1 (by omega)]

theorem amount_bar (d : Fin 7) : (Rd (F := F) m ρ).amount (barCell c) 0 d = 1 := rfl
theorem amount_send (e : Fin 7) (d : Fin 7) : (Rd (F := F) m ρ).amount (sendCell c e) 0 d = N := rfl
theorem amount_recv (s : Fin 7) (d : Fin 7) : (Rd (F := F) m ρ).amount (recvCell c s) 0 d = N := rfl

theorem expect_bar : (Rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send (e : Fin 7) : (Rd (F := F) m ρ).expect (sendCell c e) 0 = N := by
  unfold Schedule.expect Schedule.amountOf; rw [duties_send, Finset.sum_singleton, amount_send]
theorem expect_recv (s : Fin 7) : (Rd (F := F) m ρ).expect (recvCell c s) 0 = N := by
  unfold Schedule.expect Schedule.amountOf; rw [duties_recv, Finset.sum_singleton, amount_recv]

theorem payload_bar (d : Fin 7) : (Rd (F := F) m ρ).payload (barCell c) 0 d = barPay c d := rfl
theorem payload_send (e : Fin 7) (d : Fin 7) : (Rd (F := F) m ρ).payload (sendCell c e) 0 d = sendPay m ρ c e := by
  dsimp only [Rd]; rw [if_neg (send_lt e), if_pos (send_ge e), send_idx]
theorem payload_recv (s : Fin 7) (d : Fin 7) : (Rd (F := F) m ρ).payload (recvCell c s) 0 d = recvPay m ρ c s := by
  dsimp only [Rd]; rw [if_pos (recv_not_lt s), recv_idx]

/-- The whole round's payloads, no duty taken yet: of a barrier cell the seven slots, of a send cell the read share, of a
    receive cell the filled slot. -/
theorem rest_bar : bigSep ((Rd (F := F) m ρ).duties (barCell c) 0 \ ∅) (fun d => (Rd (F := F) m ρ).payload (barCell c) 0 d)
    = bigSep Finset.univ (fun d : Fin 7 => barPay (F := F) c d) := by
  rw [Finset.sdiff_empty, duties_bar]; exact bigSep_congr fun d _ => payload_bar m ρ c d
theorem rest_send (e : Fin 7) : bigSep ((Rd (F := F) m ρ).duties (sendCell c e) 0 \ ∅) (fun d => (Rd (F := F) m ρ).payload (sendCell c e) 0 d)
    = sendPay m ρ c e := by
  rw [Finset.sdiff_empty, duties_send, bigSep_singleton, payload_send]
theorem rest_recv (s : Fin 7) : bigSep ((Rd (F := F) m ρ).duties (recvCell c s) 0 \ ∅) (fun d => (Rd (F := F) m ρ).payload (recvCell c s) 0 d)
    = recvPay m ρ c s := by
  rw [Finset.sdiff_empty, duties_recv, bigSep_singleton, payload_recv]

end Sched

/-! ### The same payloads, spelt out as the memory they are -/

/-- The unit device c pays the barrier of the device e + 1 places on hands over slot e of c's own buffer. -/
theorem payload_bar_pay (c : Dev nD) (e : Fin 7) : (Rd (F := F) m ρ).payload (barCell (peer c e)) 0 e
    = iprop(∃ f : Buf (Elt F) ((c : Thread nD τ).loc cc0_scratch1), (slotM e).view.loc (c : Thread nD τ) ↦[(slotM e).view.set]{fullShare} f) := by
  rw [payload_bar]; unfold barPay slotPts; rw [peer_rev]
/-- Duty d of a device's own barrier cell brings slot d of the device that pays it. -/
theorem payload_bar_own (c : Dev nD) (d : Fin 7) : (Rd (F := F) m ρ).payload (barCell c) 0 d
    = iprop(∃ f : Buf (Elt F) ((peer c (rev d) : Thread nD τ).loc cc0_scratch1), (slotM d).view.loc (peer c (rev d) : Thread nD τ) ↦[(slotM d).view.set]{fullShare} f) := by
  rw [payload_bar]; rfl
theorem payload_recv_own (c : Dev nD) (s : Fin 7) (d : Fin 7) : (Rd (F := F) m ρ).payload (recvCell c s) 0 d
    = ((slotM s).view.loc (c : Thread nD τ) ↦[(slotM s).view.set]{fullShare} commVal m ρ c) := by
  rw [payload_recv]; rfl
theorem payload_send_own (c : Dev nD) (e : Fin 7) (d : Fin 7) : (Rd (F := F) m ρ).payload (sendCell c e) 0 d
    = ((mineM : Memref sig .tc .vmem S16x128 .f32).view.loc (c : Thread nD τ) ↦[(mineM : Memref sig .tc .vmem S16x128 .f32).view.set]{Transfers.shareTok fullShare 7 e} statsVal m ρ c) := by
  rw [payload_send]; rfl

end Cert.KernelIdeal.Run

end
-- ==== Proof.Unflat.lean ====
/-
  The starting state of one device's body, taken apart cell by cell: the products over a device's fifteen cells and over
  the seven offsets are written out, the invariants and round marks of the twenty-nine cells the device meets are drawn
  from the persistent records, and the inputs' staging buffers are read at their blocks.
-/
import proofs.«900825_g7700000000000826_dist_layernorm_colshard_i_m1024_n512_v7x_i8_bf16_1_alg».proof.Proof.Flat
import proofs.«900825_g7700000000000826_dist_layernorm_colshard_i_m1024_n512_v7x_i8_bf16_1_alg».proof.Proof.Tables

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A product over the seven offsets, written out. -/
theorem uf_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## One cell's invariant and round mark out of the records -/

theorem uf_invB (K : Dev nD × Fin 15 → ℕ) (c : Dev nD) :
    (bigSep Finset.univ fun ck : Dev nD × Fin 15 => (cellInv ER (Rd m ρ) (K ck) (kcell ck) : sProp 𝕄)) ⊢ cellInv ER (Rd m ρ) (K (c, 0)) (barCell c) :=
  bigSep_elim (Finset.mem_univ (c, (0 : Fin 15)))
theorem uf_invS (K : Dev nD × Fin 15 → ℕ) (c : Dev nD) (e : Fin 7) :
    (bigSep Finset.univ fun ck : Dev nD × Fin 15 => (cellInv ER (Rd m ρ) (K ck) (kcell ck) : sProp 𝕄)) ⊢ cellInv ER (Rd m ρ) (K (c, kS e)) (sendCell c e) := by
  have h : (bigSep Finset.univ fun ck : Dev nD × Fin 15 => (cellInv ER (Rd m ρ) (K ck) (kcell ck) : sProp 𝕄)) ⊢ cellInv ER (Rd m ρ) (K (c, kS e)) (kcell (c, kS e)) := bigSep_elim (Finset.mem_univ (c, kS e))
  rwa [kcell_kS] at h
theorem uf_invR (K : Dev nD × Fin 15 → ℕ) (c : Dev nD) (s : Fin 7) :
    (bigSep Finset.univ fun ck : Dev nD × Fin 15 => (cellInv ER (Rd m ρ) (K ck) (kcell ck) : sProp 𝕄)) ⊢ cellInv ER (Rd m ρ) (K (c, kR s)) (recvCell c s) := by
  have h : (bigSep Finset.univ fun ck : Dev nD × Fin 15 => (cellInv ER (Rd m ρ) (K ck) (kcell ck) : sProp 𝕄)) ⊢ cellInv ER (Rd m ρ) (K (c, kR s)) (kcell (c, kR s)) := bigSep_elim (Finset.mem_univ (c, kR s))
  rwa [kcell_kR] at h

theorem uf_rchB (c : Dev nD) : (bigSep Finset.univ fun ck : Dev nD × Fin 15 => (reached ER (kcell ck) 0 : sProp 𝕄)) ⊢ reached ER (barCell c) 0 :=
  bigSep_elim (Finset.mem_univ (c, (0 : Fin 15)))
theorem uf_rchS (c : Dev nD) (e : Fin 7) : (bigSep Finset.univ fun ck : Dev nD × Fin 15 => (reached ER (kcell ck) 0 : sProp 𝕄)) ⊢ reached ER (sendCell c e) 0 := by
  have h : (bigSep Finset.univ fun ck : Dev nD × Fin 15 => (reached ER (kcell ck) 0 : sProp 𝕄)) ⊢ reached ER (kcell (c, kS e)) 0 := bigSep_elim (Finset.mem_univ (c, kS e))
  rwa [kcell_kS] at h
theorem uf_rchR (c : Dev nD) (s : Fin 7) : (bigSep Finset.univ fun ck : Dev nD × Fin 15 => (reached ER (kcell ck) 0 : sProp 𝕄)) ⊢ reached ER (recvCell c s) 0 := by
  have h : (bigSep Finset.univ fun ck : Dev nD × Fin 15 => (reached ER (kcell ck) 0 : sProp 𝕄)) ⊢ reached ER (kcell (c, kR s)) 0 := bigSep_elim (Finset.mem_univ (c, kR s))
  rwa [kcell_kR] at h

/-! ## The persistent part -/

theorem uf_inv (K : Dev nD × Fin 15 → ℕ) (c : Dev nD) : iprop(records m ρ K ∗ levAts L lv) ⊢ flatInv m ρ K c := by
  unfold records flatInv
  iintro ⟨⟨#HI, #HR⟩, #HL⟩
  isplitr; · iapply (uf_invB m ρ K c); iexact HI
  isplitr; · iapply (uf_invS m ρ K c 0); iexact HI
  isplitr; · iapply (uf_invS m ρ K c 1); iexact HI
  isplitr; · iapply (uf_invS m ρ K c 2); iexact HI
  isplitr; · iapply (uf_invS m ρ K c 3); iexact HI
  isplitr; · iapply (uf_invS m ρ K c 4); iexact HI
  isplitr; · iapply (uf_invS m ρ K c 5); iexact HI
  isplitr; · iapply (uf_invS m ρ K c 6); iexact HI
  isplitr; · iapply (uf_invR m ρ K c 0); iexact HI
  isplitr; · iapply (uf_invR m ρ K c 1); iexact HI
  isplitr; · iapply (uf_invR m ρ K c 2); iexact HI
  isplitr; · iapply (uf_invR m ρ K c 3); iexact HI
  isplitr; · iapply (uf_invR m ρ K c 4); iexact HI
  isplitr; · iapply (uf_invR m ρ K c 5); iexact HI
  isplitr; · iapply (uf_invR m ρ K c 6); iexact HI
  isplitr; · iapply (uf_invB m ρ K (peer c 0)); iexact HI
  isplitr; · iapply (uf_invB m ρ K (peer c 1)); iexact HI
  isplitr; · iapply (uf_invB m ρ K (peer c 2)); iexact HI
  isplitr; · iapply (uf_invB m ρ K (peer c 3)); iexact HI
  isplitr; · iapply (uf_invB m ρ K (peer c 4)); iexact HI
  isplitr; · iapply (uf_invB m ρ K (peer c 5)); iexact HI
  isplitr; · iapply (uf_invB m ρ K (peer c 6)); iexact HI
  isplitr; · iapply (uf_invR m ρ K (peer c 0) 6); iexact HI
  isplitr; · iapply (uf_invR m ρ K (peer c 1) 5); iexact HI
  isplitr; · iapply (uf_invR m ρ K (peer c 2) 4); iexact HI
  isplitr; · iapply (uf_invR m ρ K (peer c 3) 3); iexact HI
  isplitr; · iapply (uf_invR m ρ K (peer c 4) 2); iexact HI
  isplitr; · iapply (uf_invR m ρ K (peer c 5) 1); iexact HI
  isplitr; · iapply (uf_invR m ρ K (peer c 6) 0); iexact HI
  isplitr; · iapply (uf_rchB (F := F) c); iexact HR
  isplitr; · iapply (uf_rchS (F := F) c 0); iexact HR
  isplitr; · iapply (uf_rchS (F := F) c 1); iexact HR
  isplitr; · iapply (uf_rchS (F := F) c 2); iexact HR
  isplitr; · iapply (uf_rchS (F := F) c 3); iexact HR
  isplitr; · iapply (uf_rchS (F := F) c 4); iexact HR
  isplitr; · iapply (uf_rchS (F := F) c 5); iexact HR
  isplitr; · iapply (uf_rchS (F := F) c 6); iexact HR
  isplitr; · iapply (uf_rchR (F := F) c 0); iexact HR
  isplitr; · iapply (uf_rchR (F := F) c 1); iexact HR
  isplitr; · iapply (uf_rchR (F := F) c 2); iexact HR
  isplitr; · iapply (uf_rchR (F := F) c 3); iexact HR
  isplitr; · iapply (uf_rchR (F := F) c 4); iexact HR
  isplitr; · iapply (uf_rchR (F := F) c 5); iexact HR
  isplitr; · iapply (uf_rchR (F := F) c 6); iexact HR
  isplitr; · iapply (uf_rchB (F := F) (peer c 0)); iexact HR
  isplitr; · iapply (uf_rchB (F := F) (peer c 1)); iexact HR
  isplitr; · iapply (uf_rchB (F := F) (peer c 2)); iexact HR
  isplitr; · iapply (uf_rchB (F := F) (peer c 3)); iexact HR
  isplitr; · iapply (uf_rchB (F := F) (peer c 4)); iexact HR
  isplitr; · iapply (uf_rchB (F := F) (peer c 5)); iexact HR
  isplitr; · iapply (uf_rchB (F := F) (peer c 6)); iexact HR
  isplitr; · iapply (uf_rchR (F := F) (peer c 0) 6); iexact HR
  isplitr; · iapply (uf_rchR (F := F) (peer c 1) 5); iexact HR
  isplitr; · iapply (uf_rchR (F := F) (peer c 2) 4); iexact HR
  isplitr; · iapply (uf_rchR (F := F) (peer c 3) 3); iexact HR
  isplitr; · iapply (uf_rchR (F := F) (peer c 4) 2); iexact HR
  isplitr; · iapply (uf_rchR (F := F) (peer c 5) 1); iexact HR
  isplitr; · iapply (uf_rchR (F := F) (peer c 6) 0); iexact HR
  iexact HL

/-! ## The linear part -/

theorem uf_lin (c : Dev nD) :
    iprop(positions (F := F) c ∗ payToks (F := F) c ∗ cred (tallyAt (barCell c) () 7)
        ∗ bigSep Finset.univ fun s : Fin 7 => cred (tallyAt (recvCell c s) () N)) ⊢ flatLin (F := F) c := by
  unfold positions payToks flatLin
  rw [bigSep_fin15, uf_fin7, uf_fin7, uf_fin7, uf_fin7, kcell_bar]
  simp only [kcell_kS, kcell_kR]
  iintro ⟨⟨PB, ⟨PS0, PS1, PS2, PS3, PS4, PS5, PS6⟩, PR0, PR1, PR2, PR3, PR4, PR5, PR6⟩, ⟨⟨TB0, TR0, TS0⟩, ⟨TB1, TR1, TS1⟩, ⟨TB2, TR2, TS2⟩, ⟨TB3, TR3, TS3⟩, ⟨TB4, TR4, TS4⟩, ⟨TB5, TR5, TS5⟩, ⟨TB6, TR6, TS6⟩⟩, CB, CR0, CR1, CR2, CR3, CR4, CR5, CR6⟩
  isplitl [PB]; · iexact PB
  isplitl [PS0]; · iexact PS0
  isplitl [PS1]; · iexact PS1
  isplitl [PS2]; · iexact PS2
  isplitl [PS3]; · iexact PS3
  isplitl [PS4]; · iexact PS4
  isplitl [PS5]; · iexact PS5
  isplitl [PS6]; · iexact PS6
  isplitl [PR0]; · iexact PR0
  isplitl [PR1]; · iexact PR1
  isplitl [PR2]; · iexact PR2
  isplitl [PR3]; · iexact PR3
  isplitl [PR4]; · iexact PR4
  isplitl [PR5]; · iexact PR5
  isplitl [PR6]; · iexact PR6
  isplitl [TB0]; · iexact TB0
  isplitl [TB1]; · iexact TB1
  isplitl [TB2]; · iexact TB2
  isplitl [TB3]; · iexact TB3
  isplitl [TB4]; · iexact TB4
  isplitl [TB5]; · iexact TB5
  isplitl [TB6]; · iexact TB6
  isplitl [TR0]; · iexact TR0
  isplitl [TR1]; · iexact TR1
  isplitl [TR2]; · iexact TR2
  isplitl [TR3]; · iexact TR3
  isplitl [TR4]; · iexact TR4
  isplitl [TR5]; · iexact TR5
  isplitl [TR6]; · iexact TR6
  isplitl [TS0]; · iexact TS0
  isplitl [TS1]; · iexact TS1
  isplitl [TS2]; · iexact TS2
  isplitl [TS3]; · iexact TS3
  isplitl [TS4]; · iexact TS4
  isplitl [TS5]; · iexact TS5
  isplitl [TS6]; · iexact TS6
  isplitl [CB]; · iexact CB
  isplitl [CR0]; · iexact CR0
  isplitl [CR1]; · iexact CR1
  isplitl [CR2]; · iexact CR2
  isplitl [CR3]; · iexact CR3
  isplitl [CR4]; · iexact CR4
  isplitl [CR5]; · iexact CR5
  iexact CR6

/-! ## The buffers and what is owed -/

theorem uf_buf (c : Dev nD) :
    iprop(scratch (F := F) c ∗ (dats m ρ 0 c).owesAt () t₀.castSucc
        ∗ (∃ d, stg c cc0_stg0_0 ((dats m ρ 0 c).before (0 : Fin 4) t₀ d))
        ∗ (∃ d, stg c cc0_stg1_0 ((dats m ρ 0 c).before (1 : Fin 4) t₀ d))
        ∗ (∃ d, stg c cc0_stg2_0 ((dats m ρ 0 c).before (2 : Fin 4) t₀ d))
        ∗ (∃ d, stg c cc0_stg3_0 ((dats m ρ 0 c).before (3 : Fin 4) t₀ d)))
      ⊢ iprop(∃ W : Waits sig Unit, flatBuf m ρ c W) := by
  unfold scratch flatBuf Dat.owesAt Pipeline.owesWithin
  iintro ⟨⟨Hs0, Hs1, Hs2⟩, ⟨%W, %hW, HO⟩, ⟨%d0, %g0, %hg0, Hx⟩, ⟨%d1, %g1, %hg1, Hg⟩, ⟨%d2, %g2, %hg2, Hb⟩, ⟨%d3, %g3, %hg3, Ho⟩⟩
  have hx : g0 = xstg m ρ c := by rw [hg0]; unfold Dat.before; rw [if_pos (fetch0_0 t₀)]; rfl
  have hg : g1 = gstg m ρ c := by rw [hg1]; unfold Dat.before; rw [if_pos (fetch0_1 t₀)]; rfl
  have hb : g2 = bstg m ρ c := by rw [hg2]; unfold Dat.before; rw [if_pos (fetch0_2 t₀)]; rfl
  subst hx hg hb
  rw [show (dats m ρ 0 c).owed t₀.castSucc = O₀ c from rfl]
  iexists W
  isplitl [Hs0]; · iexact Hs0
  isplitl [Hs1]; · iexact Hs1
  isplitl [Hs2]; · iexact Hs2
  isplitl [Hx]; · iexact Hx
  isplitl [Hg]; · iexact Hg
  isplitl [Hb]; · iexact Hb
  isplitl [Ho]; · iexists g3; iexact Ho
  iexact HO

/-! ## The whole -/

/-- The body's starting state, cell by cell. -/
theorem pre_flat (K : Dev nD × Fin 15 → ℕ) (c : Dev nD) :
    bodyPre m ρ K c ⊢ iprop(flatInv m ρ K c ∗ flatLin (F := F) c ∗ ∃ W : Waits sig Unit, flatBuf m ρ c W) := by
  unfold bodyPre ghost
  iintro ⟨⟨⟨Hrec, Hpos, Htok⟩, Hcb, Hcr, Hlev, Hscr⟩, Ho, H0, H1, H2, H3⟩
  isplitl [Hrec Hlev]
  · iapply (uf_inv m ρ K c)
    isplitl [Hrec]; · iexact Hrec
    iexact Hlev
  isplitl [Hpos Htok Hcb Hcr]
  · iapply (uf_lin (F := F) c)
    isplitl [Hpos]; · iexact Hpos
    isplitl [Htok]; · iexact Htok
    isplitl [Hcb]; · iexact Hcb
    iexact Hcr
  · iapply (uf_buf m ρ c)
    isplitl [Hscr]; · iexact Hscr
    isplitl [Ho]; · iexact Ho
    isplitl [H0]; · iexact H0
    isplitl [H1]; · iexact H1
    isplitl [H2]; · iexact H2
    iexact H3

end Cert.KernelIdeal.Run

end
-- ==== Proof.Levels.lean ====
/-
  The order of levels on the cells: barrier cells above the staging and send cells, receive cells above the barrier cells.
  Whatever a device still owes at any moment is owed to a barrier or receive cell of another device, so each of its waits
  sits below what it owes and may proceed.
-/
import proofs.«900825_g7700000000000826_dist_layernorm_colshard_i_m1024_n512_v7x_i8_bf16_1_alg».proof.Proof.Tables

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- Barrier cells sit at level 1, receive cells at 2, send cells and the staging cells (DMA semaphores 0 … 3) at 0. -/
theorem lv_bar (c : Dev nD) (u : Unit) : lv (barCell c) u = 1 := rfl
theorem lv_recv (c : Dev nD) (s : Fin 7) (u : Unit) : lv (recvCell c s) u = 2 := by
  dsimp only [lv]; exact if_pos (recv_not_lt s)
theorem lv_send (c : Dev nD) (e : Fin 7) (u : Unit) : lv (sendCell c e) u = 0 := by
  dsimp only [lv]; exact if_neg (send_lt e)
theorem lv_stage (c : Dev nD) (q : DmaSem sig) (hq : q.val < 4) (u : Unit) : lv ((c : Thread nD τ), .dma q) u = 0 := by
  dsimp only [lv]; exact if_neg (by omega)

section Owed
variable {c : Dev nD} {g : GSem nD τ sig} {u : Unit}

/-- A sum of tallies is positive at a cell only where a summand is. -/
theorem pos_add {A B : CellTallies nD τ sig Unit} (h : 0 < (A + B) g u) : 0 < A g u ∨ 0 < B g u := by
  rw [Pi.add_apply, Finsupp.add_apply] at h; omega
theorem owedBar_pos {e : Fin 7} (h : 0 < owedBar c e g u) : g = barCell (peer c e) := by
  unfold owedBar at h; rw [tallyAt_apply] at h
  by_contra hn; rw [if_neg (fun h' => hn h'.1)] at h; exact Nat.lt_irrefl 0 h
theorem owedRecv_pos {e : Fin 7} (h : 0 < owedRecv c e g u) : g = recvCell (peer c e) (rev e) := by
  unfold owedRecv at h; rw [tallyAt_apply] at h
  by_contra hn; rw [if_neg (fun h' => hn h'.1)] at h; exact Nat.lt_irrefl 0 h

/-- Whatever is still owed before a copy is owed to a receive cell of another device; -/
theorem OS7_pos (h : 0 < OS7 c g u) : ∃ e : Fin 7, g = recvCell (peer c e) (rev e) := by
  unfold OS7 at h; rw [Pi.zero_apply, Finsupp.zero_apply] at h; exact absurd h (Nat.lt_irrefl 0)
theorem OS6_pos (h : 0 < OS6 c g u) : ∃ e : Fin 7, g = recvCell (peer c e) (rev e) := by
  unfold OS6 at h; rcases pos_add h with h | h
  · exact OS7_pos h
  · exact ⟨6, owedRecv_pos h⟩
theorem OS5_pos (h : 0 < OS5 c g u) : ∃ e : Fin 7, g = recvCell (peer c e) (rev e) := by
  unfold OS5 at h; rcases pos_add h with h | h
  · exact OS6_pos h
  · exact ⟨5, owedRecv_pos h⟩
theorem OS4_pos (h : 0 < OS4 c g u) : ∃ e : Fin 7, g = recvCell (peer c e) (rev e) := by
  unfold OS4 at h; rcases pos_add h with h | h
  · exact OS5_pos h
  · exact ⟨4, owedRecv_pos h⟩
theorem OS3_pos (h : 0 < OS3 c g u) : ∃ e : Fin 7, g = recvCell (peer c e) (rev e) := by
  unfold OS3 at h; rcases pos_add h with h | h
  · exact OS4_pos h
  · exact ⟨3, owedRecv_pos h⟩
theorem OS2_pos (h : 0 < OS2 c g u) : ∃ e : Fin 7, g = recvCell (peer c e) (rev e) := by
  unfold OS2 at h; rcases pos_add h with h | h
  · exact OS3_pos h
  · exact ⟨2, owedRecv_pos h⟩
theorem OS1_pos (h : 0 < OS1 c g u) : ∃ e : Fin 7, g = recvCell (peer c e) (rev e) := by
  unfold OS1 at h; rcases pos_add h with h | h
  · exact OS2_pos h
  · exact ⟨1, owedRecv_pos h⟩
theorem OS0_pos (h : 0 < OS0 c g u) : ∃ e : Fin 7, g = recvCell (peer c e) (rev e) := by
  unfold OS0 at h; rcases pos_add h with h | h
  · exact OS1_pos h
  · exact ⟨0, owedRecv_pos h⟩

/-- before a signal, to a barrier cell or a receive cell of another device. -/
theorem OB7_pos (h : 0 < OB7 c g u) : (∃ e : Fin 7, g = barCell (peer c e)) ∨ ∃ e : Fin 7, g = recvCell (peer c e) (rev e) := by
  unfold OB7 at h; exact Or.inr (OS0_pos h)
theorem OB6_pos (h : 0 < OB6 c g u) : (∃ e : Fin 7, g = barCell (peer c e)) ∨ ∃ e : Fin 7, g = recvCell (peer c e) (rev e) := by
  unfold OB6 at h; rcases pos_add h with h | h
  · exact OB7_pos h
  · exact Or.inl ⟨6, owedBar_pos h⟩
theorem OB5_pos (h : 0 < OB5 c g u) : (∃ e : Fin 7, g = barCell (peer c e)) ∨ ∃ e : Fin 7, g = recvCell (peer c e) (rev e) := by
  unfold OB5 at h; rcases pos_add h with h | h
  · exact OB6_pos h
  · exact Or.inl ⟨5, owedBar_pos h⟩
theorem OB4_pos (h : 0 < OB4 c g u) : (∃ e : Fin 7, g = barCell (peer c e)) ∨ ∃ e : Fin 7, g = recvCell (peer c e) (rev e) := by
  unfold OB4 at h; rcases pos_add h with h | h
  · exact OB5_pos h
  · exact Or.inl ⟨4, owedBar_pos h⟩
theorem OB3_pos (h : 0 < OB3 c g u) : (∃ e : Fin 7, g = barCell (peer c e)) ∨ ∃ e : Fin 7, g = recvCell (peer c e) (rev e) := by
  unfold OB3 at h; rcases pos_add h with h | h
  · exact OB4_pos h
  · exact Or.inl ⟨3, owedBar_pos h⟩
theorem OB2_pos (h : 0 < OB2 c g u) : (∃ e : Fin 7, g = barCell (peer c e)) ∨ ∃ e : Fin 7, g = recvCell (peer c e) (rev e) := by
  unfold OB2 at h; rcases pos_add h with h | h
  · exact OB3_pos h
  · exact Or.inl ⟨2, owedBar_pos h⟩
theorem OB1_pos (h : 0 < OB1 c g u) : (∃ e : Fin 7, g = barCell (peer c e)) ∨ ∃ e : Fin 7, g = recvCell (peer c e) (rev e) := by
  unfold OB1 at h; rcases pos_add h with h | h
  · exact OB2_pos h
  · exact Or.inl ⟨1, owedBar_pos h⟩
theorem OB0_pos (h : 0 < OB0 c g u) : (∃ e : Fin 7, g = barCell (peer c e)) ∨ ∃ e : Fin 7, g = recvCell (peer c e) (rev e) := by
  unfold OB0 at h; rcases pos_add h with h | h
  · exact OB1_pos h
  · exact Or.inl ⟨0, owedBar_pos h⟩

theorem O₀_pos (h : 0 < O₀ c g u) : (∃ e : Fin 7, g = barCell (peer c e)) ∨ ∃ e : Fin 7, g = recvCell (peer c e) (rev e) := by
  unfold O₀ at h; exact OB0_pos h

/-- The same by number. -/
theorem OS_pos (k : ℕ) (h : 0 < OS c k g u) : ∃ e : Fin 7, g = recvCell (peer c e) (rev e) := by
  rcases k with _ | _ | _ | _ | _ | _ | _ | k
  · exact OS0_pos h
  · exact OS1_pos h
  · exact OS2_pos h
  · exact OS3_pos h
  · exact OS4_pos h
  · exact OS5_pos h
  · exact OS6_pos h
  · exact OS7_pos h
theorem OB_pos (k : ℕ) (h : 0 < OB c k g u) : (∃ e : Fin 7, g = barCell (peer c e)) ∨ ∃ e : Fin 7, g = recvCell (peer c e) (rev e) := by
  rcases k with _ | _ | _ | _ | _ | _ | _ | k
  · exact OB0_pos h
  · exact OB1_pos h
  · exact OB2_pos h
  · exact OB3_pos h
  · exact OB4_pos h
  · exact OB5_pos h
  · exact OB6_pos h
  · exact OB7_pos h

end Owed

/-- A staging semaphore sits at level 0, below everything a device owes at launch (levels 1 and 2). -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | ⟨e, rfl⟩ <;> (rw [L_tc]; exact Finset.mem_singleton_self _))
      (fun p hp => by rw [Finset.mem_singleton.mp hp]; exact le_of_eq (lv_stage c q hq ()))
      (fun g u hg => by
        rcases O₀_pos hg with ⟨e, rfl⟩ | ⟨e, rfl⟩
        · rw [lv_bar]; decide
        · rw [lv_recv]; decide)
  · rw [MayWait_zero]; iintro -; iempintro

/-- At its barrier wait a device owes only the seven copies' arrivals: receive cells, level 2, above the barrier's 1. -/
theorem mayWait_bar (c : Dev nD) : (levAts L lv : sProp 𝕄) ⊢ MayWait (c : Thread nD τ) (.reg barS) () (OS0 c) :=
  MayOwe.of_cut (L := L) (lev := lv) 1 (fun p hp => by rw [Finset.mem_singleton.mp hp, L_tc]; exact Finset.mem_singleton_self _)
    (fun g u hg => by obtain ⟨e, rfl⟩ := OS0_pos hg; rw [L_tc]; exact Finset.mem_singleton_self _)
    (fun p hp => by rw [Finset.mem_singleton.mp hp]; exact le_of_eq (lv_bar c ()))
    (fun g u hg => by obtain ⟨e, rfl⟩ := OS0_pos hg; rw [lv_recv]; decide)

/-- Every wait of the staging pipeline may proceed, before the body (owing everything) and after it (owing nothing). -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.KernelIdeal.Run

end
-- ==== Proof.Slots.lean ====
/-
  The buffer of seven tables, slot by slot.

  The receive buffer holds seven tables of 16 × 128 numbers; slot `s` is the part whose first coordinate is `s`.
  Entry `(a, l)` of slot `s` sits at `(s, a, l)` of the buffer. Hence: a table copied into slot `s` leaves there,
  whatever the buffer held before, exactly the entries of any array whose slot `s` is that table; and the whole
  buffer is the disjoint union of its seven slots, so owning the buffer is owning the seven slots.
-/
import proofs.«900825_g7700000000000826_dist_layernorm_colshard_i_m1024_n512_v7x_i8_bf16_1_alg».proof.Proof.Proto
import Idealize.ShloMosaic.Lib.Pipeline.Value
import Idealize.ShloMosaic.Lib.ValueIdx

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where a slot's entries sit -/

/-- An element of the buffer is in slot `s` exactly when its first coordinate is `s`. -/
theorem mem_slot (s : Fin 7) (i : S7x16x128.Idx) : i ∈ (slotM s).view.set ↔ (i 0).val = s.val := by
  show i ∈ (((View.whole cc0_scratch1).slice (Rect.unit (s := S7x16x128) ![s.val, 0, 0] S1x16x128.size (inb_slot s))).reshape
    S16x128 squeezes_S1x16x128_S16x128.numel_eq).set ↔ _
  rw [View.set_reshape, View.set_slice_whole, Rect.mem_set_unit]
  have h1 : (i 1).val < 16 := (i 1).isLt
  have h2 : (i 2).val < 128 := (i 2).isLt
  constructor
  · intro h
    have h0 := h 0
    simp [Shape.size] at h0
    omega
  · intro h a
    match a with
    | ⟨0, _⟩ => simp [Shape.size]; omega
    | ⟨1, _⟩ => simp [Shape.size]; exact h1
    | ⟨2, _⟩ => simp [Shape.size]; exact h2

/-- Entry `(a, l)` of slot `s` is entry `(s, a, l)` of the buffer. -/
theorem emb_slot (s : Fin 7) (a : Fin 16) (l : Fin 128) :
    (slotM s).view.emb (ValueIdx.ix2 a l) = (ValueIdx.ix3 s a l : S7x16x128.Idx) := by
  have hr : Shape.reshapeEquiv squeezes_S1x16x128_S16x128.numel_eq (ValueIdx.ix2 a l)
      = (ValueIdx.ix3 (0 : Fin 1) a l : S1x16x128.Idx) :=
    Shape.reshapeEquiv_eq_of_rowMajor _ (by rw [Shape.rowMajor_val_three, Shape.rowMajor_val_two]; simp)
  show (Rect.unit (s := S7x16x128) ![s.val, 0, 0] S1x16x128.size (inb_slot s)).emb
      (Shape.reshapeEquiv squeezes_S1x16x128_S16x128.numel_eq (ValueIdx.ix2 a l)) = _
  rw [hr]
  funext d
  apply Fin.ext
  rw [Rect.emb_apply]
  match d with
  | ⟨0, _⟩ => simp
  | ⟨1, _⟩ => simp
  | ⟨2, _⟩ => simp

/-! ## A copy into a slot -/

/-- What a copy of a table `t` into slot `s` leaves there, whatever the buffer held: on the slot's elements, any array
    `G` whose slot `s` is `t`. -/
theorem landing_eq (c : Dev nD) (s : Fin 7) (fd : Buf (Elt F) ((c : Thread nD τ).loc cc0_scratch1))
    (t : (cc0_scratch0 : Ref sig .tc).ty.Contents (Elt F)) (G : (cc0_scratch1 : Ref sig .tc).ty.Contents (Elt F))
    (hG : ∀ (a : Fin 16) (l : Fin 128), G (ValueIdx.ix3 s a l) = t (ValueIdx.ix2 a l)) :
    ∀ i ∈ (slotM s).view.set,
      (slotM s).view.write (Elt F) fd ((mineM : Memref sig .tc .vmem S16x128 .f32).view.read (Elt F) t) Finset.univ i = G i := by
  intro i hi
  obtain ⟨y, rfl⟩ := View.exists_emb_of_mem_set (slotM s).view hi
  obtain ⟨a, l, rfl⟩ : ∃ a l, y = ValueIdx.ix2 a l := ⟨y 0, y 1, ValueIdx.eq_ix2 y⟩
  refine (View.write_emb_of_mem _ _ (Finset.mem_univ _)).trans ?_
  rw [emb_slot, hG]
  rfl

/-- The same as an equality of ownerships: the slot after the copy is the slot at `G`. -/
theorem landing_pts (c : Dev nD) (s : Fin 7) (fd : Buf (Elt F) ((c : Thread nD τ).loc cc0_scratch1))
    (t : (cc0_scratch0 : Ref sig .tc).ty.Contents (Elt F)) (G : (cc0_scratch1 : Ref sig .tc).ty.Contents (Elt F))
    (hG : ∀ (a : Fin 16) (l : Fin 128), G (ValueIdx.ix3 s a l) = t (ValueIdx.ix2 a l)) :
    ((slotM s).view.loc (c : Thread nD τ) ↦[(slotM s).view.set]{fullShare}
        (slotM s).view.write (Elt F) fd ((mineM : Memref sig .tc .vmem S16x128 .f32).view.read (Elt F) t) Finset.univ : sProp 𝕄)
      = slotPts c s G := by
  unfold slotPts
  exact pointsTo_congr (landing_eq c s fd t G hG)

/-! ## The buffer is its seven slots -/

/-- Owning the whole buffer is owning its seven slots. -/
theorem comm_split (c : Dev nD) (f : Buf (Elt F) ((c : Thread nD τ).loc cc0_scratch1)) :
    ((((c : Thread nD τ).loc cc0_scratch1) ↦{fullShare} f) : sProp 𝕄) ⊣⊢ bigSep Finset.univ (fun s : Fin 7 => slotPts c s f) := by
  have hD : ∀ s ∈ (Finset.univ : Finset (Fin 7)), ∀ s' ∈ (Finset.univ : Finset (Fin 7)), s ≠ s' →
      Disjoint (slotM s).view.set (slotM s').view.set := by
    intro s _ s' _ hne
    rw [Finset.disjoint_left]
    intro i hi hi'
    exact hne (Fin.ext (((mem_slot s i).1 hi).symm.trans ((mem_slot s' i).1 hi')))
  have hU : (Finset.univ : Finset (Idx ((c : Thread nD τ).loc cc0_scratch1)))
      = (Finset.univ : Finset (Fin 7)).biUnion (fun s => (slotM s).view.set) := by
    ext i
    simp only [Finset.mem_univ, Finset.mem_biUnion, true_and, true_iff]
    exact ⟨⟨((i : S7x16x128.Idx) 0).val, ((i : S7x16x128.Idx) 0).isLt⟩, (mem_slot _ i).2 rfl⟩
  have hB : (((c : Thread nD τ).loc cc0_scratch1) ↦[(Finset.univ : Finset (Fin 7)).biUnion (fun s => (slotM s).view.set)]{fullShare} f : sProp 𝕄)
      = bigSep (Finset.univ : Finset (Fin 7)) (fun s : Fin 7 => ((c : Thread nD τ).loc cc0_scratch1) ↦[(slotM s).view.set]{fullShare} f) :=
    pointsTo_biUnion (ℓ := (c : Thread nD τ).loc cc0_scratch1) (q := fullShare) (f := f)
      (Finset.univ : Finset (Fin 7)) (fun s : Fin 7 => (slotM s).view.set) hD
  rw [← hU] at hB
  exact .of_eq hB

end Cert.KernelIdeal.Run

end
-- ==== Proof.Steps.lean ====
/-
  The few steps of one device's body that are taken by hand: a whole buffer's points-to spelt through its memref; the
  buffer of seven tables cut into its slots and put together again; the table of row statistics as stored, split into
  seven read shares and a remainder, and joined again; what the seven barrier signals hand over, slot by slot; and one
  copy of the table to a peer, whose arrival leaves in the peer's slot what all devices end holding there.
-/
import proofs.«900825_g7700000000000826_dist_layernorm_colshard_i_m1024_n512_v7x_i8_bf16_1_alg».proof.Proof.Flat
import proofs.«900825_g7700000000000826_dist_layernorm_colshard_i_m1024_n512_v7x_i8_bf16_1_alg».proof.Proof.Tables
import proofs.«900825_g7700000000000826_dist_layernorm_colshard_i_m1024_n512_v7x_i8_bf16_1_alg».proof.Proof.Levels
import proofs.«900825_g7700000000000826_dist_layernorm_colshard_i_m1024_n512_v7x_i8_bf16_1_alg».proof.Proof.Slots

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Spellings -/

/-- A points-to of a memref's elements, spelt through the memref. -/
theorem restate {S : Shape} {e : EltTy} (c : Dev nD) (M : Memref sig .tc .vmem S e) (q : PosShare TreeShare) (f : Buf (Elt F) (M.view.loc (c : Thread nD τ))) :
    ((M.view.loc (c : Thread nD τ) ↦[M.view.set]{q} f) : sProp 𝕄) ⊢ (M.view.loc (c : Thread nD τ) ↦[M.view.set]{q} f) := BI.Entails.refl _

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a; rfl

/-! ## The buffer of seven tables and its slots -/

/-- The whole buffer as its seven slots, each spelt through its memref. -/
theorem comm_slots (c : Dev nD) (f : Buf (Elt F) ((c : Thread nD τ).loc cc0_scratch1)) :
    ((((Memref.whole cc0_scratch1 : Memref sig .tc .vmem S7x16x128 .f32).view.loc (c : Thread nD τ)) ↦{fullShare} f) : sProp 𝕄)
      ⊢ iprop(((slotM 0).view.loc (c : Thread nD τ) ↦[(slotM 0).view.set]{fullShare} f)
        ∗ ((slotM 1).view.loc (c : Thread nD τ) ↦[(slotM 1).view.set]{fullShare} f)
        ∗ ((slotM 2).view.loc (c : Thread nD τ) ↦[(slotM 2).view.set]{fullShare} f)
        ∗ ((slotM 3).view.loc (c : Thread nD τ) ↦[(slotM 3).view.set]{fullShare} f)
        ∗ ((slotM 4).view.loc (c : Thread nD τ) ↦[(slotM 4).view.set]{fullShare} f)
        ∗ ((slotM 5).view.loc (c : Thread nD τ) ↦[(slotM 5).view.set]{fullShare} f)
        ∗ ((slotM 6).view.loc (c : Thread nD τ) ↦[(slotM 6).view.set]{fullShare} f)) :=
  (comm_split (F := F) c f).1.trans (Entails.of_eq (bigSep_fin7 _))

/-- The seven slots, all at one array's contents, put together again. -/
theorem slots_comm (c : Dev nD) (f : Buf (Elt F) ((c : Thread nD τ).loc cc0_scratch1)) :
    iprop(((slotM 0).view.loc (c : Thread nD τ) ↦[(slotM 0).view.set]{fullShare} f)
        ∗ ((slotM 1).view.loc (c : Thread nD τ) ↦[(slotM 1).view.set]{fullShare} f)
        ∗ ((slotM 2).view.loc (c : Thread nD τ) ↦[(slotM 2).view.set]{fullShare} f)
        ∗ ((slotM 3).view.loc (c : Thread nD τ) ↦[(slotM 3).view.set]{fullShare} f)
        ∗ ((slotM 4).view.loc (c : Thread nD τ) ↦[(slotM 4).view.set]{fullShare} f)
        ∗ ((slotM 5).view.loc (c : Thread nD τ) ↦[(slotM 5).view.set]{fullShare} f)
        ∗ ((slotM 6).view.loc (c : Thread nD τ) ↦[(slotM 6).view.set]{fullShare} f))
      ⊢ ((((Memref.whole cc0_scratch1 : Memref sig .tc .vmem S7x16x128 .f32).view.loc (c : Thread nD τ)) ↦[(Memref.whole cc0_scratch1 : Memref sig .tc .vmem S7x16x128 .f32).view.set]{fullShare} f) : sProp 𝕄) :=
  (Entails.of_eq (bigSep_fin7 (fun s : Fin 7 => slotPts (F := F) c s f)).symm).trans
    ((comm_split (F := F) c f).2.trans (Entails.of_eq (by rw [View.set_whole])))

/-! ## The table of row statistics -/

/-- What the one store of the table leaves in its buffer: the table itself, whatever was there. -/
theorem mine_stored (c : Dev nD) (fm : Buf (Elt F) ((c : Thread nD τ).loc cc0_scratch0)) :
    (Memref.whole cc0_scratch0 : Memref sig .tc .vmem S16x128 .f32).view.writes (Elt F) fm
      [⟨Rect.unit (s := S16x128) ![0, 0] S16x128.size inb_S16x128_S16x128_0_0,
          k0_pay2 (k0_pay1 (View.readAt (Elt F) (Memref.whole cc0_stg0_0 : Memref sig .tc .vmem S1024x512 .f32).view
            (Rect.unit (s := S1024x512) ![0, 0] S1024x512.size inb_S1024x512_S1024x512_0_0).toLoadRect (xstg m ρ c)))⟩]
      = statsVal m ρ c := by
  rw [View.writes_singleton]
  rw [show (View.readAt (Elt F) (Memref.whole cc0_stg0_0 : Memref sig .tc .vmem S1024x512 .f32).view
      (Rect.unit (s := S1024x512) ![0, 0] S1024x512.size inb_S1024x512_S1024x512_0_0).toLoadRect (xstg m ρ c)) = xstg m ρ c from
    Memref.readAt_unit_zero (Elt F) cc0_stg0_0 hz2 _ _]
  exact Memref.write_access_unit_zero_univ (Elt F) cc0_scratch0 hz2 _ fm _

/-- The table, held whole, as a remainder and seven read shares, one for each copy that reads it. -/
theorem mine_split (c : Dev nD) :
    (((Memref.whole cc0_scratch0 : Memref sig .tc .vmem S16x128 .f32).view.loc (c : Thread nD τ) ↦[(Memref.whole cc0_scratch0 : Memref sig .tc .vmem S16x128 .f32).view.set]{fullShare} statsVal m ρ c) : sProp 𝕄)
      ⊢ iprop(((Memref.whole cc0_scratch0 : Memref sig .tc .vmem S16x128 .f32).view.loc (c : Thread nD τ) ↦[(Memref.whole cc0_scratch0 : Memref sig .tc .vmem S16x128 .f32).view.set]{Transfers.shareDrop fullShare 7} statsVal m ρ c)
        ∗ mineTok m ρ c 0 ∗ mineTok m ρ c 1 ∗ mineTok m ρ c 2 ∗ mineTok m ρ c 3 ∗ mineTok m ρ c 4 ∗ mineTok m ρ c 5 ∗ mineTok m ρ c 6) :=
  (Transfers.pointsTo_toks_split fullShare 7).trans (sep_mono_right (Entails.of_eq (bigSep_fin7 (fun e : Fin 7 => mineTok m ρ c e))))

/-- The remainder and the seven read shares joined back. -/
theorem mine_join (c : Dev nD) :
    iprop(((Memref.whole cc0_scratch0 : Memref sig .tc .vmem S16x128 .f32).view.loc (c : Thread nD τ) ↦[(Memref.whole cc0_scratch0 : Memref sig .tc .vmem S16x128 .f32).view.set]{Transfers.shareDrop fullShare 7} statsVal m ρ c)
        ∗ mineTok m ρ c 0 ∗ mineTok m ρ c 1 ∗ mineTok m ρ c 2 ∗ mineTok m ρ c 3 ∗ mineTok m ρ c 4 ∗ mineTok m ρ c 5 ∗ mineTok m ρ c 6)
      ⊢ (((Memref.whole cc0_scratch0 : Memref sig .tc .vmem S16x128 .f32).view.loc (c : Thread nD τ) ↦[(Memref.whole cc0_scratch0 : Memref sig .tc .vmem S16x128 .f32).view.set]{fullShare} statsVal m ρ c) : sProp 𝕄) :=
  (sep_mono_right (Entails.of_eq (bigSep_fin7 (fun e : Fin 7 => mineTok m ρ c e)).symm)).trans (Transfers.pointsTo_toks_join fullShare 7)

/-! ## What the barrier's round hands over -/

/-- The seven payloads of a device's barrier round: slot `d` of the device `6 - d` offsets on, at some contents. -/
theorem bar_payloads (c : Dev nD) :
    (bigSep Finset.univ (fun d : Fin 7 => (Rd (F := F) m ρ).payload (barCell c) 0 d) : sProp 𝕄)
      ⊢ iprop((∃ f, slotPts (F := F) (peer c 6) 0 f) ∗ (∃ f, slotPts (F := F) (peer c 5) 1 f) ∗ (∃ f, slotPts (F := F) (peer c 4) 2 f)
        ∗ (∃ f, slotPts (F := F) (peer c 3) 3 f) ∗ (∃ f, slotPts (F := F) (peer c 2) 4 f) ∗ (∃ f, slotPts (F := F) (peer c 1) 5 f)
        ∗ (∃ f, slotPts (F := F) (peer c 0) 6 f)) :=
  Entails.of_eq (bigSep_fin7 _)

/-! ## One copy of the table to a peer -/

/-- Slot `rev e` of the device `e + 1` places on ends holding this device's table: that is what the slot holds in the
    array of the seven tables that device gathers. -/
theorem comm_at_peer (c : Dev nD) (e : Fin 7) (a : Fin 16) (l : Fin 128) :
    commVal m ρ (peer c e) (ValueIdx.ix3 (rev e) a l) = statsVal m ρ c (ValueIdx.ix2 a l) := by
  show KVal.stats (xstg m ρ (peer (peer c e) (rev e))) _ = _
  rw [peer_rev]; rfl

/-- The copy's units: a slot's credit is the table's (the same shape and element type). -/
theorem slot_credit (s : Fin 7) : (slotM s).view.amount (.dma (recvSem s)) = N := rfl

theorem send_duty (c : Dev nD) (e : Fin 7) : (0 : Fin 7) ∈ (Rd (F := F) m ρ).duties (sendCell c e) 0 := by
  rw [duties_send]; exact Finset.mem_singleton_self _
theorem recv_duty (c : Dev nD) (s : Fin 7) : (0 : Fin 7) ∈ (Rd (F := F) m ρ).duties (recvCell c s) 0 := by
  rw [duties_recv]; exact Finset.mem_singleton_self _

/-- The departure hands the read share back. -/
theorem send_pay (c : Dev nD) (e : Fin 7) :
    ((mineM : Memref sig .tc .vmem S16x128 .f32).view.loc (c : Thread nD τ) ↦[(mineM : Memref sig .tc .vmem S16x128 .f32).view.set]{Transfers.shareTok fullShare 7 e} statsVal m ρ c : sProp 𝕄)
      ⊢ (Rd (F := F) m ρ).payload (sendCell c e) 0 (0 : Fin 7) := by
  rw [payload_send]; exact BI.Entails.refl _

/-- The arrival leaves the peer's slot at the gathered array's contents, whatever it held. -/
theorem recv_pay (c : Dev nD) (e : Fin 7) (fd : Buf (Elt F) ((peer c e : Thread nD τ).loc cc0_scratch1)) :
    ((slotM (rev e)).view.loc (peer c e : Thread nD τ) ↦[(slotM (rev e)).view.set]{fullShare}
        (slotM (rev e)).view.write (Elt F) fd ((mineM : Memref sig .tc .vmem S16x128 .f32).view.read (Elt F) (statsVal m ρ c)) Finset.univ : sProp 𝕄)
      ⊢ (Rd (F := F) m ρ).payload (recvCell (peer c e) (rev e)) 0 (0 : Fin 7) := by
  rw [payload_recv]; unfold recvPay
  exact Entails.of_eq (landing_pts (peer c e) (rev e) fd (statsVal m ρ c) (commVal m ρ (peer c e)) (comm_at_peer m ρ c e))

/-- The copy of the table into slot `s = rev e` of `p = peer c e`, its memrefs and semaphores as the program spells them:
    the read share comes back with the departure, the slot lands at the gathered array's contents. -/
theorem wp_send_peer (K : Dev nD × Fin 15 → ℕ) (c p : Dev nD) (e s : Fin 7) (hp : p = peer c e) (hs : s = rev e)
    (src : Memref sig .tc .vmem S16x128 .f32) (hsrcM : src = mineM)
    (dst : Memref sig .tc .vmem S16x128 .f32) (hdstM : dst = slotM s)
    (sS sR : DmaSem sig) (hsS : sS = sendSem e) (hsR : sR = recvSem s)
    {hsc : (dst : Memref sig (Dev.tc p : Thread nD τ).2.kind .vmem S16x128 .f32).view.ref.isScScratch = false}
    {hsrc : src.view.WordExact} {hdst : dst.view.WordExact}
    {hsem : DmaTarget.Typed .vmem (.dma sR) (.remote (Dev.tc p : Thread nD τ) dst (.dma sS) hsc)}
    {α : Type} {Q : α → sProp 𝕄} {k : PUnit → Prog (TpuEff nD τ sig (Elt F) Λ₀ .tc) α}
    (fd : Buf (Elt F) ((peer c e : Thread nD τ).loc cc0_scratch1)) (O : CellTallies nD τ sig Unit) (W : Waits sig Unit) :
    iprop(cellInv ER (Rd m ρ) (K (c, kS e)) (sendCell c e) ∗ cellInv ER (Rd m ρ) (K (peer c e, kR (rev e))) (recvCell (peer c e) (rev e))
        ∗ mineTok m ρ c e ∗ slotPts (peer c e) (rev e) fd
        ∗ owes (c : Thread nD τ) (O + tallyAt (recvCell (peer c e) (rev e)) () N) W
        ∗ dutyTok ER (sendCell c e) 0 (0 : Fin 7) ∗ reached ER (sendCell c e) 0
        ∗ dutyTok ER (recvCell (peer c e) (rev e)) 0 (0 : Fin 7) ∗ reached ER (recvCell (peer c e) (rev e)) 0)
      ⊢ iprop(((cred (tallyAt (sendCell c e) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst (.dma sS) hsc) (.dma sR) hsrc hdst hsem) k) Q) := by
  subst hp hs hsrcM hdstM hsS hsR
  unfold mineTok slotPts
  exact Rounds.wp_send_pointsTo 𝒱₀ ER (Rd m ρ) (c : Thread nD τ) none (c' := (Dev.tc (peer c e) : Thread nD τ))
    (src := mineM) (dst := slotM (rev e)) (sS := .dma (sendSem e)) (sem := .dma (recvSem (rev e)))
    (q := Transfers.shareTok fullShare 7 e) (fs := statsVal m ρ c) (fd := fd)
    (κ₁ := K (c, kS e)) (κ₂ := K (peer c e, kR (rev e)))
    (r₁ := 0) (r₂ := 0) (d₁ := 0) (d₂ := 0)
    (send_duty m ρ c e) (recv_duty m ρ (peer c e) (rev e))
    () () N (slot_credit (rev e)) (amount_send m ρ c e 0) (amount_recv m ρ (peer c e) (rev e) 0) O rfl (W := W)
    (send_pay m ρ c e) (recv_pay m ρ c e fd)

/-! ## Reading a whole buffer, and what the last store leaves -/

theorem rd_x (f : (cc0_stg0_0 : Ref sig .tc).ty.Contents (Elt F)) :
    View.readAt (Elt F) (Memref.whole cc0_stg0_0 : Memref sig .tc .vmem S1024x512 .f32).view (Rect.unit (s := S1024x512) ![0, 0] S1024x512.size inb_S1024x512_S1024x512_0_0).toLoadRect f = f :=
  Memref.readAt_unit_zero (Elt F) cc0_stg0_0 hz2 _ f
theorem rd_g (f : (cc0_stg1_0 : Ref sig .tc).ty.Contents (Elt F)) :
    View.readAt (Elt F) (Memref.whole cc0_stg1_0 : Memref sig .tc .vmem S512 .f32).view (Rect.unit (s := S512) ![0] S512.size inb_S512_S512_0).toLoadRect f = f :=
  Memref.readAt_unit_zero (Elt F) cc0_stg1_0 hz1 _ f
theorem rd_b (f : (cc0_stg2_0 : Ref sig .tc).ty.Contents (Elt F)) :
    View.readAt (Elt F) (Memref.whole cc0_stg2_0 : Memref sig .tc .vmem S512 .f32).view (Rect.unit (s := S512) ![0] S512.size inb_S512_S512_0).toLoadRect f = f :=
  Memref.readAt_unit_zero (Elt F) cc0_stg2_0 hz1 _ f
theorem rd_m (f : (cc0_scratch0 : Ref sig .tc).ty.Contents (Elt F)) :
    View.readAt (Elt F) (Memref.whole cc0_scratch0 : Memref sig .tc .vmem S16x128 .f32).view (Rect.unit (s := S16x128) ![0, 0] S16x128.size inb_S16x128_S16x128_0_0).toLoadRect f = f :=
  Memref.readAt_unit_zero (Elt F) cc0_scratch0 hz2 _ f
theorem rd_c (f : (cc0_scratch1 : Ref sig .tc).ty.Contents (Elt F)) :
    View.readAt (Elt F) (Memref.whole cc0_scratch1 : Memref sig .tc .vmem S7x16x128 .f32).view (Rect.unit (s := S7x16x128) ![0, 0, 0] S7x16x128.size inb_S7x16x128_S7x16x128_0_0_0).toLoadRect f = f :=
  Memref.readAt_unit_zero (Elt F) cc0_scratch1 hz3 _ f

/-- What the one store of the result leaves in its staging buffer: the device's result block — computed from the table, the
    gathered tables, the gain and offset blocks and the narrow copy of the block, each read back whole. -/
theorem out_stored (c : Dev nD) (fo : Buf (Elt F) ((c : Thread nD τ).loc cc0_stg3_0)) :
    (Memref.whole cc0_stg3_0 : Memref sig .tc .vmem S1024x512 .bf16).view.writes (Elt F) fo
      [⟨Rect.unit (s := S1024x512) ![0, 0] S1024x512.size inb_S1024x512_S1024x512_0_0,
          k0_pay4
            (View.readAt (Elt F) (Memref.whole cc0_scratch0 : Memref sig .tc .vmem S16x128 .f32).view
              (Rect.unit (s := S16x128) ![0, 0] S16x128.size inb_S16x128_S16x128_0_0).toLoadRect (statsVal m ρ c))
            (View.readAt (Elt F) (Memref.whole cc0_scratch1 : Memref sig .tc .vmem S7x16x128 .f32).view
              (Rect.unit (s := S7x16x128) ![0, 0, 0] S7x16x128.size inb_S7x16x128_S7x16x128_0_0_0).toLoadRect (commVal m ρ c))
            (View.readAt (Elt F) (Memref.whole cc0_stg1_0 : Memref sig .tc .vmem S512 .f32).view (Rect.unit (s := S512) ![0] S512.size inb_S512_S512_0).toLoadRect (gstg m ρ c))
            (View.readAt (Elt F) (Memref.whole cc0_stg2_0 : Memref sig .tc .vmem S512 .f32).view (Rect.unit (s := S512) ![0] S512.size inb_S512_S512_0).toLoadRect (bstg m ρ c))
            ((Memref.whole cc0_scratch2 : Memref sig .tc .vmem S1024x512 .bf16).view.readCov
              [⟨Rect.unit (s := S1024x512) ![0, 0] S1024x512.size inb_S1024x512_S1024x512_0_0,
                  k0_pay3 (View.readAt (Elt F) (Memref.whole cc0_stg0_0 : Memref sig .tc .vmem S1024x512 .f32).view
                    (Rect.unit (s := S1024x512) ![0, 0] S1024x512.size inb_S1024x512_S1024x512_0_0).toLoadRect (xstg m ρ c))⟩]
              (Rect.unit (s := S1024x512) ![0, 0] S1024x512.size inb_S1024x512_S1024x512_0_0).toLoadRect)⟩]
      = outVal m ρ c := by
  rw [View.writes_singleton, rd_m, rd_c, rd_g, rd_b, rd_x]
  refine (Memref.write_access_unit_zero_univ (Elt F) cc0_stg3_0 hz2 _ fo _).trans ?_
  show k0_pay4 (statsVal m ρ c) (commVal m ρ c) (gstg m ρ c) (bstg m ρ c) _
    = k0_pay4 (statsVal m ρ c) (commVal m ρ c) (gstg m ρ c) (bstg m ρ c) (k0_pay3 (xstg m ρ c))
  exact congrArg (k0_pay4 (statsVal m ρ c) (commVal m ρ c) (gstg m ρ c) (bstg m ρ c)) (View.readCov_unit_zero _ hz2 _ _)

/-- A whole buffer's points-to spelt through its memref, read back at the buffer's location. -/
theorem unstate {S : Shape} {e : EltTy} (c : Dev nD) (M : Memref sig .tc .vmem S e) (hM : M.IsWhole) (q : PosShare TreeShare) (f : Buf (Elt F) (M.view.loc (c : Thread nD τ))) :
    ((M.view.loc (c : Thread nD τ) ↦[M.view.set]{q} f) : sProp 𝕄) ⊢ (M.view.loc (c : Thread nD τ) ↦{q} f) := by
  rw [hM.set_eq_univ]

/-! ## Closing a cell -/

/-- A device's own send or receive cell, its one round consumed, is closed: the counter is the device's again, at zero. -/
theorem close_send (K : Dev nD × Fin 15 → ℕ) (c : Dev nD) (e : Fin 7) :
    iprop(cellInv ER (Rd m ρ) (K (c, kS e)) (sendCell c e) ∗ atPos ER (sendCell c e) 1 ∅ 0) ⊢ iprop(|={Set.univ}=> semVal (sendCell c e) 0) :=
  Rounds.cell_close ER (Rd m ρ) (Set.mem_univ (K (c, kS e))) (fun h => h) (R := 1) (duties_later m ρ (sendCell c e))
theorem close_recv (K : Dev nD × Fin 15 → ℕ) (c : Dev nD) (s : Fin 7) :
    iprop(cellInv ER (Rd m ρ) (K (c, kR s)) (recvCell c s) ∗ atPos ER (recvCell c s) 1 ∅ 0) ⊢ iprop(|={Set.univ}=> semVal (recvCell c s) 0) :=
  Rounds.cell_close ER (Rd m ρ) (Set.mem_univ (K (c, kR s))) (fun h => h) (R := 1) (duties_later m ρ (recvCell c s))

end Cert.KernelIdeal.Run

end
-- ==== Proof.Body.lean ====
/-
  One device's body, from the state the pipeline hands it to the state it hands back.

  In program order: the seven barrier signals, each handing the signalled device one slot of this device's receive buffer;
  the table of row sums and row sums of squares computed from the block and stored; the wait for the seven signals of the
  others, which hands over, on each of them, the slot this device fills; the seven copies of the table, each reading it
  through its own read share and leaving in the peer's slot what that peer's gathered array holds there; the block kept in
  the narrower format; the seven waits for the copies arriving here, after which the receive buffer holds the seven other
  tables; the result computed from the eight tables and stored; the seven waits for the copies' departures, which return the
  read shares. At the end the table is whole again, the fourteen own semaphores are at zero and closed, nothing is owed.
-/
import proofs.«900825_g7700000000000826_dist_layernorm_colshard_i_m1024_n512_v7x_i8_bf16_1_alg».proof.Proof.Gen.KernelIdeal.Skeleton
import proofs.«900825_g7700000000000826_dist_layernorm_colshard_i_m1024_n512_v7x_i8_bf16_1_alg».proof.Proof.Unflat
import proofs.«900825_g7700000000000826_dist_layernorm_colshard_i_m1024_n512_v7x_i8_bf16_1_alg».proof.Proof.Steps
noncomputable section
namespace Cert.KernelIdeal.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]
local notation "𝕄" => MT nD τ sig Unit (Elt F) ℕ UU ℕ
variable (m : (ℓ : Loc nD τ sig) → Buf (Elt F) ℓ) (ρ : Dev nD → PrngReg)

/-- Nothing owed, whatever waits were recorded, is what the pipeline asks after the point. -/
theorem owesAt_of (c : Dev nD) (W' : Waits sig Unit) :
    (owes (c : Thread nD τ) 0 W' : sProp 𝕄) ⊢ (dats m ρ 0 c).owesAt () t₀.succ := by
  unfold Dat.owesAt Pipeline.owesWithin
  rw [show (dats m ρ 0 c).owed t₀.succ = 0 from rfl]
  iintro HO
  iexists W'
  isplitr; · ipureintro; exact fun _ _ => Or.inl trivial
  iexact HO
attribute [local sl_canon] dev1_eq dev2_eq dev3_eq dev4_eq dev5_eq dev6_eq dev7_eq dev8_eq dev9_eq dev10_eq dev11_eq dev12_eq dev13_eq dev14_eq
attribute [local sl_rounds] duties_bar duties_send duties_recv amount_bar amount_send amount_recv expect_bar expect_send expect_recv
  payload_bar_pay payload_recv_own payload_send_own

set_option maxHeartbeats 4000000 in
/-- The body run from the starting state laid out cell by cell. The signals, the local loads and stores, and every wait
    are stepped from the cells' invariants, tokens, positions and credits; each of the seven copies is applied with its
    arrival stated at the contents the peer's slot ends holding; between the receive waits and the load of the receive
    buffer the seven slots are put together again. -/
theorem flat_body (K : Dev nD × Fin 15 → ℕ) (c : Dev nD) (W : Waits sig Unit) (Kt : PUnit → sProp 𝕄) :
    iprop(flatInv m ρ K c ∗ flatLin (F := F) c ∗ flatBuf m ρ c W ∗ (bodyPost m ρ c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  delta flatInv flatLin flatBuf
  iintro ⟨⟨#HIb, #HIs0, #HIs1, #HIs2, #HIs3, #HIs4, #HIs5, #HIs6, #HIr0, #HIr1, #HIr2, #HIr3, #HIr4, #HIr5, #HIr6, #HIbp0, #HIbp1, #HIbp2, #HIbp3, #HIbp4, #HIbp5, #HIbp6, #HIrp0, #HIrp1, #HIrp2, #HIrp3, #HIrp4, #HIrp5, #HIrp6, #HRb, #HRs0, #HRs1, #HRs2, #HRs3, #HRs4, #HRs5, #HRs6, #HRr0, #HRr1, #HRr2, #HRr3, #HRr4, #HRr5, #HRr6, #HRbp0, #HRbp1, #HRbp2, #HRbp3, #HRbp4, #HRbp5, #HRbp6, #HRrp0, #HRrp1, #HRrp2, #HRrp3, #HRrp4, #HRrp5, #HRrp6, #Hlev⟩, ⟨HaB, HaS0, HaS1, HaS2, HaS3, HaS4, HaS5, HaS6, HaR0, HaR1, HaR2, HaR3, HaR4, HaR5, HaR6, HtB0, HtB1, HtB2, HtB3, HtB4, HtB5, HtB6, HtR0, HtR1, HtR2, HtR3, HtR4, HtR5, HtR6, HtS0, HtS1, HtS2, HtS3, HtS4, HtS5, HtS6, HcB, HcR0, HcR1, HcR2, HcR3, HcR4, HcR5, HcR6⟩, ⟨⟨%fm, Hm⟩, ⟨%fc, Hc⟩, ⟨%fx, Hxb⟩, Hx, Hg, Hb, ⟨%fo, Hout⟩, HO⟩, Hk⟩
  ihave Hsl := (comm_slots (F := F) c fc) $$ Hc
  icases Hsl with ⟨Hs0, Hs1, Hs2, Hs3, Hs4, Hs5, Hs6⟩
  delta O₀ OB0 OB1 OB2 OB3 OB4 OB5 OB6 OB7 OS0 OS1 OS2 OS3 OS4 OS5 OS6 OS7 owedBar owedRecv
  have hmw := mayWait_bar (F := F) c
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  ihave Hx := (restate (F := F) c (Memref.whole cc0_stg0_0 : Memref sig .tc .vmem S1024x512 .f32) fullShare (xstg m ρ c)) $$ [Hx]
  · rw [View.set_whole]; iexact Hx
  ihave Hg := (restate (F := F) c (Memref.whole cc0_stg1_0 : Memref sig .tc .vmem S512 .f32) fullShare (gstg m ρ c)) $$ [Hg]
  · rw [View.set_whole]; iexact Hg
  ihave Hb := (restate (F := F) c (Memref.whole cc0_stg2_0 : Memref sig .tc .vmem S512 .f32) fullShare (bstg m ρ c)) $$ [Hb]
  · rw [View.set_whole]; iexact Hb
  ihave Hout := (restate (F := F) c (Memref.whole cc0_stg3_0 : Memref sig .tc .vmem S1024x512 .bf16) fullShare fo) $$ [Hout]
  · rw [View.set_whole]; iexact Hout
  ihave Hm := (restate (F := F) c (Memref.whole cc0_scratch0 : Memref sig .tc .vmem S16x128 .f32) fullShare fm) $$ [Hm]
  · rw [View.set_whole]; iexact Hm
  ihave Hxb := (restate (F := F) c (Memref.whole cc0_scratch2 : Memref sig .tc .vmem S1024x512 .bf16) fullShare fx) $$ [Hxb]
  · rw [View.set_whole]; iexact Hxb
  sl_exec
  rw [mine_stored m ρ c fm]
  ihave Hm := (mine_split m ρ c) $$ Hm
  icases Hm with ⟨Hmr, Hmt0, Hmt1, Hmt2, Hmt3, Hmt4, Hmt5, Hmt6⟩
  ihave Hp := (bar_payloads m ρ c) $$ HaB_pay1
  icases Hp with ⟨⟨%fq0, Hq0⟩, ⟨%fq1, Hq1⟩, ⟨%fq2, Hq2⟩, ⟨%fq3, Hq3⟩, ⟨%fq4, Hq4⟩, ⟨%fq5, Hq5⟩, ⟨%fq6, Hq6⟩⟩
  iapply (wp_send_peer m ρ K c _ 0 6 (dev8_eq c) (by decide) _ rfl _ rfl _ _ rfl rfl fq6 _ _) $$ [Hmt0 Hq6 HO HtS0 HtR0]
  · isplitr; · iexact HIs0
    isplitr; · iexact HIrp0
    isplitl [Hmt0]; · iexact Hmt0
    isplitl [Hq6]; · iexact Hq6
    isplitl [HO]; · iexact HO
    isplitl [HtS0]; · iexact HtS0
    isplitr; · iexact HRs0
    isplitl [HtR0]; · iexact HtR0
    iexact HRrp0
  iintro ⟨HcS0, HO⟩
  sl_exec
  iapply (wp_send_peer m ρ K c _ 1 5 (dev9_eq c) (by decide) _ rfl _ rfl _ _ rfl rfl fq5 _ _) $$ [Hmt1 Hq5 HO HtS1 HtR1]
  · isplitr; · iexact HIs1
    isplitr; · iexact HIrp1
    isplitl [Hmt1]; · iexact Hmt1
    isplitl [Hq5]; · iexact Hq5
    isplitl [HO]; · iexact HO
    isplitl [HtS1]; · iexact HtS1
    isplitr; · iexact HRs1
    isplitl [HtR1]; · iexact HtR1
    iexact HRrp1
  iintro ⟨HcS1, HO⟩
  sl_exec
  iapply (wp_send_peer m ρ K c _ 2 4 (dev10_eq c) (by decide) _ rfl _ rfl _ _ rfl rfl fq4 _ _) $$ [Hmt2 Hq4 HO HtS2 HtR2]
  · isplitr; · iexact HIs2
    isplitr; · iexact HIrp2
    isplitl [Hmt2]; · iexact Hmt2
    isplitl [Hq4]; · iexact Hq4
    isplitl [HO]; · iexact HO
    isplitl [HtS2]; · iexact HtS2
    isplitr; · iexact HRs2
    isplitl [HtR2]; · iexact HtR2
    iexact HRrp2
  iintro ⟨HcS2, HO⟩
  sl_exec
  iapply (wp_send_peer m ρ K c _ 3 3 (dev11_eq c) (by decide) _ rfl _ rfl _ _ rfl rfl fq3 _ _) $$ [Hmt3 Hq3 HO HtS3 HtR3]
  · isplitr; · iexact HIs3
    isplitr; · iexact HIrp3
    isplitl [Hmt3]; · iexact Hmt3
    isplitl [Hq3]; · iexact Hq3
    isplitl [HO]; · iexact HO
    isplitl [HtS3]; · iexact HtS3
    isplitr; · iexact HRs3
    isplitl [HtR3]; · iexact HtR3
    iexact HRrp3
  iintro ⟨HcS3, HO⟩
  sl_exec
  iapply (wp_send_peer m ρ K c _ 4 2 (dev12_eq c) (by decide) _ rfl _ rfl _ _ rfl rfl fq2 _ _) $$ [Hmt4 Hq2 HO HtS4 HtR4]
  · isplitr; · iexact HIs4
    isplitr; · iexact HIrp4
    isplitl [Hmt4]; · iexact Hmt4
    isplitl [Hq2]; · iexact Hq2
    isplitl [HO]; · iexact HO
    isplitl [HtS4]; · iexact HtS4
    isplitr; · iexact HRs4
    isplitl [HtR4]; · iexact HtR4
    iexact HRrp4
  iintro ⟨HcS4, HO⟩
  sl_exec
  iapply (wp_send_peer m ρ K c _ 5 1 (dev13_eq c) (by decide) _ rfl _ rfl _ _ rfl rfl fq1 _ _) $$ [Hmt5 Hq1 HO HtS5 HtR5]
  · isplitr; · iexact HIs5
    isplitr; · iexact HIrp5
    isplitl [Hmt5]; · iexact Hmt5
    isplitl [Hq1]; · iexact Hq1
    isplitl [HO]; · iexact HO
    isplitl [HtS5]; · iexact HtS5
    isplitr; · iexact HRs5
    isplitl [HtR5]; · iexact HtR5
    iexact HRrp5
  iintro ⟨HcS5, HO⟩
  sl_exec
  iapply (wp_send_peer m ρ K c _ 6 0 (dev14_eq c) (by decide) _ rfl _ rfl _ _ rfl rfl fq0 _ _) $$ [Hmt6 Hq0 HO HtS6 HtR6]
  · isplitr; · iexact HIs6
    isplitr; · iexact HIrp6
    isplitl [Hmt6]; · iexact Hmt6
    isplitl [Hq0]; · iexact Hq0
    isplitl [HO]; · iexact HO
    isplitl [HtS6]; · iexact HtS6
    isplitr; · iexact HRs6
    isplitl [HtR6]; · iexact HtR6
    iexact HRrp6
  iintro ⟨HcS6, HO⟩
  sl_exec
  ihave Hc := (slots_comm (F := F) c (commVal m ρ c)) $$ [HaR0_pay1 HaR1_pay1 HaR2_pay1 HaR3_pay1 HaR4_pay1 HaR5_pay1 HaR6_pay1]
  · isplitl [HaR0_pay1]; · iexact HaR0_pay1
    isplitl [HaR1_pay1]; · iexact HaR1_pay1
    isplitl [HaR2_pay1]; · iexact HaR2_pay1
    isplitl [HaR3_pay1]; · iexact HaR3_pay1
    isplitl [HaR4_pay1]; · iexact HaR4_pay1
    isplitl [HaR5_pay1]; · iexact HaR5_pay1
    iexact HaR6_pay1
  sl_exec
  sl_unfold_words
  rw [out_stored m ρ c fo]
  rw [wp_ret]
  -- the remainder and the seven read shares of the table are the whole table again
  ihave Hm := (mine_join m ρ c) $$ [Hmr HaS0_pay1 HaS1_pay1 HaS2_pay1 HaS3_pay1 HaS4_pay1 HaS5_pay1 HaS6_pay1]
  · unfold mineTok
    isplitl [Hmr]; · iexact Hmr
    isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    iexact HaS6_pay1
  -- each own cell has consumed its one round: its counter comes back at zero
  imod (close_send m ρ K c 0) $$ [HaS0] with HzS0
  · isplitr; · iexact HIs0
    iexact HaS0
  imod (close_send m ρ K c 1) $$ [HaS1] with HzS1
  · isplitr; · iexact HIs1
    iexact HaS1
  imod (close_send m ρ K c 2) $$ [HaS2] with HzS2
  · isplitr; · iexact HIs2
    iexact HaS2
  imod (close_send m ρ K c 3) $$ [HaS3] with HzS3
  · isplitr; · iexact HIs3
    iexact HaS3
  imod (close_send m ρ K c 4) $$ [HaS4] with HzS4
  · isplitr; · iexact HIs4
    iexact HaS4
  imod (close_send m ρ K c 5) $$ [HaS5] with HzS5
  · isplitr; · iexact HIs5
    iexact HaS5
  imod (close_send m ρ K c 6) $$ [HaS6] with HzS6
  · isplitr; · iexact HIs6
    iexact HaS6
  imod (close_recv m ρ K c 0) $$ [HaR0] with HzR0
  · isplitr; · iexact HIr0
    iexact HaR0
  imod (close_recv m ρ K c 1) $$ [HaR1] with HzR1
  · isplitr; · iexact HIr1
    iexact HaR1
  imod (close_recv m ρ K c 2) $$ [HaR2] with HzR2
  · isplitr; · iexact HIr2
    iexact HaR2
  imod (close_recv m ρ K c 3) $$ [HaR3] with HzR3
  · isplitr; · iexact HIr3
    iexact HaR3
  imod (close_recv m ρ K c 4) $$ [HaR4] with HzR4
  · isplitr; · iexact HIr4
    iexact HaR4
  imod (close_recv m ρ K c 5) $$ [HaR5] with HzR5
  · isplitr; · iexact HIr5
    iexact HaR5
  imod (close_recv m ρ K c 6) $$ [HaR6] with HzR6
  · isplitr; · iexact HIr6
    iexact HaR6
  imodintro
  iapply Hk
  unfold bodyPost Φ₁ scratch
  isplitl [Hm Hc Hxb HzS0 HzS1 HzS2 HzS3 HzS4 HzS5 HzS6 HzR0 HzR1 HzR2 HzR3 HzR4 HzR5 HzR6]
  · isplitl [Hm Hc Hxb]
    · isplitl [Hm]; · iexists _; iapply (unstate (F := F) c (Memref.whole cc0_scratch0 : Memref sig .tc .vmem S16x128 .f32) (Memref.isWhole_whole _) fullShare _); iexact Hm
      isplitl [Hc]; · iexists _; iapply (unstate (F := F) c (Memref.whole cc0_scratch1 : Memref sig .tc .vmem S7x16x128 .f32) (Memref.isWhole_whole _) fullShare _); iexact Hc
      iexists _; iapply (unstate (F := F) c (Memref.whole cc0_scratch2 : Memref sig .tc .vmem S1024x512 .bf16) (Memref.isWhole_whole _) fullShare _); iexact Hxb
    isplitl [HzS0 HzS1 HzS2 HzS3 HzS4 HzS5 HzS6]
    · iapply (Entails.of_eq (bigSep_fin7 (fun e : Fin 7 => (semVal (sendCell c e) 0 : sProp 𝕄))).symm)
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    · iapply (Entails.of_eq (bigSep_fin7 (fun s : Fin 7 => (semVal (recvCell c s) 0 : sProp 𝕄))).symm)
      isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      iexact HzR6
  isplitl [HO]
  · iapply (owesAt_of m ρ c _); iexact HO
  isplitl [Hx]
  · iexists _; isplitr; · (ipureintro; rfl)
    iapply (unstate (F := F) c (Memref.whole cc0_stg0_0 : Memref sig .tc .vmem S1024x512 .f32) (Memref.isWhole_whole _) fullShare _); iexact Hx
  isplitl [Hg]
  · iexists _; isplitr; · (ipureintro; rfl)
    iapply (unstate (F := F) c (Memref.whole cc0_stg1_0 : Memref sig .tc .vmem S512 .f32) (Memref.isWhole_whole _) fullShare _); iexact Hg
  isplitl [Hb]
  · iexists _; isplitr; · (ipureintro; rfl)
    iapply (unstate (F := F) c (Memref.whole cc0_stg2_0 : Memref sig .tc .vmem S512 .f32) (Memref.isWhole_whole _) fullShare _); iexact Hb
  iexists _; isplitr; · (ipureintro; rfl)
  iapply (unstate (F := F) c (Memref.whole cc0_stg3_0 : Memref sig .tc .vmem S1024x512 .bf16) (Memref.isWhole_whole _) fullShare _); iexact Hout

/-- The body from the pipeline's own starting state: the same run, the state first laid out cell by cell. -/
theorem sound_body (K : Dev nD × Fin 15 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  iintro ⟨Hpre, Hk⟩
  ihave H := (pre_flat m ρ K c) $$ Hpre
  icases H with ⟨HI, HL, ⟨%W, HB⟩⟩
  iapply (flat_body m ρ K c W Kt)
  isplitl [HI]; · iexact HI
  isplitl [HL]; · iexact HL
  isplitl [HB]; · iexact HB
  iexact Hk

end Cert.KernelIdeal.Run
end
-- ==== Proof.Glob.lean ====
/-
  Funding the exchange's ghost state at launch, and the global step that turns every device's semaphore counters and
  round states into cell invariants and deals the duty tokens around the ring.

  The launch element of the exchange's algebra holds, for each of the 8 × 15 cells, its round state at counter zero,
  that round 0 is reached, and the owner's position; and the 8 × 21 duty tokens, minted at the cell they belong to. The
  global step allocates one invariant per cell and moves each token to the device that pays the duty: the barrier token
  of duty `d` of device `c` to `peer c (rev d)`, the receive token of slot `s` to `peer c s`; the send tokens stay.
  Both moves are, for each fixed offset, a re-indexing of the product over devices by a rotation of the ring.
-/
import proofs.«900825_g7700000000000826_dist_layernorm_colshard_i_m1024_n512_v7x_i8_bf16_1_alg».proof.Proof.Tables

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of the exchange -/

def ringCells : Finset (GSem nD τ sig) := Finset.univ.map ⟨kcell, kcell_injective⟩

/-! ## The tokens -/

/-- A device's own cells' duty tokens as minted: (device, which token) — its barrier's seven duties, the one duty of each
    send cell, the one duty of each receive cell. -/
def tokOf (cj : Dev nD × (Fin 7 ⊕ (Fin 7 ⊕ Fin 7))) : GSem nD τ sig × ℕ × Fin 7 :=
  match cj.2 with
  | .inl d => (barCell cj.1, 0, d)
  | .inr (.inl e) => (sendCell cj.1 e, 0, 0)
  | .inr (.inr s) => (recvCell cj.1 s, 0, 0)

theorem gl_sendSem_injective : Function.Injective sendSem := by decide
theorem gl_recvSem_injective : Function.Injective recvSem := by decide
theorem gl_send_ne_recv (e s : Fin 7) : sendSem e ≠ recvSem s := by revert e s; decide

theorem tokOf_injective : Function.Injective tokOf := by
  rintro ⟨c, j⟩ ⟨c', j'⟩ h
  have h1 : c = c' := by
    have := congrArg (fun x : GSem nD τ sig × ℕ × Fin 7 => x.1.1.1) h
    rcases j with d | e | s <;> rcases j' with d' | e' | s' <;> exact this
  subst h1
  have h2 := congrArg (fun x : GSem nD τ sig × ℕ × Fin 7 => (x.1.2, x.2.2)) h
  have : j = j' := by
    rcases j with d | e | s <;> rcases j' with d' | e' | s' <;> simp only [tokOf, Prod.mk.injEq] at h2
    · rw [h2.2]
    · exact absurd h2.1 (fun h' => by cases h')
    · exact absurd h2.1 (fun h' => by cases h')
    · exact absurd h2.1 (fun h' => by cases h')
    · rw [gl_sendSem_injective (SemLoc.dma.inj h2.1)]
    · exact absurd (SemLoc.dma.inj h2.1) (gl_send_ne_recv e s')
    · exact absurd h2.1 (fun h' => by cases h')
    · exact absurd (SemLoc.dma.inj h2.1).symm (gl_send_ne_recv e' s)
    · rw [gl_recvSem_injective (SemLoc.dma.inj h2.1)]
  subst this; rfl
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- Device `c`'s own cells' duty tokens as minted: the barrier's seven, each send cell's one, each receive cell's one. -/
def toks (c : Dev nD) : sProp 𝕄 :=
  iprop((bigSep Finset.univ fun d : Fin 7 => dutyTok ER (barCell c) 0 d)
    ∗ (bigSep Finset.univ fun e : Fin 7 => dutyTok ER (sendCell c e) 0 (0 : Fin 7))
    ∗ bigSep Finset.univ fun s : Fin 7 => dutyTok ER (recvCell c s) 0 (0 : Fin 7))

/-- What the launch element deals device `c`. -/
def G (c : Dev nD) : sProp 𝕄 :=
  iprop((bigSep Finset.univ fun k : Fin 15 => roundState ER (Rd m ρ) (kcell (c, k)) 0)
    ∗ (bigSep Finset.univ fun k : Fin 15 => iprop(atPos ER (kcell (c, k)) 0 ∅ 0 ∗ reached ER (kcell (c, k)) 0)) ∗ toks (F := F) c)

/-- What the global step makes of it. -/
def G' (c : Dev nD) : sProp 𝕄 := iprop(∃ K, ghost m ρ K c)

/-! ## Products over the fourteen own semaphores -/

/-- The fourteen own semaphores as the seven send and the seven receive. -/
def gl_e14 : Fin 7 ⊕ Fin 7 ≃ Fin 14 where
  toFun := Sum.elim (fun e => ⟨e.val, by omega⟩) (fun s => ⟨s.val + 7, by omega⟩)
  invFun k := if h : k.val < 7 then .inl ⟨k.val, h⟩ else .inr ⟨k.val - 7, by omega⟩
  left_inv := by decide
  right_inv := by decide

theorem gl_bigSep_fin14 (Φ : Fin 14 → sProp 𝕄) :
    bigSep Finset.univ Φ = iprop((bigSep Finset.univ fun e : Fin 7 => Φ ⟨e.val, by omega⟩) ∗ bigSep Finset.univ fun s : Fin 7 => Φ ⟨s.val + 7, by omega⟩) := by
  rw [bigSep_univ_equiv gl_e14 Φ, bigSep_univ_sum]; rfl

/-! ## Funding -/

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## Payloads can be kept in an invariant -/

instance gl_payload_storable (g : GSem nD τ sig) (r : ℕ) (d : Fin 7) :
    BI.Storable (upEmb : UEmb _ 𝕄) ((Rd (F := F) m ρ).payload g r d) := by
  dsimp only [Rd]
  unfold barPay recvPay sendPay slotPts mineTok
  (repeat' split) <;> infer_instance

/-! ## The counters at launch -/

/-- The kernel's own fourteen semaphores are the seven send and the seven receive; -/
theorem ownSems0_eq (c : Dev nD) : (Pipeline.ownSems0 (Ix := Unit) (Name := ℕ) (U := UU) (Lvl := ℕ) (Val := Elt F) (τ := τ) osem c : sProp 𝕄)
    = iprop((bigSep Finset.univ fun e : Fin 7 => semVal (sendCell c e) 0) ∗ bigSep Finset.univ fun s : Fin 7 => semVal (recvCell c s) 0) := by
  unfold Pipeline.ownSems0; rw [gl_bigSep_fin14]; rfl
/-- the barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_fin15,
    bigSep_congr (s := Finset.univ) (fun (e : Fin 7) _ => congrArg (fun g => (semVal g 0 : sProp 𝕄)) (kcell_kS c e)),
    bigSep_congr (s := Finset.univ) (fun (s : Fin 7) _ => congrArg (fun g => (semVal g 0 : sProp 𝕄)) (kcell_kR c s))]
  iintro ⟨⟨HS, HV⟩, HB⟩
  isplitl [HB]; · iexact HB
  isplitl [HS] <;> iassumption

/-- Each of a device's fifteen counters at zero, with the cell's round state, becomes the cell's invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the ring -/

/-- The offset seen from the other side, as a permutation of the offsets. -/
def gl_revE : Fin 7 ≃ Fin 7 := ⟨rev, rev, rev_rev, rev_rev⟩

instance records_persistent (K : Dev nD × Fin 15 → ℕ) : BI.Persistent (records m ρ K) := by unfold records; infer_instance

/-- The tokens dealt around the ring: device `c`'s barrier token of duty `d` to the device that pays it, its receive token
    of slot `s` to the device that fills it; the send tokens stay. -/
theorem toks_around : (bigSep Finset.univ fun c : Dev nD => (toks c : sProp 𝕄)) ⊢ bigSep Finset.univ fun c : Dev nD => payToks c := by
  have hB : (bigSep Finset.univ fun c : Dev nD => bigSep Finset.univ fun e : Fin 7 => (dutyTok ER (barCell (peer c e)) 0 e : sProp 𝕄))
      = bigSep Finset.univ fun c : Dev nD => bigSep Finset.univ fun d : Fin 7 => (dutyTok ER (barCell c) 0 d : sProp 𝕄) := by
    rw [bigSep_univ_comm, bigSep_univ_comm (fun (c : Dev nD) (d : Fin 7) => (dutyTok ER (barCell c) 0 d : sProp 𝕄))]
    exact bigSep_congr fun e _ => (bigSep_univ_equiv (peerEquiv e) (fun c : Dev nD => (dutyTok ER (barCell c) 0 e : sProp 𝕄))).symm
  have hR : (bigSep Finset.univ fun c : Dev nD => bigSep Finset.univ fun e : Fin 7 => (dutyTok ER (recvCell (peer c e) (rev e)) 0 (0 : Fin 7) : sProp 𝕄))
      = bigSep Finset.univ fun c : Dev nD => bigSep Finset.univ fun s : Fin 7 => (dutyTok ER (recvCell c s) 0 (0 : Fin 7) : sProp 𝕄) := by
    rw [bigSep_univ_comm, bigSep_univ_comm (fun (c : Dev nD) (s : Fin 7) => (dutyTok ER (recvCell c s) 0 (0 : Fin 7) : sProp 𝕄)),
      bigSep_univ_equiv gl_revE (fun s : Fin 7 => bigSep Finset.univ fun c : Dev nD => (dutyTok ER (recvCell c s) 0 (0 : Fin 7) : sProp 𝕄))]
    exact bigSep_congr fun e _ => (bigSep_univ_equiv (peerEquiv e) (fun c : Dev nD => (dutyTok ER (recvCell c (rev e)) 0 (0 : Fin 7) : sProp 𝕄))).symm
  unfold toks payToks
  simp only [bigSep_sep']
  rw [hB, hR]
  iintro ⟨H1, H2, H3⟩
  isplitl [H1]; · iexact H1
  isplitl [H3]; · iexact H3
  iexact H2

/-! ## The global step -/

theorem ghost_intro (K : Dev nD × Fin 15 → ℕ) (c : Dev nD) : iprop(records m ρ K ∗ positions (F := F) c ∗ payToks (F := F) c) ⊢ G' m ρ c := by
  unfold G' ghost
  iintro H
  iexists K
  iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (Rd m ρ) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (Rd m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Entering and leaving the body -/

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, HzS, HzV⟩
  isplitr; · iempintro
  isplitl [HzS HzV]
  · isplitl [HzS] <;> iassumption
  iexact Hr

end Cert.KernelIdeal.Run

end
-- ==== Proof.Credit.lean ====
/-
  The credit each device is dealt at launch. Every other device signals a device's barrier semaphore exactly once, so the
  barrier cell is owed seven units; copy `e` of device `d` lands in slot `6 - e` of the device `e + 1` places after `d`,
  so slot `s` of device `c` is owed one copy's units, by the device `s + 1` places after `c`.
-/
import proofs.«900825_g7700000000000826_dist_layernorm_colshard_i_m1024_n512_v7x_i8_bf16_1_alg».proof.Proof.Proto

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ring -/

theorem cr_peer_rev (c : Dev nD) (e : Fin 7) : peer (peer c e) (rev e) = c := by revert c e; decide
theorem cr_rev_rev (e : Fin 7) : rev (rev e) = e := by revert e; decide
/-- Every device but `d` itself is `peer d e` for exactly one `e`. -/
theorem cr_count_peer (d c : Dev nD) : (∑ e : Fin 7, if c = peer d e then 1 else 0) = if d = c then 0 else 1 := by
  revert d c; decide
theorem cr_peer_swap (d c : Dev nD) (s : Fin 7) : Iff (c = peer d (rev s)) (d = peer c s) := by
  revert d c s; decide
theorem cr_count_others (c : Dev nD) : (∑ d : Dev nD, if d = c then 0 else 1) = 7 := by revert c; decide

/-! ## When two cells are the same cell -/

theorem cr_recvSem_val (s : Fin 7) : (recvSem s).val = 11 + s.val := by fin_cases s <;> rfl
theorem cr_recvSem_inj {s t : Fin 7} (h : recvSem s = recvSem t) : s = t := by
  have := congrArg Fin.val h; rw [cr_recvSem_val, cr_recvSem_val] at this; exact Fin.ext (by omega)
theorem cr_recv_ne_bar (s : Fin 7) : (SemLoc.dma (recvSem s) : SemLoc sig) ≠ .reg barS := fun h => by cases h

theorem cr_bar_eq_iff {a b : Dev nD} : Iff (barCell a = barCell b) (a = b) :=
  ⟨fun h => Fin.ext (congrArg (fun g : GSem nD τ sig => g.1.1.val) h), fun h => h ▸ rfl⟩
theorem cr_recv_eq_iff {a b : Dev nD} {s t : Fin 7} : Iff (recvCell a s = recvCell b t) (a = b ∧ s = t) :=
  ⟨fun h => ⟨Fin.ext (congrArg (fun g : GSem nD τ sig => g.1.1.val) h), cr_recvSem_inj (SemLoc.dma.inj (congrArg Prod.snd h))⟩,
    fun h => by rw [h.1, h.2]⟩
theorem cr_recv_ne_barCell (a b : Dev nD) (s : Fin 7) : recvCell a s ≠ barCell b := fun h => cr_recv_ne_bar s (congrArg Prod.snd h)

/-! ## What one device owes one cell -/

/-- What a device owes at launch: its seven copies and its seven signals. -/
theorem cr_O₀_eq (d : Dev nD) : O₀ d = (∑ e : Fin 7, owedRecv d e) + ∑ e : Fin 7, owedBar d e := by
  unfold O₀ OB0 OB1 OB2 OB3 OB4 OB5 OB6 OB7 OS0 OS1 OS2 OS3 OS4 OS5 OS6 OS7
  rw [Fin.sum_univ_seven, Fin.sum_univ_seven, zero_add]
  abel

theorem cr_O₀_apply (d : Dev nD) (g : GSem nD τ sig) :
    O₀ d g () = (∑ e : Fin 7, owedRecv d e g ()) + ∑ e : Fin 7, owedBar d e g () := by
  rw [cr_O₀_eq, Pi.add_apply, Finsupp.add_apply, Finset.sum_apply, Finsupp.finsetSum_apply, Finset.sum_apply, Finsupp.finsetSum_apply]

theorem cr_owedBar_bar (d c : Dev nD) (e : Fin 7) : owedBar d e (barCell c) () = if c = peer d e then 1 else 0 := by
  unfold owedBar; rw [tallyAt_apply]
  by_cases h : c = peer d e
  · rw [if_pos h, if_pos ⟨by rw [h], rfl⟩]
  · rw [if_neg h, if_neg fun h' => h (cr_bar_eq_iff.mp h'.1)]
theorem cr_owedRecv_bar (d c : Dev nD) (e : Fin 7) : owedRecv d e (barCell c) () = 0 := by
  unfold owedRecv; rw [tallyAt_ne_cell (fun h => cr_recv_ne_barCell _ _ _ h.symm)]; rfl
theorem cr_owedBar_recv (d c : Dev nD) (e s : Fin 7) : owedBar d e (recvCell c s) () = 0 := by
  unfold owedBar; rw [tallyAt_ne_cell (cr_recv_ne_barCell _ _ _)]; rfl
theorem cr_owedRecv_recv (d c : Dev nD) (e s : Fin 7) : owedRecv d e (recvCell c s) () = if c = peer d e ∧ s = rev e then N else 0 := by
  unfold owedRecv; rw [tallyAt_apply]
  by_cases h : c = peer d e ∧ s = rev e
  · rw [if_pos h, if_pos ⟨by rw [h.1, h.2], rfl⟩]
  · rw [if_neg h, if_neg fun h' => h (cr_recv_eq_iff.mp h'.1)]

/-- Every other device signals `c`'s barrier exactly once. -/
theorem owed_bar (d c : Dev nD) : O₀ d (barCell c) () = if d = c then 0 else 1 := by
  rw [cr_O₀_apply, Finset.sum_congr rfl fun e _ => cr_owedRecv_bar d c e, Finset.sum_const_zero, Nat.zero_add,
    Finset.sum_congr rfl fun e _ => cr_owedBar_bar d c e, cr_count_peer]

/-- Copy `e` of device `d` lands in slot `rev e` of `peer d e`: that is slot `s` of `c` exactly when `d = peer c s` and `e = rev s`. -/
theorem owed_recv (d c : Dev nD) (s : Fin 7) : O₀ d (recvCell c s) () = if d = peer c s then N else 0 := by
  rw [cr_O₀_apply, Finset.sum_congr rfl fun e _ => cr_owedBar_recv d c e s, Finset.sum_const_zero, Nat.add_zero,
    Finset.sum_congr rfl fun e _ => cr_owedRecv_recv d c e s,
    Finset.sum_eq_single (rev s) (fun e _ he => if_neg fun h => he (by rw [h.2, cr_rev_rev])) (fun h => absurd (Finset.mem_univ _) h)]
  by_cases h : d = peer c s
  · rw [if_pos h, if_pos ⟨(cr_peer_swap d c s).mpr h, (cr_rev_rev s).symm⟩]
  · rw [if_neg h, if_neg fun h' => h ((cr_peer_swap d c s).mp h'.1)]

/-! ## A cell's launch credit -/

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, cr_count_others]

theorem launch_recv (c : Dev nD) (s : Fin 7) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (peer c s) fun _ => N, if_pos (Finset.mem_univ _)]

/-- The seven receive semaphores, as semaphores of the device. -/
def cr_recvLoc : Fin 7 ↪ SemLoc sig := ⟨fun s => .dma (recvSem s), fun s t h => cr_recvSem_inj (SemLoc.dma.inj h)⟩

/-- Out of a device's launch credit: its barrier's seven units and each receive cell's copy. -/
theorem creds (c : Dev nD) :
    (Pipeline.launchCred O₀ c : sProp 𝕄) ⊢ iprop(cred (tallyAt (barCell c) () 7) ∗ bigSep Finset.univ fun s : Fin 7 => cred (tallyAt (recvCell c s) () N)) := by
  unfold Pipeline.launchCred
  rw [bigSep_univ_at _ (SemLoc.reg barS), launch_bar]
  refine sep_mono_right ?_
  refine (bigSep_subset (t := Finset.univ.map cr_recvLoc) fun sm hsm => ?_).trans ?_
  · obtain ⟨s, -, rfl⟩ := Finset.mem_map.mp hsm
    exact Finset.mem_erase.mpr ⟨cr_recv_ne_bar s, Finset.mem_univ _⟩
  · rw [bigSep_map]
    exact bigSep_mono fun s _ => by rw [← launch_recv]; exact BI.Entails.refl _

end Cert.KernelIdeal.Run

end
-- ==== Proof.FinalArr.lean ====
/-
  The arrays at the two ends of the one launch. The kernel has no grid: its one point stages each window's whole
  per-device array, so the block an input window fetches is the array as launched, an input array is never written,
  and the result array after the point is what the body left in the result's staging buffer.
-/
import proofs.«900825_g7700000000000826_dist_layernorm_colshard_i_m1024_n512_v7x_i8_bf16_1_alg».proof.Proof.Proto
import Idealize.ShloMosaic.Lib.Pipeline.Cells
import Idealize.ShloMosaic.Lib.Pipeline.Value
import Idealize.ShloMosaic.Lib.Pipeline.Launch
import Idealize.ShloMosaic.Lib.Pipeline.Kit
import Idealize.ShloMosaic.Lib.Tactic

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The input blocks are the arrays -/

/-- The one block of the first argument's array is the array. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> rfl
  unfold xstg
  exact Memref.read_access_unit_zero (Elt F) main_arg0 hz (fun a => by fin_cases a <;> decide) _

/-- The one block of the gain's array is the array. -/
theorem gstg_eq (c : Dev nD) : gstg m ρ c = m ((c : Thread nD τ).loc main_arg1) := by
  have hz : (fun a => (win0_1.index (0 : Fin 1)) a * main_arg1.ty.shape.size a) = fun _ => 0 :=
    funext fun a => by fin_cases a <;> rfl
  unfold gstg
  exact Memref.read_access_unit_zero (Elt F) main_arg1 hz (fun a => by fin_cases a <;> decide) _

/-- The one block of the offset's array is the array. -/
theorem bstg_eq (c : Dev nD) : bstg m ρ c = m ((c : Thread nD τ).loc main_arg2) := by
  have hz : (fun a => (win0_2.index (0 : Fin 1)) a * main_arg2.ty.shape.size a) = fun _ => 0 :=
    funext fun a => by fin_cases a <;> rfl
  unfold bstg
  exact Memref.read_access_unit_zero (Elt F) main_arg2 hz (fun a => by fin_cases a <;> decide) _

/-! ## The arrays after the point -/

/-- The first argument's array is never written. -/
theorem final_in0 (c : Dev nD) : (dats m ρ 0 c).arrAt (0 : Fin 4) cfg0.N = m ((c : Thread nD τ).loc main_arg0) :=
  (dats m ρ 0 c).arrAt_in (0 : Fin 4) rfl _

/-- The gain's array is never written. -/
theorem final_in1 (c : Dev nD) : (dats m ρ 0 c).arrAt (1 : Fin 4) cfg0.N = m ((c : Thread nD τ).loc main_arg1) :=
  (dats m ρ 0 c).arrAt_in (1 : Fin 4) rfl _

/-- The offset's array is never written. -/
theorem final_in2 (c : Dev nD) : (dats m ρ 0 c).arrAt (2 : Fin 4) cfg0.N = m ((c : Thread nD τ).loc main_arg2) :=
  (dats m ρ 0 c).arrAt_in (2 : Fin 4) rfl _

/-- The result's array after the one point is what the body left in its staging buffer: the point writes the
    whole array back. -/
theorem final_out (c : Dev nD) : (dats m ρ 0 c).arrAt (3 : Fin 4) cfg0.N = outVal m ρ c := by
  have hz : (fun a => (win0_3.index t0_0) a * main_v1.ty.shape.size a) = fun _ => 0 :=
    funext fun a => by fin_cases a <;> rfl
  rw [show cfg0.N = (t0_0 : Fin cfg0.N).val + 1 from rfl, (dats m ρ 0 c).arrAt_succ (3 : Fin 4) t0_0,
    flush0_3 t0_0, if_pos rfl]
  exact Memref.write_access_unit_zero_univ (Elt F) main_v1 hz (fun a => by fin_cases a <;> decide) _ _

end Cert.KernelIdeal.Run

end
-- ==== Proof.Launch.lean ====
/-
  The launch: one device's body obligation from the body's own statement, what a device's body starts from out of what the
  launch deals it, and the run of the eight devices — every weakly fair execution terminates, each device's result array
  holding its block of the normalised rows and its three input arrays unchanged.
-/
import proofs.«900825_g7700000000000826_dist_layernorm_colshard_i_m1024_n512_v7x_i8_bf16_1_alg».proof.Proof.Glob
import proofs.«900825_g7700000000000826_dist_layernorm_colshard_i_m1024_n512_v7x_i8_bf16_1_alg».proof.Proof.Levels
import proofs.«900825_g7700000000000826_dist_layernorm_colshard_i_m1024_n512_v7x_i8_bf16_1_alg».proof.Proof.Credit
import proofs.«900825_g7700000000000826_dist_layernorm_colshard_i_m1024_n512_v7x_i8_bf16_1_alg».proof.Proof.FinalArr
import proofs.«900825_g7700000000000826_dist_layernorm_colshard_i_m1024_n512_v7x_i8_bf16_1_alg».proof.Proof.Flat

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

/-- The body's own statement: from `bodyPre` at any names, the body runs to `bodyPost`. -/
def SoundBody : Prop := ∀ (K : Dev nD × Fin 15 → ℕ) (c : Dev nD) (Kt : PUnit → sProp 𝕄),
    iprop(bodyPre m ρ K c ∗ (bodyPost m ρ c -∗ Kt ⟨⟩)) ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Kt

theorem share_eq (c : Dev nD) (w : Fin cfg0.W) : (dats m ρ 0 c).share w = fullShare := by unfold Dat.share; split <;> rfl

/-- A whole staging buffer owned at named contents, as a points-to. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The obligation's precondition at the one grid point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 4000 in
/-- The body obligation on device `c`, from the body's own statement. -/
theorem body_obligation (hs : SoundBody m ρ) (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) (fun _ => bodyPost m ρ c)
  unfold bodyPre' Φ₀ start
  iintro ⟨⟨⟨⟨%K, Hg⟩, Hrest⟩, Hscr⟩, Ho, Hx, Hgn, Hbt, Hout⟩
  iapply (hs K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hgn]; · iexact Hgn
    isplitl [Hbt] <;> iassumption
  · iintro H; iexact H

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the mesh of eight devices, for any float values, from any memory with zero counters: every weakly fair execution
    of the program — the eight kernels handshaking on the barrier semaphore, then each copying its table of row statistics
    to the seven others — terminates, and every final state has each device's four arrays at the computed contents. -/
theorem run_main (hs : SoundBody m ρ) : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hs) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := hu₀ m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The run with every device's result named and its inputs unchanged. -/
theorem run (hs : SoundBody m ρ) : θ_run defs (onTc (τ := τ) (main (F := F))) ⟨m, fun _ => 0, ρ⟩ (fun r => ∀ c : Dev nD,
    r.2.mem ((c.tc : Thread nD τ).loc main_v1) = KVal.result (m ((c.tc : Thread nD τ).loc main_arg0)) (fun s => m (((peer c s).tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r hr c => by
    refine ⟨?_, ?_, ?_, ?_⟩
    · refine (hr c (3 : Fin 4)).trans ?_
      rw [final_out]; unfold outVal
      rw [xstg_eq, gstg_eq, bstg_eq]
      exact congrArg (fun f => KVal.result _ f _ _) (funext fun s => xstg_eq m ρ (peer c s))
    · exact (hr c (0 : Fin 4)).trans (final_in0 m ρ c)
    · exact (hr c (1 : Fin 4)).trans (final_in1 m ρ c)
    · exact (hr c (2 : Fin 4)).trans (final_in2 m ρ c)) (run_main m ρ hs)

end Cert.KernelIdeal.Run

end
-- ==== Proof.Spec.lean ====
/-
  Layer normalisation over the reals: the one function both programs compute, row by row.
  A row of 4096 entries is centred by its mean, scaled by the inverse root of its variance plus a
  small regulariser, then multiplied by a per-column gain and shifted by a per-column offset.
-/
import Idealize.ShloMosaic.PureOps.Ideal

noncomputable section

open scoped BigOperators

namespace Cert.Spec

open Idealize.ShloMosaic

/-- The regulariser added under the root: the real number the single-precision pattern `0x3727C5AC` denotes. -/
def eps : ℝ := EReal.toReal (Ideal.ofBits .f32 0x3727C5AC#32)

/-- Row `r`'s mean over its 4096 columns. -/
def mean (x : Fin 1024 → Fin 4096 → ℝ) (r : Fin 1024) : ℝ := (∑ k : Fin 4096, x r k) / 4096

/-- Row `r`'s variance: the mean of the squared deviations from the row's mean. -/
def var (x : Fin 1024 → Fin 4096 → ℝ) (r : Fin 1024) : ℝ := (∑ k : Fin 4096, (x r k - mean x r) ^ 2) / 4096

/-- The normalised entry at row `r`, column `k`, with gain `γ k` and offset `β k`. -/
def ln (x : Fin 1024 → Fin 4096 → ℝ) (γ β : Fin 4096 → ℝ) (r : Fin 1024) (k : Fin 4096) : ℝ :=
  γ k * (x r k - mean x r) / Real.sqrt (var x r + eps) + β k

/-- Column `j` of device `c`'s block of 512 columns is column `512 c + j` of the whole array. -/
def col (c : Fin 8) (j : Fin 512) : Fin 4096 := ⟨512 * c.val + j.val, by have := c.isLt; have := j.isLt; omega⟩

/-- The device whose table of row statistics lands in receive slot `s` of device `c`: `s + 1` places after it on the ring of eight. -/
def src (c : Fin 8) (s : Fin 7) : Fin 8 := ⟨(c.val + s.val + 1) % 8, Nat.mod_lt _ (by decide)⟩

end Cert.Spec

end
-- ==== Proof.Blocks.lean ====
/-
  Where a device's block sits in the whole array. The whole arrays are cut along their columns into eight blocks of
  512; column `j` of device `c`'s block is column `512 c + j` of the whole. Stated for the rank-2 input (rows kept,
  columns cut) and for the rank-1 gain and offset, and with the converse: every column of the whole array is a
  column of some device's block.
-/
import proofs.«900825_g7700000000000826_dist_layernorm_colshard_i_m1024_n512_v7x_i8_bf16_1_alg».proof.Proof.Spec
import Idealize.ShloMosaic.Lib.Layout
import Idealize.ShloMosaic.Lib.ValueIdx

noncomputable section

namespace Cert.Blocks

open Idealize.ShloMosaic Idealize.ShloMosaic.ValueIdx

/-- Entry `(r, j)` of device `c`'s block of a `1024 × 4096` array cut along its columns is entry
    `(r, 512 c + j)` of the whole array. -/
theorem block_x {α : Type} (c : Fin 8) (X : (⟨2, ![1024, 4096]⟩ : Shape).Idx → α) (r : Fin 1024) (j : Fin 512) :
    (Layout.block ⟨2, ![1024, 512]⟩ ⟨2, ![1024, 4096]⟩ 1 8 c X) (ix2 r j) = X (ix2 r (Cert.Spec.col c j)) := by
  rw [Layout.block_apply]
  congr 1
  funext d
  match d with
  | ⟨0, _⟩ => exact Fin.ext rfl
  | ⟨1, _⟩ => exact Fin.ext (by show c.val * 512 + j.val = 512 * c.val + j.val; omega)

/-- Entry `j` of device `c`'s block of a length-4096 array is entry `512 c + j` of the whole array. -/
theorem block_v {α : Type} (c : Fin 8) (V : (⟨1, ![4096]⟩ : Shape).Idx → α) (j : Fin 512) :
    (Layout.block ⟨1, ![512]⟩ ⟨1, ![4096]⟩ 0 8 c V) (ix1 j) = V (ix1 (Cert.Spec.col c j)) := by
  rw [Layout.block_apply]
  congr 1
  funext d
  match d with
  | ⟨0, _⟩ => exact Fin.ext (by show c.val * 512 + j.val = 512 * c.val + j.val; omega)

/-- Every column of the whole array is a column of some device's block: column `k` is column `k mod 512` of
    device `k / 512`. -/
theorem col_surj (k : Fin 4096) : ∃ (c : Fin 8) (j : Fin 512), k = Cert.Spec.col c j := by
  refine ⟨⟨k.val / 512, by have := k.isLt; omega⟩, ⟨k.val % 512, Nat.mod_lt _ (by decide)⟩, Fin.ext ?_⟩
  show k.val = 512 * (k.val / 512) + k.val % 512
  omega

end Cert.Blocks

end
-- ==== Proof.Finite.lean ====
/-
  From "every float input of every device's blocks is finite" to "the whole arrays are real-valued".
  The stated precondition says, device by device, that the absolute value of every entry of the device's block of the
  input, of the gain and of the offset is below plus infinity. An extended real whose absolute value is below plus
  infinity is a real number. Every column of a whole array is a column of some device's block, so every entry of the
  three whole arrays is a real number.
-/
import proofs.«900825_g7700000000000826_dist_layernorm_colshard_i_m1024_n512_v7x_i8_bf16_1_alg».proof.Defs
import proofs.«900825_g7700000000000826_dist_layernorm_colshard_i_m1024_n512_v7x_i8_bf16_1_alg».proof.Proof.Gen.Pre_finite_inputs_Kernel
import proofs.«900825_g7700000000000826_dist_layernorm_colshard_i_m1024_n512_v7x_i8_bf16_1_alg».proof.Proof.Blocks
import proofs.«900825_g7700000000000826_dist_layernorm_colshard_i_m1024_n512_v7x_i8_bf16_1_alg».proof.Proof.Spec
import Idealize.ShloMosaic.Lib.ReduceAll
import Idealize.ShloMosaic.Lib.ValueIdx

noncomputable section

namespace Cert.Finite

open Idealize.ShloMosaic Idealize.ShloMosaic.ValueIdx Idealize.SL.Sem

/-- The scalar shape has one index. -/
instance : Subsingleton Cert.Pre_finite_inputs_Kernel.S_.Idx := ⟨fun a b => funext fun d => d.elim0⟩

/-- The pattern `0x7F800000` denotes plus infinity. -/
theorem ofBits_inf : Ideal.ofBits .f32 0x7F800000#32 = (⊤ : EReal) := by
  simp [Ideal.ofBits, Ideal.ieee]

/-- An extended real whose absolute value `max x (-x)` compares below plus infinity is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The stated predicate, all ones, on three arrays: every entry of each is a real number. -/
theorem reals_of_fn [hPre : Cert.Pre_finite_inputs_Kernel.Facts]
    (a0 : FVec Ideal Cert.Pre_finite_inputs_Kernel.S1024x512 .f32)
    (a1 a2 : FVec Ideal Cert.Pre_finite_inputs_Kernel.S512 .f32)
    (h : Cert.Pre_finite_inputs_Kernel.fn (F := Ideal) a0 a1 a2 = (fun _ => 1#1)) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs_Kernel.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

/-- From the precondition on every device's blocks, and the blocks being the devices' parts of the whole arrays:
    the whole input, gain and offset are arrays of real numbers. -/
theorem reals_of_pre [hPre : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg2))) :
    ∃ (x : Fin 1024 → Fin 4096 → ℝ) (γ β : Fin 4096 → ℝ),
      (∀ (r : Fin 1024) (k : Fin 4096), m' (((0 : Dev Cert.ReferenceIdeal.nD).tc : Thread Cert.ReferenceIdeal.nD Cert.ReferenceIdeal.τ).loc Cert.ReferenceIdeal.main_arg0) (ix2 r k) = ((x r k : ℝ) : EReal))
      ∧ (∀ k : Fin 4096, m' (((0 : Dev Cert.ReferenceIdeal.nD).tc : Thread Cert.ReferenceIdeal.nD Cert.ReferenceIdeal.τ).loc Cert.ReferenceIdeal.main_arg1) (ix1 k) = ((γ k : ℝ) : EReal))
      ∧ (∀ k : Fin 4096, m' (((0 : Dev Cert.ReferenceIdeal.nD).tc : Thread Cert.ReferenceIdeal.nD Cert.ReferenceIdeal.τ).loc Cert.ReferenceIdeal.main_arg2) (ix1 k) = ((β k : ℝ) : EReal)) := by
  have key := fun c : Dev Cert.KernelIdeal.nD => reals_of_fn _ _ _ (hpre c)
  have hx : ∀ (r : Fin 1024) (k : Fin 4096), ∃ q : ℝ,
      m' (((0 : Dev Cert.ReferenceIdeal.nD).tc : Thread Cert.ReferenceIdeal.nD Cert.ReferenceIdeal.τ).loc Cert.ReferenceIdeal.main_arg0) (ix2 r k) = ((q : ℝ) : EReal) := by
    intro r k
    obtain ⟨c, j, rfl⟩ := Cert.Blocks.col_surj k
    obtain ⟨q, hq⟩ := (key c).1 (ix2 r j)
    exact ⟨q, ((Cert.Blocks.block_x c _ r j).symm.trans (congrFun (hagree c).1.symm (ix2 r j))).trans hq⟩
  have hg : ∀ k : Fin 4096, ∃ q : ℝ,
      m' (((0 : Dev Cert.ReferenceIdeal.nD).tc : Thread Cert.ReferenceIdeal.nD Cert.ReferenceIdeal.τ).loc Cert.ReferenceIdeal.main_arg1) (ix1 k) = ((q : ℝ) : EReal) := by
    intro k
    obtain ⟨c, j, rfl⟩ := Cert.Blocks.col_surj k
    obtain ⟨q, hq⟩ := (key c).2.1 (ix1 j)
    exact ⟨q, ((Cert.Blocks.block_v c _ j).symm.trans (congrFun (hagree c).2.1.symm (ix1 j))).trans hq⟩
  have hb : ∀ k : Fin 4096, ∃ q : ℝ,
      m' (((0 : Dev Cert.ReferenceIdeal.nD).tc : Thread Cert.ReferenceIdeal.nD Cert.ReferenceIdeal.τ).loc Cert.ReferenceIdeal.main_arg2) (ix1 k) = ((q : ℝ) : EReal) := by
    intro k
    obtain ⟨c, j, rfl⟩ := Cert.Blocks.col_surj k
    obtain ⟨q, hq⟩ := (key c).2.2 (ix1 j)
    exact ⟨q, ((Cert.Blocks.block_v c _ j).symm.trans (congrFun (hagree c).2.2.symm (ix1 j))).trans hq⟩
  choose x hx using hx
  choose γ hg using hg
  choose β hb using hb
  exact ⟨x, γ, β, hx, hg, hb⟩

end Cert.Finite

end
-- ==== Proof.SpecFacts.lean ====
/-
  The three single-precision patterns the two programs share, as the real numbers they denote: zero, 4096 (the row
  length both divide by) and the regulariser added under the root, which is positive.
-/
import proofs.«900825_g7700000000000826_dist_layernorm_colshard_i_m1024_n512_v7x_i8_bf16_1_alg».proof.Proof.Spec
import Idealize.ShloMosaic.PureOps.Ideal

noncomputable section

namespace Cert.Spec

open Idealize.ShloMosaic

/-- The pattern `0x45800000` denotes 4096. -/
theorem ofBits_4096 : Ideal.ofBits .f32 0x45800000#32 = ((4096 : ℝ) : EReal) := by
  simp [Ideal.ofBits, Ideal.ieee, -EReal.coe_mul]; norm_num

/-- The regulariser's pattern, read field by field: exponent field 110 and significand field 2606508, so the
    value is `(2^23 + 2606508) · 2^(110 - 127 - 23) = 10995116 · 2^(-40)`, about `1.0e-5`. -/
theorem ofBits_eps_value :
    Ideal.ofBits .f32 0x3727C5AC#32 = (((10995116 : ℝ) * (2 : ℝ) ^ (-40 : Int) : ℝ) : EReal) := by
  simp [Ideal.ofBits, Ideal.ieee, -EReal.coe_mul]

/-- `eps` is that dyadic rational. -/
theorem eps_eq : eps = (10995116 : ℝ) * (2 : ℝ) ^ (-40 : Int) := by
  unfold eps
  rw [ofBits_eps_value, EReal.toReal_coe]

/-- The regulariser's pattern denotes a real number, `eps`. -/
theorem ofBits_eps : Ideal.ofBits .f32 0x3727C5AC#32 = ((eps : ℝ) : EReal) := by
  rw [eps_eq]; exact ofBits_eps_value

/-- The regulariser is positive. -/
theorem eps_pos : 0 < eps := by
  rw [eps_eq]; positivity

end Cert.Spec

end
-- ==== Proof.LibReal.lean ====
/-
  Real-valued arrays of extended reals, and the operations that keep them real-valued.

  An array of extended reals is called real-valued when every entry is the image of a real number
  (neither ⊤ nor ⊥). Sums, differences and products of reals are real; a finite sum of reals is
  real; a re-indexing of a real-valued array (broadcast, reshape, slice, gather) is real-valued,
  because each of its entries is an entry of the operand; a contraction, a scatter-add and a reduction
  of real-valued arrays are finite sums of reals; a quotient by a nonzero real and the inverse square
  root of a positive real are real. The last part gives the two positivity facts a batch normalisation
  over message-passing layers needs: a count plus one is at least one, and a mean of squares plus a
  positive offset is positive.
-/
import Idealize.ShloMosaic.PureOps.Ideal
import Idealize.ShloMosaic.PureOps.Ideal.Laws
import Mathlib.Data.EReal.Inv
import Mathlib.Algebra.BigOperators.Group.Finset.Basic
import Mathlib.Algebra.Order.BigOperators.Group.Finset

noncomputable section

namespace Cert.Lib

open Idealize.ShloMosaic
open scoped BigOperators

/-! ### Real-valued arrays -/

/-- An array of extended reals is real-valued when every entry is the image of a real number. -/
def IsReal {ι : Type} (f : ι → EReal) : Prop := ∀ i, ∃ r : ℝ, f i = (r : EReal)

/-- The image of a finite sum of reals is the sum of the images. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A sum of two reals is real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

/-- A difference of two reals is real. -/
theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

/-- A product of two reals is real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- A finite sum of reals is real. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A finite sum of nonnegative reals is a nonnegative real. -/
theorem nonneg_real_sum {ι : Type} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_rfl, by simp⟩
  | insert a s ha ih =>
    obtain ⟨x, hx0, hx⟩ := h a (Finset.mem_insert_self a s)
    obtain ⟨y, hy0, hy⟩ := ih fun i hi => h i (Finset.mem_insert_of_mem hi)
    exact ⟨x + y, add_nonneg hx0 hy0, by rw [Finset.sum_insert ha, hx, hy, EReal.coe_add]⟩

/-- A quotient by a nonzero real is real. -/
theorem real_div {x : EReal} (hx : ∃ r : ℝ, x = (r : EReal)) {n : ℝ} (hn : n ≠ 0) :
    ∃ r : ℝ, Ideal.div x (n : EReal) = (r : EReal) := by
  obtain ⟨a, rfl⟩ := hx
  exact ⟨a * (1 / n), by rw [Ideal.div_coe hn, EReal.coe_mul]⟩

/-- The inverse square root of a positive real is real. -/
theorem real_rsqrt {x : EReal} (hx : ∃ r : ℝ, 0 < r ∧ x = (r : EReal)) : ∃ r : ℝ, Ideal.rsqrt x = (r : EReal) := by
  obtain ⟨a, ha, rfl⟩ := hx
  exact ⟨(Real.sqrt a)⁻¹, by rw [Ideal.rsqrt_coe, if_neg (not_lt.2 ha.le), if_neg ha.ne']⟩

/-- A re-indexing of a real-valued array is real-valued: each entry is an entry of the operand. -/
theorem IsReal.comp {ι κ : Type} {f : ι → EReal} (hf : IsReal f) (g : κ → ι) : IsReal fun j => f (g j) :=
  fun j => hf (g j)

/-- An array all of whose entries are one real number is real-valued. -/
theorem isReal_const {ι : Type} (r : ℝ) : IsReal fun _ : ι => (r : EReal) := fun _ => ⟨r, rfl⟩

/-! ### The float constants zero and one -/

/-- The f32 pattern of +0.0 denotes 0. -/
theorem ofBits_zero : Ideal.ofBits .f32 0x00000000#32 = ((0 : ℝ) : EReal) := by
  simp [Ideal.ofBits, Ideal.ieee]

/-- The f32 pattern 0x3F800000 denotes 1. -/
theorem ofBits_one : Ideal.ofBits .f32 0x3F800000#32 = ((1 : ℝ) : EReal) := by
  simp [Ideal.ofBits, Ideal.ieee, -EReal.coe_mul]; norm_num

/-- A splat of a float constant whose pattern denotes a real number is real-valued. -/
theorem isReal_constant {s : Shape} {b : BitVec 32} {r : ℝ} (hb : Ideal.ofBits .f32 b = (r : EReal)) :
    IsReal (constant (F := Ideal) s .f32 b) := fun _ => ⟨r, hb⟩

/-! ### Pointwise operations -/

section Pointwise
variable {s : Shape} {φ : FTy} {x y : FVec Ideal s φ}

/-- The entrywise sum of real-valued arrays is real-valued. -/
theorem isReal_addf (hx : IsReal x) (hy : IsReal y) : IsReal (addf x y) := fun i => real_add (hx i) (hy i)

/-- The entrywise difference of real-valued arrays is real-valued. -/
theorem isReal_subf (hx : IsReal x) (hy : IsReal y) : IsReal (subf x y) := fun i => real_sub (hx i) (hy i)

/-- The entrywise product of real-valued arrays is real-valued. -/
theorem isReal_mulf (hx : IsReal x) (hy : IsReal y) : IsReal (mulf x y) := fun i => real_mul (hx i) (hy i)

/-- The host's entrywise quotient by a splat of a nonzero real is real-valued. -/
theorem isReal_hostDivf_const (hx : IsReal x) {n : ℝ} (hn : n ≠ 0) (hy : ∀ i, y i = (n : EReal)) :
    IsReal (Host.divf x y) := fun i => by
  show ∃ r : ℝ, Ideal.div (x i) (y i) = (r : EReal)
  rw [hy i]; exact real_div (hx i) hn

/-- The kernel's entrywise quotient by a splat of a nonzero real is real-valued. -/
theorem isReal_divf_const (hx : IsReal x) {n : ℝ} (hn : n ≠ 0) (hy : ∀ i, y i = (n : EReal)) :
    IsReal (divf x y) := fun i => by
  show ∃ r : ℝ, Ideal.div (x i) (y i) = (r : EReal)
  rw [hy i]; exact real_div (hx i) hn

/-- The host's entrywise inverse square root of an array of positive reals is real-valued. -/
theorem isReal_hostRsqrt (hx : ∀ i, ∃ r : ℝ, 0 < r ∧ x i = (r : EReal)) : IsReal (Host.rsqrt x) :=
  fun i => real_rsqrt (hx i)

/-- The kernel's entrywise inverse square root of an array of positive reals is real-valued. -/
theorem isReal_rsqrt (hx : ∀ i, ∃ r : ℝ, 0 < r ∧ x i = (r : EReal)) : IsReal (rsqrt x) :=
  fun i => real_rsqrt (hx i)

end Pointwise

/-! ### Re-indexings: each output entry is an input entry -/

section Reindex
variable {s t : Shape}

/-- A broadcast along named axes of a real-valued array is real-valued. -/
theorem isReal_broadcastInDim {x : s.Idx → EReal} (hx : IsReal x) (dims : Fin s.rank → Fin t.rank)
    (h : s.BroadcastsInDim t dims) : IsReal (broadcastInDim t dims h x) := fun _ => hx _

/-- A trailing-axes broadcast of a real-valued array is real-valued. -/
theorem isReal_broadcastTo {x : s.Idx → EReal} (hx : IsReal x) (h : s.Broadcasts t) :
    IsReal (broadcastTo t x h) := fun _ => hx _

/-- A reshape of a real-valued array is real-valued. -/
theorem isReal_shapeCast {x : s.Idx → EReal} (hx : IsReal x) (h : s.ShapeCasts t) :
    IsReal (shapeCast t x h) := fun _ => hx _

/-- A slice of a real-valued array is real-valued. -/
theorem isReal_extractStridedSlice {x : s.Idx → EReal} (hx : IsReal x) (off : Fin s.rank → Nat)
    (h : s.Slices off t) : IsReal (extractStridedSlice t off x h) := fun _ => hx _

/-- A gather from a real-valued array is real-valued, whatever the (clamped) start indices. -/
theorem isReal_gather {si : Shape} {w : Nat} {x : s.Idx → EReal} (hx : IsReal x) (d : GatherDims s si t)
    (idx : IVec si w) : IsReal (Host.gather d x idx) := fun _ => hx _

end Reindex

/-! ### Contractions, scatter-adds, reductions: finite sums of reals -/

/-- A contraction of real-valued operands onto a real-valued accumulator is real-valued. -/
theorem isReal_matmul {sl sr so : Shape} (d : DotDims sl sr so) {lhs : sl.Idx → EReal} {rhs : sr.Idx → EReal}
    {acc : so.Idx → EReal} (hl : IsReal lhs) (hr : IsReal rhs) (ha : IsReal acc) :
    IsReal (Ideal.matmul d lhs rhs acc) := fun j =>
  real_add (ha j) (real_sum _ _ fun k _ => real_mul (hl _) (hr _))

/-- The kernel's matrix product of real-valued operands onto a real-valued accumulator is real-valued. -/
theorem isReal_matmulOp {sl sr so : Shape} {φ₁ φ₂ : FTy} (d : DotDims sl sr so) (prec : Option ContractPrecision)
    {lhs : FVec Ideal sl φ₁} {rhs : FVec Ideal sr φ₂} {acc : FVec Ideal so .f32}
    (hl : IsReal lhs) (hr : IsReal rhs) (ha : IsReal acc) : IsReal (matmul d prec lhs rhs acc) :=
  isReal_matmul d hl hr ha

/-- The host's dot product of real-valued operands is real-valued. -/
theorem isReal_dotGeneral {sl sr so : Shape} {φ₁ φ₂ : FTy} (d : DotDims sl sr so) (prec : Option ContractPrecision)
    {lhs : FVec Ideal sl φ₁} {rhs : FVec Ideal sr φ₂} (hl : IsReal lhs) (hr : IsReal rhs) :
    IsReal (Host.dotGeneral d prec lhs rhs) :=
  isReal_matmul d hl hr fun _ => ⟨0, rfl⟩

/-- A scatter-add of real-valued updates into a real-valued operand is real-valued: each entry is the
    operand's plus a finite sum of updates. -/
theorem isReal_hostScatterAdd {s si su : Shape} (d : ScatterDims s si su) {w : Nat} {x : s.Idx → EReal}
    (idx : IVec si w) {upd : su.Idx → EReal} (hx : IsReal x) (hu : IsReal upd) :
    IsReal (Ideal.hostScatterAdd d x idx upd) := fun i =>
  real_add (hx i) (real_sum _ _ fun j _ => hu j)

/-- The host's scatter-add operation on real-valued arrays is real-valued. -/
theorem isReal_scatterAdd {s si su : Shape} {φ : FTy} (d : ScatterDims s si su) {w : Nat} {x : FVec Ideal s φ}
    (idx : IVec si w) {upd : FVec Ideal su φ} (hx : IsReal x) (hu : IsReal upd) :
    IsReal (Host.scatterAdd d x idx upd) :=
  isReal_hostScatterAdd d idx hx hu

/-- The host's sum reduction of a real-valued array from a real initial value is real-valued. -/
theorem isReal_hostReduceAdd {s : Shape} {axes : List (Fin s.rank)} {t : Shape} (h : s.ReducesTo axes t)
    {x : s.Idx → EReal} {init : EReal} (hx : IsReal x) (hi : ∃ r : ℝ, init = (r : EReal)) :
    IsReal (Ideal.hostReduceAdd h x init) := fun _ =>
  real_add hi (real_sum _ _ fun i _ => hx i)

/-- The kernel's sum reduction of a real-valued array is real-valued. -/
theorem isReal_reduceAdd {s : Shape} {axes : List (Fin s.rank)} {t : Shape} (h : s.Reduces axes t)
    {x : s.Idx → EReal} (hx : IsReal x) : IsReal (Ideal.reduceAdd h x) := fun _ =>
  real_sum _ _ fun i _ => hx i

/-! ### Two positivity facts -/

/-- A scatter-add of nonnegative reals into nonnegative reals is a nonnegative real at every entry
    (with zeros and ones: the number of updates that land there). -/
theorem hostScatterAdd_nonneg {s si su : Shape} (d : ScatterDims s si su) {w : Nat} {x : s.Idx → EReal}
    (idx : IVec si w) {upd : su.Idx → EReal} (hx : ∀ i, ∃ r : ℝ, 0 ≤ r ∧ x i = (r : EReal))
    (hu : ∀ j, ∃ r : ℝ, 0 ≤ r ∧ upd j = (r : EReal)) (i : s.Idx) :
    ∃ r : ℝ, 0 ≤ r ∧ Ideal.hostScatterAdd d x idx upd i = (r : EReal) := by
  obtain ⟨a, ha0, ha⟩ := hx i
  obtain ⟨b, hb0, hb⟩ := nonneg_real_sum (Finset.univ.filter fun j => d.resultIdx? j idx = some i) upd fun j _ => hu j
  exact ⟨a + b, add_nonneg ha0 hb0, by unfold Ideal.hostScatterAdd; rw [ha, hb, EReal.coe_add]⟩

/-- A count — ones scatter-added into zeros — plus one is a real number at least one, so positive. -/
theorem count_add_one_pos {s si su : Shape} (d : ScatterDims s si su) {w : Nat} (idx : IVec si w) (i : s.Idx) :
    ∃ r : ℝ, 0 < r ∧
      Ideal.hostScatterAdd d (fun _ => ((0 : ℝ) : EReal)) idx (fun _ => ((1 : ℝ) : EReal)) i + ((1 : ℝ) : EReal)
        = (r : EReal) := by
  obtain ⟨a, ha0, ha⟩ := hostScatterAdd_nonneg d idx (x := fun _ => ((0 : ℝ) : EReal))
    (upd := fun _ => ((1 : ℝ) : EReal)) (fun _ => ⟨0, le_rfl, rfl⟩) (fun _ => ⟨1, zero_le_one, rfl⟩) i
  exact ⟨a + 1, by linarith, by rw [ha, EReal.coe_add]⟩

/-- The same over the host's operations as a program composes them: ones scatter-added into zeros, then a splat of
    one added entrywise, is a positive real at every entry, whatever the scatter indices. -/
theorem scatterAdd_ones_add_one_pos {s si su : Shape} (d : ScatterDims s si su) {w : Nat} (idx : IVec si w)
    (x one : FVec Ideal s .f32) (upd : FVec Ideal su .f32) (hx : ∀ i, x i = ((0 : ℝ) : EReal))
    (hu : ∀ j, upd j = ((1 : ℝ) : EReal)) (h1 : ∀ i, one i = ((1 : ℝ) : EReal)) (i : s.Idx) :
    ∃ r : ℝ, 0 < r ∧ addf (Host.scatterAdd d x idx upd) one i = (r : EReal) := by
  obtain ⟨a, ha0, ha⟩ := hostScatterAdd_nonneg d idx (x := x) (upd := upd) (fun i => ⟨0, le_rfl, hx i⟩)
    (fun j => ⟨1, zero_le_one, hu j⟩) i
  refine ⟨a + 1, by linarith, ?_⟩
  show Ideal.hostScatterAdd d x idx upd i + one i = _
  rw [ha, h1 i, EReal.coe_add]

/-- For real a_i, a real centre μ, a positive real N and a positive real ε, the mean of the squared
    deviations plus ε, ((Σ_i (a_i − μ)·(a_i − μ)) / N) + ε, is a positive real. -/
theorem meanSq_add_eps_pos {ι : Type} [Fintype ι] (a : ι → ℝ) (μ N ε : ℝ) (hN : 0 < N) (hε : 0 < ε) :
    ∃ r : ℝ, 0 < r ∧
      Ideal.div (∑ i, ((a i : EReal) - (μ : EReal)) * ((a i : EReal) - (μ : EReal))) (N : EReal) + (ε : EReal)
        = (r : EReal) := by
  refine ⟨(∑ i, (a i - μ) * (a i - μ)) * (1 / N) + ε, ?_, ?_⟩
  · have h1 : 0 ≤ ∑ i, (a i - μ) * (a i - μ) := Finset.sum_nonneg fun i _ => mul_self_nonneg _
    have h2 : 0 ≤ (∑ i, (a i - μ) * (a i - μ)) * (1 / N) := mul_nonneg h1 (by positivity)
    linarith
  · have hs : (∑ i, ((a i : EReal) - (μ : EReal)) * ((a i : EReal) - (μ : EReal)))
        = ((∑ i, (a i - μ) * (a i - μ) : ℝ) : EReal) := by
      rw [coe_sum]; exact Finset.sum_congr rfl fun i _ => by rw [EReal.coe_mul, EReal.coe_sub]
    rw [hs, Ideal.div_coe hN.ne', ← EReal.coe_mul, ← EReal.coe_add]

/-- The variance offset ε, the f32 pattern 0x3727C5AC (the float nearest 1e-5), denotes the positive real
    10995116 · 2⁻⁴⁰. -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- The value of ε is positive. -/
theorem eps_pos : (0 : ℝ) < (10995116 : ℝ) * (2 : ℝ) ^ (-40 : ℤ) := by positivity

end Cert.Lib

end
-- ==== Proof.LibVariance.lean ====
/-
  The two spellings of a batch variance, the regrouping of a sum into blocks, and the two spellings of
  the leaky rectifier, on the extended reals.

  For real numbers a_i, i in a finite set of N elements, with S = Σ a_i, Q = Σ a_i² and μ = S / N:
      Σ (a_i − μ)² = Q − 2 μ S + N μ² = Q − S² / N,   so   (Σ (a_i − μ)²) / N = Q / N − μ².
  On the extended reals this holds for real a_i only (at ±∞ the two sides differ), so the identity is
  proved by pushing every operation into ℝ. Regrouping a finite sum into blocks needs no finiteness: it is
  a re-indexing along the bijection (block, row in block) ↦ block · size + row, in any commutative monoid.
  The rectifier "y where y > 0, else y · s" agrees with "y where y ≥ 0, else s · y" at every extended real:
  they can differ only at y = 0, where the first gives 0 · s = 0 and the second gives y = 0.
-/
import Idealize.ShloMosaic.PureOps.Ideal
import Idealize.ShloMosaic.PureOps.Ideal.Laws
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import proofs.«900825_g7700000000000826_dist_layernorm_colshard_i_m1024_n512_v7x_i8_bf16_1_alg».proof.Proof.LibReal

noncomputable section

namespace Cert.Lib

open Idealize.ShloMosaic
open scoped BigOperators

/-! ### The variance identity -/

/-- In ℝ: the sum of squared deviations from the mean S / N of N numbers is Q − S² / N, so divided by N it is
    the mean of squares minus the square of the mean. -/
theorem variance_real {ι : Type} [Fintype ι] (a : ι → ℝ) (N : ℝ) (hN : N ≠ 0) (hcard : (Fintype.card ι : ℝ) = N) :
    (∑ i, a i * a i) * (1 / N) - ((∑ i, a i) * (1 / N)) * ((∑ i, a i) * (1 / N))
      = (∑ i, (a i - (∑ i, a i) * (1 / N)) * (a i - (∑ i, a i) * (1 / N))) * (1 / N) := by
  have key : ∀ (S m : ℝ), (∑ i, a i) = S →
      ∑ i, (a i - m) * (a i - m) = (∑ i, a i * a i) - 2 * m * S + N * (m * m) := by
    intro S m hS
    have h1 : ∀ i, (a i - m) * (a i - m) = a i * a i - 2 * m * a i + m * m := fun i => by ring
    rw [Finset.sum_congr rfl fun i _ => h1 i, Finset.sum_add_distrib, Finset.sum_sub_distrib, ← Finset.mul_sum,
      Finset.sum_const, Finset.card_univ, nsmul_eq_mul, hcard, hS]
  rw [key _ _ rfl]
  field_simp
  ring

/-- The variance identity on the extended reals, for real-valued a_i over a finite index set of N elements, N a
    nonzero real: mean of squares minus squared mean equals mean of squared deviations from the mean, with the mean
    and each quotient taken by the exact division of the ideal instance. -/
theorem variance_identity {ι : Type} [Fintype ι] (a : ι → ℝ) (N : ℝ) (hN : N ≠ 0) (hcard : (Fintype.card ι : ℝ) = N) :
    Ideal.div (∑ i, (a i : EReal) * (a i : EReal)) (N : EReal)
        - Ideal.div (∑ i, (a i : EReal)) (N : EReal) * Ideal.div (∑ i, (a i : EReal)) (N : EReal)
      = Ideal.div (∑ i, ((a i : EReal) - Ideal.div (∑ i, (a i : EReal)) (N : EReal))
          * ((a i : EReal) - Ideal.div (∑ i, (a i : EReal)) (N : EReal))) (N : EReal) := by
  have hsum : (∑ i, (a i : EReal)) = ((∑ i, a i : ℝ) : EReal) := (coe_sum _ _).symm
  have hsq : (∑ i, (a i : EReal) * (a i : EReal)) = ((∑ i, a i * a i : ℝ) : EReal) := by
    rw [coe_sum]; exact Finset.sum_congr rfl fun i _ => (EReal.coe_mul _ _).symm
  have hmean : Ideal.div (∑ i, (a i : EReal)) (N : EReal) = (((∑ i, a i) * (1 / N) : ℝ) : EReal) := by
    rw [hsum, Ideal.div_coe hN, ← EReal.coe_mul]
  have hdev : (∑ i, ((a i : EReal) - (((∑ i, a i) * (1 / N) : ℝ) : EReal))
        * ((a i : EReal) - (((∑ i, a i) * (1 / N) : ℝ) : EReal)))
      = ((∑ i, (a i - (∑ i, a i) * (1 / N)) * (a i - (∑ i, a i) * (1 / N)) : ℝ) : EReal) := by
    rw [coe_sum]; exact Finset.sum_congr rfl fun i _ => by rw [← EReal.coe_sub, ← EReal.coe_mul]
  rw [hmean, hdev, hsq, Ideal.div_coe hN, Ideal.div_coe hN, ← EReal.coe_mul, ← EReal.coe_mul, ← EReal.coe_mul,
    ← EReal.coe_sub, variance_real a N hN hcard]

/-- The same for an array of extended reals known to be real-valued. -/
theorem variance_identity_of_isReal {ι : Type} [Fintype ι] (a : ι → EReal) (ha : IsReal a) (N : ℝ) (hN : N ≠ 0)
    (hcard : (Fintype.card ι : ℝ) = N) :
    Ideal.div (∑ i, a i * a i) (N : EReal) - Ideal.div (∑ i, a i) (N : EReal) * Ideal.div (∑ i, a i) (N : EReal)
      = Ideal.div (∑ i, (a i - Ideal.div (∑ i, a i) (N : EReal)) * (a i - Ideal.div (∑ i, a i) (N : EReal))) (N : EReal) := by
  choose r hr using ha
  have e : a = fun i => (r i : EReal) := funext hr
  subst e
  exact variance_identity r N hN hcard

/-- The same with each sum carrying the leading zero a sum from a zero initial value (or a zero accumulator) has:
    the kernel's running totals start at 0, the host's reductions start from the initial value 0. -/
theorem variance_identity_zero_add {ι : Type} [Fintype ι] (a : ι → EReal) (ha : IsReal a) (N : ℝ) (hN : N ≠ 0)
    (hcard : (Fintype.card ι : ℝ) = N) :
    Ideal.div (0 + ∑ i, a i * a i) (N : EReal)
        - Ideal.div (0 + ∑ i, a i) (N : EReal) * Ideal.div (0 + ∑ i, a i) (N : EReal)
      = Ideal.div (0 + ∑ i, (a i - Ideal.div (0 + ∑ i, a i) (N : EReal)) * (a i - Ideal.div (0 + ∑ i, a i) (N : EReal)))
          (N : EReal) := by
  simp only [zero_add]
  exact variance_identity_of_isReal a ha N hN hcard

/-! ### Regrouping a sum into blocks -/

/-- A sum over m · n indices is the sum over m blocks of the sums over the n indices of each block, index
    t · n + r being row r of block t; in any commutative monoid. -/
theorem sum_blocks {M : Type} [AddCommMonoid M] (m n : ℕ) (g : Fin (m * n) → M) :
    ∑ i : Fin (m * n), g i = ∑ t : Fin m, ∑ r : Fin n, g (finProdFinEquiv (t, r)) := by
  rw [← Fintype.sum_prod_type' (f := fun t r => g (finProdFinEquiv (t, r)))]
  exact (Equiv.sum_comp finProdFinEquiv g).symm

/-- The position of row r of block t: r + n · t. -/
theorem finProdFinEquiv_val (m n : ℕ) (t : Fin m) (r : Fin n) : (finProdFinEquiv (t, r)).val = r.val + n * t.val := rfl

/-- The same over a literal number of indices N = m · n, with the position written t · n + r. -/
theorem sum_blocks_of_eq {M : Type} [AddCommMonoid M] (m n N : ℕ) (h : m * n = N) (g : Fin N → M) :
    ∑ i : Fin N, g i
      = ∑ t : Fin m, ∑ r : Fin n, g ⟨t.val * n + r.val, by
          have ht := t.isLt; have hr := r.isLt
          calc t.val * n + r.val < t.val * n + n := by omega
            _ = (t.val + 1) * n := by ring
            _ ≤ m * n := Nat.mul_le_mul_right n ht
            _ = N := h⟩ := by
  subst h
  rw [sum_blocks]
  refine Finset.sum_congr rfl fun t _ => Finset.sum_congr rfl fun r _ => congrArg g (Fin.ext ?_)
  rw [finProdFinEquiv_val]; ring

/-- A running total over blocks that starts at zero: zero plus the block sums is the one sum. -/
theorem zero_add_sum_blocks_of_eq {M : Type} [AddCommMonoid M] (m n N : ℕ) (h : m * n = N) (g : Fin N → M)
    (hlt : ∀ (t : Fin m) (r : Fin n), t.val * n + r.val < N) :
    0 + ∑ t : Fin m, ∑ r : Fin n, g ⟨t.val * n + r.val, hlt t r⟩ = ∑ i : Fin N, g i := by
  rw [zero_add, sum_blocks_of_eq m n N h g]

/-! ### The leaky rectifier -/

/-- At every extended real y and slope s: "y where y > 0, else y · s" equals "y where y ≥ 0, else s · y".
    Above zero both give y, below zero the products commute, at zero the first gives 0 · s = 0 and the second 0. -/
theorem lrelu_ogt_eq_oge (y s : EReal) :
    Scalar.select (Ideal.cmp .ogt y 0) y (y * s) = Scalar.select (Ideal.cmp .oge y 0) y (s * y) := by
  rcases lt_trichotomy y 0 with h | h | h
  · have h1 : ¬ (0 < y) := not_lt.2 h.le
    have h2 : ¬ (0 ≤ y) := not_le.2 h
    simp [Scalar.select, Ideal.cmp, h1, h2, mul_comm]
  · subst h
    simp [Scalar.select, Ideal.cmp]
  · have h2 : (0 : EReal) ≤ y := h.le
    simp [Scalar.select, Ideal.cmp, h, h2]

/-- The same with the zero spelled as a float pattern that denotes 0, as the programs write it. -/
theorem lrelu_ogt_eq_oge_ofBits (y s : EReal) :
    Scalar.select (Ideal.cmp .ogt y (Ideal.ofBits .f32 0x00000000#32)) y (y * s)
      = Scalar.select (Ideal.cmp .oge y (Ideal.ofBits .f32 0x00000000#32)) y (s * y) := by
  rw [Ideal.ofBits_zero_f32]; exact lrelu_ogt_eq_oge y s

/-- On whole arrays: the kernel's select on y > 0 between y and y · s is the reference's select on y ≥ 0 between y
    and s · y. -/
theorem lrelu_vec_eq {sh : Shape} (y s : FVec Ideal sh .f32) :
    select (cmpf .ogt y (constant sh .f32 0x00000000#32)) y (mulf y s)
      = select (cmpf .oge y (constant sh .f32 0x00000000#32)) y (mulf s y) :=
  funext fun i => lrelu_ogt_eq_oge_ofBits (y i) (s i)

/-- The rectifier of a real with a real slope is real. -/
theorem real_lrelu {y s z : EReal} (hy : ∃ r : ℝ, y = (r : EReal)) (hs : ∃ r : ℝ, s = (r : EReal)) :
    ∃ r : ℝ, Scalar.select (Ideal.cmp .ogt y z) y (y * s) = (r : EReal) := by
  unfold Scalar.select
  split
  · exact hy
  · exact real_mul hy hs

end Cert.Lib

end
-- ==== Proof.Normalise.lean ====
/-
  The normalisation read entry by entry. From the two rows of totals, entry (r, j) of the result block is
  γ_j · ((x_rj − μ_r) · ρ_r) + β_j, where μ_r is row r's total divided by 4096 and ρ_r the inverse root of
  row r's total of squares divided by 4096, less μ_r², plus the regulariser. When the totals are the sums and
  sums of squares of a real row of 4096 entries, that is the layer normalisation of the specification: the mean of
  squares less the squared mean is the variance, a nonnegative real, so the root is of a positive real.
-/
import proofs.«900825_g7700000000000826_dist_layernorm_colshard_i_m1024_n512_v7x_i8_bf16_1_alg».proof.Proof.KVal
import proofs.«900825_g7700000000000826_dist_layernorm_colshard_i_m1024_n512_v7x_i8_bf16_1_alg».proof.Proof.Spec
import proofs.«900825_g7700000000000826_dist_layernorm_colshard_i_m1024_n512_v7x_i8_bf16_1_alg».proof.Proof.SpecFacts
import proofs.«900825_g7700000000000826_dist_layernorm_colshard_i_m1024_n512_v7x_i8_bf16_1_alg».proof.Proof.LibReal
import proofs.«900825_g7700000000000826_dist_layernorm_colshard_i_m1024_n512_v7x_i8_bf16_1_alg».proof.Proof.LibVariance
import Idealize.ShloMosaic.Lib.ValueIdx
import Idealize.ShloMosaic.Lib.ValueLayout
import Idealize.ShloMosaic.Lib.Pipeline.Value
import Mathlib.Tactic.Ring
import Mathlib.Tactic.FieldSimp
import Mathlib.Tactic.NormNum
import Mathlib.Tactic.Positivity
import Mathlib.Tactic.Linarith

noncomputable section

open scoped BigOperators

namespace Cert.KernelIdeal.KValue

open Cert.KernelIdeal Cert.KernelIdeal.Gen
open Idealize.ShloMosaic Idealize.ShloMosaic.ValueIdx

/-! ### Layout steps read at an index -/

section Layout

variable {α : Type}

/-- Row 0 of a two-row array, kept as a one-row array. -/
theorem row0_apply (T : S2x1024.Idx → α) (r : Fin 1024) :
    extractStridedSlice S1x1024 ![0, 0] T slices_S2x1024_o0_0_S1x1024 (ix2 (0 : Fin 1) r) = T (ix2 (0 : Fin 2) r) :=
  slice2_axis0_apply 0 T slices_S2x1024_o0_0_S1x1024 0 r 0 rfl

/-- Row 1 of a two-row array, kept as a one-row array. -/
theorem row1_apply (T : S2x1024.Idx → α) (r : Fin 1024) :
    extractStridedSlice S1x1024 ![1, 0] T slices_S2x1024_o1_0_S1x1024 (ix2 (0 : Fin 1) r) = T (ix2 (1 : Fin 2) r) :=
  slice2_axis0_apply 1 T slices_S2x1024_o1_0_S1x1024 0 r 1 rfl

/-- Two one-row arrays stacked and transposed: column 0 of the 1024 × 2 array is the first. -/
theorem stackT_col0_apply (A B : S1x1024.Idx → α) (r : Fin 1024) :
    extractStridedSlice S1024x1 ![0, 0]
      (transpose S1024x2 [1, 0]
        (concatenate S2x1024 0 [⟨S1x1024, A⟩, ⟨S1x1024, B⟩] concatenates_S1x1024_S1x1024_S2x1024_d0)
        transposes_S2x1024_p1_0_S1024x2)
      slices_S1024x2_o0_0_S1024x1 (ix2 r (0 : Fin 1)) = A (ix2 (0 : Fin 1) r) := by
  refine (slice2_axis1_apply 0 _ slices_S1024x2_o0_0_S1024x1 r 0 0 rfl).trans ?_
  refine (transpose_ix2_apply _ transposes_S2x1024_p1_0_S1024x2 r 0).trans ?_
  exact concatenate_pair_apply_left 0 A B concatenates_S1x1024_S1x1024_S2x1024_d0 _ rfl (ix2 0 r)
    (fun b => match b with | ⟨0, _⟩ => rfl | ⟨1, _⟩ => rfl)

/-- Two one-row arrays stacked and transposed: column 1 of the 1024 × 2 array is the second. -/
theorem stackT_col1_apply (A B : S1x1024.Idx → α) (r : Fin 1024) :
    extractStridedSlice S1024x1 ![0, 1]
      (transpose S1024x2 [1, 0]
        (concatenate S2x1024 0 [⟨S1x1024, A⟩, ⟨S1x1024, B⟩] concatenates_S1x1024_S1x1024_S2x1024_d0)
        transposes_S2x1024_p1_0_S1024x2)
      slices_S1024x2_o0_1_S1024x1 (ix2 r (0 : Fin 1)) = B (ix2 (0 : Fin 1) r) := by
  refine (slice2_axis1_apply 1 _ slices_S1024x2_o0_1_S1024x1 r 0 1 rfl).trans ?_
  refine (transpose_ix2_apply _ transposes_S2x1024_p1_0_S1024x2 r 1).trans ?_
  exact concatenate_pair_apply_right 0 A B concatenates_S1x1024_S1x1024_S2x1024_d0 _ rfl rfl (ix2 0 r)
    (fun b hb => match b, hb with | ⟨0, _⟩, hb => absurd rfl hb | ⟨1, _⟩, _ => rfl) rfl

/-- A one-column array broadcast along 512 columns reads, at (r, j), its entry of row r. -/
theorem bcastCol_apply (v : S1024x1.Idx → α) (r : Fin 1024) (j : Fin 512) :
    broadcastTo S1024x512 v broadcasts_S1024x1_S1024x512 (ix2 r j) = v (ix2 r (0 : Fin 1)) := by
  refine broadcastTo_apply v broadcasts_S1024x1_S1024x512 (ix2 r j) (ix2 r (0 : Fin 1)) fun ax => ?_
  match ax with
  | ⟨0, _⟩ => rfl
  | ⟨1, _⟩ => rfl

/-- A vector of 512 entries laid as one row and broadcast down 1024 rows reads, at (r, j), its entry j. -/
theorem bcastRow_apply (v : S512.Idx → α) (r : Fin 1024) (j : Fin 512) :
    broadcastTo S1024x512 (shapeCast S1x512 v shapeCasts_S512_S1x512) broadcasts_S1x512_S1024x512 (ix2 r j) = v (ix1 j) :=
  (broadcastTo_1b_ab_apply _ broadcasts_S1x512_S1024x512 r j).trans (shapeCast_a_1a_apply v shapeCasts_S512_S1x512 0 j)

end Layout

/-! ### The normalisation at an entry -/

/-- The inverse root taken entry by entry. -/
theorem rsqrt_apply {s : Shape} {φ : FTy} (a : FVec Ideal s φ) (i : s.Idx) : rsqrt a i = Ideal.rsqrt (a i) := rfl

/-- Entry (r, j) of the normalisation, for any totals, gain, offset and block. -/
theorem normalise_apply (T : Vec Ideal S2x1024 .f32) (g b : Vec Ideal S512 .f32) (xb3 : Vec Ideal S1024x512 .bf16)
    (r : Fin 1024) (j : Fin 512) :
    KVal.normalise (F := Ideal) T g b xb3 (ix2 r j)
      = g (ix1 j) * ((xb3 (ix2 r j) - Ideal.div (T (ix2 (0 : Fin 2) r)) (Ideal.ofBits .f32 0x45800000#32))
          * Ideal.rsqrt (Ideal.div (T (ix2 (1 : Fin 2) r)) (Ideal.ofBits .f32 0x45800000#32)
              - Ideal.div (T (ix2 (0 : Fin 2) r)) (Ideal.ofBits .f32 0x45800000#32)
                * Ideal.div (T (ix2 (0 : Fin 2) r)) (Ideal.ofBits .f32 0x45800000#32)
              + Ideal.ofBits .f32 0x3727C5AC#32))
        + b (ix1 j) := by
  unfold KVal.normalise
  dsimp only
  rw [addf_apply, mulf_apply, mulf_apply, subf_apply, bcastRow_apply, bcastRow_apply, bcastCol_apply, bcastCol_apply,
    truncf_apply, truncf_apply, truncf_apply, truncf_apply, stackT_col0_apply, stackT_col1_apply,
    shapeCast_self, shapeCast_self, rsqrt_apply, addf_apply, subf_apply, mulf_apply, divf_apply, divf_apply,
    row0_apply, row1_apply]
  rfl

/-! ### Over the reals -/

/-- In ℝ: a row's mean of squares less its squared mean is the variance of the specification. -/
theorem meanSq_sub_sq_mean (x : Fin 1024 → Fin 4096 → ℝ) (r : Fin 1024) :
    (∑ k : Fin 4096, x r k ^ 2) * (1 / 4096) - ((∑ k : Fin 4096, x r k) * (1 / 4096)) * ((∑ k : Fin 4096, x r k) * (1 / 4096))
      = Cert.Spec.var x r := by
  have hsq : (∑ k : Fin 4096, x r k ^ 2) = ∑ k : Fin 4096, x r k * x r k :=
    Finset.sum_congr rfl fun k _ => sq (x r k)
  have hcard : (Fintype.card (Fin 4096) : ℝ) = 4096 := by rw [Fintype.card_fin]; norm_num
  rw [hsq, Cert.Lib.variance_real (x r) 4096 (by norm_num) hcard]
  unfold Cert.Spec.var Cert.Spec.mean
  rw [div_eq_mul_one_div (∑ k : Fin 4096, (x r k - (∑ k : Fin 4096, x r k) / 4096) ^ 2)]
  congr 1
  refine Finset.sum_congr rfl fun k _ => ?_
  ring

/-- The variance of a row is nonnegative. -/
theorem var_nonneg (x : Fin 1024 → Fin 4096 → ℝ) (r : Fin 1024) : 0 ≤ Cert.Spec.var x r := by
  unfold Cert.Spec.var
  exact div_nonneg (Finset.sum_nonneg fun k _ => sq_nonneg _) (by norm_num)

/-- The normalisation of the totals of a real row is the layer normalisation of the specification. -/
theorem normalise_real (x : Fin 1024 → Fin 4096 → ℝ) (γ β : Fin 4096 → ℝ) (c : Fin 8)
    (T : Vec Ideal S2x1024 .f32) (g b : Vec Ideal S512 .f32) (xb3 : Vec Ideal S1024x512 .bf16)
    (hT0 : ∀ r : Fin 1024, T (ix2 (0 : Fin 2) r) = ((∑ k : Fin 4096, x r k : ℝ) : EReal))
    (hT1 : ∀ r : Fin 1024, T (ix2 (1 : Fin 2) r) = ((∑ k : Fin 4096, x r k ^ 2 : ℝ) : EReal))
    (hg : ∀ j : Fin 512, g (ix1 j) = ((γ (Cert.Spec.col c j) : ℝ) : EReal)) (hb : ∀ j : Fin 512, b (ix1 j) = ((β (Cert.Spec.col c j) : ℝ) : EReal))
    (hx : ∀ (r : Fin 1024) (j : Fin 512), xb3 (ix2 r j) = ((x r (Cert.Spec.col c j) : ℝ) : EReal))
    (r : Fin 1024) (j : Fin 512) :
    KVal.normalise (F := Ideal) T g b xb3 (ix2 r j) = ((Cert.Spec.ln x γ β r (Cert.Spec.col c j) : ℝ) : EReal) := by
  have h4096 : (4096 : ℝ) ≠ 0 := by norm_num
  have hpos : 0 < Cert.Spec.var x r + Cert.Spec.eps := by
    have := var_nonneg x r; have := Cert.Spec.eps_pos; linarith
  rw [normalise_apply, hT0 r, hT1 r, hg j, hb j, hx r j, Cert.Spec.ofBits_4096, Cert.Spec.ofBits_eps,
    Ideal.div_coe h4096, Ideal.div_coe h4096, ← EReal.coe_mul, ← EReal.coe_mul, ← EReal.coe_mul, ← EReal.coe_sub,
    ← EReal.coe_sub, ← EReal.coe_add, meanSq_sub_sq_mean, Ideal.rsqrt_coe, if_neg (not_lt.2 hpos.le), if_neg hpos.ne',
    ← EReal.coe_mul, ← EReal.coe_mul, ← EReal.coe_add]
  congr 1
  unfold Cert.Spec.ln Cert.Spec.mean
  ring

/-- The copy of the block kept in the narrower format is the block itself: at the exact instance the change of
    format is the identity, and the two reshapes keep the shape. -/
theorem pay3_apply (xb : Vec Ideal S1024x512 .f32) (r : Fin 1024) (j : Fin 512) :
    Cert.KernelIdeal.Gen.k0_pay3 (F := Ideal) xb (ix2 r j) = xb (ix2 r j) := by
  unfold Cert.KernelIdeal.Gen.k0_pay3
  rw [shapeCast_self, truncf_apply, shapeCast_self]

end Cert.KernelIdeal.KValue

end
-- ==== Proof.Totals.lean ====
/-
  What the sum of the eight tables holds.

  A device's table packs, 128 to a row, two rows of 1024 numbers: for each of the 1024 rows of its block of 512 columns,
  the sum of the row's entries and the sum of their squares. Position 128 a + l of the table is position 1024 p + r of the
  two rows, so packing and unpacking are inverse re-indexings. Adding the device's own table to the seven it receives and
  unpacking gives, at (p, r), the sum over the eight blocks of their entry (p, r). The seven received tables are those of
  the devices 1, …, 7 places further on the ring of eight, so with the device's own block every block of 512 columns occurs
  exactly once, and the eight partial sums over 512 columns regroup into the one sum over the 4096 columns
  (column j of block t is column 512 t + j). Every summand is a real number, so the sums can be taken in the reals.
-/
import proofs.«900825_g7700000000000826_dist_layernorm_colshard_i_m1024_n512_v7x_i8_bf16_1_alg».proof.Proof.KVal
import proofs.«900825_g7700000000000826_dist_layernorm_colshard_i_m1024_n512_v7x_i8_bf16_1_alg».proof.Proof.Spec
import proofs.«900825_g7700000000000826_dist_layernorm_colshard_i_m1024_n512_v7x_i8_bf16_1_alg».proof.Proof.LibVariance
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KValue

open Cert.KernelIdeal Cert.KernelIdeal.Gen
open Idealize.ShloMosaic Idealize.ShloMosaic.ValueIdx

/-! ## Sums of real numbers on the extended reals, and the ring of eight blocks -/

/-- The inclusion of the reals into the extended reals carries a finite sum to the sum of the inclusions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The devices 1, …, 7 places after device `c` on the ring of eight are all the devices but `c`. -/
theorem src_image : ∀ c : Fin 8, Finset.univ.image (Cert.Spec.src c) = Finset.univ.erase c := by decide

/-- Different receive slots hold different devices' tables. -/
theorem src_inj : ∀ (c : Fin 8) (s s' : Fin 7), Cert.Spec.src c s = Cert.Spec.src c s' → s = s' := by decide

/-- A device's own term and the terms of the seven devices after it on the ring are the terms of all eight devices. -/
theorem ring_sum {M : Type} [AddCommMonoid M] (g : Fin 8 → M) (c : Fin 8) :
    g c + ∑ s : Fin 7, g (Cert.Spec.src c s) = ∑ t : Fin 8, g t := by
  rw [← Finset.add_sum_erase Finset.univ g (Finset.mem_univ c), ← src_image c,
    Finset.sum_image (fun s _ s' _ h => src_inj c s s' h)]

/-- The sum of a real function over block `c`'s 512 columns and over the 512 columns of each of the seven blocks after it
    is its sum over all 4096 columns. -/
theorem regroup (f : Fin 4096 → ℝ) (c : Fin 8) :
    (∑ j : Fin 512, ((f (Cert.Spec.col c j) : ℝ) : EReal))
        + ∑ s : Fin 7, ∑ j : Fin 512, ((f (Cert.Spec.col (Cert.Spec.src c s) j) : ℝ) : EReal)
      = ((∑ k : Fin 4096, f k : ℝ) : EReal) := by
  refine (ring_sum (fun t => ∑ j : Fin 512, ((f (Cert.Spec.col t j) : ℝ) : EReal)) c).trans ?_
  rw [coe_sum, Cert.Lib.sum_blocks_of_eq 8 512 4096 rfl]
  refine Finset.sum_congr rfl fun t _ => Finset.sum_congr rfl fun j _ => ?_
  congr 2
  exact Fin.ext (by show 512 * t.val + j.val = t.val * 512 + j.val; omega)

/-! ## The two reductions read at an index -/

/-- The sum along the 512 columns, at row `r`. -/
theorem rowSum_apply (v : Vec Ideal S1024x512 .f32) (r : Fin 1024) :
    multiReduction (F := Ideal) .add [1] S1024 v 0x00000000#32 reduces_S1024x512_S1024 (.inl rfl) rfl (ix1 r)
      = ∑ j : Fin 512, v (ix2 r j) := by
  refine (Ideal.multiReduction_add_single v _ reduces_S1024x512_S1024 _ _ (ix1 r)).trans ?_
  refine Finset.sum_congr rfl fun j _ => congrArg v ?_
  funext a; match a with | ⟨0, _⟩ => rfl | ⟨1, _⟩ => rfl

/-- The sum over the seven receive slots, at table position `(a, l)`. -/
theorem slotSum_apply (ts : Vec Ideal S7x16x128 .f32) (a : Fin 16) (l : Fin 128) :
    multiReduction (F := Ideal) .add [0] S16x128 ts 0x00000000#32 reduces_S7x16x128_S16x128 (.inl rfl) rfl (ix2 a l)
      = ∑ s : Fin 7, ts (ix3 s a l) := by
  refine (Ideal.multiReduction_add_single ts _ reduces_S7x16x128_S16x128 _ _ (ix2 a l)).trans ?_
  refine Finset.sum_congr rfl fun s _ => congrArg ts ?_
  funext b; match b with | ⟨0, _⟩ => rfl | ⟨1, _⟩ => rfl | ⟨2, _⟩ => rfl

/-! ## A block's two rows of statistics, and its table -/

/-- The block's two rows of statistics before they are packed 128 to a row: row 0 the 1024 row sums, row 1 the 1024 row
    sums of squares. -/
def rows (xb : Vec Ideal S1024x512 .f32) : Vec Ideal S2x1024 .f32 :=
  transpose S2x1024 [1, 0]
    (concatenate S1024x2 1
      [⟨S1024x1, shapeCast S1024x1
          (multiReduction (F := Ideal) .add [1] S1024 xb 0x00000000#32 reduces_S1024x512_S1024 (.inl rfl) rfl) shapeCasts_S1024_S1024x1⟩,
       ⟨S1024x1, shapeCast S1024x1
          (multiReduction (F := Ideal) .add [1] S1024 (mulf xb xb : FVec Ideal S1024x512 .f32) 0x00000000#32 reduces_S1024x512_S1024 (.inl rfl) rfl) shapeCasts_S1024_S1024x1⟩]
      concatenates_S1024x1_S1024x1_S1024x2_d1)
    transposes_S1024x2_p1_0_S2x1024

/-- The table is the two rows packed 128 to a row. -/
theorem stats_eq (xb : Vec Ideal S1024x512 .f32) :
    KVal.stats xb = shapeCast S16x128 (rows xb) shapeCasts_S2x1024_S16x128 := by
  unfold KVal.stats k0_pay2 k0_pay1 rows
  dsimp only
  rw [shapeCast_self, shapeCast_self]

/-- Table position `(a, l)` holds entry `(p, r)` of the two rows when `128 a + l = 1024 p + r`. -/
theorem stats_apply (xb : Vec Ideal S1024x512 .f32) (a : Fin 16) (l : Fin 128) (p : Fin 2) (r : Fin 1024)
    (h : a.val * 128 + l.val = p.val * 1024 + r.val) : KVal.stats xb (ix2 a l) = rows xb (ix2 p r) := by
  rw [stats_eq]
  refine shapeCast_apply _ _ (ix2 a l) (ix2 p r) ?_
  rw [Shape.rowMajor_val_two, Shape.rowMajor_val_two]
  exact h.symm

/-- A vector of 1024 entries viewed as one column reads, at row `r`, its entry `r`. -/
theorem keepdims_apply (v : Vec Ideal S1024 .f32) (r : Fin 1024) (u : Fin 1) :
    shapeCast S1024x1 v shapeCasts_S1024_S1024x1 (ix2 r u) = v (ix1 r) := by
  refine shapeCast_apply _ _ (ix2 r u) (ix1 r) ?_
  rw [Shape.rowMajor_val_one, Shape.rowMajor_val_two]
  have hu : u.val = 0 := by omega
  show r.val = r.val * 1 + u.val
  omega

/-- Row 0 of the two rows: at `r`, the sum of row `r` of the block. -/
theorem rows_zero (xb : Vec Ideal S1024x512 .f32) (r : Fin 1024) :
    rows xb (ix2 (0 : Fin 2) r) = ∑ j : Fin 512, xb (ix2 r j) := by
  unfold rows
  rw [transpose_ix2_apply]
  refine (concatenate_pair_apply_left (s₁ := S1024x1) (s₂ := S1024x1) _ _ _ _ (ix2 r (0 : Fin 2)) rfl (ix2 r (0 : Fin 1)) ?_).trans ?_
  · intro b; match b with | ⟨0, _⟩ => rfl | ⟨1, _⟩ => rfl
  rw [keepdims_apply, rowSum_apply]

/-- Row 1 of the two rows: at `r`, the sum of the squares of row `r` of the block. -/
theorem rows_one (xb : Vec Ideal S1024x512 .f32) (r : Fin 1024) :
    rows xb (ix2 (1 : Fin 2) r) = ∑ j : Fin 512, xb (ix2 r j) * xb (ix2 r j) := by
  unfold rows
  rw [transpose_ix2_apply]
  refine (concatenate_pair_apply_right (s₁ := S1024x1) (s₂ := S1024x1) _ _ _ _ (ix2 r (1 : Fin 2)) rfl rfl (ix2 r (0 : Fin 1)) ?_ ?_).trans ?_
  · intro b hb; match b, hb with | ⟨0, _⟩, _ => rfl | ⟨1, _⟩, hb => exact absurd rfl hb
  · rfl
  rw [keepdims_apply, rowSum_apply]
  rfl

/-! ## The totals -/

/-- Entry `(p, r)` of the totals is the sum of the eight tables at the position `(a, l)` with `128 a + l = 1024 p + r`. -/
theorem totals_apply (t : Vec Ideal S16x128 .f32) (ts : Vec Ideal S7x16x128 .f32) (p : Fin 2) (r : Fin 1024)
    (a : Fin 16) (l : Fin 128) (h : a.val * 128 + l.val = p.val * 1024 + r.val) :
    KVal.totals (F := Ideal) t ts (ix2 p r) = t (ix2 a l) + ∑ s : Fin 7, ts (ix3 s a l) := by
  unfold KVal.totals
  refine (shapeCast_apply _ _ (ix2 p r) (ix2 a l) ?_).trans ?_
  · rw [Shape.rowMajor_val_two, Shape.rowMajor_val_two]; exact h
  rw [addf_apply, slotSum_apply]

/-- Entry `(p, r)` of the totals of a block's table and the tables of seven more blocks: the sum over the eight blocks of
    entry `(p, r)` of their two rows. -/
theorem totals_rows (xb : Vec Ideal S1024x512 .f32) (xs : Fin 7 → Vec Ideal S1024x512 .f32) (p : Fin 2) (r : Fin 1024) :
    KVal.totals (F := Ideal) (KVal.stats xb) (KVal.gathered xs) (ix2 p r)
      = rows xb (ix2 p r) + ∑ s : Fin 7, rows (xs s) (ix2 p r) := by
  have hp := p.isLt
  have hr := r.isLt
  have ha : (p.val * 1024 + r.val) / 128 < 16 := by omega
  have hl : (p.val * 1024 + r.val) % 128 < 128 := by omega
  have h : (⟨(p.val * 1024 + r.val) / 128, ha⟩ : Fin 16).val * 128 + (⟨(p.val * 1024 + r.val) % 128, hl⟩ : Fin 128).val
      = p.val * 1024 + r.val := by
    show (p.val * 1024 + r.val) / 128 * 128 + (p.val * 1024 + r.val) % 128 = p.val * 1024 + r.val
    omega
  rw [totals_apply _ _ p r _ _ h, stats_apply xb _ _ p r h]
  refine congrArg _ (Finset.sum_congr rfl fun s _ => ?_)
  exact stats_apply (xs s) _ _ p r h

/-- THE TOTALS of device `c`: when its block and the seven received blocks are the blocks of one real array `x`, row 0 of
    the totals holds each row's sum over all 4096 columns and row 1 each row's sum of squares. -/
theorem totals_real (x : Fin 1024 → Fin 4096 → ℝ) (c : Fin 8)
    (xb : Vec Ideal S1024x512 .f32) (xs : Fin 7 → Vec Ideal S1024x512 .f32)
    (hxb : ∀ (r : Fin 1024) (j : Fin 512), xb (ix2 r j) = ((x r (Cert.Spec.col c j) : ℝ) : EReal))
    (hxs : ∀ (s : Fin 7) (r : Fin 1024) (j : Fin 512), xs s (ix2 r j) = ((x r (Cert.Spec.col (Cert.Spec.src c s) j) : ℝ) : EReal))
    (r : Fin 1024) :
    KVal.totals (F := Ideal) (KVal.stats xb) (KVal.gathered xs) (ix2 (0 : Fin 2) r) = ((∑ k : Fin 4096, x r k : ℝ) : EReal)
    ∧ KVal.totals (F := Ideal) (KVal.stats xb) (KVal.gathered xs) (ix2 (1 : Fin 2) r) = ((∑ k : Fin 4096, x r k ^ 2 : ℝ) : EReal) := by
  constructor
  · rw [totals_rows, rows_zero]
    have e1 : ∑ j : Fin 512, xb (ix2 r j) = ∑ j : Fin 512, ((x r (Cert.Spec.col c j) : ℝ) : EReal) :=
      Finset.sum_congr rfl fun j _ => hxb r j
    have e2 : ∑ s : Fin 7, rows (xs s) (ix2 (0 : Fin 2) r)
        = ∑ s : Fin 7, ∑ j : Fin 512, ((x r (Cert.Spec.col (Cert.Spec.src c s) j) : ℝ) : EReal) :=
      Finset.sum_congr rfl fun s _ => (rows_zero (xs s) r).trans (Finset.sum_congr rfl fun j _ => hxs s r j)
    rw [e1, e2]
    exact regroup (x r) c
  · rw [totals_rows, rows_one]
    have sq : ∀ y : ℝ, ((y : ℝ) : EReal) * ((y : ℝ) : EReal) = ((y ^ 2 : ℝ) : EReal) := fun y => by
      rw [← EReal.coe_mul, pow_two]
    have e1 : ∑ j : Fin 512, xb (ix2 r j) * xb (ix2 r j)
        = ∑ j : Fin 512, ((x r (Cert.Spec.col c j) ^ 2 : ℝ) : EReal) :=
      Finset.sum_congr rfl fun j _ => by rw [hxb r j, sq]
    have e2 : ∑ s : Fin 7, rows (xs s) (ix2 (1 : Fin 2) r)
        = ∑ s : Fin 7, ∑ j : Fin 512, ((x r (Cert.Spec.col (Cert.Spec.src c s) j) ^ 2 : ℝ) : EReal) :=
      Finset.sum_congr rfl fun s _ => (rows_one (xs s) r).trans (Finset.sum_congr rfl fun j _ => by rw [hxs s r j, sq])
    rw [e1, e2]
    exact regroup (fun k => x r k ^ 2) c

end Cert.KernelIdeal.KValue

end
-- ==== Proof.ResultValue.lean ====
/-
  One device's result block over the reals. When the device's block of x, the seven blocks whose tables it receives,
  and its blocks of the gain and the offset hold the columns of real arrays x, γ, β that the device's place on the
  ring names, entry (r, j) of its result is the layer normalisation of row r at the device's column j: the eight
  tables add up to the row's sum and sum of squares over all 4096 columns, and the normalisation of those totals is
  the specification's.
-/
import proofs.«900825_g7700000000000826_dist_layernorm_colshard_i_m1024_n512_v7x_i8_bf16_1_alg».proof.Proof.KVal
import proofs.«900825_g7700000000000826_dist_layernorm_colshard_i_m1024_n512_v7x_i8_bf16_1_alg».proof.Proof.Spec
import proofs.«900825_g7700000000000826_dist_layernorm_colshard_i_m1024_n512_v7x_i8_bf16_1_alg».proof.Proof.Normalise
import proofs.«900825_g7700000000000826_dist_layernorm_colshard_i_m1024_n512_v7x_i8_bf16_1_alg».proof.Proof.Totals
import Idealize.ShloMosaic.Lib.ValueIdx

noncomputable section

open scoped BigOperators

namespace Cert.KernelIdeal.KValue

open Cert.KernelIdeal Cert.KernelIdeal.Gen
open Idealize.ShloMosaic Idealize.ShloMosaic.ValueIdx

/-- The result block at an entry, given that the totals of the eight tables are each row's sum and sum of squares. -/
theorem result_real_of (x : Fin 1024 → Fin 4096 → ℝ) (γ β : Fin 4096 → ℝ) (c : Fin 8)
    (xb : Vec Ideal S1024x512 .f32) (xs : Fin 7 → Vec Ideal S1024x512 .f32) (g b : Vec Ideal S512 .f32)
    (hxb : ∀ (r : Fin 1024) (j : Fin 512), xb (ix2 r j) = ((x r (Cert.Spec.col c j) : ℝ) : EReal))
    (htot : ∀ r : Fin 1024,
      KVal.totals (F := Ideal) (KVal.stats xb) (KVal.gathered xs) (ix2 (0 : Fin 2) r) = ((∑ k : Fin 4096, x r k : ℝ) : EReal)
      ∧ KVal.totals (F := Ideal) (KVal.stats xb) (KVal.gathered xs) (ix2 (1 : Fin 2) r) = ((∑ k : Fin 4096, x r k ^ 2 : ℝ) : EReal))
    (hg : ∀ j : Fin 512, g (ix1 j) = ((γ (Cert.Spec.col c j) : ℝ) : EReal))
    (hb : ∀ j : Fin 512, b (ix1 j) = ((β (Cert.Spec.col c j) : ℝ) : EReal))
    (r : Fin 1024) (j : Fin 512) :
    KVal.result (F := Ideal) xb xs g b (ix2 r j) = ((Cert.Spec.ln x γ β r (Cert.Spec.col c j) : ℝ) : EReal) := by
  rw [KVal.result_eq]
  exact normalise_real x γ β c _ g b _ (fun r => (htot r).1) (fun r => (htot r).2) hg hb
    (fun r j => (pay3_apply xb r j).trans (hxb r j)) r j

/-- The result block at an entry is the layer normalisation of the specification. -/
theorem result_real (x : Fin 1024 → Fin 4096 → ℝ) (γ β : Fin 4096 → ℝ) (c : Fin 8)
    (xb : Vec Ideal S1024x512 .f32) (xs : Fin 7 → Vec Ideal S1024x512 .f32) (g b : Vec Ideal S512 .f32)
    (hxb : ∀ (r : Fin 1024) (j : Fin 512), xb (ix2 r j) = ((x r (Cert.Spec.col c j) : ℝ) : EReal))
    (hxs : ∀ (s : Fin 7) (r : Fin 1024) (j : Fin 512), xs s (ix2 r j) = ((x r (Cert.Spec.col (Cert.Spec.src c s) j) : ℝ) : EReal))
    (hg : ∀ j : Fin 512, g (ix1 j) = ((γ (Cert.Spec.col c j) : ℝ) : EReal))
    (hb : ∀ j : Fin 512, b (ix1 j) = ((β (Cert.Spec.col c j) : ℝ) : EReal))
    (r : Fin 1024) (j : Fin 512) :
    KVal.result (F := Ideal) xb xs g b (ix2 r j) = ((Cert.Spec.ln x γ β r (Cert.Spec.col c j) : ℝ) : EReal) :=
  result_real_of x γ β c xb xs g b hxb (fun r => totals_real x c xb xs hxb hxs r) hg hb r j

end Cert.KernelIdeal.KValue

end
-- ==== Proof.RefRun.lean ====
/-
  The reference layer normalisation, run: its forty-five operations in order (the variance and the selection
  inside it written out where they are called), and what the result array holds when the run ends, as one
  composed term of the three argument arrays.
-/
import proofs.«900825_g7700000000000826_dist_layernorm_colshard_i_m1024_n512_v7x_i8_bf16_1_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations in order: the mean (seven), the variance (twenty, the same mean again, the squared deviations
    summed and divided by the count 4096 - 0), the selection of that quotient where the count is positive (three),
    and the normalisation (fifteen). -/
abbrev ops : List (HloOp τ sig (Elt F)) :=
  [ nullary main_cst (constant S_ .f32 0x00000000#32),
    binary main_arg0 main_cst main_v0 ((fun x v => Host.reduceAdd x v reducesTo_S1024x4096_S1024_d1 h_S_) : (⟨S1024x4096, .f32⟩ : BufTy).Contents (Elt F) → (⟨S_, .f32⟩ : BufTy).Contents (Elt F) → (⟨S1024, .f32⟩ : BufTy).Contents (Elt F)),
    unary main_v0 main_v1 (broadcastInDim S1024x1 ![0] bcast_S1024_S1024x1_0 : (⟨S1024, .f32⟩ : BufTy).Contents (Elt F) → (⟨S1024x1, .f32⟩ : BufTy).Contents (Elt F)),
    nullary main_cst_0 (constant S_ .f32 0x45800000#32),
    unary main_cst_0 main_v2 (broadcastInDim S1024x1 ![] bcast_S_S1024x1 : (⟨S_, .f32⟩ : BufTy).Contents (Elt F) → (⟨S1024x1, .f32⟩ : BufTy).Contents (Elt F)),
    binary main_v1 main_v2 main_v3 (Host.divf : (⟨S1024x1, .f32⟩ : BufTy).Contents (Elt F) → (⟨S1024x1, .f32⟩ : BufTy).Contents (Elt F) → (⟨S1024x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S1024x4096_S1024_d1 h_S_),
    TRef.unary main_call0.v0 main_call0.v1 (broadcastInDim S1024x1 ![0] bcast_S1024_S1024x1_0),
    TRef.nullary main_call0.cst_0 (constant S_ .f32 0x45800000#32),
    TRef.unary main_call0.cst_0 main_call0.v2 (broadcastInDim S1024x1 ![] bcast_S_S1024x1),
    TRef.binary main_call0.v1 main_call0.v2 main_call0.v3 Host.divf,
    TRef.unary main_call0.v3 main_call0.v4 (broadcastInDim S1024x4096 ![0, 1] bcast_S1024x1_S1024x4096_0_1),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1024x4096_S1024_d1 h_S_),
    TRef.unary main_call0.v9 main_call0.v10 (broadcastInDim S1024x1 ![0] bcast_S1024_S1024x1_0),
    TRef.unary main_call0.v8 main_call0.v11 (broadcastInDim S1024x1 ![] bcast_S_S1024x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1024x1 ![] bcast_S_S1024x1),
    TRef.ternary main_call0.v13 main_call0.v12 main_call0.call0.v1 main_call0.call0.v2 (fun p a b => select (broadcastInDim S1024x1 ![] bcast_S_S1024x1 p) a b),
    unary main_v3 main_v5 (broadcastInDim S1024x4096 ![0, 1] bcast_S1024x1_S1024x4096_0_1 : (⟨S1024x1, .f32⟩ : BufTy).Contents (Elt F) → (⟨S1024x4096, .f32⟩ : BufTy).Contents (Elt F)),
    binary main_arg0 main_v5 main_v6 (subf : (⟨S1024x4096, .f32⟩ : BufTy).Contents (Elt F) → (⟨S1024x4096, .f32⟩ : BufTy).Contents (Elt F) → (⟨S1024x4096, .f32⟩ : BufTy).Contents (Elt F)),
    unary main_arg1 main_v7 (broadcastInDim S1x4096 ![1] bcast_S4096_S1x4096_1 : (⟨S4096, .f32⟩ : BufTy).Contents (Elt F) → (⟨S1x4096, .f32⟩ : BufTy).Contents (Elt F)),
    unary main_v7 main_v8 (broadcastInDim S1024x4096 ![0, 1] bcast_S1x4096_S1024x4096_0_1 : (⟨S1x4096, .f32⟩ : BufTy).Contents (Elt F) → (⟨S1024x4096, .f32⟩ : BufTy).Contents (Elt F)),
    binary main_v8 main_v6 main_v9 (mulf : (⟨S1024x4096, .f32⟩ : BufTy).Contents (Elt F) → (⟨S1024x4096, .f32⟩ : BufTy).Contents (Elt F) → (⟨S1024x4096, .f32⟩ : BufTy).Contents (Elt F)),
    nullary main_cst_1 (constant S_ .f32 0x3727C5AC#32),
    unary main_cst_1 main_v10 (broadcastInDim S1024x1 ![] bcast_S_S1024x1 : (⟨S_, .f32⟩ : BufTy).Contents (Elt F) → (⟨S1024x1, .f32⟩ : BufTy).Contents (Elt F)),
    binary main_v4 main_v10 main_v11 (addf : (⟨S1024x1, .f32⟩ : BufTy).Contents (Elt F) → (⟨S1024x1, .f32⟩ : BufTy).Contents (Elt F) → (⟨S1024x1, .f32⟩ : BufTy).Contents (Elt F)),
    unary main_v11 main_v12 (Host.sqrt : (⟨S1024x1, .f32⟩ : BufTy).Contents (Elt F) → (⟨S1024x1, .f32⟩ : BufTy).Contents (Elt F)),
    unary main_v12 main_v13 (broadcastInDim S1024x4096 ![0, 1] bcast_S1024x1_S1024x4096_0_1 : (⟨S1024x1, .f32⟩ : BufTy).Contents (Elt F) → (⟨S1024x4096, .f32⟩ : BufTy).Contents (Elt F)),
    binary main_v9 main_v13 main_v14 (Host.divf : (⟨S1024x4096, .f32⟩ : BufTy).Contents (Elt F) → (⟨S1024x4096, .f32⟩ : BufTy).Contents (Elt F) → (⟨S1024x4096, .f32⟩ : BufTy).Contents (Elt F)),
    unary main_arg2 main_v15 (broadcastInDim S1x4096 ![1] bcast_S4096_S1x4096_1 : (⟨S4096, .f32⟩ : BufTy).Contents (Elt F) → (⟨S1x4096, .f32⟩ : BufTy).Contents (Elt F)),
    unary main_v15 main_v16 (broadcastInDim S1024x4096 ![0, 1] bcast_S1x4096_S1024x4096_0_1 : (⟨S1x4096, .f32⟩ : BufTy).Contents (Elt F) → (⟨S1024x4096, .f32⟩ : BufTy).Contents (Elt F)),
    binary main_v14 main_v16 main_v17 (addf : (⟨S1024x4096, .f32⟩ : BufTy).Contents (Elt F) → (⟨S1024x4096, .f32⟩ : BufTy).Contents (Elt F) → (⟨S1024x4096, .f32⟩ : BufTy).Contents (Elt F)),
    unary main_v17 main_v18 ((truncf .bf16 · bitsLt_bf16_f32) : (⟨S1024x4096, .f32⟩ : BufTy).Contents (Elt F) → (⟨S1024x4096, .bf16⟩ : BufTy).Contents (Elt F)) ]

set_option maxRecDepth 1024 in
/-- The program is that straight line: the variance and the selection unfolded where they are called, the
    sequencing reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub ..,
    unary_bufs_sub .., binary_bufs_sub .., unary_bufs_sub .., unary_bufs_sub .., binary_bufs_sub .., nullary_bufs_sub .., unary_bufs_sub ..,
    binary_bufs_sub .., unary_bufs_sub .., unary_bufs_sub .., binary_bufs_sub .., unary_bufs_sub .., unary_bufs_sub .., binary_bufs_sub ..,
    unary_bufs_sub ..⟩

/-! ## What the result holds

The run's result as one term of the three arrays, cut at the quantities the mathematics names: the column of row
means, the squared deviations' column of row variances, and the normalised array. -/

/-- The column of row means: each row's sum over its 4096 entries (started from the zero pattern), divided by the
    pattern of 4096. -/
def meanCol (X : Vec F S1024x4096 .f32) : Vec F S1024x1 .f32 :=
  Host.divf
    (broadcastInDim S1024x1 ![0] bcast_S1024_S1024x1_0
      (Host.reduceAdd X (constant S_ .f32 0x00000000#32) reducesTo_S1024x4096_S1024_d1 h_S_))
    (broadcastInDim S1024x1 ![] bcast_S_S1024x1 (constant S_ .f32 0x45800000#32))

/-- The count the variance divides by: 4096 less the integer zero read as a float. -/
def count : Vec F S_ .f32 :=
  subf (constant S_ .f32 0x45800000#32) (sitofp .f32 (constantI S_ 32 0#32))

/-- Each entry's deviation from its row's mean. -/
def dev (X : Vec F S1024x4096 .f32) : Vec F S1024x4096 .f32 :=
  subf X (broadcastInDim S1024x4096 ![0, 1] bcast_S1024x1_S1024x4096_0_1 (meanCol X))

/-- The column of row variances: the squared deviations summed along each row and divided by the count, selected
    where the count is positive (it is), against a column of the not-a-number pattern otherwise. -/
def varCol (X : Vec F S1024x4096 .f32) : Vec F S1024x1 .f32 :=
  select (broadcastInDim S1024x1 ![] bcast_S_S1024x1 (cmpf .ogt (count (F := F)) (constant S_ .f32 0x00000000#32)))
    (Host.divf
      (broadcastInDim S1024x1 ![0] bcast_S1024_S1024x1_0
        (Host.reduceAdd (mulf (dev X) (dev X)) (constant S_ .f32 0x00000000#32) reducesTo_S1024x4096_S1024_d1 h_S_))
      (broadcastInDim S1024x1 ![] bcast_S_S1024x1 (count (F := F))))
    (broadcastInDim S1024x1 ![] bcast_S_S1024x1 (id (constant S_ .f32 0x7FC00000#32)))

/-- The normalised array: gain times deviation, over the root of variance plus the regulariser, plus offset; then
    read at the narrower format. -/
def out (X : Vec F S1024x4096 .f32) (Γ B : Vec F S4096 .f32) : Vec F S1024x4096 .bf16 :=
  truncf .bf16
    (addf
      (Host.divf
        (mulf
          (broadcastInDim S1024x4096 ![0, 1] bcast_S1x4096_S1024x4096_0_1 (broadcastInDim S1x4096 ![1] bcast_S4096_S1x4096_1 Γ))
          (dev X))
        (broadcastInDim S1024x4096 ![0, 1] bcast_S1024x1_S1024x4096_0_1
          (Host.sqrt (addf (varCol X) (broadcastInDim S1024x1 ![] bcast_S_S1024x1 (constant S_ .f32 0x3727C5AC#32))))))
      (broadcastInDim S1024x4096 ![0, 1] bcast_S1x4096_S1024x4096_0_1 (broadcastInDim S1x4096 ![1] bcast_S4096_S1x4096_1 B)))
    bitsLt_bf16_f32

/-- For any float values, from any memory with zero counters: every weakly fair execution of the program terminates
    with the result array at `out` of the three argument arrays, and these unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v18).trans (by after_results_simp; rfl),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

/-- The one device's location of a buffer. -/
abbrev loc0 (b : Ref sig .tc) : Loc nD τ sig := (((0 : Dev nD).tc : Thread nD τ).loc b)

/-- The result array at exact arithmetic, as a term of the three argument arrays. -/
def refOut (X : Buf (Elt Ideal) (loc0 main_arg0)) (Γ : Buf (Elt Ideal) (loc0 main_arg1)) (B : Buf (Elt Ideal) (loc0 main_arg2)) :
    Buf (Elt Ideal) (loc0 main_v18) :=
  out (F := Ideal) X Γ B

/-- At exact arithmetic, from any memory: the program ends with the result array at `refOut` of the argument arrays,
    and these unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ (fun r =>
      r.2.mem (loc0 main_v18) = refOut (m' (loc0 main_arg0)) (m' (loc0 main_arg1)) (m' (loc0 main_arg2))
      ∧ r.2.mem (loc0 main_arg0) = m' (loc0 main_arg0) ∧ r.2.mem (loc0 main_arg1) = m' (loc0 main_arg1) ∧ r.2.mem (loc0 main_arg2) = m' (loc0 main_arg2)) :=
  (θ_run (defs (F := Ideal)) _ _).mono (fun _ h => h 0) (run_out (F := Ideal) m' ρ')

end Cert.ReferenceIdeal.RefValue

end
-- ==== Proof.RefIndex.lean ====
/-
  The reference's layout operations read at an index, over its literal shapes: a row sum along the 4096 columns, a
  vector of 1024 row values as a column, a scalar as a column, a column spread over 4096 columns, and a vector of
  4096 column values spread over 1024 rows.
-/
import proofs.«900825_g7700000000000826_dist_layernorm_colshard_i_m1024_n512_v7x_i8_bf16_1_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- Summing a 1024 × 4096 array along its columns leaves 1024 row values. -/
theorem reduces_rows : Shape.Reduces S1024x4096 [1] S1024 := by decide

/-- The entry of row `r` the sum meets at column `k`. -/
theorem lift_row (r : Fin 1024) (k : Fin 4096) : reduces_rows.lift (ix1 r) k = ix2 r k := by
  funext a
  match a with
  | ⟨0, _⟩ => exact Fin.ext rfl
  | ⟨1, _⟩ => exact Fin.ext rfl

/-- A row sum started from the zero pattern, read at row `r`: zero plus the sum of the row's 4096 entries. -/
theorem rowSum_apply (Y : Vec Ideal S1024x4096 .f32) (r : Fin 1024) :
    Host.reduceAdd (F := Ideal) Y (constant (F := Ideal) S_ .f32 0x00000000#32) reducesTo_S1024x4096_S1024_d1 h_S_ (ix1 r)
      = 0 + ∑ k : Fin 4096, Y (ix2 r k) := by
  show Ideal.hostReduceAdd reducesTo_S1024x4096_S1024_d1 Y (Ideal.ofBits .f32 0x00000000#32) (ix1 r) = _
  rw [Ideal.hostReduceAdd_single _ reduces_rows, Ideal.ofBits_zero_f32]
  exact congrArg (0 + ·) (Finset.sum_congr rfl fun k _ => congrArg Y (lift_row r k))

variable {α : Type}

/-- 1024 row values as a column: entry `(r, 0)` is value `r`. -/
theorem col_apply (v : S1024.Idx → α) (r : Fin 1024) (j : Fin 1) :
    broadcastInDim S1024x1 ![0] bcast_S1024_S1024x1_0 v (ix2 r j) = v (ix1 r) :=
  broadcastInDim_apply _ _ v _ (ix1 r) fun a => match a with | ⟨0, _⟩ => rfl

/-- A scalar as a column: every entry is the scalar. -/
theorem scalarCol_apply (v : S_.Idx → α) (i : S1024x1.Idx) :
    broadcastInDim S1024x1 ![] bcast_S_S1024x1 v i = v ix0 :=
  broadcastInDim_apply _ _ v _ ix0 fun a => a.elim0

/-- A column spread over 4096 columns: entry `(r, k)` is the column's entry `(r, 0)`. -/
theorem spreadCol_apply (v : S1024x1.Idx → α) (r : Fin 1024) (k : Fin 4096) :
    broadcastInDim S1024x4096 ![0, 1] bcast_S1024x1_S1024x4096_0_1 v (ix2 r k) = v (ix2 r 0) :=
  broadcastInDim_apply _ _ v _ (ix2 r 0) fun a => match a with | ⟨0, _⟩ => rfl | ⟨1, _⟩ => rfl

/-- 4096 column values as one row: entry `(0, k)` is value `k`. -/
theorem row_apply (v : S4096.Idx → α) (j : Fin 1) (k : Fin 4096) :
    broadcastInDim S1x4096 ![1] bcast_S4096_S1x4096_1 v (ix2 j k) = v (ix1 k) :=
  broadcastInDim_apply _ _ v _ (ix1 k) fun a => match a with | ⟨0, _⟩ => rfl

/-- One row spread over 1024 rows: entry `(r, k)` is the row's entry `(0, k)`. -/
theorem spreadRow_apply (v : S1x4096.Idx → α) (r : Fin 1024) (k : Fin 4096) :
    broadcastInDim S1024x4096 ![0, 1] bcast_S1x4096_S1024x4096_0_1 v (ix2 r k) = v (ix2 0 k) :=
  broadcastInDim_apply _ _ v _ (ix2 0 k) fun a => match a with | ⟨0, _⟩ => rfl | ⟨1, _⟩ => rfl

end Cert.ReferenceIdeal.RefValue

end
-- ==== Proof.RefReal.lean ====
/-
  The reference's arithmetic at one entry, over the reals: the quotient of a row's sum by 4096 is the row's mean, the
  quotient of the summed squared deviations by the count 4096 - 0 is the row's variance (which is not negative), the
  count is positive, and gain times deviation over the root of variance plus regulariser, plus offset, is the
  normalised entry.
-/
import proofs.«900825_g7700000000000826_dist_layernorm_colshard_i_m1024_n512_v7x_i8_bf16_1_alg».proof.Proof.Spec
import proofs.«900825_g7700000000000826_dist_layernorm_colshard_i_m1024_n512_v7x_i8_bf16_1_alg».proof.Proof.SpecFacts
import proofs.«900825_g7700000000000826_dist_layernorm_colshard_i_m1024_n512_v7x_i8_bf16_1_alg».proof.Proof.LibReal
import Idealize.ShloMosaic.PureOps.Ideal
import Idealize.ShloMosaic.PureOps.Ideal.Laws

noncomputable section

open scoped BigOperators

namespace Cert.ReferenceIdeal.RefValue

open Idealize.ShloMosaic Cert.Spec

/-- Zero plus the sum of a row's entries, divided by the pattern of 4096: the row's mean. -/
theorem mean_entry (x : Fin 1024 → Fin 4096 → ℝ) (r : Fin 1024) :
    Ideal.div (0 + ∑ k : Fin 4096, ((x r k : ℝ) : EReal)) (Ideal.ofBits .f32 0x45800000#32) = ((mean x r : ℝ) : EReal) := by
  rw [zero_add, ← Cert.Lib.coe_sum, ofBits_4096, Ideal.div_coe (by norm_num), ← EReal.coe_mul, mul_one_div]
  rfl

/-- The count the variance divides by: 4096 less the integer zero. -/
theorem count_entry :
    Ideal.ofBits .f32 0x45800000#32 - (((0#32 : BitVec 32).toInt : ℝ) : EReal) = ((4096 : ℝ) : EReal) := by
  rw [ofBits_4096, BitVec.toInt_zero, Int.cast_zero, ← EReal.coe_sub, sub_zero]

/-- The count is positive: the comparison's bit is set. -/
theorem count_pos : Ideal.cmp .ogt ((4096 : ℝ) : EReal) (Ideal.ofBits .f32 0x00000000#32) = 1#1 := by
  have h : (0 : EReal) < ((4096 : ℝ) : EReal) := by exact_mod_cast (by norm_num : (0 : ℝ) < 4096)
  rw [Ideal.ofBits_zero_f32]
  simp [Ideal.cmp, h]

/-- Zero plus the sum of a row's squared deviations from its mean, divided by the count: the row's variance. -/
theorem var_entry (x : Fin 1024 → Fin 4096 → ℝ) (r : Fin 1024) :
    Ideal.div (0 + ∑ k : Fin 4096, ((x r k - mean x r : ℝ) : EReal) * ((x r k - mean x r : ℝ) : EReal)) ((4096 : ℝ) : EReal)
      = ((var x r : ℝ) : EReal) := by
  have hsq : (∑ k : Fin 4096, ((x r k - mean x r : ℝ) : EReal) * ((x r k - mean x r : ℝ) : EReal))
      = ((∑ k : Fin 4096, (x r k - mean x r) ^ 2 : ℝ) : EReal) := by
    rw [Cert.Lib.coe_sum]
    exact Finset.sum_congr rfl fun k _ => by rw [← EReal.coe_mul, pow_two]
  rw [zero_add, hsq, Ideal.div_coe (by norm_num), ← EReal.coe_mul, mul_one_div]
  rfl

/-- A variance is not negative. -/
theorem var_nonneg (x : Fin 1024 → Fin 4096 → ℝ) (r : Fin 1024) : 0 ≤ var x r :=
  div_nonneg (Finset.sum_nonneg fun _ _ => sq_nonneg _) (by norm_num)

/-- Gain times deviation, over the root of variance plus the regulariser's pattern, plus offset: the normalised entry. -/
theorem ln_entry (x : Fin 1024 → Fin 4096 → ℝ) (γ β : Fin 4096 → ℝ) (r : Fin 1024) (k : Fin 4096) :
    Ideal.div (((γ k : ℝ) : EReal) * ((x r k - mean x r : ℝ) : EReal))
        (Ideal.sqrt (((var x r : ℝ) : EReal) + Ideal.ofBits .f32 0x3727C5AC#32)) + ((β k : ℝ) : EReal)
      = ((ln x γ β r k : ℝ) : EReal) := by
  have hpos : 0 < var x r + eps := add_pos_of_nonneg_of_pos (var_nonneg x r) eps_pos
  rw [ofBits_eps, ← EReal.coe_add, Ideal.sqrt_coe, if_neg (not_lt.2 hpos.le),
    Ideal.div_coe (ne_of_gt (Real.sqrt_pos.2 hpos)), ← EReal.coe_mul, ← EReal.coe_mul, ← EReal.coe_add, mul_one_div]
  rfl

end Cert.ReferenceIdeal.RefValue

end
-- ==== Proof.RefValue.lean ====
/-
  The reference's result at an entry, for real inputs: with the three argument arrays holding real numbers, entry
  (r, k) of the result is the layer normalisation of the specification. The column of row means is the mean, each
  deviation is entry minus mean, the column of row variances is the variance (the count 4096 - 0 is positive, so the
  selection keeps the quotient), and the last line is the normalised entry.
-/
import proofs.«900825_g7700000000000826_dist_layernorm_colshard_i_m1024_n512_v7x_i8_bf16_1_alg».proof.Proof.RefRun
import proofs.«900825_g7700000000000826_dist_layernorm_colshard_i_m1024_n512_v7x_i8_bf16_1_alg».proof.Proof.RefIndex
import proofs.«900825_g7700000000000826_dist_layernorm_colshard_i_m1024_n512_v7x_i8_bf16_1_alg».proof.Proof.RefReal
import proofs.«900825_g7700000000000826_dist_layernorm_colshard_i_m1024_n512_v7x_i8_bf16_1_alg».proof.Proof.Spec
import proofs.«900825_g7700000000000826_dist_layernorm_colshard_i_m1024_n512_v7x_i8_bf16_1_alg».proof.Proof.SpecFacts
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx Idealize.SL.Sem Cert.Spec

/-- The reference's quotient at an entry is the exact division of the entries. -/
theorem hostDivf_apply {s : Shape} {φ : FTy} (a b : FVec Ideal s φ) (i : s.Idx) : Host.divf a b i = Ideal.div (a i) (b i) := rfl

/-- The reference's root at an entry is the exact root of the entry. -/
theorem hostSqrt_apply {s : Shape} {φ : FTy} (a : FVec Ideal s φ) (i : s.Idx) : Host.sqrt a i = Ideal.sqrt (a i) := rfl

/-- The count is 4096. -/
theorem count_real (i : S_.Idx) : count (F := Ideal) i = ((4096 : ℝ) : EReal) := count_entry

section
variable (x : Fin 1024 → Fin 4096 → ℝ) (X : Vec Ideal S1024x4096 .f32)
  (hX : ∀ (r : Fin 1024) (k : Fin 4096), X (ix2 r k) = ((x r k : ℝ) : EReal))
include hX

/-- The column of row means holds the means. -/
theorem meanCol_real (r : Fin 1024) (j : Fin 1) : meanCol (F := Ideal) X (ix2 r j) = ((mean x r : ℝ) : EReal) := by
  unfold meanCol
  rw [hostDivf_apply, col_apply, scalarCol_apply, rowSum_apply]
  simp only [hX]
  exact mean_entry x r

/-- Each deviation is the entry less its row's mean. -/
theorem dev_real (r : Fin 1024) (k : Fin 4096) : dev (F := Ideal) X (ix2 r k) = ((x r k - mean x r : ℝ) : EReal) := by
  unfold dev
  rw [subf_apply, spreadCol_apply, meanCol_real x X hX, hX, ← EReal.coe_sub]

/-- The column of row variances holds the variances: the count is positive, so the selection keeps the quotient. -/
theorem varCol_real (r : Fin 1024) (j : Fin 1) : varCol (F := Ideal) X (ix2 r j) = ((var x r : ℝ) : EReal) := by
  have hc : FloatOps.cmpf (F := Ideal) .ogt (count (F := Ideal) ix0) (constant (F := Ideal) S_ .f32 0x00000000#32 ix0) = 1#1 := by
    show Ideal.cmp .ogt (count (F := Ideal) ix0) (Ideal.ofBits .f32 0x00000000#32) = 1#1
    rw [count_real]; exact count_pos
  unfold varCol
  rw [select_apply, scalarCol_apply, cmpf_apply, hc, select_one, hostDivf_apply, col_apply, scalarCol_apply, rowSum_apply,
    count_real]
  simp only [mulf_apply, dev_real x X hX]
  exact var_entry x r

end

/-- With real inputs, entry (r, k) of the result is the specification's normalised entry. -/
theorem refOut_real (x : Fin 1024 → Fin 4096 → ℝ) (γ β : Fin 4096 → ℝ)
    (X : Buf (Elt Ideal) (loc0 main_arg0)) (Γ : Buf (Elt Ideal) (loc0 main_arg1)) (B : Buf (Elt Ideal) (loc0 main_arg2))
    (hX : ∀ (r : Fin 1024) (k : Fin 4096), X (ix2 r k) = ((x r k : ℝ) : EReal))
    (hΓ : ∀ k : Fin 4096, Γ (ix1 k) = ((γ k : ℝ) : EReal)) (hB : ∀ k : Fin 4096, B (ix1 k) = ((β k : ℝ) : EReal))
    (r : Fin 1024) (k : Fin 4096) : refOut X Γ B (ix2 r k) = ((Cert.Spec.ln x γ β r k : ℝ) : EReal) := by
  show out (F := Ideal) X Γ B (ix2 r k) = _
  unfold out
  rw [truncf_apply, addf_apply, hostDivf_apply, mulf_apply, spreadRow_apply, row_apply, spreadCol_apply, hostSqrt_apply,
    addf_apply, scalarCol_apply, spreadRow_apply, row_apply, hΓ, hB, dev_real x X hX, varCol_real x X hX]
  exact ln_entry x γ β r k

end Cert.ReferenceIdeal.RefValue

end
-- ==== Proof.Algebraic.lean ====
/-
  The value claim put together. Under the stated precondition the whole input, gain and offset are arrays of real
  numbers; the one-device program ends with the layer normalisation of the specification at every entry, and each of
  the eight devices ends with the same function at the columns of its block: so each device's result block is its
  block of the one-device program's result.
-/
import proofs.«900825_g7700000000000826_dist_layernorm_colshard_i_m1024_n512_v7x_i8_bf16_1_alg».proof.Defs
import proofs.«900825_g7700000000000826_dist_layernorm_colshard_i_m1024_n512_v7x_i8_bf16_1_alg».proof.Proof.Gen.KernelIdeal
import proofs.«900825_g7700000000000826_dist_layernorm_colshard_i_m1024_n512_v7x_i8_bf16_1_alg».proof.Proof.Gen.ReferenceIdeal
import proofs.«900825_g7700000000000826_dist_layernorm_colshard_i_m1024_n512_v7x_i8_bf16_1_alg».proof.Proof.Gen.Pre_finite_inputs_Kernel
import proofs.«900825_g7700000000000826_dist_layernorm_colshard_i_m1024_n512_v7x_i8_bf16_1_alg».proof.Proof.Gen.Pre_finite_inputs_ReferenceIdeal
import proofs.«900825_g7700000000000826_dist_layernorm_colshard_i_m1024_n512_v7x_i8_bf16_1_alg».proof.Proof.Finite
import proofs.«900825_g7700000000000826_dist_layernorm_colshard_i_m1024_n512_v7x_i8_bf16_1_alg».proof.Proof.Blocks
import proofs.«900825_g7700000000000826_dist_layernorm_colshard_i_m1024_n512_v7x_i8_bf16_1_alg».proof.Proof.ResultValue
import proofs.«900825_g7700000000000826_dist_layernorm_colshard_i_m1024_n512_v7x_i8_bf16_1_alg».proof.Proof.RefValue
import proofs.«900825_g7700000000000826_dist_layernorm_colshard_i_m1024_n512_v7x_i8_bf16_1_alg».proof.Proof.Spec
import proofs.«900825_g7700000000000826_dist_layernorm_colshard_i_m1024_n512_v7x_i8_bf16_1_alg».proof.Proof.KVal
import proofs.«900825_g7700000000000826_dist_layernorm_colshard_i_m1024_n512_v7x_i8_bf16_1_alg».proof.Proof.Proto

noncomputable section

namespace Cert.Proof.Assemble

open Idealize.ShloMosaic Idealize.ShloMosaic.ValueIdx Idealize.SL.Sem

/-- The eight-device program's run at exact arithmetic: every device's result block named as a term of the blocks of
    the input on all eight devices and of its own blocks of the gain and the offset, its inputs unchanged. -/
def KernelRun : Prop := ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1) = Cert.KernelIdeal.KVal.result (m ((c.tc : Thread _ _).loc Cert.KernelIdeal.main_arg0)) (fun s => m (((Cert.KernelIdeal.Run.peer c s).tc : Thread _ _).loc Cert.KernelIdeal.main_arg0)) (m ((c.tc : Thread _ _).loc Cert.KernelIdeal.main_arg1)) (m ((c.tc : Thread _ _).loc Cert.KernelIdeal.main_arg2))
      ∧ r.2.mem ((c.tc : Thread _ _).loc Cert.KernelIdeal.main_arg0) = m ((c.tc : Thread _ _).loc Cert.KernelIdeal.main_arg0)
      ∧ r.2.mem ((c.tc : Thread _ _).loc Cert.KernelIdeal.main_arg1) = m ((c.tc : Thread _ _).loc Cert.KernelIdeal.main_arg1)
      ∧ r.2.mem ((c.tc : Thread _ _).loc Cert.KernelIdeal.main_arg2) = m ((c.tc : Thread _ _).loc Cert.KernelIdeal.main_arg2))

/-- A device's result block, named by the run, is its block of the one-device program's result: both are the layer
    normalisation of the specification at the device's columns. -/
theorem result_block
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg2)))
    (x : Fin 1024 → Fin 4096 → ℝ) (γ β : Fin 4096 → ℝ)
    (hX : ∀ (r : Fin 1024) (k : Fin 4096), m' (((0 : Dev Cert.ReferenceIdeal.nD).tc : Thread Cert.ReferenceIdeal.nD Cert.ReferenceIdeal.τ).loc Cert.ReferenceIdeal.main_arg0) (ix2 r k) = ((x r k : ℝ) : EReal))
    (hΓ : ∀ k : Fin 4096, m' (((0 : Dev Cert.ReferenceIdeal.nD).tc : Thread Cert.ReferenceIdeal.nD Cert.ReferenceIdeal.τ).loc Cert.ReferenceIdeal.main_arg1) (ix1 k) = ((γ k : ℝ) : EReal))
    (hB : ∀ k : Fin 4096, m' (((0 : Dev Cert.ReferenceIdeal.nD).tc : Thread Cert.ReferenceIdeal.nD Cert.ReferenceIdeal.τ).loc Cert.ReferenceIdeal.main_arg2) (ix1 k) = ((β k : ℝ) : EReal))
    (c : Dev Cert.KernelIdeal.nD) :
    Cert.KernelIdeal.KVal.result (F := Ideal) (m ((c.tc : Thread Cert.KernelIdeal.nD Cert.KernelIdeal.τ).loc Cert.KernelIdeal.main_arg0))
        (fun s => m (((Cert.KernelIdeal.Run.peer c s).tc : Thread Cert.KernelIdeal.nD Cert.KernelIdeal.τ).loc Cert.KernelIdeal.main_arg0))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      = Layout.block ⟨2, ![1024, 512]⟩ ⟨2, ![1024, 4096]⟩ 1 8 c
          (Cert.ReferenceIdeal.RefValue.refOut (m' (Cert.ReferenceIdeal.RefValue.loc0 Cert.ReferenceIdeal.main_arg0))
            (m' (Cert.ReferenceIdeal.RefValue.loc0 Cert.ReferenceIdeal.main_arg1)) (m' (Cert.ReferenceIdeal.RefValue.loc0 Cert.ReferenceIdeal.main_arg2))) := by
  have hxb : ∀ (d : Dev Cert.KernelIdeal.nD) (r : Fin 1024) (j : Fin 512),
      m ((d.tc : Thread Cert.KernelIdeal.nD Cert.KernelIdeal.τ).loc Cert.KernelIdeal.main_arg0) (ix2 r j) = ((x r (Cert.Spec.col d j) : ℝ) : EReal) :=
    fun d r j => ((congrFun (hagree d).1 (ix2 r j)).trans (Cert.Blocks.block_x d _ r j)).trans (hX r _)
  have hg : ∀ j : Fin 512,
      m ((c.tc : Thread Cert.KernelIdeal.nD Cert.KernelIdeal.τ).loc Cert.KernelIdeal.main_arg1) (ix1 j) = ((γ (Cert.Spec.col c j) : ℝ) : EReal) :=
    fun j => ((congrFun (hagree c).2.1 (ix1 j)).trans (Cert.Blocks.block_v c _ j)).trans (hΓ _)
  have hb : ∀ j : Fin 512,
      m ((c.tc : Thread Cert.KernelIdeal.nD Cert.KernelIdeal.τ).loc Cert.KernelIdeal.main_arg2) (ix1 j) = ((β (Cert.Spec.col c j) : ℝ) : EReal) :=
    fun j => ((congrFun (hagree c).2.2 (ix1 j)).trans (Cert.Blocks.block_v c _ j)).trans (hB _)
  funext i
  obtain ⟨r, j, rfl⟩ : ∃ r j, i = ix2 r j := ⟨i 0, i 1, eq_ix2 i⟩
  refine (Cert.KernelIdeal.KValue.result_real x γ β c _ _ _ _ (hxb c) (fun s r j => hxb (Cert.KernelIdeal.Run.peer c s) r j) hg hb r j).trans ?_
  refine ((Cert.Blocks.block_x c _ r j).trans ?_).symm
  exact Cert.ReferenceIdeal.RefValue.refOut_real x γ β _ _ _ hX hΓ hB r (Cert.Spec.col c j)

/-- Each device's result block is its block of the one-device program's result, and both programs leave their
    arguments unchanged. -/
theorem algebraic (hk : KernelRun) :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) := by
  intro m g m' g' hpre hagree
  obtain ⟨x, γ, β, hX, hΓ, hB⟩ := Cert.Finite.reals_of_pre m m' hpre hagree
  refine ⟨Cert.ReferenceIdeal.RefValue.refOut (m' (Cert.ReferenceIdeal.RefValue.loc0 Cert.ReferenceIdeal.main_arg0))
      (m' (Cert.ReferenceIdeal.RefValue.loc0 Cert.ReferenceIdeal.main_arg1)) (m' (Cert.ReferenceIdeal.RefValue.loc0 Cert.ReferenceIdeal.main_arg2)),
    ?_, Cert.ReferenceIdeal.RefValue.run m' g'⟩
  refine (θ_run _ _ _).mono (fun r h c => ?_) (hk m g)
  obtain ⟨h1, h2, h3, h4⟩ := h c
  exact ⟨h1.trans (result_block m m' hagree x γ β hX hΓ hB c), h2, h3, h4⟩

/-- The one-device program runs and leaves its arguments unchanged. -/
theorem frame_ref :
    Cert.frame_ReferenceIdeal (hReferenceIdeal := Cert.ReferenceIdeal.Gen.facts)
      (hPre_finite_inputs_ReferenceIdeal := Cert.Pre_finite_inputs_ReferenceIdeal.Gen.facts) := by
  intro m g _
  exact (θ_run _ _ _).mono (fun r h c => (h c).2) (Cert.ReferenceIdeal.RefValue.run_out (F := Ideal) m g)

/-- The eight-device program at exact arithmetic runs and leaves its arguments unchanged. -/
theorem frame_ideal (hk : KernelRun) :
    Cert.frame_KernelIdeal (hKernelIdeal := Cert.KernelIdeal.Gen.facts) (hPre_finite_inputs_Kernel := Cert.Pre_finite_inputs_Kernel.Gen.facts) := by
  intro m g _
  exact (θ_run _ _ _).mono (fun r h c => (h c).2) (hk m g)

end Cert.Proof.Assemble

end
-- ==== Proof.Word.KVal.lean ====
/-
  What one device's result block holds, as a pure term of the blocks of `x` on all eight devices and of its own
  blocks of the gain and the offset: the device's table of row sums and row sums of squares, the seven tables it
  receives (slot `s` from the device `s + 1` places after it on the ring), and the normalisation computed from their total.
-/
import proofs.«900825_g7700000000000826_dist_layernorm_colshard_i_m1024_n512_v7x_i8_bf16_1_alg».proof.Proof.Gen.Kernel.Skeleton
import Idealize.ShloMosaic.Lib.ValueIdx

noncomputable section

namespace Cert.Kernel.KVal

open Cert.Kernel Cert.Kernel.Gen
open Idealize.ShloMosaic Idealize.ShloMosaic.ValueIdx

variable {F : FTy → Type} [FloatOps F]

/-- A device's table of row statistics of its block `x`: rows 0–7 hold the 1024 row sums, rows 8–15 the 1024 row
    sums of squares, 128 to a row. -/
def stats (x : Vec F S1024x512 .f32) : Vec F S16x128 .f32 := k0_pay2 (k0_pay1 x)

/-- The seven received tables stacked: slot `s` is the table of the block `xs s`. -/
def gathered (xs : Fin 7 → Vec F S1024x512 .f32) : Vec F S7x16x128 .f32 :=
  fun i => stats (xs (i 0)) (ix2 (i 1) (i 2))

/-- The device's result block: from its own table, the gathered ones, its gain and offset blocks and its block of `x`. -/
def result (x : Vec F S1024x512 .f32) (xs : Fin 7 → Vec F S1024x512 .f32) (g b : Vec F S512 .f32) : Vec F S1024x512 .bf16 :=
  k0_pay4 (stats x) (gathered xs) g b (k0_pay3 x)

/-- The eight tables added entry by entry — the device's own and the seven received — and read as two rows of 1024:
    row 0 holds each row's sum over all 4096 columns, row 1 each row's sum of squares. -/
def totals (t : Vec F S16x128 .f32) (ts : Vec F S7x16x128 .f32) : Vec F S2x1024 .f32 :=
  shapeCast S2x1024 (addf t (multiReduction .add [0] S16x128 ts 0x00000000#32 reduces_S7x16x128_S16x128 (.inl rfl) rfl)) shapeCasts_S16x128_S2x1024

/-- From the two rows of totals `T`: the mean is the first divided by 4096, the variance the second divided by 4096 less the
    squared mean, and each entry of the block `v317` is centred, scaled by the inverse root of the variance plus the
    regulariser, multiplied by the gain `v311` of its column and shifted by the offset `v314`. -/
def normalise (T : Vec F S2x1024 .f32) (v311 v314 : Vec F S512 .f32) (v317 : Vec F S1024x512 .bf16) : Vec F S1024x512 .bf16 :=
  have v294 : FVec F S1x1024 .f32 := extractStridedSlice S1x1024 ![0, 0] T slices_S2x1024_o0_0_S1x1024
  have cst_225 : F .f32 := Scalar.ofBits .f32 0x45800000#32
  have v295 : FVec F S1x1024 .f32 := broadcast S1x1024 cst_225
  have v296 : FVec F S1x1024 .f32 := divf v294 v295
  have v297 : FVec F S1x1024 .f32 := extractStridedSlice S1x1024 ![1, 0] T slices_S2x1024_o1_0_S1x1024
  have cst_226 : F .f32 := Scalar.ofBits .f32 0x45800000#32
  have v298 : FVec F S1x1024 .f32 := broadcast S1x1024 cst_226
  have v299 : FVec F S1x1024 .f32 := divf v297 v298
  have v300 : FVec F S1x1024 .f32 := mulf v296 v296
  have v301 : FVec F S1x1024 .f32 := subf v299 v300
  have cst_227 : F .f32 := Scalar.ofBits .f32 0x3727C5AC#32
  have v302 : FVec F S1x1024 .f32 := broadcast S1x1024 cst_227
  have v303 : FVec F S1x1024 .f32 := addf v301 v302
  have v304 : FVec F S1x1024 .f32 := rsqrt v303
  have v305 : FVec F S2x1024 .f32 := concatenate S2x1024 0 [⟨S1x1024, v296⟩, ⟨S1x1024, v304⟩] concatenates_S1x1024_S1x1024_S2x1024_d0
  have v306 : FVec F S1024x2 .f32 := transpose S1024x2 [1, 0] v305 transposes_S2x1024_p1_0_S1024x2
  have v307 : FVec F S1024x1 .f32 := extractStridedSlice S1024x1 ![0, 0] v306 slices_S1024x2_o0_0_S1024x1
  have v308 : FVec F S1024x1 .bf16 := truncf .bf16 v307 bitsLt_bf16_f32
  have v309 : FVec F S1024x1 .f32 := extractStridedSlice S1024x1 ![0, 1] v306 slices_S1024x2_o0_1_S1024x1
  have v310 : FVec F S1024x1 .bf16 := truncf .bf16 v309 bitsLt_bf16_f32
  have v312 : FVec F S512 .f32 := shapeCast S512 v311 shapeCasts_S512_S512
  have v313 : FVec F S512 .bf16 := truncf .bf16 v312 bitsLt_bf16_f32
  have v315 : FVec F S512 .f32 := shapeCast S512 v314 shapeCasts_S512_S512
  have v316 : FVec F S512 .bf16 := truncf .bf16 v315 bitsLt_bf16_f32
  have v318 : FVec F S1024x512 .bf16 := broadcastTo S1024x512 v308 broadcasts_S1024x1_S1024x512
  have v319 : FVec F S1024x512 .bf16 := subf v317 v318
  have v320 : FVec F S1024x512 .bf16 := broadcastTo S1024x512 v310 broadcasts_S1024x1_S1024x512
  have v321 : FVec F S1024x512 .bf16 := mulf v319 v320
  have v322 : FVec F S1x512 .bf16 := shapeCast S1x512 v313 shapeCasts_S512_S1x512
  have v323 : FVec F S1024x512 .bf16 := broadcastTo S1024x512 v322 broadcasts_S1x512_S1024x512
  have v324 : FVec F S1024x512 .bf16 := mulf v323 v321
  have v325 : FVec F S1x512 .bf16 := shapeCast S1x512 v316 shapeCasts_S512_S1x512
  have v326 : FVec F S1024x512 .bf16 := broadcastTo S1024x512 v325 broadcasts_S1x512_S1024x512
  have v327 : FVec F S1024x512 .bf16 := addf v324 v326
  v327

/-- The result block is the normalisation computed from the totals of the eight tables. -/
theorem result_eq (x : Vec F S1024x512 .f32) (xs : Fin 7 → Vec F S1024x512 .f32) (g b : Vec F S512 .f32) :
    result x xs g b = normalise (totals (stats x) (gathered xs)) g b (k0_pay3 x) := rfl

end Cert.Kernel.KVal

end
-- ==== Proof.Word.Proto.lean ====
/-
  The exchange of row statistics among the eight devices, as a discipline of rounds on the semaphores.

  Device `c` and the device `e + 1` places after it on the ring, `peer c e` (`e = 0 … 6`), meet three times. First `c`
  signals that device's barrier semaphore one unit, and with it hands over the receive slot `e` of its own buffer of seven
  tables: so after a device has waited for its seven units it owns, on each of the seven others, the slot it is about to
  fill. Then `c` copies its table into slot `6 - e` of `peer c e`, reading the table through one of seven read shares; the
  copy's arrival pays that device's receive semaphore `6 - e` and hands it the slot holding `c`'s table, its departure pays
  `c`'s send semaphore `e` and hands the read share back. Every semaphore has one round.
-/
import proofs.«900825_g7700000000000826_dist_layernorm_colshard_i_m1024_n512_v7x_i8_bf16_1_alg».proof.Proof.Word.KVal
import proofs.«900825_g7700000000000826_dist_layernorm_colshard_i_m1024_n512_v7x_i8_bf16_1_alg».proof.Proof.Gen.Kernel.Frame
import Idealize.ShloMosaic.Lib.Pipeline.Launch
import Idealize.ShloMosaic.Lib.Pipeline.Kit
import Idealize.ShloMosaic.Lib.Transfers
import Idealize.ShloMosaic.Lib.Tactic

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, duties named by `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring -/

/-- The device `e + 1` places after `c`. -/
def peer (c : Dev nD) (e : Fin 7) : Dev nD := ⟨(c.val + e.val + 1) % 8, Nat.mod_lt _ (by decide)⟩
/-- The offset seen from the other side: `peer (peer c e) (rev e) = c`. -/
def rev (e : Fin 7) : Fin 7 := ⟨6 - e.val, by omega⟩

/-! ## The memrefs and cells -/

abbrev xM : Memref sig .tc .vmem S1024x512 .f32 := Memref.whole cc0_stg0_0
abbrev gM : Memref sig .tc .vmem S512 .f32 := Memref.whole cc0_stg1_0
abbrev bM : Memref sig .tc .vmem S512 .f32 := Memref.whole cc0_stg2_0
abbrev oM : Memref sig .tc .vmem S1024x512 .bf16 := Memref.whole cc0_stg3_0
abbrev mineM : Memref sig .tc .vmem S16x128 .f32 := Memref.whole cc0_scratch0
abbrev commM : Memref sig .tc .vmem S7x16x128 .f32 := Memref.whole cc0_scratch1
abbrev xbM : Memref sig .tc .vmem S1024x512 .bf16 := Memref.whole cc0_scratch2

theorem inb_slot (s : Fin 7) : ∀ a, (![s.val, 0, 0] : Fin 3 → Nat) a + S1x16x128.size a ≤ S7x16x128.size a := by
  intro a; have := s.isLt; fin_cases a <;> (simp [Shape.size]; try omega)
theorem inb_sem (e : Fin 7) : ∀ a, (![e.val] : Fin 1 → Nat) a + S1.size a ≤ S7.size a := by
  intro a; have := e.isLt; fin_cases a <;> (simp [Shape.size]; try omega)

/-- Receive slot `s` of the buffer of seven tables, as a table. -/
abbrev slotM (s : Fin 7) : Memref sig .tc .vmem S16x128 .f32 :=
  (commM.slice (Rect.unit (s := S7x16x128) ![s.val, 0, 0] S1x16x128.size (inb_slot s)) (fun _ => rfl)).squeeze S16x128 squeezes_S1x16x128_S16x128

/-- The runtime's barrier semaphore (not scoped); the seven send and the seven receive DMA semaphores (scoped scratch). -/
abbrev barS : Sem sig := (SemArray.scalar (sig.barrier 0 rfl) : Sems sig S_).sem
abbrev sendSem (e : Fin 7) : DmaSem sig := ((cc0_scratch3.slice (Rect.unit (s := S7) ![e.val] S1.size (inb_sem e))).squeeze S_ squeezes_S1_S_).sem
abbrev recvSem (s : Fin 7) : DmaSem sig := ((cc0_scratch4.slice (Rect.unit (s := S7) ![s.val] S1.size (inb_sem s))).squeeze S_ squeezes_S1_S_).sem

abbrev barCell (c : Dev nD) : GSem nD τ sig := ((c : Thread nD τ), .reg barS)
abbrev sendCell (c : Dev nD) (e : Fin 7) : GSem nD τ sig := ((c : Thread nD τ), .dma (sendSem e))
abbrev recvCell (c : Dev nD) (s : Fin 7) : GSem nD τ sig := ((c : Thread nD τ), .dma (recvSem s))

/-- A device's fifteen cells: the barrier, send `e` at `e + 1`, receive `s` at `s + 8`. -/
def csem (k : Fin 15) : SemLoc sig :=
  if k.val = 0 then .reg barS
  else if h : k.val < 8 then .dma (sendSem ⟨k.val - 1, by omega⟩) else .dma (recvSem ⟨k.val - 8, by omega⟩)
def kS (e : Fin 7) : Fin 15 := ⟨e.val + 1, by omega⟩
def kR (s : Fin 7) : Fin 15 := ⟨s.val + 8, by omega⟩
abbrev kcell (ck : Dev nD × Fin 15) : GSem nD τ sig := ((ck.1 : Thread nD τ), csem ck.2)

/-- The kernel's own (scoped) semaphores: the seven send, then the seven receive. -/
def osem (k : Fin 14) : SemLoc sig :=
  if h : k.val < 7 then .dma (sendSem ⟨k.val, h⟩) else .dma (recvSem ⟨k.val - 7, by omega⟩)

/-- The units one copy of a table pays. -/
abbrev N : ℕ := (mineM : Memref sig .tc .vmem S16x128 .f32).view.dmaCredit
theorem N_pos : 0 < N := View.dmaCredit_pos _ (by decide)

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def gstg (c : Dev nD) : (cc0_stg1_0 : Ref sig .tc).ty.Contents (Elt F) :=
  (win0_1.blk (0 : Fin 1)).view.read (Elt F) ((s₀ m ρ).mem ((c : Thread nD τ).loc main_arg1))
def bstg (c : Dev nD) : (cc0_stg2_0 : Ref sig .tc).ty.Contents (Elt F) :=
  (win0_2.blk (0 : Fin 1)).view.read (Elt F) ((s₀ m ρ).mem ((c : Thread nD τ).loc main_arg2))

/-- Device `c`'s table of row statistics. -/
def statsVal (c : Dev nD) : (cc0_scratch0 : Ref sig .tc).ty.Contents (Elt F) := KVal.stats (xstg m ρ c)
/-- What device `c`'s seven receive slots end holding: slot `s` the table of `peer c s`. -/
def commVal (c : Dev nD) : (cc0_scratch1 : Ref sig .tc).ty.Contents (Elt F) := KVal.gathered (fun s => xstg m ρ (peer c s))
/-- Device `c`'s block kept in the narrower format. -/
def xbVal (c : Dev nD) : (cc0_scratch2 : Ref sig .tc).ty.Contents (Elt F) := k0_pay3 (xstg m ρ c)
/-- Device `c`'s result block. -/
def outVal (c : Dev nD) : (cc0_stg3_0 : Ref sig .tc).ty.Contents (Elt F) :=
  KVal.result (xstg m ρ c) (fun s => xstg m ρ (peer c s)) (gstg m ρ c) (bstg m ρ c)

/-- Slot `s` of device `c`'s receive buffer, owned outright at contents `f`. -/
def slotPts (c : Dev nD) (s : Fin 7) (f : Buf (Elt F) ((c : Thread nD τ).loc cc0_scratch1)) : sProp 𝕄 :=
  (slotM s).view.loc (c : Thread nD τ) ↦[(slotM s).view.set]{fullShare} f
/-- Read share `e` of device `c`'s table, at the table's contents. -/
def mineTok (c : Dev nD) (e : Fin 7) : sProp 𝕄 :=
  (mineM : Memref sig .tc .vmem S16x128 .f32).view.loc (c : Thread nD τ) ↦[(mineM : Memref sig .tc .vmem S16x128 .f32).view.set]{Transfers.shareTok fullShare 7 e} statsVal m ρ c

/-! ## The schedule -/

/-- What the signal of duty `d` hands device `c`: slot `d` of the device that pays it, `peer c (rev d)`, at any contents. -/
def barPay (c : Dev nD) (d : Fin 7) : sProp 𝕄 := iprop(∃ f, slotPts (F := F) (peer c (rev d)) d f)
/-- What the copy into slot `s` hands device `c`: the slot holding what all seven end holding there. -/
def recvPay (c : Dev nD) (s : Fin 7) : sProp 𝕄 := slotPts c s (commVal m ρ c)
/-- What the departure of copy `e` hands back: the read share of the table. -/
def sendPay (c : Dev nD) (e : Fin 7) : sProp 𝕄 := mineTok m ρ c e

/-- One round, round 0. A barrier cell has seven duties of one unit, duty `d` paid by `peer c (rev d)`; a send or receive
    cell one duty, `0`, of one copy's units. -/
def Rd : Rounds.Schedule (GSem nD τ sig) (Fin 7) 𝕄 where
  duties g r :=
    if r = 0 ∧ g.1.2 = .tc then
      (match g.2 with
        | .reg _ => Finset.univ
        | .dma q => if 4 ≤ q.val then {0} else ∅)
    else ∅
  unitless _ := False
  amount g _ _ := match g.2 with | .reg _ => 1 | .dma _ => N
  payload g _ d :=
    match g.2 with
    | .reg _ => barPay g.1.1 d
    | .dma q =>
      if 11 ≤ q.val then recvPay m ρ g.1.1 ⟨(q.val - 11) % 7, Nat.mod_lt _ (by decide)⟩
      else if 4 ≤ q.val then sendPay m ρ g.1.1 ⟨(q.val - 4) % 7, Nat.mod_lt _ (by decide)⟩
      else iprop(emp)
  amount_pos g _ _ _ := by
    cases g.2 with
    | reg _ => exact Nat.one_pos
    | dma _ => exact N_pos

/-! ## What each device owes at launch; the levels -/

/-- The unit device `c` owes the barrier of `peer c e`; the copy's units it owes that device's receive cell `rev e`. -/
def owedBar (c : Dev nD) (e : Fin 7) : CellTallies nD τ sig Unit := tallyAt (barCell (peer c e)) () 1
def owedRecv (c : Dev nD) (e : Fin 7) : CellTallies nD τ sig Unit := tallyAt (recvCell (peer c e) (rev e)) () N

/-- What is still owed before copy `k` (copies `k … 6` outstanding), summed so that each copy peels the last summand. -/
def OS7 (c : Dev nD) : CellTallies nD τ sig Unit := 0
def OS6 (c : Dev nD) : CellTallies nD τ sig Unit := OS7 c + owedRecv c 6
def OS5 (c : Dev nD) : CellTallies nD τ sig Unit := OS6 c + owedRecv c 5
def OS4 (c : Dev nD) : CellTallies nD τ sig Unit := OS5 c + owedRecv c 4
def OS3 (c : Dev nD) : CellTallies nD τ sig Unit := OS4 c + owedRecv c 3
def OS2 (c : Dev nD) : CellTallies nD τ sig Unit := OS3 c + owedRecv c 2
def OS1 (c : Dev nD) : CellTallies nD τ sig Unit := OS2 c + owedRecv c 1
def OS0 (c : Dev nD) : CellTallies nD τ sig Unit := OS1 c + owedRecv c 0
/-- What is still owed before signal `k`: signals `k … 6` and all seven copies. -/
def OB7 (c : Dev nD) : CellTallies nD τ sig Unit := OS0 c
def OB6 (c : Dev nD) : CellTallies nD τ sig Unit := OB7 c + owedBar c 6
def OB5 (c : Dev nD) : CellTallies nD τ sig Unit := OB6 c + owedBar c 5
def OB4 (c : Dev nD) : CellTallies nD τ sig Unit := OB5 c + owedBar c 4
def OB3 (c : Dev nD) : CellTallies nD τ sig Unit := OB4 c + owedBar c 3
def OB2 (c : Dev nD) : CellTallies nD τ sig Unit := OB3 c + owedBar c 2
def OB1 (c : Dev nD) : CellTallies nD τ sig Unit := OB2 c + owedBar c 1
def OB0 (c : Dev nD) : CellTallies nD τ sig Unit := OB1 c + owedBar c 0
/-- The same two chains by number. -/
def OS (c : Dev nD) : ℕ → CellTallies nD τ sig Unit
  | 0 => OS0 c | 1 => OS1 c | 2 => OS2 c | 3 => OS3 c | 4 => OS4 c | 5 => OS5 c | 6 => OS6 c | _ => 0
def OB (c : Dev nD) : ℕ → CellTallies nD τ sig Unit
  | 0 => OB0 c | 1 => OB1 c | 2 => OB2 c | 3 => OB3 c | 4 => OB4 c | 5 => OB5 c | 6 => OB6 c | _ => OS0 c
def O₀ (c : Dev nD) : CellTallies nD τ sig Unit := OB0 c

def L (g : GSem nD τ sig) : Finset Unit := if g.1.2 = .tc then {()} else ∅
/-- Barrier cells at level 1, receive cells at 2, everything else (staging, send) at 0. -/
def lv (g : GSem nD τ sig) (_ : Unit) : ℕ :=
  match g.2 with
  | .reg _ => 1
  | .dma q => if 11 ≤ q.val then 2 else 0

/-! ## Ghost state -/

/-- The persistent part: every cell's invariant under the names `K`, and that every cell is at round 0. -/
def records (K : Dev nD × Fin 15 → ℕ) : sProp 𝕄 :=
  iprop((bigSep Finset.univ fun ck : Dev nD × Fin 15 => cellInv ER (Rd m ρ) (K ck) (kcell ck))
    ∗ bigSep Finset.univ fun ck : Dev nD × Fin 15 => reached ER (kcell ck) 0)

/-- Device `c`'s positions on its own fifteen cells. -/
def positions (c : Dev nD) : sProp 𝕄 := bigSep Finset.univ fun k : Fin 15 => atPos ER (kcell (c, k)) 0 ∅ 0
/-- The tokens of the duties device `c` pays: per `e`, the unit on the barrier of `peer c e`, the copy's arrival there, its departure here. -/
def payToks (c : Dev nD) : sProp 𝕄 :=
  bigSep Finset.univ fun e : Fin 7 =>
    iprop(dutyTok ER (barCell (peer c e)) 0 e ∗ dutyTok ER (recvCell (peer c e) (rev e)) 0 (0 : Fin 7) ∗ dutyTok ER (sendCell c e) 0 (0 : Fin 7))

def ghost (K : Dev nD × Fin 15 → ℕ) (c : Dev nD) : sProp 𝕄 := iprop(records m ρ K ∗ positions (F := F) c ∗ payToks (F := F) c)

/-- What a device's body starts from besides its buffers: the ghost state at some names, the credit of its barrier's seven
    units and of each receive cell's copy, and the levels. -/
def start (c : Dev nD) : sProp 𝕄 :=
  iprop((∃ K, ghost m ρ K c) ∗ cred (tallyAt (barCell c) () 7)
    ∗ (bigSep Finset.univ fun s : Fin 7 => cred (tallyAt (recvCell c s) () N)) ∗ levAts L lv)

/-- The three scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratch (F := F) c)
/-- After the body: the scratch buffers back whole, the fourteen own semaphores at zero. -/
def Φ₁ (c : Dev nD) : sProp 𝕄 :=
  iprop(scratch (F := F) c ∗ (bigSep Finset.univ fun e : Fin 7 => semVal (sendCell c e) 0) ∗ bigSep Finset.univ fun s : Fin 7 => semVal (recvCell c s) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => bstg m ρ c
    | ⟨3, _⟩ => outVal m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.Kernel.Run

end
-- ==== Proof.Word.Flat.lean ====
/-
  The state one device's body starts from and ends in, and the same starting state laid out cell by cell: for each of
  the seven offsets the invariants, round marks, positions, tokens and credits of the cells the device meets there.
-/
import proofs.«900825_g7700000000000826_dist_layernorm_colshard_i_m1024_n512_v7x_i8_bf16_1_alg».proof.Proof.Word.Proto

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The one grid point. -/
abbrev t₀ : Fin cfg0.N := t0_0

/-- A staging buffer held whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from: the ghost state at the names `K`, the credits, the levels, the three scratch buffers, what
    the device owes, and the four staging buffers as the pipeline hands them over. -/
def bodyPre (K : Dev nD × Fin 15 → ℕ) (c : Dev nD) : sProp 𝕄 :=
  iprop((ghost m ρ K c ∗ cred (tallyAt (barCell c) () 7) ∗ (bigSep Finset.univ fun s : Fin 7 => cred (tallyAt (recvCell c s) () N))
      ∗ levAts L lv ∗ scratch (F := F) c)
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- What it ends in: the scratch buffers back and the own semaphores at zero, nothing owed, the inputs' staging buffers as
    they were and the result's holding the result block. -/
def bodyPost (c : Dev nD) : sProp 𝕄 :=
  iprop(Φ₁ (F := F) c ∗ (dats m ρ 0 c).owesAt () t₀.succ
    ∗ stg c cc0_stg0_0 (xstg m ρ c) ∗ stg c cc0_stg1_0 (gstg m ρ c) ∗ stg c cc0_stg2_0 (bstg m ρ c) ∗ stg c cc0_stg3_0 (outVal m ρ c))

/-- The persistent part of the starting state, cell by cell: the invariants of the device's own fifteen cells and of the
    fourteen cells it pays (offset `e` pairs with slot `6 - e` on the other side), that each is at round 0, the levels. -/
def flatInv (K : Dev nD × Fin 15 → ℕ) (c : Dev nD) : sProp 𝕄 :=
  iprop(cellInv ER (Rd m ρ) (K (c, 0)) (barCell c)
      ∗ cellInv ER (Rd m ρ) (K (c, kS 0)) (sendCell c 0)
      ∗ cellInv ER (Rd m ρ) (K (c, kS 1)) (sendCell c 1)
      ∗ cellInv ER (Rd m ρ) (K (c, kS 2)) (sendCell c 2)
      ∗ cellInv ER (Rd m ρ) (K (c, kS 3)) (sendCell c 3)
      ∗ cellInv ER (Rd m ρ) (K (c, kS 4)) (sendCell c 4)
      ∗ cellInv ER (Rd m ρ) (K (c, kS 5)) (sendCell c 5)
      ∗ cellInv ER (Rd m ρ) (K (c, kS 6)) (sendCell c 6)
      ∗ cellInv ER (Rd m ρ) (K (c, kR 0)) (recvCell c 0)
      ∗ cellInv ER (Rd m ρ) (K (c, kR 1)) (recvCell c 1)
      ∗ cellInv ER (Rd m ρ) (K (c, kR 2)) (recvCell c 2)
      ∗ cellInv ER (Rd m ρ) (K (c, kR 3)) (recvCell c 3)
      ∗ cellInv ER (Rd m ρ) (K (c, kR 4)) (recvCell c 4)
      ∗ cellInv ER (Rd m ρ) (K (c, kR 5)) (recvCell c 5)
      ∗ cellInv ER (Rd m ρ) (K (c, kR 6)) (recvCell c 6)
      ∗ cellInv ER (Rd m ρ) (K (peer c 0, 0)) (barCell (peer c 0))
      ∗ cellInv ER (Rd m ρ) (K (peer c 1, 0)) (barCell (peer c 1))
      ∗ cellInv ER (Rd m ρ) (K (peer c 2, 0)) (barCell (peer c 2))
      ∗ cellInv ER (Rd m ρ) (K (peer c 3, 0)) (barCell (peer c 3))
      ∗ cellInv ER (Rd m ρ) (K (peer c 4, 0)) (barCell (peer c 4))
      ∗ cellInv ER (Rd m ρ) (K (peer c 5, 0)) (barCell (peer c 5))
      ∗ cellInv ER (Rd m ρ) (K (peer c 6, 0)) (barCell (peer c 6))
      ∗ cellInv ER (Rd m ρ) (K (peer c 0, kR 6)) (recvCell (peer c 0) 6)
      ∗ cellInv ER (Rd m ρ) (K (peer c 1, kR 5)) (recvCell (peer c 1) 5)
      ∗ cellInv ER (Rd m ρ) (K (peer c 2, kR 4)) (recvCell (peer c 2) 4)
      ∗ cellInv ER (Rd m ρ) (K (peer c 3, kR 3)) (recvCell (peer c 3) 3)
      ∗ cellInv ER (Rd m ρ) (K (peer c 4, kR 2)) (recvCell (peer c 4) 2)
      ∗ cellInv ER (Rd m ρ) (K (peer c 5, kR 1)) (recvCell (peer c 5) 1)
      ∗ cellInv ER (Rd m ρ) (K (peer c 6, kR 0)) (recvCell (peer c 6) 0)
      ∗ reached ER (barCell c) 0
      ∗ reached ER (sendCell c 0) 0
      ∗ reached ER (sendCell c 1) 0
      ∗ reached ER (sendCell c 2) 0
      ∗ reached ER (sendCell c 3) 0
      ∗ reached ER (sendCell c 4) 0
      ∗ reached ER (sendCell c 5) 0
      ∗ reached ER (sendCell c 6) 0
      ∗ reached ER (recvCell c 0) 0
      ∗ reached ER (recvCell c 1) 0
      ∗ reached ER (recvCell c 2) 0
      ∗ reached ER (recvCell c 3) 0
      ∗ reached ER (recvCell c 4) 0
      ∗ reached ER (recvCell c 5) 0
      ∗ reached ER (recvCell c 6) 0
      ∗ reached ER (barCell (peer c 0)) 0
      ∗ reached ER (barCell (peer c 1)) 0
      ∗ reached ER (barCell (peer c 2)) 0
      ∗ reached ER (barCell (peer c 3)) 0
      ∗ reached ER (barCell (peer c 4)) 0
      ∗ reached ER (barCell (peer c 5)) 0
      ∗ reached ER (barCell (peer c 6)) 0
      ∗ reached ER (recvCell (peer c 0) 6) 0
      ∗ reached ER (recvCell (peer c 1) 5) 0
      ∗ reached ER (recvCell (peer c 2) 4) 0
      ∗ reached ER (recvCell (peer c 3) 3) 0
      ∗ reached ER (recvCell (peer c 4) 2) 0
      ∗ reached ER (recvCell (peer c 5) 1) 0
      ∗ reached ER (recvCell (peer c 6) 0) 0
      ∗ levAts L lv)

/-- The linear part: the positions on the own cells, the tokens of the duties paid, the credits. -/
def flatLin (c : Dev nD) : sProp 𝕄 :=
  iprop(atPos ER (barCell c) 0 ∅ 0
      ∗ atPos ER (sendCell c 0) 0 ∅ 0
      ∗ atPos ER (sendCell c 1) 0 ∅ 0
      ∗ atPos ER (sendCell c 2) 0 ∅ 0
      ∗ atPos ER (sendCell c 3) 0 ∅ 0
      ∗ atPos ER (sendCell c 4) 0 ∅ 0
      ∗ atPos ER (sendCell c 5) 0 ∅ 0
      ∗ atPos ER (sendCell c 6) 0 ∅ 0
      ∗ atPos ER (recvCell c 0) 0 ∅ 0
      ∗ atPos ER (recvCell c 1) 0 ∅ 0
      ∗ atPos ER (recvCell c 2) 0 ∅ 0
      ∗ atPos ER (recvCell c 3) 0 ∅ 0
      ∗ atPos ER (recvCell c 4) 0 ∅ 0
      ∗ atPos ER (recvCell c 5) 0 ∅ 0
      ∗ atPos ER (recvCell c 6) 0 ∅ 0
      ∗ dutyTok ER (barCell (peer c 0)) 0 (0 : Fin 7)
      ∗ dutyTok ER (barCell (peer c 1)) 0 (1 : Fin 7)
      ∗ dutyTok ER (barCell (peer c 2)) 0 (2 : Fin 7)
      ∗ dutyTok ER (barCell (peer c 3)) 0 (3 : Fin 7)
      ∗ dutyTok ER (barCell (peer c 4)) 0 (4 : Fin 7)
      ∗ dutyTok ER (barCell (peer c 5)) 0 (5 : Fin 7)
      ∗ dutyTok ER (barCell (peer c 6)) 0 (6 : Fin 7)
      ∗ dutyTok ER (recvCell (peer c 0) 6) 0 (0 : Fin 7)
      ∗ dutyTok ER (recvCell (peer c 1) 5) 0 (0 : Fin 7)
      ∗ dutyTok ER (recvCell (peer c 2) 4) 0 (0 : Fin 7)
      ∗ dutyTok ER (recvCell (peer c 3) 3) 0 (0 : Fin 7)
      ∗ dutyTok ER (recvCell (peer c 4) 2) 0 (0 : Fin 7)
      ∗ dutyTok ER (recvCell (peer c 5) 1) 0 (0 : Fin 7)
      ∗ dutyTok ER (recvCell (peer c 6) 0) 0 (0 : Fin 7)
      ∗ dutyTok ER (sendCell c 0) 0 (0 : Fin 7)
      ∗ dutyTok ER (sendCell c 1) 0 (0 : Fin 7)
      ∗ dutyTok ER (sendCell c 2) 0 (0 : Fin 7)
      ∗ dutyTok ER (sendCell c 3) 0 (0 : Fin 7)
      ∗ dutyTok ER (sendCell c 4) 0 (0 : Fin 7)
      ∗ dutyTok ER (sendCell c 5) 0 (0 : Fin 7)
      ∗ dutyTok ER (sendCell c 6) 0 (0 : Fin 7)
      ∗ cred (tallyAt (barCell c) () 7)
      ∗ cred (tallyAt (recvCell c 0) () N)
      ∗ cred (tallyAt (recvCell c 1) () N)
      ∗ cred (tallyAt (recvCell c 2) () N)
      ∗ cred (tallyAt (recvCell c 3) () N)
      ∗ cred (tallyAt (recvCell c 4) () N)
      ∗ cred (tallyAt (recvCell c 5) () N)
      ∗ cred (tallyAt (recvCell c 6) () N))

/-- The buffers, each named through its memref: the three scratch buffers at some contents, the inputs' staging buffers at
    their blocks, the result's at some contents; and what the device owes, every summand written out. -/
def flatBuf (c : Dev nD) (W : Waits sig Unit) : sProp 𝕄 :=
  iprop((∃ f : Buf (Elt F) ((c : Thread nD τ).loc cc0_scratch0), ((Memref.whole cc0_scratch0 : Memref sig .tc .vmem S16x128 .f32).view.loc (c : Thread nD τ)) ↦{fullShare} f)
      ∗ (∃ f : Buf (Elt F) ((c : Thread nD τ).loc cc0_scratch1), ((Memref.whole cc0_scratch1 : Memref sig .tc .vmem S7x16x128 .f32).view.loc (c : Thread nD τ)) ↦{fullShare} f)
      ∗ (∃ f : Buf (Elt F) ((c : Thread nD τ).loc cc0_scratch2), ((Memref.whole cc0_scratch2 : Memref sig .tc .vmem S1024x512 .bf16).view.loc (c : Thread nD τ)) ↦{fullShare} f)
      ∗ (((Memref.whole cc0_stg0_0 : Memref sig .tc .vmem S1024x512 .f32).view.loc (c : Thread nD τ)) ↦{fullShare} xstg m ρ c)
      ∗ (((Memref.whole cc0_stg1_0 : Memref sig .tc .vmem S512 .f32).view.loc (c : Thread nD τ)) ↦{fullShare} gstg m ρ c)
      ∗ (((Memref.whole cc0_stg2_0 : Memref sig .tc .vmem S512 .f32).view.loc (c : Thread nD τ)) ↦{fullShare} bstg m ρ c)
      ∗ (∃ f : Buf (Elt F) ((c : Thread nD τ).loc cc0_stg3_0), ((Memref.whole cc0_stg3_0 : Memref sig .tc .vmem S1024x512 .bf16).view.loc (c : Thread nD τ)) ↦{fullShare} f)
      ∗ owes (c : Thread nD τ) (O₀ c) W)

end Cert.Kernel.Run

end
-- ==== Proof.Word.Tables.lean ====
/-
  What the other parts read off the exchange's definitions: the ring of eight devices, the fifteen cells of a device, the
  one-round schedule read cell by cell, and the order of levels that lets every wait proceed.
-/
import proofs.«900825_g7700000000000826_dist_layernorm_colshard_i_m1024_n512_v7x_i8_bf16_1_alg».proof.Proof.Word.Proto

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ring -/

theorem peer_rev (c : Dev nD) (e : Fin 7) : peer (peer c e) (rev e) = c := by revert c e; decide
theorem rev_peer (c : Dev nD) (e : Fin 7) : peer (peer c (rev e)) e = c := by revert c e; decide
theorem rev_rev (e : Fin 7) : rev (rev e) = e := by revert e; decide
theorem peer_ne (c : Dev nD) (e : Fin 7) : peer c e ≠ c := by revert c e; decide
theorem peer_injective (c : Dev nD) : Function.Injective (peer c) := by revert c; decide
theorem eq_peer_of_ne {c d : Dev nD} (h : d ≠ c) : ∃ e : Fin 7, d = peer c e := by revert c d; decide

/-- Stepping e + 1 places along the ring, undone by stepping 7 - e places. -/
def peerEquiv (e : Fin 7) : Dev nD ≃ Dev nD := ⟨fun c => peer c e, fun c => peer c (rev e), fun c => peer_rev c e, fun c => rev_peer c e⟩

/-- The devices the kernel's seven signals address: the seven others, in ring order. -/
theorem dev1_eq (c : Dev nD) : (⟨k0_dev1 c, k0_dev1_lt c⟩ : Dev nD) = peer c 0 := Fin.ext (by revert c; decide +kernel)
theorem dev2_eq (c : Dev nD) : (⟨k0_dev2 c, k0_dev2_lt c⟩ : Dev nD) = peer c 1 := Fin.ext (by revert c; decide +kernel)
theorem dev3_eq (c : Dev nD) : (⟨k0_dev3 c, k0_dev3_lt c⟩ : Dev nD) = peer c 2 := Fin.ext (by revert c; decide +kernel)
theorem dev4_eq (c : Dev nD) : (⟨k0_dev4 c, k0_dev4_lt c⟩ : Dev nD) = peer c 3 := Fin.ext (by revert c; decide +kernel)
theorem dev5_eq (c : Dev nD) : (⟨k0_dev5 c, k0_dev5_lt c⟩ : Dev nD) = peer c 4 := Fin.ext (by revert c; decide +kernel)
theorem dev6_eq (c : Dev nD) : (⟨k0_dev6 c, k0_dev6_lt c⟩ : Dev nD) = peer c 5 := Fin.ext (by revert c; decide +kernel)
theorem dev7_eq (c : Dev nD) : (⟨k0_dev7 c, k0_dev7_lt c⟩ : Dev nD) = peer c 6 := Fin.ext (by revert c; decide +kernel)
/-- The devices the seven copies address: the same seven, in the same order. -/
theorem dev8_eq (c : Dev nD) : (⟨k0_dev8 c, k0_dev8_lt c⟩ : Dev nD) = peer c 0 := Fin.ext (by revert c; decide +kernel)
theorem dev9_eq (c : Dev nD) : (⟨k0_dev9 c, k0_dev9_lt c⟩ : Dev nD) = peer c 1 := Fin.ext (by revert c; decide +kernel)
theorem dev10_eq (c : Dev nD) : (⟨k0_dev10 c, k0_dev10_lt c⟩ : Dev nD) = peer c 2 := Fin.ext (by revert c; decide +kernel)
theorem dev11_eq (c : Dev nD) : (⟨k0_dev11 c, k0_dev11_lt c⟩ : Dev nD) = peer c 3 := Fin.ext (by revert c; decide +kernel)
theorem dev12_eq (c : Dev nD) : (⟨k0_dev12 c, k0_dev12_lt c⟩ : Dev nD) = peer c 4 := Fin.ext (by revert c; decide +kernel)
theorem dev13_eq (c : Dev nD) : (⟨k0_dev13 c, k0_dev13_lt c⟩ : Dev nD) = peer c 5 := Fin.ext (by revert c; decide +kernel)
theorem dev14_eq (c : Dev nD) : (⟨k0_dev14 c, k0_dev14_lt c⟩ : Dev nD) = peer c 6 := Fin.ext (by revert c; decide +kernel)

/-! ## Semaphores and cells -/

omit [FloatOps F] in
/-- The send semaphores are the DMA semaphores 4 … 10, the receive semaphores 11 … 17. -/
theorem sendSem_val (e : Fin 7) : (sendSem e).val = 4 + e.val := by fin_cases e <;> rfl
theorem recvSem_val (s : Fin 7) : (recvSem s).val = 11 + s.val := by fin_cases s <;> rfl

theorem csem_zero : csem 0 = .reg barS := rfl
theorem csem_kS (e : Fin 7) : csem (kS e) = .dma (sendSem e) := by fin_cases e <;> rfl
theorem csem_kR (s : Fin 7) : csem (kR s) = .dma (recvSem s) := by fin_cases s <;> rfl

theorem kcell_bar (c : Dev nD) : kcell (c, 0) = barCell c := rfl
theorem kcell_kS (c : Dev nD) (e : Fin 7) : kcell (c, kS e) = sendCell c e := congrArg (Prod.mk (c : Thread nD τ)) (csem_kS e)
theorem kcell_kR (c : Dev nD) (s : Fin 7) : kcell (c, kR s) = recvCell c s := congrArg (Prod.mk (c : Thread nD τ)) (csem_kR s)

theorem kS_injective : Function.Injective kS := by decide
theorem kR_injective : Function.Injective kR := by decide
theorem kS_ne_zero (e : Fin 7) : kS e ≠ 0 := by revert e; decide
theorem kR_ne_zero (s : Fin 7) : kR s ≠ 0 := by revert s; decide
theorem kS_ne_kR (e s : Fin 7) : kS e ≠ kR s := by revert e s; decide

/-- A device's fifteen cells are pairwise distinct. -/
theorem csem_injective : Function.Injective csem := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The fourteen own semaphores are scoped, pairwise distinct, and none is a staging semaphore. -/
theorem ownSemFacts : Pipeline.OwnSemFacts cfg0.spec osem := by decide

/-- A product over a device's fifteen cells: the barrier's factor, the seven send cells', the seven receive cells'. -/
theorem bigSep_fin15 (Φ : Fin 15 → sProp 𝕄) :
    bigSep Finset.univ Φ = iprop(Φ 0 ∗ (bigSep Finset.univ fun e : Fin 7 => Φ (kS e)) ∗ bigSep Finset.univ fun s : Fin 7 => Φ (kR s)) := by
  have h : (Finset.univ : Finset (Fin 15))
      = insert 0 ((Finset.univ.map ⟨kS, kS_injective⟩) ∪ (Finset.univ.map ⟨kR, kR_injective⟩)) := by decide
  rw [h, bigSep_insert (by decide), bigSep_union (by decide), bigSep_map, bigSep_map]
  rfl

/-! ## The schedule at round 0, cell by cell -/

section Sched
variable (c : Dev nD)

theorem recv_not_lt (s : Fin 7) : 11 ≤ (recvSem s).val := by rw [recvSem_val]; omega
theorem send_lt (e : Fin 7) : ¬ 11 ≤ (sendSem e).val := by rw [sendSem_val]; omega
theorem send_ge (e : Fin 7) : 4 ≤ (sendSem e).val := by rw [sendSem_val]; omega
theorem recv_ge (s : Fin 7) : 4 ≤ (recvSem s).val := by rw [recvSem_val]; omega
theorem send_idx (e : Fin 7) : (⟨((sendSem e).val - 4) % 7, Nat.mod_lt _ (by decide)⟩ : Fin 7) = e :=
  Fin.ext (by rw [sendSem_val]; show (4 + e.val - 4) % 7 = e.val; have := e.isLt; omega)
theorem recv_idx (s : Fin 7) : (⟨((recvSem s).val - 11) % 7, Nat.mod_lt _ (by decide)⟩ : Fin 7) = s :=
  Fin.ext (by rw [recvSem_val]; show (11 + s.val - 11) % 7 = s.val; have := s.isLt; omega)

theorem duties_bar : (Rd (F := F) m ρ).duties (barCell c) 0 = Finset.univ := by
  dsimp only [Rd]; rw [if_pos ⟨rfl, rfl⟩]
theorem duties_send (e : Fin 7) : (Rd (F := F) m ρ).duties (sendCell c e) 0 = {0} := by
  dsimp only [Rd]; rw [if_pos ⟨rfl, rfl⟩, if_pos (send_ge e)]
theorem duties_recv (s : Fin 7) : (Rd (F := F) m ρ).duties (recvCell c s) 0 = {0} := by
  dsimp only [Rd]; rw [if_pos ⟨rfl, rfl⟩, if_pos (recv_ge s)]
theorem duties_later (g : GSem nD τ sig) : ∀ r, 1 ≤ r → (Rd (F := F) m ρ).duties g r = ∅ :=
  fun r hr => by dsimp only [Rd]; rw [if_neg fun h => absurd h.1 (by omega)]

theorem amount_bar (d : Fin 7) : (Rd (F := F) m ρ).amount (barCell c) 0 d = 1 := rfl
theorem amount_send (e : Fin 7) (d : Fin 7) : (Rd (F := F) m ρ).amount (sendCell c e) 0 d = N := rfl
theorem amount_recv (s : Fin 7) (d : Fin 7) : (Rd (F := F) m ρ).amount (recvCell c s) 0 d = N := rfl

theorem expect_bar : (Rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send (e : Fin 7) : (Rd (F := F) m ρ).expect (sendCell c e) 0 = N := by
  unfold Schedule.expect Schedule.amountOf; rw [duties_send, Finset.sum_singleton, amount_send]
theorem expect_recv (s : Fin 7) : (Rd (F := F) m ρ).expect (recvCell c s) 0 = N := by
  unfold Schedule.expect Schedule.amountOf; rw [duties_recv, Finset.sum_singleton, amount_recv]

theorem payload_bar (d : Fin 7) : (Rd (F := F) m ρ).payload (barCell c) 0 d = barPay c d := rfl
theorem payload_send (e : Fin 7) (d : Fin 7) : (Rd (F := F) m ρ).payload (sendCell c e) 0 d = sendPay m ρ c e := by
  dsimp only [Rd]; rw [if_neg (send_lt e), if_pos (send_ge e), send_idx]
theorem payload_recv (s : Fin 7) (d : Fin 7) : (Rd (F := F) m ρ).payload (recvCell c s) 0 d = recvPay m ρ c s := by
  dsimp only [Rd]; rw [if_pos (recv_not_lt s), recv_idx]

/-- The whole round's payloads, no duty taken yet: of a barrier cell the seven slots, of a send cell the read share, of a
    receive cell the filled slot. -/
theorem rest_bar : bigSep ((Rd (F := F) m ρ).duties (barCell c) 0 \ ∅) (fun d => (Rd (F := F) m ρ).payload (barCell c) 0 d)
    = bigSep Finset.univ (fun d : Fin 7 => barPay (F := F) c d) := by
  rw [Finset.sdiff_empty, duties_bar]; exact bigSep_congr fun d _ => payload_bar m ρ c d
theorem rest_send (e : Fin 7) : bigSep ((Rd (F := F) m ρ).duties (sendCell c e) 0 \ ∅) (fun d => (Rd (F := F) m ρ).payload (sendCell c e) 0 d)
    = sendPay m ρ c e := by
  rw [Finset.sdiff_empty, duties_send, bigSep_singleton, payload_send]
theorem rest_recv (s : Fin 7) : bigSep ((Rd (F := F) m ρ).duties (recvCell c s) 0 \ ∅) (fun d => (Rd (F := F) m ρ).payload (recvCell c s) 0 d)
    = recvPay m ρ c s := by
  rw [Finset.sdiff_empty, duties_recv, bigSep_singleton, payload_recv]

end Sched

/-! ### The same payloads, spelt out as the memory they are -/

/-- The unit device c pays the barrier of the device e + 1 places on hands over slot e of c's own buffer. -/
theorem payload_bar_pay (c : Dev nD) (e : Fin 7) : (Rd (F := F) m ρ).payload (barCell (peer c e)) 0 e
    = iprop(∃ f : Buf (Elt F) ((c : Thread nD τ).loc cc0_scratch1), (slotM e).view.loc (c : Thread nD τ) ↦[(slotM e).view.set]{fullShare} f) := by
  rw [payload_bar]; unfold barPay slotPts; rw [peer_rev]
/-- Duty d of a device's own barrier cell brings slot d of the device that pays it. -/
theorem payload_bar_own (c : Dev nD) (d : Fin 7) : (Rd (F := F) m ρ).payload (barCell c) 0 d
    = iprop(∃ f : Buf (Elt F) ((peer c (rev d) : Thread nD τ).loc cc0_scratch1), (slotM d).view.loc (peer c (rev d) : Thread nD τ) ↦[(slotM d).view.set]{fullShare} f) := by
  rw [payload_bar]; rfl
theorem payload_recv_own (c : Dev nD) (s : Fin 7) (d : Fin 7) : (Rd (F := F) m ρ).payload (recvCell c s) 0 d
    = ((slotM s).view.loc (c : Thread nD τ) ↦[(slotM s).view.set]{fullShare} commVal m ρ c) := by
  rw [payload_recv]; rfl
theorem payload_send_own (c : Dev nD) (e : Fin 7) (d : Fin 7) : (Rd (F := F) m ρ).payload (sendCell c e) 0 d
    = ((mineM : Memref sig .tc .vmem S16x128 .f32).view.loc (c : Thread nD τ) ↦[(mineM : Memref sig .tc .vmem S16x128 .f32).view.set]{Transfers.shareTok fullShare 7 e} statsVal m ρ c) := by
  rw [payload_send]; rfl

end Cert.Kernel.Run

end
-- ==== Proof.Word.Unflat.lean ====
/-
  The starting state of one device's body, taken apart cell by cell: the products over a device's fifteen cells and over
  the seven offsets are written out, the invariants and round marks of the twenty-nine cells the device meets are drawn
  from the persistent records, and the inputs' staging buffers are read at their blocks.
-/
import proofs.«900825_g7700000000000826_dist_layernorm_colshard_i_m1024_n512_v7x_i8_bf16_1_alg».proof.Proof.Word.Flat
import proofs.«900825_g7700000000000826_dist_layernorm_colshard_i_m1024_n512_v7x_i8_bf16_1_alg».proof.Proof.Word.Tables

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A product over the seven offsets, written out. -/
theorem uf_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## One cell's invariant and round mark out of the records -/

theorem uf_invB (K : Dev nD × Fin 15 → ℕ) (c : Dev nD) :
    (bigSep Finset.univ fun ck : Dev nD × Fin 15 => (cellInv ER (Rd m ρ) (K ck) (kcell ck) : sProp 𝕄)) ⊢ cellInv ER (Rd m ρ) (K (c, 0)) (barCell c) :=
  bigSep_elim (Finset.mem_univ (c, (0 : Fin 15)))
theorem uf_invS (K : Dev nD × Fin 15 → ℕ) (c : Dev nD) (e : Fin 7) :
    (bigSep Finset.univ fun ck : Dev nD × Fin 15 => (cellInv ER (Rd m ρ) (K ck) (kcell ck) : sProp 𝕄)) ⊢ cellInv ER (Rd m ρ) (K (c, kS e)) (sendCell c e) := by
  have h : (bigSep Finset.univ fun ck : Dev nD × Fin 15 => (cellInv ER (Rd m ρ) (K ck) (kcell ck) : sProp 𝕄)) ⊢ cellInv ER (Rd m ρ) (K (c, kS e)) (kcell (c, kS e)) := bigSep_elim (Finset.mem_univ (c, kS e))
  rwa [kcell_kS] at h
theorem uf_invR (K : Dev nD × Fin 15 → ℕ) (c : Dev nD) (s : Fin 7) :
    (bigSep Finset.univ fun ck : Dev nD × Fin 15 => (cellInv ER (Rd m ρ) (K ck) (kcell ck) : sProp 𝕄)) ⊢ cellInv ER (Rd m ρ) (K (c, kR s)) (recvCell c s) := by
  have h : (bigSep Finset.univ fun ck : Dev nD × Fin 15 => (cellInv ER (Rd m ρ) (K ck) (kcell ck) : sProp 𝕄)) ⊢ cellInv ER (Rd m ρ) (K (c, kR s)) (kcell (c, kR s)) := bigSep_elim (Finset.mem_univ (c, kR s))
  rwa [kcell_kR] at h

theorem uf_rchB (c : Dev nD) : (bigSep Finset.univ fun ck : Dev nD × Fin 15 => (reached ER (kcell ck) 0 : sProp 𝕄)) ⊢ reached ER (barCell c) 0 :=
  bigSep_elim (Finset.mem_univ (c, (0 : Fin 15)))
theorem uf_rchS (c : Dev nD) (e : Fin 7) : (bigSep Finset.univ fun ck : Dev nD × Fin 15 => (reached ER (kcell ck) 0 : sProp 𝕄)) ⊢ reached ER (sendCell c e) 0 := by
  have h : (bigSep Finset.univ fun ck : Dev nD × Fin 15 => (reached ER (kcell ck) 0 : sProp 𝕄)) ⊢ reached ER (kcell (c, kS e)) 0 := bigSep_elim (Finset.mem_univ (c, kS e))
  rwa [kcell_kS] at h
theorem uf_rchR (c : Dev nD) (s : Fin 7) : (bigSep Finset.univ fun ck : Dev nD × Fin 15 => (reached ER (kcell ck) 0 : sProp 𝕄)) ⊢ reached ER (recvCell c s) 0 := by
  have h : (bigSep Finset.univ fun ck : Dev nD × Fin 15 => (reached ER (kcell ck) 0 : sProp 𝕄)) ⊢ reached ER (kcell (c, kR s)) 0 := bigSep_elim (Finset.mem_univ (c, kR s))
  rwa [kcell_kR] at h

/-! ## The persistent part -/

theorem uf_inv (K : Dev nD × Fin 15 → ℕ) (c : Dev nD) : iprop(records m ρ K ∗ levAts L lv) ⊢ flatInv m ρ K c := by
  unfold records flatInv
  iintro ⟨⟨#HI, #HR⟩, #HL⟩
  isplitr; · iapply (uf_invB m ρ K c); iexact HI
  isplitr; · iapply (uf_invS m ρ K c 0); iexact HI
  isplitr; · iapply (uf_invS m ρ K c 1); iexact HI
  isplitr; · iapply (uf_invS m ρ K c 2); iexact HI
  isplitr; · iapply (uf_invS m ρ K c 3); iexact HI
  isplitr; · iapply (uf_invS m ρ K c 4); iexact HI
  isplitr; · iapply (uf_invS m ρ K c 5); iexact HI
  isplitr; · iapply (uf_invS m ρ K c 6); iexact HI
  isplitr; · iapply (uf_invR m ρ K c 0); iexact HI
  isplitr; · iapply (uf_invR m ρ K c 1); iexact HI
  isplitr; · iapply (uf_invR m ρ K c 2); iexact HI
  isplitr; · iapply (uf_invR m ρ K c 3); iexact HI
  isplitr; · iapply (uf_invR m ρ K c 4); iexact HI
  isplitr; · iapply (uf_invR m ρ K c 5); iexact HI
  isplitr; · iapply (uf_invR m ρ K c 6); iexact HI
  isplitr; · iapply (uf_invB m ρ K (peer c 0)); iexact HI
  isplitr; · iapply (uf_invB m ρ K (peer c 1)); iexact HI
  isplitr; · iapply (uf_invB m ρ K (peer c 2)); iexact HI
  isplitr; · iapply (uf_invB m ρ K (peer c 3)); iexact HI
  isplitr; · iapply (uf_invB m ρ K (peer c 4)); iexact HI
  isplitr; · iapply (uf_invB m ρ K (peer c 5)); iexact HI
  isplitr; · iapply (uf_invB m ρ K (peer c 6)); iexact HI
  isplitr; · iapply (uf_invR m ρ K (peer c 0) 6); iexact HI
  isplitr; · iapply (uf_invR m ρ K (peer c 1) 5); iexact HI
  isplitr; · iapply (uf_invR m ρ K (peer c 2) 4); iexact HI
  isplitr; · iapply (uf_invR m ρ K (peer c 3) 3); iexact HI
  isplitr; · iapply (uf_invR m ρ K (peer c 4) 2); iexact HI
  isplitr; · iapply (uf_invR m ρ K (peer c 5) 1); iexact HI
  isplitr; · iapply (uf_invR m ρ K (peer c 6) 0); iexact HI
  isplitr; · iapply (uf_rchB (F := F) c); iexact HR
  isplitr; · iapply (uf_rchS (F := F) c 0); iexact HR
  isplitr; · iapply (uf_rchS (F := F) c 1); iexact HR
  isplitr; · iapply (uf_rchS (F := F) c 2); iexact HR
  isplitr; · iapply (uf_rchS (F := F) c 3); iexact HR
  isplitr; · iapply (uf_rchS (F := F) c 4); iexact HR
  isplitr; · iapply (uf_rchS (F := F) c 5); iexact HR
  isplitr; · iapply (uf_rchS (F := F) c 6); iexact HR
  isplitr; · iapply (uf_rchR (F := F) c 0); iexact HR
  isplitr; · iapply (uf_rchR (F := F) c 1); iexact HR
  isplitr; · iapply (uf_rchR (F := F) c 2); iexact HR
  isplitr; · iapply (uf_rchR (F := F) c 3); iexact HR
  isplitr; · iapply (uf_rchR (F := F) c 4); iexact HR
  isplitr; · iapply (uf_rchR (F := F) c 5); iexact HR
  isplitr; · iapply (uf_rchR (F := F) c 6); iexact HR
  isplitr; · iapply (uf_rchB (F := F) (peer c 0)); iexact HR
  isplitr; · iapply (uf_rchB (F := F) (peer c 1)); iexact HR
  isplitr; · iapply (uf_rchB (F := F) (peer c 2)); iexact HR
  isplitr; · iapply (uf_rchB (F := F) (peer c 3)); iexact HR
  isplitr; · iapply (uf_rchB (F := F) (peer c 4)); iexact HR
  isplitr; · iapply (uf_rchB (F := F) (peer c 5)); iexact HR
  isplitr; · iapply (uf_rchB (F := F) (peer c 6)); iexact HR
  isplitr; · iapply (uf_rchR (F := F) (peer c 0) 6); iexact HR
  isplitr; · iapply (uf_rchR (F := F) (peer c 1) 5); iexact HR
  isplitr; · iapply (uf_rchR (F := F) (peer c 2) 4); iexact HR
  isplitr; · iapply (uf_rchR (F := F) (peer c 3) 3); iexact HR
  isplitr; · iapply (uf_rchR (F := F) (peer c 4) 2); iexact HR
  isplitr; · iapply (uf_rchR (F := F) (peer c 5) 1); iexact HR
  isplitr; · iapply (uf_rchR (F := F) (peer c 6) 0); iexact HR
  iexact HL

/-! ## The linear part -/

theorem uf_lin (c : Dev nD) :
    iprop(positions (F := F) c ∗ payToks (F := F) c ∗ cred (tallyAt (barCell c) () 7)
        ∗ bigSep Finset.univ fun s : Fin 7 => cred (tallyAt (recvCell c s) () N)) ⊢ flatLin (F := F) c := by
  unfold positions payToks flatLin
  rw [bigSep_fin15, uf_fin7, uf_fin7, uf_fin7, uf_fin7, kcell_bar]
  simp only [kcell_kS, kcell_kR]
  iintro ⟨⟨PB, ⟨PS0, PS1, PS2, PS3, PS4, PS5, PS6⟩, PR0, PR1, PR2, PR3, PR4, PR5, PR6⟩, ⟨⟨TB0, TR0, TS0⟩, ⟨TB1, TR1, TS1⟩, ⟨TB2, TR2, TS2⟩, ⟨TB3, TR3, TS3⟩, ⟨TB4, TR4, TS4⟩, ⟨TB5, TR5, TS5⟩, ⟨TB6, TR6, TS6⟩⟩, CB, CR0, CR1, CR2, CR3, CR4, CR5, CR6⟩
  isplitl [PB]; · iexact PB
  isplitl [PS0]; · iexact PS0
  isplitl [PS1]; · iexact PS1
  isplitl [PS2]; · iexact PS2
  isplitl [PS3]; · iexact PS3
  isplitl [PS4]; · iexact PS4
  isplitl [PS5]; · iexact PS5
  isplitl [PS6]; · iexact PS6
  isplitl [PR0]; · iexact PR0
  isplitl [PR1]; · iexact PR1
  isplitl [PR2]; · iexact PR2
  isplitl [PR3]; · iexact PR3
  isplitl [PR4]; · iexact PR4
  isplitl [PR5]; · iexact PR5
  isplitl [PR6]; · iexact PR6
  isplitl [TB0]; · iexact TB0
  isplitl [TB1]; · iexact TB1
  isplitl [TB2]; · iexact TB2
  isplitl [TB3]; · iexact TB3
  isplitl [TB4]; · iexact TB4
  isplitl [TB5]; · iexact TB5
  isplitl [TB6]; · iexact TB6
  isplitl [TR0]; · iexact TR0
  isplitl [TR1]; · iexact TR1
  isplitl [TR2]; · iexact TR2
  isplitl [TR3]; · iexact TR3
  isplitl [TR4]; · iexact TR4
  isplitl [TR5]; · iexact TR5
  isplitl [TR6]; · iexact TR6
  isplitl [TS0]; · iexact TS0
  isplitl [TS1]; · iexact TS1
  isplitl [TS2]; · iexact TS2
  isplitl [TS3]; · iexact TS3
  isplitl [TS4]; · iexact TS4
  isplitl [TS5]; · iexact TS5
  isplitl [TS6]; · iexact TS6
  isplitl [CB]; · iexact CB
  isplitl [CR0]; · iexact CR0
  isplitl [CR1]; · iexact CR1
  isplitl [CR2]; · iexact CR2
  isplitl [CR3]; · iexact CR3
  isplitl [CR4]; · iexact CR4
  isplitl [CR5]; · iexact CR5
  iexact CR6

/-! ## The buffers and what is owed -/

theorem uf_buf (c : Dev nD) :
    iprop(scratch (F := F) c ∗ (dats m ρ 0 c).owesAt () t₀.castSucc
        ∗ (∃ d, stg c cc0_stg0_0 ((dats m ρ 0 c).before (0 : Fin 4) t₀ d))
        ∗ (∃ d, stg c cc0_stg1_0 ((dats m ρ 0 c).before (1 : Fin 4) t₀ d))
        ∗ (∃ d, stg c cc0_stg2_0 ((dats m ρ 0 c).before (2 : Fin 4) t₀ d))
        ∗ (∃ d, stg c cc0_stg3_0 ((dats m ρ 0 c).before (3 : Fin 4) t₀ d)))
      ⊢ iprop(∃ W : Waits sig Unit, flatBuf m ρ c W) := by
  unfold scratch flatBuf Dat.owesAt Pipeline.owesWithin
  iintro ⟨⟨Hs0, Hs1, Hs2⟩, ⟨%W, %hW, HO⟩, ⟨%d0, %g0, %hg0, Hx⟩, ⟨%d1, %g1, %hg1, Hg⟩, ⟨%d2, %g2, %hg2, Hb⟩, ⟨%d3, %g3, %hg3, Ho⟩⟩
  have hx : g0 = xstg m ρ c := by rw [hg0]; unfold Dat.before; rw [if_pos (fetch0_0 t₀)]; rfl
  have hg : g1 = gstg m ρ c := by rw [hg1]; unfold Dat.before; rw [if_pos (fetch0_1 t₀)]; rfl
  have hb : g2 = bstg m ρ c := by rw [hg2]; unfold Dat.before; rw [if_pos (fetch0_2 t₀)]; rfl
  subst hx hg hb
  rw [show (dats m ρ 0 c).owed t₀.castSucc = O₀ c from rfl]
  iexists W
  isplitl [Hs0]; · iexact Hs0
  isplitl [Hs1]; · iexact Hs1
  isplitl [Hs2]; · iexact Hs2
  isplitl [Hx]; · iexact Hx
  isplitl [Hg]; · iexact Hg
  isplitl [Hb]; · iexact Hb
  isplitl [Ho]; · iexists g3; iexact Ho
  iexact HO

/-! ## The whole -/

/-- The body's starting state, cell by cell. -/
theorem pre_flat (K : Dev nD × Fin 15 → ℕ) (c : Dev nD) :
    bodyPre m ρ K c ⊢ iprop(flatInv m ρ K c ∗ flatLin (F := F) c ∗ ∃ W : Waits sig Unit, flatBuf m ρ c W) := by
  unfold bodyPre ghost
  iintro ⟨⟨⟨Hrec, Hpos, Htok⟩, Hcb, Hcr, Hlev, Hscr⟩, Ho, H0, H1, H2, H3⟩
  isplitl [Hrec Hlev]
  · iapply (uf_inv m ρ K c)
    isplitl [Hrec]; · iexact Hrec
    iexact Hlev
  isplitl [Hpos Htok Hcb Hcr]
  · iapply (uf_lin (F := F) c)
    isplitl [Hpos]; · iexact Hpos
    isplitl [Htok]; · iexact Htok
    isplitl [Hcb]; · iexact Hcb
    iexact Hcr
  · iapply (uf_buf m ρ c)
    isplitl [Hscr]; · iexact Hscr
    isplitl [Ho]; · iexact Ho
    isplitl [H0]; · iexact H0
    isplitl [H1]; · iexact H1
    isplitl [H2]; · iexact H2
    iexact H3

end Cert.Kernel.Run

end
-- ==== Proof.Word.Levels.lean ====
/-
  The order of levels on the cells: barrier cells above the staging and send cells, receive cells above the barrier cells.
  Whatever a device still owes at any moment is owed to a barrier or receive cell of another device, so each of its waits
  sits below what it owes and may proceed.
-/
import proofs.«900825_g7700000000000826_dist_layernorm_colshard_i_m1024_n512_v7x_i8_bf16_1_alg».proof.Proof.Word.Tables

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- Barrier cells sit at level 1, receive cells at 2, send cells and the staging cells (DMA semaphores 0 … 3) at 0. -/
theorem lv_bar (c : Dev nD) (u : Unit) : lv (barCell c) u = 1 := rfl
theorem lv_recv (c : Dev nD) (s : Fin 7) (u : Unit) : lv (recvCell c s) u = 2 := by
  dsimp only [lv]; exact if_pos (recv_not_lt s)
theorem lv_send (c : Dev nD) (e : Fin 7) (u : Unit) : lv (sendCell c e) u = 0 := by
  dsimp only [lv]; exact if_neg (send_lt e)
theorem lv_stage (c : Dev nD) (q : DmaSem sig) (hq : q.val < 4) (u : Unit) : lv ((c : Thread nD τ), .dma q) u = 0 := by
  dsimp only [lv]; exact if_neg (by omega)

section Owed
variable {c : Dev nD} {g : GSem nD τ sig} {u : Unit}

/-- A sum of tallies is positive at a cell only where a summand is. -/
theorem pos_add {A B : CellTallies nD τ sig Unit} (h : 0 < (A + B) g u) : 0 < A g u ∨ 0 < B g u := by
  rw [Pi.add_apply, Finsupp.add_apply] at h; omega
theorem owedBar_pos {e : Fin 7} (h : 0 < owedBar c e g u) : g = barCell (peer c e) := by
  unfold owedBar at h; rw [tallyAt_apply] at h
  by_contra hn; rw [if_neg (fun h' => hn h'.1)] at h; exact Nat.lt_irrefl 0 h
theorem owedRecv_pos {e : Fin 7} (h : 0 < owedRecv c e g u) : g = recvCell (peer c e) (rev e) := by
  unfold owedRecv at h; rw [tallyAt_apply] at h
  by_contra hn; rw [if_neg (fun h' => hn h'.1)] at h; exact Nat.lt_irrefl 0 h

/-- Whatever is still owed before a copy is owed to a receive cell of another device; -/
theorem OS7_pos (h : 0 < OS7 c g u) : ∃ e : Fin 7, g = recvCell (peer c e) (rev e) := by
  unfold OS7 at h; rw [Pi.zero_apply, Finsupp.zero_apply] at h; exact absurd h (Nat.lt_irrefl 0)
theorem OS6_pos (h : 0 < OS6 c g u) : ∃ e : Fin 7, g = recvCell (peer c e) (rev e) := by
  unfold OS6 at h; rcases pos_add h with h | h
  · exact OS7_pos h
  · exact ⟨6, owedRecv_pos h⟩
theorem OS5_pos (h : 0 < OS5 c g u) : ∃ e : Fin 7, g = recvCell (peer c e) (rev e) := by
  unfold OS5 at h; rcases pos_add h with h | h
  · exact OS6_pos h
  · exact ⟨5, owedRecv_pos h⟩
theorem OS4_pos (h : 0 < OS4 c g u) : ∃ e : Fin 7, g = recvCell (peer c e) (rev e) := by
  unfold OS4 at h; rcases pos_add h with h | h
  · exact OS5_pos h
  · exact ⟨4, owedRecv_pos h⟩
theorem OS3_pos (h : 0 < OS3 c g u) : ∃ e : Fin 7, g = recvCell (peer c e) (rev e) := by
  unfold OS3 at h; rcases pos_add h with h | h
  · exact OS4_pos h
  · exact ⟨3, owedRecv_pos h⟩
theorem OS2_pos (h : 0 < OS2 c g u) : ∃ e : Fin 7, g = recvCell (peer c e) (rev e) := by
  unfold OS2 at h; rcases pos_add h with h | h
  · exact OS3_pos h
  · exact ⟨2, owedRecv_pos h⟩
theorem OS1_pos (h : 0 < OS1 c g u) : ∃ e : Fin 7, g = recvCell (peer c e) (rev e) := by
  unfold OS1 at h; rcases pos_add h with h | h
  · exact OS2_pos h
  · exact ⟨1, owedRecv_pos h⟩
theorem OS0_pos (h : 0 < OS0 c g u) : ∃ e : Fin 7, g = recvCell (peer c e) (rev e) := by
  unfold OS0 at h; rcases pos_add h with h | h
  · exact OS1_pos h
  · exact ⟨0, owedRecv_pos h⟩

/-- before a signal, to a barrier cell or a receive cell of another device. -/
theorem OB7_pos (h : 0 < OB7 c g u) : (∃ e : Fin 7, g = barCell (peer c e)) ∨ ∃ e : Fin 7, g = recvCell (peer c e) (rev e) := by
  unfold OB7 at h; exact Or.inr (OS0_pos h)
theorem OB6_pos (h : 0 < OB6 c g u) : (∃ e : Fin 7, g = barCell (peer c e)) ∨ ∃ e : Fin 7, g = recvCell (peer c e) (rev e) := by
  unfold OB6 at h; rcases pos_add h with h | h
  · exact OB7_pos h
  · exact Or.inl ⟨6, owedBar_pos h⟩
theorem OB5_pos (h : 0 < OB5 c g u) : (∃ e : Fin 7, g = barCell (peer c e)) ∨ ∃ e : Fin 7, g = recvCell (peer c e) (rev e) := by
  unfold OB5 at h; rcases pos_add h with h | h
  · exact OB6_pos h
  · exact Or.inl ⟨5, owedBar_pos h⟩
theorem OB4_pos (h : 0 < OB4 c g u) : (∃ e : Fin 7, g = barCell (peer c e)) ∨ ∃ e : Fin 7, g = recvCell (peer c e) (rev e) := by
  unfold OB4 at h; rcases pos_add h with h | h
  · exact OB5_pos h
  · exact Or.inl ⟨4, owedBar_pos h⟩
theorem OB3_pos (h : 0 < OB3 c g u) : (∃ e : Fin 7, g = barCell (peer c e)) ∨ ∃ e : Fin 7, g = recvCell (peer c e) (rev e) := by
  unfold OB3 at h; rcases pos_add h with h | h
  · exact OB4_pos h
  · exact Or.inl ⟨3, owedBar_pos h⟩
theorem OB2_pos (h : 0 < OB2 c g u) : (∃ e : Fin 7, g = barCell (peer c e)) ∨ ∃ e : Fin 7, g = recvCell (peer c e) (rev e) := by
  unfold OB2 at h; rcases pos_add h with h | h
  · exact OB3_pos h
  · exact Or.inl ⟨2, owedBar_pos h⟩
theorem OB1_pos (h : 0 < OB1 c g u) : (∃ e : Fin 7, g = barCell (peer c e)) ∨ ∃ e : Fin 7, g = recvCell (peer c e) (rev e) := by
  unfold OB1 at h; rcases pos_add h with h | h
  · exact OB2_pos h
  · exact Or.inl ⟨1, owedBar_pos h⟩
theorem OB0_pos (h : 0 < OB0 c g u) : (∃ e : Fin 7, g = barCell (peer c e)) ∨ ∃ e : Fin 7, g = recvCell (peer c e) (rev e) := by
  unfold OB0 at h; rcases pos_add h with h | h
  · exact OB1_pos h
  · exact Or.inl ⟨0, owedBar_pos h⟩

theorem O₀_pos (h : 0 < O₀ c g u) : (∃ e : Fin 7, g = barCell (peer c e)) ∨ ∃ e : Fin 7, g = recvCell (peer c e) (rev e) := by
  unfold O₀ at h; exact OB0_pos h

/-- The same by number. -/
theorem OS_pos (k : ℕ) (h : 0 < OS c k g u) : ∃ e : Fin 7, g = recvCell (peer c e) (rev e) := by
  rcases k with _ | _ | _ | _ | _ | _ | _ | k
  · exact OS0_pos h
  · exact OS1_pos h
  · exact OS2_pos h
  · exact OS3_pos h
  · exact OS4_pos h
  · exact OS5_pos h
  · exact OS6_pos h
  · exact OS7_pos h
theorem OB_pos (k : ℕ) (h : 0 < OB c k g u) : (∃ e : Fin 7, g = barCell (peer c e)) ∨ ∃ e : Fin 7, g = recvCell (peer c e) (rev e) := by
  rcases k with _ | _ | _ | _ | _ | _ | _ | k
  · exact OB0_pos h
  · exact OB1_pos h
  · exact OB2_pos h
  · exact OB3_pos h
  · exact OB4_pos h
  · exact OB5_pos h
  · exact OB6_pos h
  · exact OB7_pos h

end Owed

/-- A staging semaphore sits at level 0, below everything a device owes at launch (levels 1 and 2). -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | ⟨e, rfl⟩ <;> (rw [L_tc]; exact Finset.mem_singleton_self _))
      (fun p hp => by rw [Finset.mem_singleton.mp hp]; exact le_of_eq (lv_stage c q hq ()))
      (fun g u hg => by
        rcases O₀_pos hg with ⟨e, rfl⟩ | ⟨e, rfl⟩
        · rw [lv_bar]; decide
        · rw [lv_recv]; decide)
  · rw [MayWait_zero]; iintro -; iempintro

/-- At its barrier wait a device owes only the seven copies' arrivals: receive cells, level 2, above the barrier's 1. -/
theorem mayWait_bar (c : Dev nD) : (levAts L lv : sProp 𝕄) ⊢ MayWait (c : Thread nD τ) (.reg barS) () (OS0 c) :=
  MayOwe.of_cut (L := L) (lev := lv) 1 (fun p hp => by rw [Finset.mem_singleton.mp hp, L_tc]; exact Finset.mem_singleton_self _)
    (fun g u hg => by obtain ⟨e, rfl⟩ := OS0_pos hg; rw [L_tc]; exact Finset.mem_singleton_self _)
    (fun p hp => by rw [Finset.mem_singleton.mp hp]; exact le_of_eq (lv_bar c ()))
    (fun g u hg => by obtain ⟨e, rfl⟩ := OS0_pos hg; rw [lv_recv]; decide)

/-- Every wait of the staging pipeline may proceed, before the body (owing everything) and after it (owing nothing). -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.Kernel.Run

end
-- ==== Proof.Word.Slots.lean ====
/-
  The buffer of seven tables, slot by slot.

  The receive buffer holds seven tables of 16 × 128 numbers; slot `s` is the part whose first coordinate is `s`.
  Entry `(a, l)` of slot `s` sits at `(s, a, l)` of the buffer. Hence: a table copied into slot `s` leaves there,
  whatever the buffer held before, exactly the entries of any array whose slot `s` is that table; and the whole
  buffer is the disjoint union of its seven slots, so owning the buffer is owning the seven slots.
-/
import proofs.«900825_g7700000000000826_dist_layernorm_colshard_i_m1024_n512_v7x_i8_bf16_1_alg».proof.Proof.Word.Proto
import Idealize.ShloMosaic.Lib.Pipeline.Value
import Idealize.ShloMosaic.Lib.ValueIdx

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where a slot's entries sit -/

/-- An element of the buffer is in slot `s` exactly when its first coordinate is `s`. -/
theorem mem_slot (s : Fin 7) (i : S7x16x128.Idx) : i ∈ (slotM s).view.set ↔ (i 0).val = s.val := by
  show i ∈ (((View.whole cc0_scratch1).slice (Rect.unit (s := S7x16x128) ![s.val, 0, 0] S1x16x128.size (inb_slot s))).reshape
    S16x128 squeezes_S1x16x128_S16x128.numel_eq).set ↔ _
  rw [View.set_reshape, View.set_slice_whole, Rect.mem_set_unit]
  have h1 : (i 1).val < 16 := (i 1).isLt
  have h2 : (i 2).val < 128 := (i 2).isLt
  constructor
  · intro h
    have h0 := h 0
    simp [Shape.size] at h0
    omega
  · intro h a
    match a with
    | ⟨0, _⟩ => simp [Shape.size]; omega
    | ⟨1, _⟩ => simp [Shape.size]; exact h1
    | ⟨2, _⟩ => simp [Shape.size]; exact h2

/-- Entry `(a, l)` of slot `s` is entry `(s, a, l)` of the buffer. -/
theorem emb_slot (s : Fin 7) (a : Fin 16) (l : Fin 128) :
    (slotM s).view.emb (ValueIdx.ix2 a l) = (ValueIdx.ix3 s a l : S7x16x128.Idx) := by
  have hr : Shape.reshapeEquiv squeezes_S1x16x128_S16x128.numel_eq (ValueIdx.ix2 a l)
      = (ValueIdx.ix3 (0 : Fin 1) a l : S1x16x128.Idx) :=
    Shape.reshapeEquiv_eq_of_rowMajor _ (by rw [Shape.rowMajor_val_three, Shape.rowMajor_val_two]; simp)
  show (Rect.unit (s := S7x16x128) ![s.val, 0, 0] S1x16x128.size (inb_slot s)).emb
      (Shape.reshapeEquiv squeezes_S1x16x128_S16x128.numel_eq (ValueIdx.ix2 a l)) = _
  rw [hr]
  funext d
  apply Fin.ext
  rw [Rect.emb_apply]
  match d with
  | ⟨0, _⟩ => simp
  | ⟨1, _⟩ => simp
  | ⟨2, _⟩ => simp

/-! ## A copy into a slot -/

/-- What a copy of a table `t` into slot `s` leaves there, whatever the buffer held: on the slot's elements, any array
    `G` whose slot `s` is `t`. -/
theorem landing_eq (c : Dev nD) (s : Fin 7) (fd : Buf (Elt F) ((c : Thread nD τ).loc cc0_scratch1))
    (t : (cc0_scratch0 : Ref sig .tc).ty.Contents (Elt F)) (G : (cc0_scratch1 : Ref sig .tc).ty.Contents (Elt F))
    (hG : ∀ (a : Fin 16) (l : Fin 128), G (ValueIdx.ix3 s a l) = t (ValueIdx.ix2 a l)) :
    ∀ i ∈ (slotM s).view.set,
      (slotM s).view.write (Elt F) fd ((mineM : Memref sig .tc .vmem S16x128 .f32).view.read (Elt F) t) Finset.univ i = G i := by
  intro i hi
  obtain ⟨y, rfl⟩ := View.exists_emb_of_mem_set (slotM s).view hi
  obtain ⟨a, l, rfl⟩ : ∃ a l, y = ValueIdx.ix2 a l := ⟨y 0, y 1, ValueIdx.eq_ix2 y⟩
  refine (View.write_emb_of_mem _ _ (Finset.mem_univ _)).trans ?_
  rw [emb_slot, hG]
  rfl

/-- The same as an equality of ownerships: the slot after the copy is the slot at `G`. -/
theorem landing_pts (c : Dev nD) (s : Fin 7) (fd : Buf (Elt F) ((c : Thread nD τ).loc cc0_scratch1))
    (t : (cc0_scratch0 : Ref sig .tc).ty.Contents (Elt F)) (G : (cc0_scratch1 : Ref sig .tc).ty.Contents (Elt F))
    (hG : ∀ (a : Fin 16) (l : Fin 128), G (ValueIdx.ix3 s a l) = t (ValueIdx.ix2 a l)) :
    ((slotM s).view.loc (c : Thread nD τ) ↦[(slotM s).view.set]{fullShare}
        (slotM s).view.write (Elt F) fd ((mineM : Memref sig .tc .vmem S16x128 .f32).view.read (Elt F) t) Finset.univ : sProp 𝕄)
      = slotPts c s G := by
  unfold slotPts
  exact pointsTo_congr (landing_eq c s fd t G hG)

/-! ## The buffer is its seven slots -/

/-- Owning the whole buffer is owning its seven slots. -/
theorem comm_split (c : Dev nD) (f : Buf (Elt F) ((c : Thread nD τ).loc cc0_scratch1)) :
    ((((c : Thread nD τ).loc cc0_scratch1) ↦{fullShare} f) : sProp 𝕄) ⊣⊢ bigSep Finset.univ (fun s : Fin 7 => slotPts c s f) := by
  have hD : ∀ s ∈ (Finset.univ : Finset (Fin 7)), ∀ s' ∈ (Finset.univ : Finset (Fin 7)), s ≠ s' →
      Disjoint (slotM s).view.set (slotM s').view.set := by
    intro s _ s' _ hne
    rw [Finset.disjoint_left]
    intro i hi hi'
    exact hne (Fin.ext (((mem_slot s i).1 hi).symm.trans ((mem_slot s' i).1 hi')))
  have hU : (Finset.univ : Finset (Idx ((c : Thread nD τ).loc cc0_scratch1)))
      = (Finset.univ : Finset (Fin 7)).biUnion (fun s => (slotM s).view.set) := by
    ext i
    simp only [Finset.mem_univ, Finset.mem_biUnion, true_and, true_iff]
    exact ⟨⟨((i : S7x16x128.Idx) 0).val, ((i : S7x16x128.Idx) 0).isLt⟩, (mem_slot _ i).2 rfl⟩
  have hB : (((c : Thread nD τ).loc cc0_scratch1) ↦[(Finset.univ : Finset (Fin 7)).biUnion (fun s => (slotM s).view.set)]{fullShare} f : sProp 𝕄)
      = bigSep (Finset.univ : Finset (Fin 7)) (fun s : Fin 7 => ((c : Thread nD τ).loc cc0_scratch1) ↦[(slotM s).view.set]{fullShare} f) :=
    pointsTo_biUnion (ℓ := (c : Thread nD τ).loc cc0_scratch1) (q := fullShare) (f := f)
      (Finset.univ : Finset (Fin 7)) (fun s : Fin 7 => (slotM s).view.set) hD
  rw [← hU] at hB
  exact .of_eq hB

end Cert.Kernel.Run

end
-- ==== Proof.Word.Steps.lean ====
/-
  The few steps of one device's body that are taken by hand: a whole buffer's points-to spelt through its memref; the
  buffer of seven tables cut into its slots and put together again; the table of row statistics as stored, split into
  seven read shares and a remainder, and joined again; what the seven barrier signals hand over, slot by slot; and one
  copy of the table to a peer, whose arrival leaves in the peer's slot what all devices end holding there.
-/
import proofs.«900825_g7700000000000826_dist_layernorm_colshard_i_m1024_n512_v7x_i8_bf16_1_alg».proof.Proof.Word.Flat
import proofs.«900825_g7700000000000826_dist_layernorm_colshard_i_m1024_n512_v7x_i8_bf16_1_alg».proof.Proof.Word.Tables
import proofs.«900825_g7700000000000826_dist_layernorm_colshard_i_m1024_n512_v7x_i8_bf16_1_alg».proof.Proof.Word.Levels
import proofs.«900825_g7700000000000826_dist_layernorm_colshard_i_m1024_n512_v7x_i8_bf16_1_alg».proof.Proof.Word.Slots

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Spellings -/

/-- A points-to of a memref's elements, spelt through the memref. -/
theorem restate {S : Shape} {e : EltTy} (c : Dev nD) (M : Memref sig .tc .vmem S e) (q : PosShare TreeShare) (f : Buf (Elt F) (M.view.loc (c : Thread nD τ))) :
    ((M.view.loc (c : Thread nD τ) ↦[M.view.set]{q} f) : sProp 𝕄) ⊢ (M.view.loc (c : Thread nD τ) ↦[M.view.set]{q} f) := BI.Entails.refl _

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a; rfl

/-! ## The buffer of seven tables and its slots -/

/-- The whole buffer as its seven slots, each spelt through its memref. -/
theorem comm_slots (c : Dev nD) (f : Buf (Elt F) ((c : Thread nD τ).loc cc0_scratch1)) :
    ((((Memref.whole cc0_scratch1 : Memref sig .tc .vmem S7x16x128 .f32).view.loc (c : Thread nD τ)) ↦{fullShare} f) : sProp 𝕄)
      ⊢ iprop(((slotM 0).view.loc (c : Thread nD τ) ↦[(slotM 0).view.set]{fullShare} f)
        ∗ ((slotM 1).view.loc (c : Thread nD τ) ↦[(slotM 1).view.set]{fullShare} f)
        ∗ ((slotM 2).view.loc (c : Thread nD τ) ↦[(slotM 2).view.set]{fullShare} f)
        ∗ ((slotM 3).view.loc (c : Thread nD τ) ↦[(slotM 3).view.set]{fullShare} f)
        ∗ ((slotM 4).view.loc (c : Thread nD τ) ↦[(slotM 4).view.set]{fullShare} f)
        ∗ ((slotM 5).view.loc (c : Thread nD τ) ↦[(slotM 5).view.set]{fullShare} f)
        ∗ ((slotM 6).view.loc (c : Thread nD τ) ↦[(slotM 6).view.set]{fullShare} f)) :=
  (comm_split (F := F) c f).1.trans (Entails.of_eq (bigSep_fin7 _))

/-- The seven slots, all at one array's contents, put together again. -/
theorem slots_comm (c : Dev nD) (f : Buf (Elt F) ((c : Thread nD τ).loc cc0_scratch1)) :
    iprop(((slotM 0).view.loc (c : Thread nD τ) ↦[(slotM 0).view.set]{fullShare} f)
        ∗ ((slotM 1).view.loc (c : Thread nD τ) ↦[(slotM 1).view.set]{fullShare} f)
        ∗ ((slotM 2).view.loc (c : Thread nD τ) ↦[(slotM 2).view.set]{fullShare} f)
        ∗ ((slotM 3).view.loc (c : Thread nD τ) ↦[(slotM 3).view.set]{fullShare} f)
        ∗ ((slotM 4).view.loc (c : Thread nD τ) ↦[(slotM 4).view.set]{fullShare} f)
        ∗ ((slotM 5).view.loc (c : Thread nD τ) ↦[(slotM 5).view.set]{fullShare} f)
        ∗ ((slotM 6).view.loc (c : Thread nD τ) ↦[(slotM 6).view.set]{fullShare} f))
      ⊢ ((((Memref.whole cc0_scratch1 : Memref sig .tc .vmem S7x16x128 .f32).view.loc (c : Thread nD τ)) ↦[(Memref.whole cc0_scratch1 : Memref sig .tc .vmem S7x16x128 .f32).view.set]{fullShare} f) : sProp 𝕄) :=
  (Entails.of_eq (bigSep_fin7 (fun s : Fin 7 => slotPts (F := F) c s f)).symm).trans
    ((comm_split (F := F) c f).2.trans (Entails.of_eq (by rw [View.set_whole])))

/-! ## The table of row statistics -/

/-- What the one store of the table leaves in its buffer: the table itself, whatever was there. -/
theorem mine_stored (c : Dev nD) (fm : Buf (Elt F) ((c : Thread nD τ).loc cc0_scratch0)) :
    (Memref.whole cc0_scratch0 : Memref sig .tc .vmem S16x128 .f32).view.writes (Elt F) fm
      [⟨Rect.unit (s := S16x128) ![0, 0] S16x128.size inb_S16x128_S16x128_0_0,
          k0_pay2 (k0_pay1 (View.readAt (Elt F) (Memref.whole cc0_stg0_0 : Memref sig .tc .vmem S1024x512 .f32).view
            (Rect.unit (s := S1024x512) ![0, 0] S1024x512.size inb_S1024x512_S1024x512_0_0).toLoadRect (xstg m ρ c)))⟩]
      = statsVal m ρ c := by
  rw [View.writes_singleton]
  rw [show (View.readAt (Elt F) (Memref.whole cc0_stg0_0 : Memref sig .tc .vmem S1024x512 .f32).view
      (Rect.unit (s := S1024x512) ![0, 0] S1024x512.size inb_S1024x512_S1024x512_0_0).toLoadRect (xstg m ρ c)) = xstg m ρ c from
    Memref.readAt_unit_zero (Elt F) cc0_stg0_0 hz2 _ _]
  exact Memref.write_access_unit_zero_univ (Elt F) cc0_scratch0 hz2 _ fm _

/-- The table, held whole, as a remainder and seven read shares, one for each copy that reads it. -/
theorem mine_split (c : Dev nD) :
    (((Memref.whole cc0_scratch0 : Memref sig .tc .vmem S16x128 .f32).view.loc (c : Thread nD τ) ↦[(Memref.whole cc0_scratch0 : Memref sig .tc .vmem S16x128 .f32).view.set]{fullShare} statsVal m ρ c) : sProp 𝕄)
      ⊢ iprop(((Memref.whole cc0_scratch0 : Memref sig .tc .vmem S16x128 .f32).view.loc (c : Thread nD τ) ↦[(Memref.whole cc0_scratch0 : Memref sig .tc .vmem S16x128 .f32).view.set]{Transfers.shareDrop fullShare 7} statsVal m ρ c)
        ∗ mineTok m ρ c 0 ∗ mineTok m ρ c 1 ∗ mineTok m ρ c 2 ∗ mineTok m ρ c 3 ∗ mineTok m ρ c 4 ∗ mineTok m ρ c 5 ∗ mineTok m ρ c 6) :=
  (Transfers.pointsTo_toks_split fullShare 7).trans (sep_mono_right (Entails.of_eq (bigSep_fin7 (fun e : Fin 7 => mineTok m ρ c e))))

/-- The remainder and the seven read shares joined back. -/
theorem mine_join (c : Dev nD) :
    iprop(((Memref.whole cc0_scratch0 : Memref sig .tc .vmem S16x128 .f32).view.loc (c : Thread nD τ) ↦[(Memref.whole cc0_scratch0 : Memref sig .tc .vmem S16x128 .f32).view.set]{Transfers.shareDrop fullShare 7} statsVal m ρ c)
        ∗ mineTok m ρ c 0 ∗ mineTok m ρ c 1 ∗ mineTok m ρ c 2 ∗ mineTok m ρ c 3 ∗ mineTok m ρ c 4 ∗ mineTok m ρ c 5 ∗ mineTok m ρ c 6)
      ⊢ (((Memref.whole cc0_scratch0 : Memref sig .tc .vmem S16x128 .f32).view.loc (c : Thread nD τ) ↦[(Memref.whole cc0_scratch0 : Memref sig .tc .vmem S16x128 .f32).view.set]{fullShare} statsVal m ρ c) : sProp 𝕄) :=
  (sep_mono_right (Entails.of_eq (bigSep_fin7 (fun e : Fin 7 => mineTok m ρ c e)).symm)).trans (Transfers.pointsTo_toks_join fullShare 7)

/-! ## What the barrier's round hands over -/

/-- The seven payloads of a device's barrier round: slot `d` of the device `6 - d` offsets on, at some contents. -/
theorem bar_payloads (c : Dev nD) :
    (bigSep Finset.univ (fun d : Fin 7 => (Rd (F := F) m ρ).payload (barCell c) 0 d) : sProp 𝕄)
      ⊢ iprop((∃ f, slotPts (F := F) (peer c 6) 0 f) ∗ (∃ f, slotPts (F := F) (peer c 5) 1 f) ∗ (∃ f, slotPts (F := F) (peer c 4) 2 f)
        ∗ (∃ f, slotPts (F := F) (peer c 3) 3 f) ∗ (∃ f, slotPts (F := F) (peer c 2) 4 f) ∗ (∃ f, slotPts (F := F) (peer c 1) 5 f)
        ∗ (∃ f, slotPts (F := F) (peer c 0) 6 f)) :=
  Entails.of_eq (bigSep_fin7 _)

/-! ## One copy of the table to a peer -/

/-- Slot `rev e` of the device `e + 1` places on ends holding this device's table: that is what the slot holds in the
    array of the seven tables that device gathers. -/
theorem comm_at_peer (c : Dev nD) (e : Fin 7) (a : Fin 16) (l : Fin 128) :
    commVal m ρ (peer c e) (ValueIdx.ix3 (rev e) a l) = statsVal m ρ c (ValueIdx.ix2 a l) := by
  show KVal.stats (xstg m ρ (peer (peer c e) (rev e))) _ = _
  rw [peer_rev]; rfl

/-- The copy's units: a slot's credit is the table's (the same shape and element type). -/
theorem slot_credit (s : Fin 7) : (slotM s).view.amount (.dma (recvSem s)) = N := rfl

theorem send_duty (c : Dev nD) (e : Fin 7) : (0 : Fin 7) ∈ (Rd (F := F) m ρ).duties (sendCell c e) 0 := by
  rw [duties_send]; exact Finset.mem_singleton_self _
theorem recv_duty (c : Dev nD) (s : Fin 7) : (0 : Fin 7) ∈ (Rd (F := F) m ρ).duties (recvCell c s) 0 := by
  rw [duties_recv]; exact Finset.mem_singleton_self _

/-- The departure hands the read share back. -/
theorem send_pay (c : Dev nD) (e : Fin 7) :
    ((mineM : Memref sig .tc .vmem S16x128 .f32).view.loc (c : Thread nD τ) ↦[(mineM : Memref sig .tc .vmem S16x128 .f32).view.set]{Transfers.shareTok fullShare 7 e} statsVal m ρ c : sProp 𝕄)
      ⊢ (Rd (F := F) m ρ).payload (sendCell c e) 0 (0 : Fin 7) := by
  rw [payload_send]; exact BI.Entails.refl _

/-- The arrival leaves the peer's slot at the gathered array's contents, whatever it held. -/
theorem recv_pay (c : Dev nD) (e : Fin 7) (fd : Buf (Elt F) ((peer c e : Thread nD τ).loc cc0_scratch1)) :
    ((slotM (rev e)).view.loc (peer c e : Thread nD τ) ↦[(slotM (rev e)).view.set]{fullShare}
        (slotM (rev e)).view.write (Elt F) fd ((mineM : Memref sig .tc .vmem S16x128 .f32).view.read (Elt F) (statsVal m ρ c)) Finset.univ : sProp 𝕄)
      ⊢ (Rd (F := F) m ρ).payload (recvCell (peer c e) (rev e)) 0 (0 : Fin 7) := by
  rw [payload_recv]; unfold recvPay
  exact Entails.of_eq (landing_pts (peer c e) (rev e) fd (statsVal m ρ c) (commVal m ρ (peer c e)) (comm_at_peer m ρ c e))

/-- The copy of the table into slot `s = rev e` of `p = peer c e`, its memrefs and semaphores as the program spells them:
    the read share comes back with the departure, the slot lands at the gathered array's contents. -/
theorem wp_send_peer (K : Dev nD × Fin 15 → ℕ) (c p : Dev nD) (e s : Fin 7) (hp : p = peer c e) (hs : s = rev e)
    (src : Memref sig .tc .vmem S16x128 .f32) (hsrcM : src = mineM)
    (dst : Memref sig .tc .vmem S16x128 .f32) (hdstM : dst = slotM s)
    (sS sR : DmaSem sig) (hsS : sS = sendSem e) (hsR : sR = recvSem s)
    {hsc : (dst : Memref sig (Dev.tc p : Thread nD τ).2.kind .vmem S16x128 .f32).view.ref.isScScratch = false}
    {hsrc : src.view.WordExact} {hdst : dst.view.WordExact}
    {hsem : DmaTarget.Typed .vmem (.dma sR) (.remote (Dev.tc p : Thread nD τ) dst (.dma sS) hsc)}
    {α : Type} {Q : α → sProp 𝕄} {k : PUnit → Prog (TpuEff nD τ sig (Elt F) Λ₀ .tc) α}
    (fd : Buf (Elt F) ((peer c e : Thread nD τ).loc cc0_scratch1)) (O : CellTallies nD τ sig Unit) (W : Waits sig Unit) :
    iprop(cellInv ER (Rd m ρ) (K (c, kS e)) (sendCell c e) ∗ cellInv ER (Rd m ρ) (K (peer c e, kR (rev e))) (recvCell (peer c e) (rev e))
        ∗ mineTok m ρ c e ∗ slotPts (peer c e) (rev e) fd
        ∗ owes (c : Thread nD τ) (O + tallyAt (recvCell (peer c e) (rev e)) () N) W
        ∗ dutyTok ER (sendCell c e) 0 (0 : Fin 7) ∗ reached ER (sendCell c e) 0
        ∗ dutyTok ER (recvCell (peer c e) (rev e)) 0 (0 : Fin 7) ∗ reached ER (recvCell (peer c e) (rev e)) 0)
      ⊢ iprop(((cred (tallyAt (sendCell c e) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst (.dma sS) hsc) (.dma sR) hsrc hdst hsem) k) Q) := by
  subst hp hs hsrcM hdstM hsS hsR
  unfold mineTok slotPts
  exact Rounds.wp_send_pointsTo 𝒱₀ ER (Rd m ρ) (c : Thread nD τ) none (c' := (Dev.tc (peer c e) : Thread nD τ))
    (src := mineM) (dst := slotM (rev e)) (sS := .dma (sendSem e)) (sem := .dma (recvSem (rev e)))
    (q := Transfers.shareTok fullShare 7 e) (fs := statsVal m ρ c) (fd := fd)
    (κ₁ := K (c, kS e)) (κ₂ := K (peer c e, kR (rev e)))
    (r₁ := 0) (r₂ := 0) (d₁ := 0) (d₂ := 0)
    (send_duty m ρ c e) (recv_duty m ρ (peer c e) (rev e))
    () () N (slot_credit (rev e)) (amount_send m ρ c e 0) (amount_recv m ρ (peer c e) (rev e) 0) O rfl (W := W)
    (send_pay m ρ c e) (recv_pay m ρ c e fd)

/-! ## Reading a whole buffer, and what the last store leaves -/

theorem rd_x (f : (cc0_stg0_0 : Ref sig .tc).ty.Contents (Elt F)) :
    View.readAt (Elt F) (Memref.whole cc0_stg0_0 : Memref sig .tc .vmem S1024x512 .f32).view (Rect.unit (s := S1024x512) ![0, 0] S1024x512.size inb_S1024x512_S1024x512_0_0).toLoadRect f = f :=
  Memref.readAt_unit_zero (Elt F) cc0_stg0_0 hz2 _ f
theorem rd_g (f : (cc0_stg1_0 : Ref sig .tc).ty.Contents (Elt F)) :
    View.readAt (Elt F) (Memref.whole cc0_stg1_0 : Memref sig .tc .vmem S512 .f32).view (Rect.unit (s := S512) ![0] S512.size inb_S512_S512_0).toLoadRect f = f :=
  Memref.readAt_unit_zero (Elt F) cc0_stg1_0 hz1 _ f
theorem rd_b (f : (cc0_stg2_0 : Ref sig .tc).ty.Contents (Elt F)) :
    View.readAt (Elt F) (Memref.whole cc0_stg2_0 : Memref sig .tc .vmem S512 .f32).view (Rect.unit (s := S512) ![0] S512.size inb_S512_S512_0).toLoadRect f = f :=
  Memref.readAt_unit_zero (Elt F) cc0_stg2_0 hz1 _ f
theorem rd_m (f : (cc0_scratch0 : Ref sig .tc).ty.Contents (Elt F)) :
    View.readAt (Elt F) (Memref.whole cc0_scratch0 : Memref sig .tc .vmem S16x128 .f32).view (Rect.unit (s := S16x128) ![0, 0] S16x128.size inb_S16x128_S16x128_0_0).toLoadRect f = f :=
  Memref.readAt_unit_zero (Elt F) cc0_scratch0 hz2 _ f
theorem rd_c (f : (cc0_scratch1 : Ref sig .tc).ty.Contents (Elt F)) :
    View.readAt (Elt F) (Memref.whole cc0_scratch1 : Memref sig .tc .vmem S7x16x128 .f32).view (Rect.unit (s := S7x16x128) ![0, 0, 0] S7x16x128.size inb_S7x16x128_S7x16x128_0_0_0).toLoadRect f = f :=
  Memref.readAt_unit_zero (Elt F) cc0_scratch1 hz3 _ f

/-- What the one store of the result leaves in its staging buffer: the device's result block — computed from the table, the
    gathered tables, the gain and offset blocks and the narrow copy of the block, each read back whole. -/
theorem out_stored (c : Dev nD) (fo : Buf (Elt F) ((c : Thread nD τ).loc cc0_stg3_0)) :
    (Memref.whole cc0_stg3_0 : Memref sig .tc .vmem S1024x512 .bf16).view.writes (Elt F) fo
      [⟨Rect.unit (s := S1024x512) ![0, 0] S1024x512.size inb_S1024x512_S1024x512_0_0,
          k0_pay4
            (View.readAt (Elt F) (Memref.whole cc0_scratch0 : Memref sig .tc .vmem S16x128 .f32).view
              (Rect.unit (s := S16x128) ![0, 0] S16x128.size inb_S16x128_S16x128_0_0).toLoadRect (statsVal m ρ c))
            (View.readAt (Elt F) (Memref.whole cc0_scratch1 : Memref sig .tc .vmem S7x16x128 .f32).view
              (Rect.unit (s := S7x16x128) ![0, 0, 0] S7x16x128.size inb_S7x16x128_S7x16x128_0_0_0).toLoadRect (commVal m ρ c))
            (View.readAt (Elt F) (Memref.whole cc0_stg1_0 : Memref sig .tc .vmem S512 .f32).view (Rect.unit (s := S512) ![0] S512.size inb_S512_S512_0).toLoadRect (gstg m ρ c))
            (View.readAt (Elt F) (Memref.whole cc0_stg2_0 : Memref sig .tc .vmem S512 .f32).view (Rect.unit (s := S512) ![0] S512.size inb_S512_S512_0).toLoadRect (bstg m ρ c))
            ((Memref.whole cc0_scratch2 : Memref sig .tc .vmem S1024x512 .bf16).view.readCov
              [⟨Rect.unit (s := S1024x512) ![0, 0] S1024x512.size inb_S1024x512_S1024x512_0_0,
                  k0_pay3 (View.readAt (Elt F) (Memref.whole cc0_stg0_0 : Memref sig .tc .vmem S1024x512 .f32).view
                    (Rect.unit (s := S1024x512) ![0, 0] S1024x512.size inb_S1024x512_S1024x512_0_0).toLoadRect (xstg m ρ c))⟩]
              (Rect.unit (s := S1024x512) ![0, 0] S1024x512.size inb_S1024x512_S1024x512_0_0).toLoadRect)⟩]
      = outVal m ρ c := by
  rw [View.writes_singleton, rd_m, rd_c, rd_g, rd_b, rd_x]
  refine (Memref.write_access_unit_zero_univ (Elt F) cc0_stg3_0 hz2 _ fo _).trans ?_
  show k0_pay4 (statsVal m ρ c) (commVal m ρ c) (gstg m ρ c) (bstg m ρ c) _
    = k0_pay4 (statsVal m ρ c) (commVal m ρ c) (gstg m ρ c) (bstg m ρ c) (k0_pay3 (xstg m ρ c))
  exact congrArg (k0_pay4 (statsVal m ρ c) (commVal m ρ c) (gstg m ρ c) (bstg m ρ c)) (View.readCov_unit_zero _ hz2 _ _)

/-- A whole buffer's points-to spelt through its memref, read back at the buffer's location. -/
theorem unstate {S : Shape} {e : EltTy} (c : Dev nD) (M : Memref sig .tc .vmem S e) (hM : M.IsWhole) (q : PosShare TreeShare) (f : Buf (Elt F) (M.view.loc (c : Thread nD τ))) :
    ((M.view.loc (c : Thread nD τ) ↦[M.view.set]{q} f) : sProp 𝕄) ⊢ (M.view.loc (c : Thread nD τ) ↦{q} f) := by
  rw [hM.set_eq_univ]

/-! ## Closing a cell -/

/-- A device's own send or receive cell, its one round consumed, is closed: the counter is the device's again, at zero. -/
theorem close_send (K : Dev nD × Fin 15 → ℕ) (c : Dev nD) (e : Fin 7) :
    iprop(cellInv ER (Rd m ρ) (K (c, kS e)) (sendCell c e) ∗ atPos ER (sendCell c e) 1 ∅ 0) ⊢ iprop(|={Set.univ}=> semVal (sendCell c e) 0) :=
  Rounds.cell_close ER (Rd m ρ) (Set.mem_univ (K (c, kS e))) (fun h => h) (R := 1) (duties_later m ρ (sendCell c e))
theorem close_recv (K : Dev nD × Fin 15 → ℕ) (c : Dev nD) (s : Fin 7) :
    iprop(cellInv ER (Rd m ρ) (K (c, kR s)) (recvCell c s) ∗ atPos ER (recvCell c s) 1 ∅ 0) ⊢ iprop(|={Set.univ}=> semVal (recvCell c s) 0) :=
  Rounds.cell_close ER (Rd m ρ) (Set.mem_univ (K (c, kR s))) (fun h => h) (R := 1) (duties_later m ρ (recvCell c s))

end Cert.Kernel.Run

end
-- ==== Proof.Word.Body.lean ====
/-
  One device's body, from the state the pipeline hands it to the state it hands back.

  In program order: the seven barrier signals, each handing the signalled device one slot of this device's receive buffer;
  the table of row sums and row sums of squares computed from the block and stored; the wait for the seven signals of the
  others, which hands over, on each of them, the slot this device fills; the seven copies of the table, each reading it
  through its own read share and leaving in the peer's slot what that peer's gathered array holds there; the block kept in
  the narrower format; the seven waits for the copies arriving here, after which the receive buffer holds the seven other
  tables; the result computed from the eight tables and stored; the seven waits for the copies' departures, which return the
  read shares. At the end the table is whole again, the fourteen own semaphores are at zero and closed, nothing is owed.
-/
import proofs.«900825_g7700000000000826_dist_layernorm_colshard_i_m1024_n512_v7x_i8_bf16_1_alg».proof.Proof.Gen.Kernel.Skeleton
import proofs.«900825_g7700000000000826_dist_layernorm_colshard_i_m1024_n512_v7x_i8_bf16_1_alg».proof.Proof.Word.Unflat
import proofs.«900825_g7700000000000826_dist_layernorm_colshard_i_m1024_n512_v7x_i8_bf16_1_alg».proof.Proof.Word.Steps
noncomputable section
namespace Cert.Kernel.Run
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]
local notation "𝕄" => MT nD τ sig Unit (Elt F) ℕ UU ℕ
variable (m : (ℓ : Loc nD τ sig) → Buf (Elt F) ℓ) (ρ : Dev nD → PrngReg)

/-- Nothing owed, whatever waits were recorded, is what the pipeline asks after the point. -/
theorem owesAt_of (c : Dev nD) (W' : Waits sig Unit) :
    (owes (c : Thread nD τ) 0 W' : sProp 𝕄) ⊢ (dats m ρ 0 c).owesAt () t₀.succ := by
  unfold Dat.owesAt Pipeline.owesWithin
  rw [show (dats m ρ 0 c).owed t₀.succ = 0 from rfl]
  iintro HO
  iexists W'
  isplitr; · ipureintro; exact fun _ _ => Or.inl trivial
  iexact HO
attribute [local sl_canon] dev1_eq dev2_eq dev3_eq dev4_eq dev5_eq dev6_eq dev7_eq dev8_eq dev9_eq dev10_eq dev11_eq dev12_eq dev13_eq dev14_eq
attribute [local sl_rounds] duties_bar duties_send duties_recv amount_bar amount_send amount_recv expect_bar expect_send expect_recv
  payload_bar_pay payload_recv_own payload_send_own

set_option maxHeartbeats 4000000 in
/-- The body run from the starting state laid out cell by cell. The signals, the local loads and stores, and every wait
    are stepped from the cells' invariants, tokens, positions and credits; each of the seven copies is applied with its
    arrival stated at the contents the peer's slot ends holding; between the receive waits and the load of the receive
    buffer the seven slots are put together again. -/
theorem flat_body (K : Dev nD × Fin 15 → ℕ) (c : Dev nD) (W : Waits sig Unit) (Kt : PUnit → sProp 𝕄) :
    iprop(flatInv m ρ K c ∗ flatLin (F := F) c ∗ flatBuf m ρ c W ∗ (bodyPost m ρ c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  delta flatInv flatLin flatBuf
  iintro ⟨⟨#HIb, #HIs0, #HIs1, #HIs2, #HIs3, #HIs4, #HIs5, #HIs6, #HIr0, #HIr1, #HIr2, #HIr3, #HIr4, #HIr5, #HIr6, #HIbp0, #HIbp1, #HIbp2, #HIbp3, #HIbp4, #HIbp5, #HIbp6, #HIrp0, #HIrp1, #HIrp2, #HIrp3, #HIrp4, #HIrp5, #HIrp6, #HRb, #HRs0, #HRs1, #HRs2, #HRs3, #HRs4, #HRs5, #HRs6, #HRr0, #HRr1, #HRr2, #HRr3, #HRr4, #HRr5, #HRr6, #HRbp0, #HRbp1, #HRbp2, #HRbp3, #HRbp4, #HRbp5, #HRbp6, #HRrp0, #HRrp1, #HRrp2, #HRrp3, #HRrp4, #HRrp5, #HRrp6, #Hlev⟩, ⟨HaB, HaS0, HaS1, HaS2, HaS3, HaS4, HaS5, HaS6, HaR0, HaR1, HaR2, HaR3, HaR4, HaR5, HaR6, HtB0, HtB1, HtB2, HtB3, HtB4, HtB5, HtB6, HtR0, HtR1, HtR2, HtR3, HtR4, HtR5, HtR6, HtS0, HtS1, HtS2, HtS3, HtS4, HtS5, HtS6, HcB, HcR0, HcR1, HcR2, HcR3, HcR4, HcR5, HcR6⟩, ⟨⟨%fm, Hm⟩, ⟨%fc, Hc⟩, ⟨%fx, Hxb⟩, Hx, Hg, Hb, ⟨%fo, Hout⟩, HO⟩, Hk⟩
  ihave Hsl := (comm_slots (F := F) c fc) $$ Hc
  icases Hsl with ⟨Hs0, Hs1, Hs2, Hs3, Hs4, Hs5, Hs6⟩
  delta O₀ OB0 OB1 OB2 OB3 OB4 OB5 OB6 OB7 OS0 OS1 OS2 OS3 OS4 OS5 OS6 OS7 owedBar owedRecv
  have hmw := mayWait_bar (F := F) c
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  ihave Hx := (restate (F := F) c (Memref.whole cc0_stg0_0 : Memref sig .tc .vmem S1024x512 .f32) fullShare (xstg m ρ c)) $$ [Hx]
  · rw [View.set_whole]; iexact Hx
  ihave Hg := (restate (F := F) c (Memref.whole cc0_stg1_0 : Memref sig .tc .vmem S512 .f32) fullShare (gstg m ρ c)) $$ [Hg]
  · rw [View.set_whole]; iexact Hg
  ihave Hb := (restate (F := F) c (Memref.whole cc0_stg2_0 : Memref sig .tc .vmem S512 .f32) fullShare (bstg m ρ c)) $$ [Hb]
  · rw [View.set_whole]; iexact Hb
  ihave Hout := (restate (F := F) c (Memref.whole cc0_stg3_0 : Memref sig .tc .vmem S1024x512 .bf16) fullShare fo) $$ [Hout]
  · rw [View.set_whole]; iexact Hout
  ihave Hm := (restate (F := F) c (Memref.whole cc0_scratch0 : Memref sig .tc .vmem S16x128 .f32) fullShare fm) $$ [Hm]
  · rw [View.set_whole]; iexact Hm
  ihave Hxb := (restate (F := F) c (Memref.whole cc0_scratch2 : Memref sig .tc .vmem S1024x512 .bf16) fullShare fx) $$ [Hxb]
  · rw [View.set_whole]; iexact Hxb
  sl_exec
  rw [mine_stored m ρ c fm]
  ihave Hm := (mine_split m ρ c) $$ Hm
  icases Hm with ⟨Hmr, Hmt0, Hmt1, Hmt2, Hmt3, Hmt4, Hmt5, Hmt6⟩
  ihave Hp := (bar_payloads m ρ c) $$ HaB_pay1
  icases Hp with ⟨⟨%fq0, Hq0⟩, ⟨%fq1, Hq1⟩, ⟨%fq2, Hq2⟩, ⟨%fq3, Hq3⟩, ⟨%fq4, Hq4⟩, ⟨%fq5, Hq5⟩, ⟨%fq6, Hq6⟩⟩
  iapply (wp_send_peer m ρ K c _ 0 6 (dev8_eq c) (by decide) _ rfl _ rfl _ _ rfl rfl fq6 _ _) $$ [Hmt0 Hq6 HO HtS0 HtR0]
  · isplitr; · iexact HIs0
    isplitr; · iexact HIrp0
    isplitl [Hmt0]; · iexact Hmt0
    isplitl [Hq6]; · iexact Hq6
    isplitl [HO]; · iexact HO
    isplitl [HtS0]; · iexact HtS0
    isplitr; · iexact HRs0
    isplitl [HtR0]; · iexact HtR0
    iexact HRrp0
  iintro ⟨HcS0, HO⟩
  sl_exec
  iapply (wp_send_peer m ρ K c _ 1 5 (dev9_eq c) (by decide) _ rfl _ rfl _ _ rfl rfl fq5 _ _) $$ [Hmt1 Hq5 HO HtS1 HtR1]
  · isplitr; · iexact HIs1
    isplitr; · iexact HIrp1
    isplitl [Hmt1]; · iexact Hmt1
    isplitl [Hq5]; · iexact Hq5
    isplitl [HO]; · iexact HO
    isplitl [HtS1]; · iexact HtS1
    isplitr; · iexact HRs1
    isplitl [HtR1]; · iexact HtR1
    iexact HRrp1
  iintro ⟨HcS1, HO⟩
  sl_exec
  iapply (wp_send_peer m ρ K c _ 2 4 (dev10_eq c) (by decide) _ rfl _ rfl _ _ rfl rfl fq4 _ _) $$ [Hmt2 Hq4 HO HtS2 HtR2]
  · isplitr; · iexact HIs2
    isplitr; · iexact HIrp2
    isplitl [Hmt2]; · iexact Hmt2
    isplitl [Hq4]; · iexact Hq4
    isplitl [HO]; · iexact HO
    isplitl [HtS2]; · iexact HtS2
    isplitr; · iexact HRs2
    isplitl [HtR2]; · iexact HtR2
    iexact HRrp2
  iintro ⟨HcS2, HO⟩
  sl_exec
  iapply (wp_send_peer m ρ K c _ 3 3 (dev11_eq c) (by decide) _ rfl _ rfl _ _ rfl rfl fq3 _ _) $$ [Hmt3 Hq3 HO HtS3 HtR3]
  · isplitr; · iexact HIs3
    isplitr; · iexact HIrp3
    isplitl [Hmt3]; · iexact Hmt3
    isplitl [Hq3]; · iexact Hq3
    isplitl [HO]; · iexact HO
    isplitl [HtS3]; · iexact HtS3
    isplitr; · iexact HRs3
    isplitl [HtR3]; · iexact HtR3
    iexact HRrp3
  iintro ⟨HcS3, HO⟩
  sl_exec
  iapply (wp_send_peer m ρ K c _ 4 2 (dev12_eq c) (by decide) _ rfl _ rfl _ _ rfl rfl fq2 _ _) $$ [Hmt4 Hq2 HO HtS4 HtR4]
  · isplitr; · iexact HIs4
    isplitr; · iexact HIrp4
    isplitl [Hmt4]; · iexact Hmt4
    isplitl [Hq2]; · iexact Hq2
    isplitl [HO]; · iexact HO
    isplitl [HtS4]; · iexact HtS4
    isplitr; · iexact HRs4
    isplitl [HtR4]; · iexact HtR4
    iexact HRrp4
  iintro ⟨HcS4, HO⟩
  sl_exec
  iapply (wp_send_peer m ρ K c _ 5 1 (dev13_eq c) (by decide) _ rfl _ rfl _ _ rfl rfl fq1 _ _) $$ [Hmt5 Hq1 HO HtS5 HtR5]
  · isplitr; · iexact HIs5
    isplitr; · iexact HIrp5
    isplitl [Hmt5]; · iexact Hmt5
    isplitl [Hq1]; · iexact Hq1
    isplitl [HO]; · iexact HO
    isplitl [HtS5]; · iexact HtS5
    isplitr; · iexact HRs5
    isplitl [HtR5]; · iexact HtR5
    iexact HRrp5
  iintro ⟨HcS5, HO⟩
  sl_exec
  iapply (wp_send_peer m ρ K c _ 6 0 (dev14_eq c) (by decide) _ rfl _ rfl _ _ rfl rfl fq0 _ _) $$ [Hmt6 Hq0 HO HtS6 HtR6]
  · isplitr; · iexact HIs6
    isplitr; · iexact HIrp6
    isplitl [Hmt6]; · iexact Hmt6
    isplitl [Hq0]; · iexact Hq0
    isplitl [HO]; · iexact HO
    isplitl [HtS6]; · iexact HtS6
    isplitr; · iexact HRs6
    isplitl [HtR6]; · iexact HtR6
    iexact HRrp6
  iintro ⟨HcS6, HO⟩
  sl_exec
  ihave Hc := (slots_comm (F := F) c (commVal m ρ c)) $$ [HaR0_pay1 HaR1_pay1 HaR2_pay1 HaR3_pay1 HaR4_pay1 HaR5_pay1 HaR6_pay1]
  · isplitl [HaR0_pay1]; · iexact HaR0_pay1
    isplitl [HaR1_pay1]; · iexact HaR1_pay1
    isplitl [HaR2_pay1]; · iexact HaR2_pay1
    isplitl [HaR3_pay1]; · iexact HaR3_pay1
    isplitl [HaR4_pay1]; · iexact HaR4_pay1
    isplitl [HaR5_pay1]; · iexact HaR5_pay1
    iexact HaR6_pay1
  sl_exec
  sl_unfold_words
  rw [out_stored m ρ c fo]
  rw [wp_ret]
  -- the remainder and the seven read shares of the table are the whole table again
  ihave Hm := (mine_join m ρ c) $$ [Hmr HaS0_pay1 HaS1_pay1 HaS2_pay1 HaS3_pay1 HaS4_pay1 HaS5_pay1 HaS6_pay1]
  · unfold mineTok
    isplitl [Hmr]; · iexact Hmr
    isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    iexact HaS6_pay1
  -- each own cell has consumed its one round: its counter comes back at zero
  imod (close_send m ρ K c 0) $$ [HaS0] with HzS0
  · isplitr; · iexact HIs0
    iexact HaS0
  imod (close_send m ρ K c 1) $$ [HaS1] with HzS1
  · isplitr; · iexact HIs1
    iexact HaS1
  imod (close_send m ρ K c 2) $$ [HaS2] with HzS2
  · isplitr; · iexact HIs2
    iexact HaS2
  imod (close_send m ρ K c 3) $$ [HaS3] with HzS3
  · isplitr; · iexact HIs3
    iexact HaS3
  imod (close_send m ρ K c 4) $$ [HaS4] with HzS4
  · isplitr; · iexact HIs4
    iexact HaS4
  imod (close_send m ρ K c 5) $$ [HaS5] with HzS5
  · isplitr; · iexact HIs5
    iexact HaS5
  imod (close_send m ρ K c 6) $$ [HaS6] with HzS6
  · isplitr; · iexact HIs6
    iexact HaS6
  imod (close_recv m ρ K c 0) $$ [HaR0] with HzR0
  · isplitr; · iexact HIr0
    iexact HaR0
  imod (close_recv m ρ K c 1) $$ [HaR1] with HzR1
  · isplitr; · iexact HIr1
    iexact HaR1
  imod (close_recv m ρ K c 2) $$ [HaR2] with HzR2
  · isplitr; · iexact HIr2
    iexact HaR2
  imod (close_recv m ρ K c 3) $$ [HaR3] with HzR3
  · isplitr; · iexact HIr3
    iexact HaR3
  imod (close_recv m ρ K c 4) $$ [HaR4] with HzR4
  · isplitr; · iexact HIr4
    iexact HaR4
  imod (close_recv m ρ K c 5) $$ [HaR5] with HzR5
  · isplitr; · iexact HIr5
    iexact HaR5
  imod (close_recv m ρ K c 6) $$ [HaR6] with HzR6
  · isplitr; · iexact HIr6
    iexact HaR6
  imodintro
  iapply Hk
  unfold bodyPost Φ₁ scratch
  isplitl [Hm Hc Hxb HzS0 HzS1 HzS2 HzS3 HzS4 HzS5 HzS6 HzR0 HzR1 HzR2 HzR3 HzR4 HzR5 HzR6]
  · isplitl [Hm Hc Hxb]
    · isplitl [Hm]; · iexists _; iapply (unstate (F := F) c (Memref.whole cc0_scratch0 : Memref sig .tc .vmem S16x128 .f32) (Memref.isWhole_whole _) fullShare _); iexact Hm
      isplitl [Hc]; · iexists _; iapply (unstate (F := F) c (Memref.whole cc0_scratch1 : Memref sig .tc .vmem S7x16x128 .f32) (Memref.isWhole_whole _) fullShare _); iexact Hc
      iexists _; iapply (unstate (F := F) c (Memref.whole cc0_scratch2 : Memref sig .tc .vmem S1024x512 .bf16) (Memref.isWhole_whole _) fullShare _); iexact Hxb
    isplitl [HzS0 HzS1 HzS2 HzS3 HzS4 HzS5 HzS6]
    · iapply (Entails.of_eq (bigSep_fin7 (fun e : Fin 7 => (semVal (sendCell c e) 0 : sProp 𝕄))).symm)
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    · iapply (Entails.of_eq (bigSep_fin7 (fun s : Fin 7 => (semVal (recvCell c s) 0 : sProp 𝕄))).symm)
      isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      iexact HzR6
  isplitl [HO]
  · iapply (owesAt_of m ρ c _); iexact HO
  isplitl [Hx]
  · iexists _; isplitr; · (ipureintro; rfl)
    iapply (unstate (F := F) c (Memref.whole cc0_stg0_0 : Memref sig .tc .vmem S1024x512 .f32) (Memref.isWhole_whole _) fullShare _); iexact Hx
  isplitl [Hg]
  · iexists _; isplitr; · (ipureintro; rfl)
    iapply (unstate (F := F) c (Memref.whole cc0_stg1_0 : Memref sig .tc .vmem S512 .f32) (Memref.isWhole_whole _) fullShare _); iexact Hg
  isplitl [Hb]
  · iexists _; isplitr; · (ipureintro; rfl)
    iapply (unstate (F := F) c (Memref.whole cc0_stg2_0 : Memref sig .tc .vmem S512 .f32) (Memref.isWhole_whole _) fullShare _); iexact Hb
  iexists _; isplitr; · (ipureintro; rfl)
  iapply (unstate (F := F) c (Memref.whole cc0_stg3_0 : Memref sig .tc .vmem S1024x512 .bf16) (Memref.isWhole_whole _) fullShare _); iexact Hout

/-- The body from the pipeline's own starting state: the same run, the state first laid out cell by cell. -/
theorem sound_body (K : Dev nD × Fin 15 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  iintro ⟨Hpre, Hk⟩
  ihave H := (pre_flat m ρ K c) $$ Hpre
  icases H with ⟨HI, HL, ⟨%W, HB⟩⟩
  iapply (flat_body m ρ K c W Kt)
  isplitl [HI]; · iexact HI
  isplitl [HL]; · iexact HL
  isplitl [HB]; · iexact HB
  iexact Hk

end Cert.Kernel.Run
end
-- ==== Proof.Word.Glob.lean ====
/-
  Funding the exchange's ghost state at launch, and the global step that turns every device's semaphore counters and
  round states into cell invariants and deals the duty tokens around the ring.

  The launch element of the exchange's algebra holds, for each of the 8 × 15 cells, its round state at counter zero,
  that round 0 is reached, and the owner's position; and the 8 × 21 duty tokens, minted at the cell they belong to. The
  global step allocates one invariant per cell and moves each token to the device that pays the duty: the barrier token
  of duty `d` of device `c` to `peer c (rev d)`, the receive token of slot `s` to `peer c s`; the send tokens stay.
  Both moves are, for each fixed offset, a re-indexing of the product over devices by a rotation of the ring.
-/
import proofs.«900825_g7700000000000826_dist_layernorm_colshard_i_m1024_n512_v7x_i8_bf16_1_alg».proof.Proof.Word.Tables

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of the exchange -/

def ringCells : Finset (GSem nD τ sig) := Finset.univ.map ⟨kcell, kcell_injective⟩

/-! ## The tokens -/

/-- A device's own cells' duty tokens as minted: (device, which token) — its barrier's seven duties, the one duty of each
    send cell, the one duty of each receive cell. -/
def tokOf (cj : Dev nD × (Fin 7 ⊕ (Fin 7 ⊕ Fin 7))) : GSem nD τ sig × ℕ × Fin 7 :=
  match cj.2 with
  | .inl d => (barCell cj.1, 0, d)
  | .inr (.inl e) => (sendCell cj.1 e, 0, 0)
  | .inr (.inr s) => (recvCell cj.1 s, 0, 0)

theorem gl_sendSem_injective : Function.Injective sendSem := by decide
theorem gl_recvSem_injective : Function.Injective recvSem := by decide
theorem gl_send_ne_recv (e s : Fin 7) : sendSem e ≠ recvSem s := by revert e s; decide

theorem tokOf_injective : Function.Injective tokOf := by
  rintro ⟨c, j⟩ ⟨c', j'⟩ h
  have h1 : c = c' := by
    have := congrArg (fun x : GSem nD τ sig × ℕ × Fin 7 => x.1.1.1) h
    rcases j with d | e | s <;> rcases j' with d' | e' | s' <;> exact this
  subst h1
  have h2 := congrArg (fun x : GSem nD τ sig × ℕ × Fin 7 => (x.1.2, x.2.2)) h
  have : j = j' := by
    rcases j with d | e | s <;> rcases j' with d' | e' | s' <;> simp only [tokOf, Prod.mk.injEq] at h2
    · rw [h2.2]
    · exact absurd h2.1 (fun h' => by cases h')
    · exact absurd h2.1 (fun h' => by cases h')
    · exact absurd h2.1 (fun h' => by cases h')
    · rw [gl_sendSem_injective (SemLoc.dma.inj h2.1)]
    · exact absurd (SemLoc.dma.inj h2.1) (gl_send_ne_recv e s')
    · exact absurd h2.1 (fun h' => by cases h')
    · exact absurd (SemLoc.dma.inj h2.1).symm (gl_send_ne_recv e' s)
    · rw [gl_recvSem_injective (SemLoc.dma.inj h2.1)]
  subst this; rfl
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- Device `c`'s own cells' duty tokens as minted: the barrier's seven, each send cell's one, each receive cell's one. -/
def toks (c : Dev nD) : sProp 𝕄 :=
  iprop((bigSep Finset.univ fun d : Fin 7 => dutyTok ER (barCell c) 0 d)
    ∗ (bigSep Finset.univ fun e : Fin 7 => dutyTok ER (sendCell c e) 0 (0 : Fin 7))
    ∗ bigSep Finset.univ fun s : Fin 7 => dutyTok ER (recvCell c s) 0 (0 : Fin 7))

/-- What the launch element deals device `c`. -/
def G (c : Dev nD) : sProp 𝕄 :=
  iprop((bigSep Finset.univ fun k : Fin 15 => roundState ER (Rd m ρ) (kcell (c, k)) 0)
    ∗ (bigSep Finset.univ fun k : Fin 15 => iprop(atPos ER (kcell (c, k)) 0 ∅ 0 ∗ reached ER (kcell (c, k)) 0)) ∗ toks (F := F) c)

/-- What the global step makes of it. -/
def G' (c : Dev nD) : sProp 𝕄 := iprop(∃ K, ghost m ρ K c)

/-! ## Products over the fourteen own semaphores -/

/-- The fourteen own semaphores as the seven send and the seven receive. -/
def gl_e14 : Fin 7 ⊕ Fin 7 ≃ Fin 14 where
  toFun := Sum.elim (fun e => ⟨e.val, by omega⟩) (fun s => ⟨s.val + 7, by omega⟩)
  invFun k := if h : k.val < 7 then .inl ⟨k.val, h⟩ else .inr ⟨k.val - 7, by omega⟩
  left_inv := by decide
  right_inv := by decide

theorem gl_bigSep_fin14 (Φ : Fin 14 → sProp 𝕄) :
    bigSep Finset.univ Φ = iprop((bigSep Finset.univ fun e : Fin 7 => Φ ⟨e.val, by omega⟩) ∗ bigSep Finset.univ fun s : Fin 7 => Φ ⟨s.val + 7, by omega⟩) := by
  rw [bigSep_univ_equiv gl_e14 Φ, bigSep_univ_sum]; rfl

/-! ## Funding -/

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## Payloads can be kept in an invariant -/

instance gl_payload_storable (g : GSem nD τ sig) (r : ℕ) (d : Fin 7) :
    BI.Storable (upEmb : UEmb _ 𝕄) ((Rd (F := F) m ρ).payload g r d) := by
  dsimp only [Rd]
  unfold barPay recvPay sendPay slotPts mineTok
  (repeat' split) <;> infer_instance

/-! ## The counters at launch -/

/-- The kernel's own fourteen semaphores are the seven send and the seven receive; -/
theorem ownSems0_eq (c : Dev nD) : (Pipeline.ownSems0 (Ix := Unit) (Name := ℕ) (U := UU) (Lvl := ℕ) (Val := Elt F) (τ := τ) osem c : sProp 𝕄)
    = iprop((bigSep Finset.univ fun e : Fin 7 => semVal (sendCell c e) 0) ∗ bigSep Finset.univ fun s : Fin 7 => semVal (recvCell c s) 0) := by
  unfold Pipeline.ownSems0; rw [gl_bigSep_fin14]; rfl
/-- the barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_fin15,
    bigSep_congr (s := Finset.univ) (fun (e : Fin 7) _ => congrArg (fun g => (semVal g 0 : sProp 𝕄)) (kcell_kS c e)),
    bigSep_congr (s := Finset.univ) (fun (s : Fin 7) _ => congrArg (fun g => (semVal g 0 : sProp 𝕄)) (kcell_kR c s))]
  iintro ⟨⟨HS, HV⟩, HB⟩
  isplitl [HB]; · iexact HB
  isplitl [HS] <;> iassumption

/-- Each of a device's fifteen counters at zero, with the cell's round state, becomes the cell's invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the ring -/

/-- The offset seen from the other side, as a permutation of the offsets. -/
def gl_revE : Fin 7 ≃ Fin 7 := ⟨rev, rev, rev_rev, rev_rev⟩

instance records_persistent (K : Dev nD × Fin 15 → ℕ) : BI.Persistent (records m ρ K) := by unfold records; infer_instance

/-- The tokens dealt around the ring: device `c`'s barrier token of duty `d` to the device that pays it, its receive token
    of slot `s` to the device that fills it; the send tokens stay. -/
theorem toks_around : (bigSep Finset.univ fun c : Dev nD => (toks c : sProp 𝕄)) ⊢ bigSep Finset.univ fun c : Dev nD => payToks c := by
  have hB : (bigSep Finset.univ fun c : Dev nD => bigSep Finset.univ fun e : Fin 7 => (dutyTok ER (barCell (peer c e)) 0 e : sProp 𝕄))
      = bigSep Finset.univ fun c : Dev nD => bigSep Finset.univ fun d : Fin 7 => (dutyTok ER (barCell c) 0 d : sProp 𝕄) := by
    rw [bigSep_univ_comm, bigSep_univ_comm (fun (c : Dev nD) (d : Fin 7) => (dutyTok ER (barCell c) 0 d : sProp 𝕄))]
    exact bigSep_congr fun e _ => (bigSep_univ_equiv (peerEquiv e) (fun c : Dev nD => (dutyTok ER (barCell c) 0 e : sProp 𝕄))).symm
  have hR : (bigSep Finset.univ fun c : Dev nD => bigSep Finset.univ fun e : Fin 7 => (dutyTok ER (recvCell (peer c e) (rev e)) 0 (0 : Fin 7) : sProp 𝕄))
      = bigSep Finset.univ fun c : Dev nD => bigSep Finset.univ fun s : Fin 7 => (dutyTok ER (recvCell c s) 0 (0 : Fin 7) : sProp 𝕄) := by
    rw [bigSep_univ_comm, bigSep_univ_comm (fun (c : Dev nD) (s : Fin 7) => (dutyTok ER (recvCell c s) 0 (0 : Fin 7) : sProp 𝕄)),
      bigSep_univ_equiv gl_revE (fun s : Fin 7 => bigSep Finset.univ fun c : Dev nD => (dutyTok ER (recvCell c s) 0 (0 : Fin 7) : sProp 𝕄))]
    exact bigSep_congr fun e _ => (bigSep_univ_equiv (peerEquiv e) (fun c : Dev nD => (dutyTok ER (recvCell c (rev e)) 0 (0 : Fin 7) : sProp 𝕄))).symm
  unfold toks payToks
  simp only [bigSep_sep']
  rw [hB, hR]
  iintro ⟨H1, H2, H3⟩
  isplitl [H1]; · iexact H1
  isplitl [H3]; · iexact H3
  iexact H2

/-! ## The global step -/

theorem ghost_intro (K : Dev nD × Fin 15 → ℕ) (c : Dev nD) : iprop(records m ρ K ∗ positions (F := F) c ∗ payToks (F := F) c) ⊢ G' m ρ c := by
  unfold G' ghost
  iintro H
  iexists K
  iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (Rd m ρ) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (Rd m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Entering and leaving the body -/

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, HzS, HzV⟩
  isplitr; · iempintro
  isplitl [HzS HzV]
  · isplitl [HzS] <;> iassumption
  iexact Hr

end Cert.Kernel.Run

end
-- ==== Proof.Word.Credit.lean ====
/-
  The credit each device is dealt at launch. Every other device signals a device's barrier semaphore exactly once, so the
  barrier cell is owed seven units; copy `e` of device `d` lands in slot `6 - e` of the device `e + 1` places after `d`,
  so slot `s` of device `c` is owed one copy's units, by the device `s + 1` places after `c`.
-/
import proofs.«900825_g7700000000000826_dist_layernorm_colshard_i_m1024_n512_v7x_i8_bf16_1_alg».proof.Proof.Word.Proto

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ring -/

theorem cr_peer_rev (c : Dev nD) (e : Fin 7) : peer (peer c e) (rev e) = c := by revert c e; decide
theorem cr_rev_rev (e : Fin 7) : rev (rev e) = e := by revert e; decide
/-- Every device but `d` itself is `peer d e` for exactly one `e`. -/
theorem cr_count_peer (d c : Dev nD) : (∑ e : Fin 7, if c = peer d e then 1 else 0) = if d = c then 0 else 1 := by
  revert d c; decide
theorem cr_peer_swap (d c : Dev nD) (s : Fin 7) : Iff (c = peer d (rev s)) (d = peer c s) := by
  revert d c s; decide
theorem cr_count_others (c : Dev nD) : (∑ d : Dev nD, if d = c then 0 else 1) = 7 := by revert c; decide

/-! ## When two cells are the same cell -/

theorem cr_recvSem_val (s : Fin 7) : (recvSem s).val = 11 + s.val := by fin_cases s <;> rfl
theorem cr_recvSem_inj {s t : Fin 7} (h : recvSem s = recvSem t) : s = t := by
  have := congrArg Fin.val h; rw [cr_recvSem_val, cr_recvSem_val] at this; exact Fin.ext (by omega)
theorem cr_recv_ne_bar (s : Fin 7) : (SemLoc.dma (recvSem s) : SemLoc sig) ≠ .reg barS := fun h => by cases h

theorem cr_bar_eq_iff {a b : Dev nD} : Iff (barCell a = barCell b) (a = b) :=
  ⟨fun h => Fin.ext (congrArg (fun g : GSem nD τ sig => g.1.1.val) h), fun h => h ▸ rfl⟩
theorem cr_recv_eq_iff {a b : Dev nD} {s t : Fin 7} : Iff (recvCell a s = recvCell b t) (a = b ∧ s = t) :=
  ⟨fun h => ⟨Fin.ext (congrArg (fun g : GSem nD τ sig => g.1.1.val) h), cr_recvSem_inj (SemLoc.dma.inj (congrArg Prod.snd h))⟩,
    fun h => by rw [h.1, h.2]⟩
theorem cr_recv_ne_barCell (a b : Dev nD) (s : Fin 7) : recvCell a s ≠ barCell b := fun h => cr_recv_ne_bar s (congrArg Prod.snd h)

/-! ## What one device owes one cell -/

/-- What a device owes at launch: its seven copies and its seven signals. -/
theorem cr_O₀_eq (d : Dev nD) : O₀ d = (∑ e : Fin 7, owedRecv d e) + ∑ e : Fin 7, owedBar d e := by
  unfold O₀ OB0 OB1 OB2 OB3 OB4 OB5 OB6 OB7 OS0 OS1 OS2 OS3 OS4 OS5 OS6 OS7
  rw [Fin.sum_univ_seven, Fin.sum_univ_seven, zero_add]
  abel

theorem cr_O₀_apply (d : Dev nD) (g : GSem nD τ sig) :
    O₀ d g () = (∑ e : Fin 7, owedRecv d e g ()) + ∑ e : Fin 7, owedBar d e g () := by
  rw [cr_O₀_eq, Pi.add_apply, Finsupp.add_apply, Finset.sum_apply, Finsupp.finsetSum_apply, Finset.sum_apply, Finsupp.finsetSum_apply]

theorem cr_owedBar_bar (d c : Dev nD) (e : Fin 7) : owedBar d e (barCell c) () = if c = peer d e then 1 else 0 := by
  unfold owedBar; rw [tallyAt_apply]
  by_cases h : c = peer d e
  · rw [if_pos h, if_pos ⟨by rw [h], rfl⟩]
  · rw [if_neg h, if_neg fun h' => h (cr_bar_eq_iff.mp h'.1)]
theorem cr_owedRecv_bar (d c : Dev nD) (e : Fin 7) : owedRecv d e (barCell c) () = 0 := by
  unfold owedRecv; rw [tallyAt_ne_cell (fun h => cr_recv_ne_barCell _ _ _ h.symm)]; rfl
theorem cr_owedBar_recv (d c : Dev nD) (e s : Fin 7) : owedBar d e (recvCell c s) () = 0 := by
  unfold owedBar; rw [tallyAt_ne_cell (cr_recv_ne_barCell _ _ _)]; rfl
theorem cr_owedRecv_recv (d c : Dev nD) (e s : Fin 7) : owedRecv d e (recvCell c s) () = if c = peer d e ∧ s = rev e then N else 0 := by
  unfold owedRecv; rw [tallyAt_apply]
  by_cases h : c = peer d e ∧ s = rev e
  · rw [if_pos h, if_pos ⟨by rw [h.1, h.2], rfl⟩]
  · rw [if_neg h, if_neg fun h' => h (cr_recv_eq_iff.mp h'.1)]

/-- Every other device signals `c`'s barrier exactly once. -/
theorem owed_bar (d c : Dev nD) : O₀ d (barCell c) () = if d = c then 0 else 1 := by
  rw [cr_O₀_apply, Finset.sum_congr rfl fun e _ => cr_owedRecv_bar d c e, Finset.sum_const_zero, Nat.zero_add,
    Finset.sum_congr rfl fun e _ => cr_owedBar_bar d c e, cr_count_peer]

/-- Copy `e` of device `d` lands in slot `rev e` of `peer d e`: that is slot `s` of `c` exactly when `d = peer c s` and `e = rev s`. -/
theorem owed_recv (d c : Dev nD) (s : Fin 7) : O₀ d (recvCell c s) () = if d = peer c s then N else 0 := by
  rw [cr_O₀_apply, Finset.sum_congr rfl fun e _ => cr_owedBar_recv d c e s, Finset.sum_const_zero, Nat.add_zero,
    Finset.sum_congr rfl fun e _ => cr_owedRecv_recv d c e s,
    Finset.sum_eq_single (rev s) (fun e _ he => if_neg fun h => he (by rw [h.2, cr_rev_rev])) (fun h => absurd (Finset.mem_univ _) h)]
  by_cases h : d = peer c s
  · rw [if_pos h, if_pos ⟨(cr_peer_swap d c s).mpr h, (cr_rev_rev s).symm⟩]
  · rw [if_neg h, if_neg fun h' => h ((cr_peer_swap d c s).mp h'.1)]

/-! ## A cell's launch credit -/

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, cr_count_others]

theorem launch_recv (c : Dev nD) (s : Fin 7) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (peer c s) fun _ => N, if_pos (Finset.mem_univ _)]

/-- The seven receive semaphores, as semaphores of the device. -/
def cr_recvLoc : Fin 7 ↪ SemLoc sig := ⟨fun s => .dma (recvSem s), fun s t h => cr_recvSem_inj (SemLoc.dma.inj h)⟩

/-- Out of a device's launch credit: its barrier's seven units and each receive cell's copy. -/
theorem creds (c : Dev nD) :
    (Pipeline.launchCred O₀ c : sProp 𝕄) ⊢ iprop(cred (tallyAt (barCell c) () 7) ∗ bigSep Finset.univ fun s : Fin 7 => cred (tallyAt (recvCell c s) () N)) := by
  unfold Pipeline.launchCred
  rw [bigSep_univ_at _ (SemLoc.reg barS), launch_bar]
  refine sep_mono_right ?_
  refine (bigSep_subset (t := Finset.univ.map cr_recvLoc) fun sm hsm => ?_).trans ?_
  · obtain ⟨s, -, rfl⟩ := Finset.mem_map.mp hsm
    exact Finset.mem_erase.mpr ⟨cr_recv_ne_bar s, Finset.mem_univ _⟩
  · rw [bigSep_map]
    exact bigSep_mono fun s _ => by rw [← launch_recv]; exact BI.Entails.refl _

end Cert.Kernel.Run

end
-- ==== Proof.Word.FinalArr.lean ====
/-
  The arrays at the two ends of the one launch. The kernel has no grid: its one point stages each window's whole
  per-device array, so the block an input window fetches is the array as launched, an input array is never written,
  and the result array after the point is what the body left in the result's staging buffer.
-/
import proofs.«900825_g7700000000000826_dist_layernorm_colshard_i_m1024_n512_v7x_i8_bf16_1_alg».proof.Proof.Word.Proto
import Idealize.ShloMosaic.Lib.Pipeline.Cells
import Idealize.ShloMosaic.Lib.Pipeline.Value
import Idealize.ShloMosaic.Lib.Pipeline.Launch
import Idealize.ShloMosaic.Lib.Pipeline.Kit
import Idealize.ShloMosaic.Lib.Tactic

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The input blocks are the arrays -/

/-- The one block of the first argument's array is the array. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> rfl
  unfold xstg
  exact Memref.read_access_unit_zero (Elt F) main_arg0 hz (fun a => by fin_cases a <;> decide) _

/-- The one block of the gain's array is the array. -/
theorem gstg_eq (c : Dev nD) : gstg m ρ c = m ((c : Thread nD τ).loc main_arg1) := by
  have hz : (fun a => (win0_1.index (0 : Fin 1)) a * main_arg1.ty.shape.size a) = fun _ => 0 :=
    funext fun a => by fin_cases a <;> rfl
  unfold gstg
  exact Memref.read_access_unit_zero (Elt F) main_arg1 hz (fun a => by fin_cases a <;> decide) _

/-- The one block of the offset's array is the array. -/
theorem bstg_eq (c : Dev nD) : bstg m ρ c = m ((c : Thread nD τ).loc main_arg2) := by
  have hz : (fun a => (win0_2.index (0 : Fin 1)) a * main_arg2.ty.shape.size a) = fun _ => 0 :=
    funext fun a => by fin_cases a <;> rfl
  unfold bstg
  exact Memref.read_access_unit_zero (Elt F) main_arg2 hz (fun a => by fin_cases a <;> decide) _

/-! ## The arrays after the point -/

/-- The first argument's array is never written. -/
theorem final_in0 (c : Dev nD) : (dats m ρ 0 c).arrAt (0 : Fin 4) cfg0.N = m ((c : Thread nD τ).loc main_arg0) :=
  (dats m ρ 0 c).arrAt_in (0 : Fin 4) rfl _

/-- The gain's array is never written. -/
theorem final_in1 (c : Dev nD) : (dats m ρ 0 c).arrAt (1 : Fin 4) cfg0.N = m ((c : Thread nD τ).loc main_arg1) :=
  (dats m ρ 0 c).arrAt_in (1 : Fin 4) rfl _

/-- The offset's array is never written. -/
theorem final_in2 (c : Dev nD) : (dats m ρ 0 c).arrAt (2 : Fin 4) cfg0.N = m ((c : Thread nD τ).loc main_arg2) :=
  (dats m ρ 0 c).arrAt_in (2 : Fin 4) rfl _

/-- The result's array after the one point is what the body left in its staging buffer: the point writes the
    whole array back. -/
theorem final_out (c : Dev nD) : (dats m ρ 0 c).arrAt (3 : Fin 4) cfg0.N = outVal m ρ c := by
  have hz : (fun a => (win0_3.index t0_0) a * main_v1.ty.shape.size a) = fun _ => 0 :=
    funext fun a => by fin_cases a <;> rfl
  rw [show cfg0.N = (t0_0 : Fin cfg0.N).val + 1 from rfl, (dats m ρ 0 c).arrAt_succ (3 : Fin 4) t0_0,
    flush0_3 t0_0, if_pos rfl]
  exact Memref.write_access_unit_zero_univ (Elt F) main_v1 hz (fun a => by fin_cases a <;> decide) _ _

end Cert.Kernel.Run

end
-- ==== Proof.Word.Launch.lean ====
/-
  The launch: one device's body obligation from the body's own statement, what a device's body starts from out of what the
  launch deals it, and the run of the eight devices — every weakly fair execution terminates, each device's result array
  holding its block of the normalised rows and its three input arrays unchanged.
-/
import proofs.«900825_g7700000000000826_dist_layernorm_colshard_i_m1024_n512_v7x_i8_bf16_1_alg».proof.Proof.Word.Glob
import proofs.«900825_g7700000000000826_dist_layernorm_colshard_i_m1024_n512_v7x_i8_bf16_1_alg».proof.Proof.Word.Levels
import proofs.«900825_g7700000000000826_dist_layernorm_colshard_i_m1024_n512_v7x_i8_bf16_1_alg».proof.Proof.Word.Credit
import proofs.«900825_g7700000000000826_dist_layernorm_colshard_i_m1024_n512_v7x_i8_bf16_1_alg».proof.Proof.Word.FinalArr
import proofs.«900825_g7700000000000826_dist_layernorm_colshard_i_m1024_n512_v7x_i8_bf16_1_alg».proof.Proof.Word.Flat

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

/-- The body's own statement: from `bodyPre` at any names, the body runs to `bodyPost`. -/
def SoundBody : Prop := ∀ (K : Dev nD × Fin 15 → ℕ) (c : Dev nD) (Kt : PUnit → sProp 𝕄),
    iprop(bodyPre m ρ K c ∗ (bodyPost m ρ c -∗ Kt ⟨⟩)) ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Kt

theorem share_eq (c : Dev nD) (w : Fin cfg0.W) : (dats m ρ 0 c).share w = fullShare := by unfold Dat.share; split <;> rfl

/-- A whole staging buffer owned at named contents, as a points-to. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The obligation's precondition at the one grid point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 4000 in
/-- The body obligation on device `c`, from the body's own statement. -/
theorem body_obligation (hs : SoundBody m ρ) (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) (fun _ => bodyPost m ρ c)
  unfold bodyPre' Φ₀ start
  iintro ⟨⟨⟨⟨%K, Hg⟩, Hrest⟩, Hscr⟩, Ho, Hx, Hgn, Hbt, Hout⟩
  iapply (hs K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hgn]; · iexact Hgn
    isplitl [Hbt] <;> iassumption
  · iintro H; iexact H

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the mesh of eight devices, for any float values, from any memory with zero counters: every weakly fair execution
    of the program — the eight kernels handshaking on the barrier semaphore, then each copying its table of row statistics
    to the seven others — terminates, and every final state has each device's four arrays at the computed contents. -/
theorem run_main (hs : SoundBody m ρ) : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hs) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := hu₀ m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The run with every device's result named and its inputs unchanged. -/
theorem run (hs : SoundBody m ρ) : θ_run defs (onTc (τ := τ) (main (F := F))) ⟨m, fun _ => 0, ρ⟩ (fun r => ∀ c : Dev nD,
    r.2.mem ((c.tc : Thread nD τ).loc main_v1) = KVal.result (m ((c.tc : Thread nD τ).loc main_arg0)) (fun s => m (((peer c s).tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r hr c => by
    refine ⟨?_, ?_, ?_, ?_⟩
    · refine (hr c (3 : Fin 4)).trans ?_
      rw [final_out]; unfold outVal
      rw [xstg_eq, gstg_eq, bstg_eq]
      exact congrArg (fun f => KVal.result _ f _ _) (funext fun s => xstg_eq m ρ (peer c s))
    · exact (hr c (0 : Fin 4)).trans (final_in0 m ρ c)
    · exact (hr c (1 : Fin 4)).trans (final_in1 m ρ c)
    · exact (hr c (2 : Fin 4)).trans (final_in2 m ρ c)) (run_main m ρ hs)

end Cert.Kernel.Run

end
-- ==== Proof.lean ====
/-
  The five claims of the certificate, assembled.

  Eight devices each hold 512 of the 4096 columns of `x` and of the gain and offset. Each computes, per row, the sum and
  the sum of squares over its columns; the devices exchange these two numbers per row, add the eight contributions, and
  from the totals take the row's mean and its variance as the mean of squares less the squared mean; every entry is
  centred, multiplied by the inverse root of the variance plus a small regulariser, scaled by its column's gain and
  shifted by its offset. The reference computes, over the whole arrays on one device, the variance as the mean of the
  squared deviations and divides by its root. Over the reals, for finite inputs, the two are one function of the inputs,
  entry by entry: the two forms of the variance agree, it is non-negative so that the regularised variance is positive,
  and multiplying by the inverse of a positive root is dividing by it.

  The three frames: the idealized kernel's and the word-level kernel's are the run of the exchange on all eight devices
  (every fair execution ends, nothing faults, the inputs are as they were) with the value dropped; the reference's is its
  run with the value dropped. The idealization rewrote no operation, so nothing is owed for it. The value claim puts the
  kernel's run and the reference's side by side: each device's result block is its block of the reference's result.
-/
import proofs.«900825_g7700000000000826_dist_layernorm_colshard_i_m1024_n512_v7x_i8_bf16_1_alg».proof.Defs
import proofs.«900825_g7700000000000826_dist_layernorm_colshard_i_m1024_n512_v7x_i8_bf16_1_alg».proof.Proof.Gen.Kernel
import proofs.«900825_g7700000000000826_dist_layernorm_colshard_i_m1024_n512_v7x_i8_bf16_1_alg».proof.Proof.Gen.KernelIdeal
import proofs.«900825_g7700000000000826_dist_layernorm_colshard_i_m1024_n512_v7x_i8_bf16_1_alg».proof.Proof.Gen.ReferenceIdeal
import proofs.«900825_g7700000000000826_dist_layernorm_colshard_i_m1024_n512_v7x_i8_bf16_1_alg».proof.Proof.Gen.Pre_finite_inputs_Kernel
import proofs.«900825_g7700000000000826_dist_layernorm_colshard_i_m1024_n512_v7x_i8_bf16_1_alg».proof.Proof.Gen.Pre_finite_inputs_ReferenceIdeal
import proofs.«900825_g7700000000000826_dist_layernorm_colshard_i_m1024_n512_v7x_i8_bf16_1_alg».proof.Proof.Body
import proofs.«900825_g7700000000000826_dist_layernorm_colshard_i_m1024_n512_v7x_i8_bf16_1_alg».proof.Proof.Launch
import proofs.«900825_g7700000000000826_dist_layernorm_colshard_i_m1024_n512_v7x_i8_bf16_1_alg».proof.Proof.Algebraic
import proofs.«900825_g7700000000000826_dist_layernorm_colshard_i_m1024_n512_v7x_i8_bf16_1_alg».proof.Proof.Word.Body
import proofs.«900825_g7700000000000826_dist_layernorm_colshard_i_m1024_n512_v7x_i8_bf16_1_alg».proof.Proof.Word.Launch

noncomputable section

namespace Cert.Proof

open Idealize.ShloMosaic Idealize.SL.Sem

/-- The idealized kernel's run on the eight devices, each device's result block named as a term of the devices' blocks
    and its inputs unchanged. -/
theorem kernelRun : Cert.Proof.Assemble.KernelRun := fun m ρ =>
  Cert.KernelIdeal.Run.run (F := Ideal) m ρ (Cert.KernelIdeal.Run.sound_body m ρ)

/-- The word-level kernel runs to the end without a fault and leaves its inputs as they were: its run, the value dropped. -/
theorem frame_word : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c).2)
    (Cert.Kernel.Run.run (F := Bits) m ρ (Cert.Kernel.Run.sound_body m ρ))

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_word, Assemble.frame_ideal kernelRun, Assemble.frame_ref, trivial, Assemble.algebraic kernelRun⟩

end Cert.Proof

end
